-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_voxel" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x3 : Shape := ⟨3, ![8, 262144, 3]⟩
abbrev S8x4096 : Shape := ⟨2, ![8, 4096]⟩
abbrev S_ : Shape := ⟨0, ![]⟩

class Facts : Prop where
  bcast_S_S8x262144x3 : S_.BroadcastsInDim S8x262144x3 (![] : Fin 0 → Fin S8x262144x3.rank)
  reducesTo_S8x262144x3_S_d0_1_2 : S8x262144x3.ReducesTo [0, 1, 2] S_
  h_S_ : 0 < S_.numel

variable [Facts]

def fn {F : FTy → Type} [FloatOps F] (main_arg0 : FVec F S8x262144x3 .f32) (main_arg1 : IVec S8x4096 32) : IVec S_ 1 :=
  let main_v0 : FVec F S8x262144x3 .f32 := Host.absf main_arg0
  let main_cst : FVec F S_ .f32 := constant S_ .f32 0x7F800000#32
  let main_v1 : FVec F S8x262144x3 .f32 := broadcastInDim S8x262144x3 ![] bcast_S_S8x262144x3 main_cst
  let main_v2 : IVec S8x262144x3 1 := cmpf .olt main_v0 main_v1
  let main_c : IVec S_ 1 := constantI S_ 1 1#1
  let main_v3 : IVec S_ 1 := (fun x v => Host.reduce IntOp.andi x v reducesTo_S8x262144x3_S_d0_1_2 h_S_) main_v2 main_c
  main_v3
-- ==== Kernel.lean ====
abbrev S8x262144x3 : Shape := ⟨3, ![8, 262144, 3]⟩
abbrev S8x4096 : Shape := ⟨2, ![8, 4096]⟩
abbrev S8x1x3 : Shape := ⟨3, ![8, 1, 3]⟩
abbrev S1x8192x3 : Shape := ⟨3, ![1, 8192, 3]⟩
abbrev S1x1x3 : Shape := ⟨3, ![1, 1, 3]⟩
abbrev S1x3 : Shape := ⟨2, ![1, 3]⟩
abbrev S8x8192x10 : Shape := ⟨3, ![8, 8192, 10]⟩
abbrev S1x2048x3 : Shape := ⟨3, ![1, 2048, 3]⟩
abbrev S1x8192x10 : Shape := ⟨3, ![1, 8192, 10]⟩
abbrev S2048x3 : Shape := ⟨2, ![2048, 3]⟩
abbrev S3 : Shape := ⟨1, ![3]⟩
abbrev S2048x1 : Shape := ⟨2, ![2048, 1]⟩
abbrev S2048 : Shape := ⟨1, ![2048]⟩
abbrev S2048x10 : Shape := ⟨2, ![2048, 10]⟩
abbrev S2048x1024 : Shape := ⟨2, ![2048, 1024]⟩
abbrev S1024x10 : Shape := ⟨2, ![1024, 10]⟩
abbrev S1x1024x10 : Shape := ⟨3, ![1, 1024, 10]⟩
abbrev S8x8192x1 : Shape := ⟨3, ![8, 8192, 1]⟩
abbrev S8x8192 : Shape := ⟨2, ![8, 8192]⟩
abbrev S8x8192x3 : Shape := ⟨3, ![8, 8192, 3]⟩
abbrev S8x8192x6 : Shape := ⟨3, ![8, 8192, 6]⟩
abbrev S_ : Shape := ⟨0, ![]⟩
abbrev S8x8192x9 : Shape := ⟨3, ![8, 8192, 9]⟩
abbrev S8x8192x12 : Shape := ⟨3, ![8, 8192, 12]⟩
abbrev S8x4096x1 : Shape := ⟨3, ![8, 4096, 1]⟩
abbrev S1 : Shape := ⟨1, ![1]⟩
abbrev S1x1x1 : Shape := ⟨3, ![1, 1, 1]⟩
abbrev S8x4096x3 : Shape := ⟨3, ![8, 4096, 3]⟩
abbrev S8x4096x12 : Shape := ⟨3, ![8, 4096, 12]⟩
abbrev S8x4096x12x1 : Shape := ⟨4, ![8, 4096, 12, 1]⟩
abbrev S1x1x1x1 : Shape := ⟨4, ![1, 1, 1, 1]⟩

abbrev nBuf : Space → Nat
  | .hbm => 159
  | .vmem => 10
  | .smem => 0
  | _ => 0

abbrev hbmTy0_0 (i : Nat) : BufTy := match i % 128 with
  | 0 => ⟨S8x262144x3, .f32⟩
  | 1 => ⟨S8x4096, .i32⟩
  | 2 => ⟨S8x1x3, .f32⟩
  | 3 => ⟨S8x8192x10, .f32⟩
  | 4 => ⟨S8x8192x1, .f32⟩
  | 5 => ⟨S8x8192, .f32⟩
  | 6 => ⟨S8x8192x3, .f32⟩
  | 7 => ⟨S8x8192x6, .f32⟩
  | 8 => ⟨S_, .f32⟩
  | 9 => ⟨S8x8192, .f32⟩
  | 10 => ⟨S8x8192, .f32⟩
  | 11 => ⟨S8x8192x1, .f32⟩
  | 12 => ⟨S8x8192x3, .f32⟩
  | 13 => ⟨S8x8192x3, .f32⟩
  | 14 => ⟨S8x8192x6, .f32⟩
  | 15 => ⟨S8x8192x6, .f32⟩
  | 16 => ⟨S8x8192x1, .f32⟩
  | 17 => ⟨S8x8192, .f32⟩
  | 18 => ⟨S8x8192x1, .f32⟩
  | 19 => ⟨S8x8192, .f32⟩
  | 20 => ⟨S8x8192, .f32⟩
  | 21 => ⟨S8x8192x1, .f32⟩
  | 22 => ⟨S8x8192, .f32⟩
  | 23 => ⟨S8x8192x1, .f32⟩
  | 24 => ⟨S8x8192, .f32⟩
  | 25 => ⟨S8x8192, .f32⟩
  | 26 => ⟨S8x8192x1, .f32⟩
  | 27 => ⟨S8x8192, .f32⟩
  | 28 => ⟨S8x8192x1, .f32⟩
  | 29 => ⟨S8x8192, .f32⟩
  | 30 => ⟨S8x8192, .f32⟩
  | 31 => ⟨S8x8192x1, .f32⟩
  | 32 => ⟨S8x8192, .f32⟩
  | 33 => ⟨S8x8192x1, .f32⟩
  | 34 => ⟨S8x8192, .f32⟩
  | 35 => ⟨S8x8192, .f32⟩
  | 36 => ⟨S8x8192x1, .f32⟩
  | 37 => ⟨S8x8192, .f32⟩
  | 38 => ⟨S8x8192x1, .f32⟩
  | 39 => ⟨S8x8192, .f32⟩
  | 40 => ⟨S8x8192, .f32⟩
  | 41 => ⟨S8x8192x1, .f32⟩
  | 42 => ⟨S8x8192, .f32⟩
  | 43 => ⟨S8x8192x1, .f32⟩
  | 44 => ⟨S8x8192, .f32⟩
  | 45 => ⟨S8x8192, .f32⟩
  | 46 => ⟨S8x8192x1, .f32⟩
  | 47 => ⟨S8x8192x1, .f32⟩
  | 48 => ⟨S8x8192x1, .f32⟩
  | 49 => ⟨S8x8192x1, .f32⟩
  | 50 => ⟨S8x8192x1, .f32⟩
  | 51 => ⟨S8x8192x1, .f32⟩
  | 52 => ⟨S8x8192x6, .f32⟩
  | 53 => ⟨S8x8192x6, .f32⟩
  | 54 => ⟨S8x8192x1, .f32⟩
  | 55 => ⟨S8x8192, .f32⟩
  | 56 => ⟨S8x8192x1, .f32⟩
  | 57 => ⟨S8x8192, .f32⟩
  | 58 => ⟨S8x8192x1, .f32⟩
  | 59 => ⟨S8x8192, .f32⟩
  | 60 => ⟨S8x8192x1, .f32⟩
  | 61 => ⟨S8x8192, .f32⟩
  | 62 => ⟨S8x8192x1, .f32⟩
  | 63 => ⟨S8x8192, .f32⟩
  | 64 => ⟨S8x8192x1, .f32⟩
  | 65 => ⟨S8x8192, .f32⟩
  | 66 => ⟨S8x8192x1, .f32⟩
  | 67 => ⟨S8x8192, .f32⟩
  | 68 => ⟨S8x8192x1, .f32⟩
  | 69 => ⟨S8x8192, .f32⟩
  | 70 => ⟨S8x8192x1, .f32⟩
  | 71 => ⟨S8x8192, .f32⟩
  | 72 => ⟨S8x8192x1, .f32⟩
  | 73 => ⟨S8x8192x1, .f32⟩
  | 74 => ⟨S8x8192x1, .f32⟩
  | 75 => ⟨S8x8192x1, .f32⟩
  | 76 => ⟨S8x8192x1, .f32⟩
  | 77 => ⟨S8x8192x1, .f32⟩
  | 78 => ⟨S8x8192x1, .f32⟩
  | 79 => ⟨S8x8192x1, .f32⟩
  | 80 => ⟨S8x8192x1, .f32⟩
  | 81 => ⟨S8x8192x9, .f32⟩
  | 82 => ⟨S8x8192x12, .f32⟩
  | 83 => ⟨S8x4096x1, .i32⟩
  | 84 => ⟨S_, .i32⟩
  | 85 => ⟨S8x4096x1, .i32⟩
  | 86 => ⟨S8x4096x1, .i1⟩
  | 87 => ⟨S_, .i32⟩
  | 88 => ⟨S8x4096x1, .i32⟩
  | 89 => ⟨S8x4096x1, .i32⟩
  | 90 => ⟨S8x4096x1, .i32⟩
  | 91 => ⟨S1, .i32⟩
  | 92 => ⟨S_, .i32⟩
  | 93 => ⟨S8x4096x1, .i32⟩
  | 94 => ⟨S8x4096x1, .i1⟩
  | 95 => ⟨S1x1x1, .i32⟩
  | 96 => ⟨S8x4096x1, .i32⟩
  | 97 => ⟨S8x4096x1, .i1⟩
  | 98 => ⟨S8x4096x1, .i1⟩
  | 99 => ⟨S_, .i1⟩
  | 100 => ⟨S8x4096, .i1⟩
  | 101 => ⟨S8x4096x3, .f32⟩
  | 102 => ⟨S8x4096x3, .i1⟩
  | 103 => ⟨S_, .f32⟩
  | 104 => ⟨S8x4096x3, .f32⟩
  | 105 => ⟨S8x4096x3, .f32⟩
  | 106 => ⟨S8x4096x3, .f32⟩
  | 107 => ⟨S8x4096x3, .f32⟩
  | 108 => ⟨S_, .f32⟩
  | 109 => ⟨S8x4096x3, .f32⟩
  | 110 => ⟨S8x4096x3, .f32⟩
  | 111 => ⟨S8x4096x3, .f32⟩
  | 112 => ⟨S8x4096x3, .i32⟩
  | 113 => ⟨S_, .i32⟩
  | 114 => ⟨S_, .i32⟩
  | 115 => ⟨S_, .i32⟩
  | 116 => ⟨S8x4096x3, .i32⟩
  | 117 => ⟨S8x4096x3, .i32⟩
  | 118 => ⟨S_, .i32⟩
  | 119 => ⟨S8x4096x3, .i32⟩
  | 120 => ⟨S8x4096x3, .i32⟩
  | 121 => ⟨S8x4096x1, .i32⟩
  | 122 => ⟨S8x4096, .i32⟩
  | 123 => ⟨S_, .i32⟩
  | 124 => ⟨S8x4096, .i32⟩
  | 125 => ⟨S8x4096, .i32⟩
  | 126 => ⟨S8x4096x1, .i32⟩
  | 127 => ⟨S8x4096, .i32⟩
  | _ => ⟨S8x262144x3, .f32⟩

abbrev hbmTy0_1 (i : Nat) : BufTy := match i % 128 with
  | 0 => ⟨S8x4096, .i32⟩
  | 1 => ⟨S_, .i32⟩
  | 2 => ⟨S8x4096, .i32⟩
  | 3 => ⟨S8x4096, .i32⟩
  | 4 => ⟨S8x4096x1, .i32⟩
  | 5 => ⟨S8x4096, .i32⟩
  | 6 => ⟨S8x4096, .i32⟩
  | 7 => ⟨S8x4096x1, .i32⟩
  | 8 => ⟨S8x4096x12, .i32⟩
  | 9 => ⟨S_, .i32⟩
  | 10 => ⟨S8x4096x12, .i32⟩
  | 11 => ⟨S8x4096x12, .i1⟩
  | 12 => ⟨S_, .i32⟩
  | 13 => ⟨S8x4096x12, .i32⟩
  | 14 => ⟨S8x4096x12, .i32⟩
  | 15 => ⟨S8x4096x12, .i32⟩
  | 16 => ⟨S8x4096x12x1, .i32⟩
  | 17 => ⟨S1, .i32⟩
  | 18 => ⟨S_, .i32⟩
  | 19 => ⟨S8x4096x12x1, .i32⟩
  | 20 => ⟨S8x4096x12x1, .i1⟩
  | 21 => ⟨S1x1x1x1, .i32⟩
  | 22 => ⟨S8x4096x12x1, .i32⟩
  | 23 => ⟨S8x4096x12x1, .i1⟩
  | 24 => ⟨S8x4096x12x1, .i1⟩
  | 25 => ⟨S_, .i1⟩
  | 26 => ⟨S8x4096x12, .i1⟩
  | 27 => ⟨S8x4096x12, .f32⟩
  | 28 => ⟨S_, .f32⟩
  | 29 => ⟨S8x4096x12, .f32⟩
  | 30 => ⟨S8x4096x12, .f32⟩
  | _ => ⟨S8x262144x3, .f32⟩

abbrev hbmTy (i : Nat) : BufTy := match i / 128 with
  | 0 => hbmTy0_0 i
  | 1 => hbmTy0_1 i
  | _ => ⟨S8x262144x3, .f32⟩

abbrev bufTy : (tb : Table) → Fin (tcTables nBuf tb) → BufTy
  | .hbm, ⟨i, _⟩ => hbmTy i
  | .local _ .vmem, ⟨0, _⟩ => ⟨S1x8192x3, .f32⟩
  | .local _ .vmem, ⟨1, _⟩ => ⟨S1x8192x3, .f32⟩
  | .local _ .vmem, ⟨2, _⟩ => ⟨S1x1x3, .f32⟩
  | .local _ .vmem, ⟨3, _⟩ => ⟨S1x1x3, .f32⟩
  | .local _ .vmem, ⟨4, _⟩ => ⟨S1x2048x3, .f32⟩
  | .local _ .vmem, ⟨5, _⟩ => ⟨S1x2048x3, .f32⟩
  | .local _ .vmem, ⟨6, _⟩ => ⟨S1x1x3, .f32⟩
  | .local _ .vmem, ⟨7, _⟩ => ⟨S1x1x3, .f32⟩
  | .local _ .vmem, ⟨8, _⟩ => ⟨S1x8192x10, .f32⟩
  | .local _ .vmem, ⟨9, _⟩ => ⟨S1x8192x10, .f32⟩
  | _, _ => ⟨S8x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_call0_c : Ref sig .tc := ⟨.hbm, 84, rfl⟩
abbrev main_call0_v0 : Ref sig .tc := ⟨.hbm, 85, rfl⟩
abbrev main_call0_v1 : Ref sig .tc := ⟨.hbm, 86, rfl⟩
abbrev main_call0_c_0 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_1 : Ref sig .tc := ⟨.hbm, 91, rfl⟩
abbrev main_call0_c_2 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_c_3 : Ref sig .tc := ⟨.hbm, 99, rfl⟩
abbrev main_call0_v11 : Ref sig .tc := ⟨.hbm, 100, rfl⟩
abbrev main_call0_v12 : Ref sig .tc := ⟨.hbm, 101, rfl⟩
abbrev main_call0_v13 : Ref sig .tc := ⟨.hbm, 102, rfl⟩
abbrev main_call0_cst : Ref sig .tc := ⟨.hbm, 103, rfl⟩
abbrev main_call0_v14 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c : Ref sig .tc := ⟨.hbm, 113, rfl⟩
abbrev main_c_1 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_2 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_3 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call2_c : Ref sig .tc := ⟨.hbm, 137, rfl⟩
abbrev main_call2_v0 : Ref sig .tc := ⟨.hbm, 138, rfl⟩
abbrev main_call2_v1 : Ref sig .tc := ⟨.hbm, 139, rfl⟩
abbrev main_call2_c_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_c_1 : Ref sig .tc := ⟨.hbm, 145, rfl⟩
abbrev main_call2_c_2 : Ref sig .tc := ⟨.hbm, 146, rfl⟩
abbrev main_call2_v6 : Ref sig .tc := ⟨.hbm, 147, rfl⟩
abbrev main_call2_v7 : Ref sig .tc := ⟨.hbm, 148, rfl⟩
abbrev main_call2_v8 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_3 : Ref sig .tc := ⟨.hbm, 153, rfl⟩
abbrev main_call2_v12 : Ref sig .tc := ⟨.hbm, 154, rfl⟩
abbrev main_call2_v13 : Ref sig .tc := ⟨.hbm, 155, rfl⟩
abbrev main_call2_cst : Ref sig .tc := ⟨.hbm, 156, rfl⟩
abbrev main_call2_v14 : Ref sig .tc := ⟨.hbm, 157, rfl⟩
abbrev main_v103 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_2 : BitVec 32 := 0#32
  let v5 : BitVec 1 := Scalar.cmpi .ne v4 c0_i32_2
  v5

def k0_cond2 (i : grid0.Coords) : BitVec 1 :=
  let arg1 : BitVec 32 := BitVec.ofNat 32 (i 1).val
  let c0_i32_3 : BitVec 32 := 0#32
  let v6 : BitVec 1 := Scalar.cmpi .ne arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 128], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  reduces_S1x8192x3_S1x3 : S1x8192x3.Reduces [1] S1x3
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  shapeCasts_S1x1x3_S1x1x3 : S1x1x3.ShapeCasts S1x1x3
  inb_S1x8192x10_S1x8192x10_0_0_0 : ∀ a, (![0, 0, 0] : Fin 3 → Nat) a + S1x8192x10.size a ≤ S1x8192x10.size a
  h_S1x8192x10 : 0 < S1x8192x10.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S1x1x3_S3 : S1x1x3.ShapeCasts S3
  shapeCasts_S3_S1x3 : S3.ShapeCasts S1x3
  broadcasts_S1x3_S2048x3 : S1x3.Broadcasts S2048x3
  slices_S2048x3_o0_0_S2048x1 : S2048x3.Slices ![0, 0] S2048x1
  shapeCasts_S2048x1_S2048 : S2048x1.ShapeCasts S2048
  slices_S2048x3_o0_1_S2048x1 : S2048x3.Slices ![0, 1] S2048x1
  slices_S2048x3_o0_2_S2048x1 : S2048x3.Slices ![0, 2] S2048x1
  shapeCasts_S2048_S2048x1 : S2048.ShapeCasts S2048x1
  concatenates_S2048x1_S2048x3_S2048x1_S2048x1_S2048x1_S2048x1_S2048x1_S2048x1_S2048x10_d1 : Shape.Concatenates [S2048x1, S2048x3, S2048x1, S2048x1, S2048x1, S2048x1, S2048x1, S2048x1] S2048x10 1
  bitsLt_bf16_f32 : FTy.bits .bf16 < FTy.bits .f32
  iota_S2048x1024_d1_w32 : S2048x1024.Iotas .tc 32 [1]
  broadcasts_S2048x1_S2048x1024 : S2048x1.Broadcasts S2048x1024
  natLt_1_32 : 1 < 32
  inb_S1x8192x10_S1x1024x10_0_0_0 : ∀ a, (![0, 0, 0] : Fin 3 → Nat) a + S1x1024x10.size a ≤ S1x8192x10.size a
  h_S1x1024x10 : 0 < S1x1024x10.numel
  shapeCasts_S1x1024x10_S1024x10 : S1x1024x10.ShapeCasts S1024x10
  shapeCasts_S1024x10_S1x1024x10 : S1024x10.ShapeCasts S1x1024x10
  inb_S1x8192x10_S1x1024x10_0_1024_0 : ∀ a, (![0, 1024, 0] : Fin 3 → Nat) a + S1x1024x10.size a ≤ S1x8192x10.size a
  inb_S1x8192x10_S1x1024x10_0_2048_0 : ∀ a, (![0, 2048, 0] : Fin 3 → Nat) a + S1x1024x10.size a ≤ S1x8192x10.size a
  inb_S1x8192x10_S1x1024x10_0_3072_0 : ∀ a, (![0, 3072, 0] : Fin 3 → Nat) a + S1x1024x10.size a ≤ S1x8192x10.size a
  inb_S1x8192x10_S1x1024x10_0_4096_0 : ∀ a, (![0, 4096, 0] : Fin 3 → Nat) a + S1x1024x10.size a ≤ S1x8192x10.size a
  inb_S1x8192x10_S1x1024x10_0_5120_0 : ∀ a, (![0, 5120, 0] : Fin 3 → Nat) a + S1x1024x10.size a ≤ S1x8192x10.size a
  inb_S1x8192x10_S1x1024x10_0_6144_0 : ∀ a, (![0, 6144, 0] : Fin 3 → Nat) a + S1x1024x10.size a ≤ S1x8192x10.size a
  inb_S1x8192x10_S1x1024x10_0_7168_0 : ∀ a, (![0, 7168, 0] : Fin 3 → Nat) a + S1x1024x10.size a ≤ S1x8192x10.size a
  slices_S8x8192x10_S8x8192x1_0_0_0 : S8x8192x10.Slices ![0, 0, 0] S8x8192x1
  shapeCasts_S8x8192x1_S8x8192 : S8x8192x1.ShapeCasts S8x8192
  slices_S8x8192x10_S8x8192x3_0_0_1 : S8x8192x10.Slices ![0, 0, 1] S8x8192x3
  slices_S8x8192x10_S8x8192x6_0_0_4 : S8x8192x10.Slices ![0, 0, 4] S8x8192x6
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x3_0_1_2 : S8x8192x1.BroadcastsInDim S8x8192x3 (![0, 1, 2] : Fin 3 → Fin S8x8192x3.rank)
  bcast_S8x8192x1_S8x8192x6_0_1_2 : S8x8192x1.BroadcastsInDim S8x8192x6 (![0, 1, 2] : Fin 3 → Fin S8x8192x6.rank)
  slices_S8x8192x3_S8x8192x1_0_0_0 : S8x8192x3.Slices ![0, 0, 0] S8x8192x1
  slices_S8x8192x3_S8x8192x1_0_0_1 : S8x8192x3.Slices ![0, 0, 1] S8x8192x1
  slices_S8x8192x3_S8x8192x1_0_0_2 : S8x8192x3.Slices ![0, 0, 2] S8x8192x1
  concatenates_S8x8192x1_S8x8192x1_S8x8192x1_S8x8192x1_S8x8192x1_S8x8192x1_S8x8192x6_d2 : Shape.Concatenates [S8x8192x1, S8x8192x1, S8x8192x1, S8x8192x1, S8x8192x1, S8x8192x1] S8x8192x6 2
  slices_S8x8192x6_S8x8192x1_0_0_0 : S8x8192x6.Slices ![0, 0, 0] S8x8192x1
  slices_S8x8192x6_S8x8192x1_0_0_1 : S8x8192x6.Slices ![0, 0, 1] S8x8192x1
  slices_S8x8192x6_S8x8192x1_0_0_2 : S8x8192x6.Slices ![0, 0, 2] S8x8192x1
  slices_S8x8192x6_S8x8192x1_0_0_3 : S8x8192x6.Slices ![0, 0, 3] S8x8192x1
  slices_S8x8192x6_S8x8192x1_0_0_4 : S8x8192x6.Slices ![0, 0, 4] S8x8192x1
  slices_S8x8192x6_S8x8192x1_0_0_5 : S8x8192x6.Slices ![0, 0, 5] S8x8192x1
  concatenates_S8x8192x1_S8x8192x1_S8x8192x1_S8x8192x1_S8x8192x1_S8x8192x1_S8x8192x1_S8x8192x1_S8x8192x1_S8x8192x9_d2 : Shape.Concatenates [S8x8192x1, S8x8192x1, S8x8192x1, S8x8192x1, S8x8192x1, S8x8192x1, S8x8192x1, S8x8192x1, S8x8192x1] S8x8192x9 2
  concatenates_S8x8192x3_S8x8192x9_S8x8192x12_d2 : Shape.Concatenates [S8x8192x3, S8x8192x9] S8x8192x12 2
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  h_S_ : 0 < S_.numel
  bcast_S8x4096_S8x4096x3_0_1 : S8x4096.BroadcastsInDim S8x4096x3 (![0, 1] : Fin 2 → Fin S8x4096x3.rank)
  bcast_S_S8x4096x3 : S_.BroadcastsInDim S8x4096x3 (![] : Fin 0 → Fin S8x4096x3.rank)
  bcast_S8x1x3_S8x4096x3_0_1_2 : S8x1x3.BroadcastsInDim S8x4096x3 (![0, 1, 2] : Fin 3 → Fin S8x4096x3.rank)
  slices_S8x4096x3_S8x4096x1_0_0_0 : S8x4096x3.Slices ![0, 0, 0] S8x4096x1
  shapeCasts_S8x4096x1_S8x4096 : S8x4096x1.ShapeCasts S8x4096
  bcast_S_S8x4096 : S_.BroadcastsInDim S8x4096 (![] : Fin 0 → Fin S8x4096.rank)
  slices_S8x4096x3_S8x4096x1_0_0_1 : S8x4096x3.Slices ![0, 0, 1] S8x4096x1
  slices_S8x4096x3_S8x4096x1_0_0_2 : S8x4096x3.Slices ![0, 0, 2] S8x4096x1
  bcast_S8x4096x1_S8x4096x12_0_1_2 : S8x4096x1.BroadcastsInDim S8x4096x12 (![0, 1, 2] : Fin 3 → Fin S8x4096x12.rank)
  bcast_S_S8x4096x12 : S_.BroadcastsInDim S8x4096x12 (![] : Fin 0 → Fin S8x4096x12.rank)
  shapeCasts_S8x4096x12_S8x4096x12x1 : S8x4096x12.ShapeCasts S8x4096x12x1
  bcast_S_S8x4096x12x1 : S_.BroadcastsInDim S8x4096x12x1 (![] : Fin 0 → Fin S8x4096x12x1.rank)
  bcast_S1_S1x1x1x1_3 : S1.BroadcastsInDim S1x1x1x1 (![3] : Fin 1 → Fin S1x1x1x1.rank)
  bcast_S1x1x1x1_S8x4096x12x1_0_1_2_3 : S1x1x1x1.BroadcastsInDim S8x4096x12x1 (![0, 1, 2, 3] : Fin 4 → Fin S8x4096x12x1.rank)
  reducesTo_S8x4096x12x1_S8x4096x12_d3 : S8x4096x12x1.ReducesTo [3] S8x4096x12
  dot_S2048x1024_S2048x10_S1024x10_0_0_1_1_n_n_wf : DotDims.WF S2048x1024 S2048x10 S1024x10 [0] [0] [1] [1] [] []
  gather_S8x262144x3_S8x4096x1_S8x4096x3_2_1_0_0_1_2_113_wf : GatherDims.WF S8x262144x3 S8x4096x1 S8x4096x3 [2] [1] [0] [1] [0] 2 ![1, 1, 3]
  gather_S8x8192x12_S8x4096x12x1_S8x4096x12_n_1_02_02_1_3_111_wf : GatherDims.WF S8x8192x12 S8x4096x12x1 S8x4096x12 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S8x262144x3.size a
  hwx0_0 : ∀ i : grid0.Coords, EltTy.bits .f32 = 32 ∨ (Rect.block (s := S8x262144x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S8x1x3.size a
  hwx0_1 : ∀ i : grid0.Coords, EltTy.bits .f32 = 32 ∨ (Rect.block (s := S8x1x3) S1x1x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x3.size a ≤ S8x262144x3.size a
  hwx1_0 : ∀ i : grid1.Coords, EltTy.bits .f32 = 32 ∨ (Rect.block (s := S8x262144x3) S1x2048x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x3.size a ≤ S8x1x3.size a
  hwx1_1 : ∀ i : grid1.Coords, EltTy.bits .f32 = 32 ∨ (Rect.block (s := S8x1x3) S1x1x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x10.size a ≤ S8x8192x10.size a
  hwx1_2 : ∀ i : grid1.Coords, EltTy.bits .f32 = 32 ∨ (Rect.block (s := S8x8192x10) S1x8192x10.size (cc1_transform_2 i) (hinb1_2 i)).WholeWords (EltTy.packing .f32)

variable [Facts₀]

def dot_S2048x1024_S2048x10_S1024x10_0_0_1_1_n_n : DotDims S2048x1024 S2048x10 S1024x10 where
  lhsContracting := [0]
  rhsContracting := [0]
  lhsNonContracting := [1]
  rhsNonContracting := [1]
  lhsBatch := []
  rhsBatch := []
  wf := dot_S2048x1024_S2048x10_S1024x10_0_0_1_1_n_n_wf
def gather_S8x262144x3_S8x4096x1_S8x4096x3_2_1_0_0_1_2_113 : GatherDims S8x262144x3 S8x4096x1 S8x4096x3 where
  offsetDims := [2]
  collapsedSliceDims := [1]
  operandBatchingDims := [0]
  startIndicesBatchingDims := [0]
  startIndexMap := [1]
  indexVectorDim := 2
  sliceSizes := ![1, 1, 3]
  wf := gather_S8x262144x3_S8x4096x1_S8x4096x3_2_1_0_0_1_2_113_wf
def gather_S8x8192x12_S8x4096x12x1_S8x4096x12_n_1_02_02_1_3_111 : GatherDims S8x8192x12 S8x4096x12x1 S8x4096x12 where
  offsetDims := []
  collapsedSliceDims := [1]
  operandBatchingDims := [0, 2]
  startIndicesBatchingDims := [0, 2]
  startIndexMap := [1]
  indexVectorDim := 3
  sliceSizes := ![1, 1, 1]
  wf := gather_S8x8192x12_S8x4096x12x1_S8x4096x12_n_1_02_02_1_3_111_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S1x2048x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x8192x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x262144x3 : Shape := ⟨3, ![8, 262144, 3]⟩
abbrev S8x4096 : Shape := ⟨2, ![8, 4096]⟩
abbrev S_ : Shape := ⟨0, ![]⟩
abbrev S8x3 : Shape := ⟨2, ![8, 3]⟩
abbrev S8x1x3 : Shape := ⟨3, ![8, 1, 3]⟩
abbrev S8x262144x1 : Shape := ⟨3, ![8, 262144, 1]⟩
abbrev S8x262144 : Shape := ⟨2, ![8, 262144]⟩
abbrev S8 : Shape := ⟨1, ![8]⟩
abbrev S8x1 : Shape := ⟨2, ![8, 1]⟩
abbrev S2097152 : Shape := ⟨1, ![2097152]⟩
abbrev S2097152x3 : Shape := ⟨2, ![2097152, 3]⟩
abbrev S64000 : Shape := ⟨1, ![64000]⟩
abbrev S2097152x1 : Shape := ⟨2, ![2097152, 1]⟩
abbrev S64000x3 : Shape := ⟨2, ![64000, 3]⟩
abbrev S2097152x3x1 : Shape := ⟨3, ![2097152, 3, 1]⟩
abbrev S2097152x1x3 : Shape := ⟨3, ![2097152, 1, 3]⟩
abbrev S2097152x3x3 : Shape := ⟨3, ![2097152, 3, 3]⟩
abbrev S2097152x9 : Shape := ⟨2, ![2097152, 9]⟩
abbrev S64000x9 : Shape := ⟨2, ![64000, 9]⟩
abbrev S64000x1 : Shape := ⟨2, ![64000, 1]⟩
abbrev S64000x3x1 : Shape := ⟨3, ![64000, 3, 1]⟩
abbrev S64000x1x3 : Shape := ⟨3, ![64000, 1, 3]⟩
abbrev S64000x3x3 : Shape := ⟨3, ![64000, 3, 3]⟩
abbrev S64000x12 : Shape := ⟨2, ![64000, 12]⟩
abbrev S8x20x20x20x12 : Shape := ⟨5, ![8, 20, 20, 20, 12]⟩
abbrev S8x4096x1 : Shape := ⟨3, ![8, 4096, 1]⟩
abbrev S1 : Shape := ⟨1, ![1]⟩
abbrev S1x1x1 : Shape := ⟨3, ![1, 1, 1]⟩
abbrev S8x4096x3 : Shape := ⟨3, ![8, 4096, 3]⟩
abbrev S8x4096x4 : Shape := ⟨3, ![8, 4096, 4]⟩
abbrev S8x4096x12 : Shape := ⟨3, ![8, 4096, 12]⟩

abbrev nBuf : Space → Nat
  | .hbm => 161
  | .vmem => 0
  | .smem => 0
  | _ => 0

abbrev hbmTy0_0 (i : Nat) : BufTy := match i % 128 with
  | 0 => ⟨S8x262144x3, .f32⟩
  | 1 => ⟨S8x4096, .i32⟩
  | 2 => ⟨S_, .f32⟩
  | 3 => ⟨S8x3, .f32⟩
  | 4 => ⟨S8x1x3, .f32⟩
  | 5 => ⟨S8x262144x3, .f32⟩
  | 6 => ⟨S8x262144x3, .f32⟩
  | 7 => ⟨S_, .f32⟩
  | 8 => ⟨S8x262144x3, .f32⟩
  | 9 => ⟨S8x262144x3, .f32⟩
  | 10 => ⟨S8x262144x3, .f32⟩
  | 11 => ⟨S8x262144x3, .i32⟩
  | 12 => ⟨S_, .i32⟩
  | 13 => ⟨S_, .i32⟩
  | 14 => ⟨S_, .i32⟩
  | 15 => ⟨S8x262144x3, .i32⟩
  | 16 => ⟨S8x262144x3, .i32⟩
  | 17 => ⟨S_, .i32⟩
  | 18 => ⟨S8x262144x3, .i32⟩
  | 19 => ⟨S8x262144x3, .i32⟩
  | 20 => ⟨S8x262144x1, .i32⟩
  | 21 => ⟨S8x262144, .i32⟩
  | 22 => ⟨S_, .i32⟩
  | 23 => ⟨S8x262144, .i32⟩
  | 24 => ⟨S8x262144, .i32⟩
  | 25 => ⟨S8x262144x1, .i32⟩
  | 26 => ⟨S8x262144, .i32⟩
  | 27 => ⟨S8x262144, .i32⟩
  | 28 => ⟨S_, .i32⟩
  | 29 => ⟨S8x262144, .i32⟩
  | 30 => ⟨S8x262144, .i32⟩
  | 31 => ⟨S8x262144x1, .i32⟩
  | 32 => ⟨S8x262144, .i32⟩
  | 33 => ⟨S8x262144, .i32⟩
  | 34 => ⟨S8, .i32⟩
  | 35 => ⟨S8x1, .i32⟩
  | 36 => ⟨S_, .i32⟩
  | 37 => ⟨S8x1, .i32⟩
  | 38 => ⟨S8x1, .i32⟩
  | 39 => ⟨S8x262144, .i32⟩
  | 40 => ⟨S8x262144, .i32⟩
  | 41 => ⟨S2097152, .i32⟩
  | 42 => ⟨S2097152x3, .f32⟩
  | 43 => ⟨S_, .f32⟩
  | 44 => ⟨S2097152, .f32⟩
  | 45 => ⟨S_, .f32⟩
  | 46 => ⟨S64000, .f32⟩
  | 47 => ⟨S2097152x1, .i32⟩
  | 48 => ⟨S64000, .f32⟩
  | 49 => ⟨S_, .f32⟩
  | 50 => ⟨S64000x3, .f32⟩
  | 51 => ⟨S2097152x1, .i32⟩
  | 52 => ⟨S64000x3, .f32⟩
  | 53 => ⟨S2097152x3x1, .f32⟩
  | 54 => ⟨S2097152x1x3, .f32⟩
  | 55 => ⟨S2097152x3x3, .f32⟩
  | 56 => ⟨S2097152x3x3, .f32⟩
  | 57 => ⟨S2097152x3x3, .f32⟩
  | 58 => ⟨S2097152x9, .f32⟩
  | 59 => ⟨S_, .f32⟩
  | 60 => ⟨S64000x9, .f32⟩
  | 61 => ⟨S2097152x1, .i32⟩
  | 62 => ⟨S64000x9, .f32⟩
  | 63 => ⟨S_, .f32⟩
  | 64 => ⟨S64000, .f32⟩
  | 65 => ⟨S64000, .f32⟩
  | 66 => ⟨S64000x1, .f32⟩
  | 67 => ⟨S64000x3, .f32⟩
  | 68 => ⟨S64000x3, .f32⟩
  | 69 => ⟨S64000x9, .f32⟩
  | 70 => ⟨S64000x9, .f32⟩
  | 71 => ⟨S64000x3x1, .f32⟩
  | 72 => ⟨S64000x1x3, .f32⟩
  | 73 => ⟨S64000x3x3, .f32⟩
  | 74 => ⟨S64000x3x3, .f32⟩
  | 75 => ⟨S64000x3x3, .f32⟩
  | 76 => ⟨S64000x9, .f32⟩
  | 77 => ⟨S64000x9, .f32⟩
  | 78 => ⟨S64000x12, .f32⟩
  | 79 => ⟨S8x20x20x20x12, .f32⟩
  | 80 => ⟨S8x4096x1, .i32⟩
  | 81 => ⟨S_, .i32⟩
  | 82 => ⟨S8x4096x1, .i32⟩
  | 83 => ⟨S8x4096x1, .i1⟩
  | 84 => ⟨S_, .i32⟩
  | 85 => ⟨S8x4096x1, .i32⟩
  | 86 => ⟨S8x4096x1, .i32⟩
  | 87 => ⟨S8x4096x1, .i32⟩
  | 88 => ⟨S1, .i32⟩
  | 89 => ⟨S_, .i32⟩
  | 90 => ⟨S8x4096x1, .i32⟩
  | 91 => ⟨S8x4096x1, .i1⟩
  | 92 => ⟨S1x1x1, .i32⟩
  | 93 => ⟨S8x4096x1, .i32⟩
  | 94 => ⟨S8x4096x1, .i1⟩
  | 95 => ⟨S8x4096x1, .i1⟩
  | 96 => ⟨S_, .i1⟩
  | 97 => ⟨S8x4096, .i1⟩
  | 98 => ⟨S8x4096x3, .f32⟩
  | 99 => ⟨S8x4096x3, .i1⟩
  | 100 => ⟨S_, .f32⟩
  | 101 => ⟨S8x4096x3, .f32⟩
  | 102 => ⟨S8x4096x3, .f32⟩
  | 103 => ⟨S8x4096x3, .f32⟩
  | 104 => ⟨S8x4096x3, .f32⟩
  | 105 => ⟨S_, .f32⟩
  | 106 => ⟨S8x4096x3, .f32⟩
  | 107 => ⟨S8x4096x3, .f32⟩
  | 108 => ⟨S8x4096x3, .f32⟩
  | 109 => ⟨S8x4096x3, .i32⟩
  | 110 => ⟨S_, .i32⟩
  | 111 => ⟨S_, .i32⟩
  | 112 => ⟨S_, .i32⟩
  | 113 => ⟨S8x4096x3, .i32⟩
  | 114 => ⟨S8x4096x3, .i32⟩
  | 115 => ⟨S_, .i32⟩
  | 116 => ⟨S8x4096x3, .i32⟩
  | 117 => ⟨S8x4096x3, .i32⟩
  | 118 => ⟨S8, .i32⟩
  | 119 => ⟨S8x1, .i32⟩
  | 120 => ⟨S8x4096x1, .i32⟩
  | 121 => ⟨S8x4096, .i32⟩
  | 122 => ⟨S8x4096x1, .i32⟩
  | 123 => ⟨S8x4096, .i32⟩
  | 124 => ⟨S8x4096x1, .i32⟩
  | 125 => ⟨S8x4096, .i32⟩
  | 126 => ⟨S_, .i32⟩
  | 127 => ⟨S8x1, .i32⟩
  | _ => ⟨S8x262144x3, .f32⟩

abbrev hbmTy0_1 (i : Nat) : BufTy := match i % 128 with
  | 0 => ⟨S8x1, .i1⟩
  | 1 => ⟨S_, .i32⟩
  | 2 => ⟨S8x1, .i32⟩
  | 3 => ⟨S8x1, .i32⟩
  | 4 => ⟨S8x1, .i32⟩
  | 5 => ⟨S_, .i32⟩
  | 6 => ⟨S8x4096, .i32⟩
  | 7 => ⟨S8x4096, .i1⟩
  | 8 => ⟨S_, .i32⟩
  | 9 => ⟨S8x4096, .i32⟩
  | 10 => ⟨S8x4096, .i32⟩
  | 11 => ⟨S8x4096, .i32⟩
  | 12 => ⟨S_, .i32⟩
  | 13 => ⟨S8x4096, .i32⟩
  | 14 => ⟨S8x4096, .i1⟩
  | 15 => ⟨S_, .i32⟩
  | 16 => ⟨S8x4096, .i32⟩
  | 17 => ⟨S8x4096, .i32⟩
  | 18 => ⟨S8x4096, .i32⟩
  | 19 => ⟨S_, .i32⟩
  | 20 => ⟨S8x4096, .i32⟩
  | 21 => ⟨S8x4096, .i1⟩
  | 22 => ⟨S_, .i32⟩
  | 23 => ⟨S8x4096, .i32⟩
  | 24 => ⟨S8x4096, .i32⟩
  | 25 => ⟨S8x4096, .i32⟩
  | 26 => ⟨S8x4096, .i32⟩
  | 27 => ⟨S8x4096x1, .i32⟩
  | 28 => ⟨S8x4096x1, .i32⟩
  | 29 => ⟨S8x4096x1, .i32⟩
  | 30 => ⟨S8x4096x1, .i32⟩
  | 31 => ⟨S8x4096x4, .i32⟩
  | 32 => ⟨S8x4096x12, .f32⟩
  | _ => ⟨S8x262144x3, .f32⟩

abbrev hbmTy (i : Nat) : BufTy := match i / 128 with
  | 0 => hbmTy0_0 i
  | 1 => hbmTy0_1 i
  | _ => ⟨S8x262144x3, .f32⟩

abbrev bufTy : (tb : Table) → Fin (tcTables nBuf tb) → BufTy
  | .hbm, ⟨i, _⟩ => hbmTy i
  | _, _ => ⟨S8x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_c_2 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_c_3 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_cst : Ref sig .tc := ⟨.hbm, 100, rfl⟩
abbrev main_call1_v14 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_11 : Ref sig .tc := ⟨.hbm, 110, rfl⟩
abbrev main_c_12 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_13 : Ref sig .tc := ⟨.hbm, 126, rfl⟩
abbrev main_v78 : Ref sig .tc := ⟨.hbm, 127, rfl⟩
abbrev main_v79 : Ref sig .tc := ⟨.hbm, 128, rfl⟩
abbrev main_c_14 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_15 : Ref sig .tc := ⟨.hbm, 133, rfl⟩
abbrev main_v83 : Ref sig .tc := ⟨.hbm, 134, rfl⟩
abbrev main_v84 : Ref sig .tc := ⟨.hbm, 135, rfl⟩
abbrev main_c_16 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_17 : Ref sig .tc := ⟨.hbm, 140, rfl⟩
abbrev main_v88 : Ref sig .tc := ⟨.hbm, 141, rfl⟩
abbrev main_v89 : Ref sig .tc := ⟨.hbm, 142, rfl⟩
abbrev main_c_18 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_19 : Ref sig .tc := ⟨.hbm, 147, rfl⟩
abbrev main_v93 : Ref sig .tc := ⟨.hbm, 148, rfl⟩
abbrev main_v94 : Ref sig .tc := ⟨.hbm, 149, rfl⟩
abbrev main_c_20 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]

class Facts₀ : Prop where
  reducesTo_S8x262144x3_S8x3_d1 : S8x262144x3.ReducesTo [1] S8x3
  h_S_ : 0 < S_.numel
  bcast_S8x3_S8x1x3_0_2 : S8x3.BroadcastsInDim S8x1x3 (![0, 2] : Fin 2 → Fin S8x1x3.rank)
  bcast_S8x1x3_S8x262144x3_0_1_2 : S8x1x3.BroadcastsInDim S8x262144x3 (![0, 1, 2] : Fin 3 → Fin S8x262144x3.rank)
  bcast_S_S8x262144x3 : S_.BroadcastsInDim S8x262144x3 (![] : Fin 0 → Fin S8x262144x3.rank)
  slices_S8x262144x3_S8x262144x1_0_0_0 : S8x262144x3.Slices ![0, 0, 0] S8x262144x1
  shapeCasts_S8x262144x1_S8x262144 : S8x262144x1.ShapeCasts S8x262144
  bcast_S_S8x262144 : S_.BroadcastsInDim S8x262144 (![] : Fin 0 → Fin S8x262144.rank)
  slices_S8x262144x3_S8x262144x1_0_0_1 : S8x262144x3.Slices ![0, 0, 1] S8x262144x1
  slices_S8x262144x3_S8x262144x1_0_0_2 : S8x262144x3.Slices ![0, 0, 2] S8x262144x1
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  shapeCasts_S8x262144x3_S2097152x3 : S8x262144x3.ShapeCasts S2097152x3
  bcast_S_S2097152 : S_.BroadcastsInDim S2097152 (![] : Fin 0 → Fin S2097152.rank)
  bcast_S_S64000 : S_.BroadcastsInDim S64000 (![] : Fin 0 → Fin S64000.rank)
  bcast_S2097152_S2097152x1_0 : S2097152.BroadcastsInDim S2097152x1 (![0] : Fin 1 → Fin S2097152x1.rank)
  bcast_S_S64000x3 : S_.BroadcastsInDim S64000x3 (![] : Fin 0 → Fin S64000x3.rank)
  bcast_S2097152x3_S2097152x3x1_0_1 : S2097152x3.BroadcastsInDim S2097152x3x1 (![0, 1] : Fin 2 → Fin S2097152x3x1.rank)
  bcast_S2097152x3_S2097152x1x3_0_2 : S2097152x3.BroadcastsInDim S2097152x1x3 (![0, 2] : Fin 2 → Fin S2097152x1x3.rank)
  bcast_S2097152x3x1_S2097152x3x3_0_1_2 : S2097152x3x1.BroadcastsInDim S2097152x3x3 (![0, 1, 2] : Fin 3 → Fin S2097152x3x3.rank)
  bcast_S2097152x1x3_S2097152x3x3_0_1_2 : S2097152x1x3.BroadcastsInDim S2097152x3x3 (![0, 1, 2] : Fin 3 → Fin S2097152x3x3.rank)
  shapeCasts_S2097152x3x3_S2097152x9 : S2097152x3x3.ShapeCasts S2097152x9
  bcast_S_S64000x9 : S_.BroadcastsInDim S64000x9 (![] : Fin 0 → Fin S64000x9.rank)
  bcast_S64000_S64000x1_0 : S64000.BroadcastsInDim S64000x1 (![0] : Fin 1 → Fin S64000x1.rank)
  bcast_S64000x1_S64000x3_0_1 : S64000x1.BroadcastsInDim S64000x3 (![0, 1] : Fin 2 → Fin S64000x3.rank)
  bcast_S64000x1_S64000x9_0_1 : S64000x1.BroadcastsInDim S64000x9 (![0, 1] : Fin 2 → Fin S64000x9.rank)
  bcast_S64000x3_S64000x3x1_0_1 : S64000x3.BroadcastsInDim S64000x3x1 (![0, 1] : Fin 2 → Fin S64000x3x1.rank)
  bcast_S64000x3_S64000x1x3_0_2 : S64000x3.BroadcastsInDim S64000x1x3 (![0, 2] : Fin 2 → Fin S64000x1x3.rank)
  bcast_S64000x3x1_S64000x3x3_0_1_2 : S64000x3x1.BroadcastsInDim S64000x3x3 (![0, 1, 2] : Fin 3 → Fin S64000x3x3.rank)
  bcast_S64000x1x3_S64000x3x3_0_1_2 : S64000x1x3.BroadcastsInDim S64000x3x3 (![0, 1, 2] : Fin 3 → Fin S64000x3x3.rank)
  shapeCasts_S64000x3x3_S64000x9 : S64000x3x3.ShapeCasts S64000x9
  concatenates_S64000x3_S64000x9_S64000x12_d1 : Shape.Concatenates [S64000x3, S64000x9] S64000x12 1
  shapeCasts_S64000x12_S8x20x20x20x12 : S64000x12.ShapeCasts S8x20x20x20x12
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  bcast_S8x4096_S8x4096x3_0_1 : S8x4096.BroadcastsInDim S8x4096x3 (![0, 1] : Fin 2 → Fin S8x4096x3.rank)
  bcast_S_S8x4096x3 : S_.BroadcastsInDim S8x4096x3 (![] : Fin 0 → Fin S8x4096x3.rank)
  bcast_S8x1x3_S8x4096x3_0_1_2 : S8x1x3.BroadcastsInDim S8x4096x3 (![0, 1, 2] : Fin 3 → Fin S8x4096x3.rank)
  slices_S8x4096x3_S8x4096x1_0_0_0 : S8x4096x3.Slices ![0, 0, 0] S8x4096x1
  shapeCasts_S8x4096x1_S8x4096 : S8x4096x1.ShapeCasts S8x4096
  slices_S8x4096x3_S8x4096x1_0_0_1 : S8x4096x3.Slices ![0, 0, 1] S8x4096x1
  slices_S8x4096x3_S8x4096x1_0_0_2 : S8x4096x3.Slices ![0, 0, 2] S8x4096x1
  bcast_S_S8x4096 : S_.BroadcastsInDim S8x4096 (![] : Fin 0 → Fin S8x4096.rank)
  bcast_S8x1_S8x4096_0_1 : S8x1.BroadcastsInDim S8x4096 (![0, 1] : Fin 2 → Fin S8x4096.rank)
  concatenates_S8x4096x1_S8x4096x1_S8x4096x1_S8x4096x1_S8x4096x4_d2 : Shape.Concatenates [S8x4096x1, S8x4096x1, S8x4096x1, S8x4096x1] S8x4096x4 2
  scatter_S64000_S2097152x1_S2097152_n_0_0_1_wf : ScatterDims.WF S64000 S2097152x1 S2097152 [] [0] [0] 1
  scatter_S64000x3_S2097152x1_S2097152x3_1_0_0_1_wf : ScatterDims.WF S64000x3 S2097152x1 S2097152x3 [1] [0] [0] 1
  scatter_S64000x9_S2097152x1_S2097152x9_1_0_0_1_wf : ScatterDims.WF S64000x9 S2097152x1 S2097152x9 [1] [0] [0] 1
  gather_S8x262144x3_S8x4096x1_S8x4096x3_2_1_0_0_1_2_113_wf : GatherDims.WF S8x262144x3 S8x4096x1 S8x4096x3 [2] [1] [0] [1] [0] 2 ![1, 1, 3]
  gather_S8x20x20x20x12_S8x4096x4_S8x4096x12_2_0123_n_n_0123_2_111112_wf : GatherDims.WF S8x20x20x20x12 S8x4096x4 S8x4096x12 [2] [0, 1, 2, 3] [] [0, 1, 2, 3] [] 2 ![1, 1, 1, 1, 12]

variable [Facts₀]

def scatter_S64000_S2097152x1_S2097152_n_0_0_1 : ScatterDims S64000 S2097152x1 S2097152 where
  updateWindowDims := []
  insertedWindowDims := [0]
  scatterDimsToOperandDims := [0]
  indexVectorDim := 1
  wf := scatter_S64000_S2097152x1_S2097152_n_0_0_1_wf
def scatter_S64000x3_S2097152x1_S2097152x3_1_0_0_1 : ScatterDims S64000x3 S2097152x1 S2097152x3 where
  updateWindowDims := [1]
  insertedWindowDims := [0]
  scatterDimsToOperandDims := [0]
  indexVectorDim := 1
  wf := scatter_S64000x3_S2097152x1_S2097152x3_1_0_0_1_wf
def scatter_S64000x9_S2097152x1_S2097152x9_1_0_0_1 : ScatterDims S64000x9 S2097152x1 S2097152x9 where
  updateWindowDims := [1]
  insertedWindowDims := [0]
  scatterDimsToOperandDims := [0]
  indexVectorDim := 1
  wf := scatter_S64000x9_S2097152x1_S2097152x9_1_0_0_1_wf
def gather_S8x262144x3_S8x4096x1_S8x4096x3_2_1_0_0_1_2_113 : GatherDims S8x262144x3 S8x4096x1 S8x4096x3 where
  offsetDims := [2]
  collapsedSliceDims := [1]
  operandBatchingDims := [0]
  startIndicesBatchingDims := [0]
  startIndexMap := [1]
  indexVectorDim := 2
  sliceSizes := ![1, 1, 3]
  wf := gather_S8x262144x3_S8x4096x1_S8x4096x3_2_1_0_0_1_2_113_wf
def gather_S8x20x20x20x12_S8x4096x4_S8x4096x12_2_0123_n_n_0123_2_111112 : GatherDims S8x20x20x20x12 S8x4096x4 S8x4096x12 where
  offsetDims := [2]
  collapsedSliceDims := [0, 1, 2, 3]
  operandBatchingDims := []
  startIndicesBatchingDims := []
  startIndexMap := [0, 1, 2, 3]
  indexVectorDim := 2
  sliceSizes := ![1, 1, 1, 1, 12]
  wf := gather_S8x20x20x20x12_S8x4096x4_S8x4096x12_2_0123_n_n_0123_2_111112_wf

class Facts : Prop extends Facts₀ where

variable [Facts]
-- ==== Proof.KI.Frame0.lean ====
/- The minimum-corner region (pallas_call 0): its proof data and body obligation. -/
import proofs.«157393_j34419867910943_1_alg».proof.Proof.Gen.KernelIdeal.Skeleton
import proofs.«157393_j34419867910943_1_alg».proof.Proof.Gen.KernelIdeal.Launch
import proofs.«157393_j34419867910943_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Where a cloud's row of tiles begins

The grid is 8 clouds by 32 tiles, the tile index the fast one: point `t` is tile `t % 32` of cloud `t / 32`.
The body's first conditional holds exactly at a cloud's first tile, its second exactly at the 31 later ones. -/

/-- The first conditional is taken at the first tile of each cloud, and only there. -/
theorem first0_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The second conditional is taken at every other tile, and only there. -/
theorem later0_iff : ∀ t : Fin cfg0.N, k0_cond2 (grid0.coords t) = 1#1 ↔ ¬t.val % 32 = 0 :=
  (by decide +kernel : ∀ t : Fin grid0.N, k0_cond2 (grid0.coords t) = 1#1 ↔ ¬t.val % 32 = 0)

/-- One of the two conditionals holds whatever the tile index is (it is zero or it is not), so the output
    block is stored into at every point: the window is nowhere idle. -/
theorem live0_1 (i : grid0.Coords) : cfg0.idle 1 i = false :=
  (by decide +kernel : ∀ j : Fin 32,
    (!(Scalar.cmpi .ne (Scalar.extui (Scalar.cmpi .eq (BitVec.ofNat 32 j.val) 0#32) : BitVec 32) 0#32 == 1#1)
      && !(Scalar.cmpi .ne (Scalar.extui (Scalar.cmpi .ne (BitVec.ofNat 32 j.val) 0#32) : BitVec 32) 0#32 == 1#1)) = false) (i 1)

/-! ## Whole-block accesses -/

/-- The offsets of every access of this body: all zero. -/
theorem offsets0 : (![0, 0, 0] : Fin 3 → ℕ) = fun _ => 0 := by
  funext a; fin_cases a <;> rfl

/-- One store through the whole block at offsets all zero leaves its payload, whatever the buffer is and held:
    its rectangle is the whole shape, so it covers, and what covering writes leave is their overlay. -/
theorem read_store_whole0 {Val : EltTy → Type} [∀ e, Nonempty (Val e)] {sg : RefSig} {κ : Kind} {sp : Space} {S : Shape} {e : EltTy}
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-! ## The body on any whole staging memrefs, in its two cases -/

set_option maxHeartbeats 1000000 in
/-- AT A CLOUD'S FIRST TILE. The body loads the tile `x0`, reads the output block (the value is dropped: the block
    may hold anything) and stores the tile's coordinate-wise minimum `k0_pay1 x0` over the whole block; the second
    conditional is skipped. So it runs to the continuation with the tile as it was and the block at that minimum:
    the load through the whole-block rectangle reads `x0`, the one store covers. -/
theorem run0_first (c : Dev nD) (E : Set ℕ) (i : grid0.Coords)
    (arg2 : Memref sig .tc .vmem S1x8192x3 .f32) (harg2 : arg2.IsWhole)
    (arg3 : Memref sig .tc .vmem S1x1x3 .f32) (harg3 : arg3.IsWhole)
    (h1 : k0_cond1 i = 1#1) (h2 : ¬k0_cond2 i = 1#1)
    (x0 : Vec F S1x8192x3 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k0_pay1 x0)) -∗ K ⟨⟩))
      ⊢ wp frame (wpE (defs₀ (F := F)) Variants.none c none) E (cc0__min_kernel i arg2 harg2 arg3 harg3) K := by
  simp only [cc0__min_kernel_eq_skeleton]; unfold cc0__min_kernel_skel
  unfold owns
  iintro ⟨⟨%f0, %hf0, H0⟩, ⟨%d1, %f1, -, H1⟩, Hk⟩
  obtain rfl := harg2.eq_unread hf0
  sl_exec (disch := first | exact h1 | exact h2)
  sl_step
  iapply Hk
  isplitl [H0]
  · iexists _; isplitr; · ipureintro; exact harg2.read_unread _
    iexact H0
  iexists _; isplitr
  swap; · iexact H1
  ipureintro
  rw [read_store_whole0 _ _ offsets0, View.readAt_eq_ld, harg2.read_unread, View.ld_unit_zero offsets0]

set_option maxHeartbeats 1000000 in
/-- AT A LATER TILE. The first conditional is skipped; the body loads the tile `x0` and the output block `xo` — the
    minimum over the cloud's earlier tiles — and stores `k0_pay2 x0 xo`, the coordinate-wise minimum of `xo` and the
    tile's own, over the whole block. Both loads go through whole-block rectangles and read `x0` and `xo`. -/
theorem run0_later (c : Dev nD) (E : Set ℕ) (i : grid0.Coords)
    (arg2 : Memref sig .tc .vmem S1x8192x3 .f32) (harg2 : arg2.IsWhole)
    (arg3 : Memref sig .tc .vmem S1x1x3 .f32) (harg3 : arg3.IsWhole)
    (h1 : ¬k0_cond1 i = 1#1) (h2 : k0_cond2 i = 1#1)
    (x0 : Vec F S1x8192x3 .f32) (xo : Vec F S1x1x3 .f32) (K : PUnit → sProp 𝕄) :
    iprop(owns (c : Thread nD τ) arg2 fullShare x0 ∗ owns (c : Thread nD τ) arg3 fullShare xo
        ∗ (iprop(owns (c : Thread nD τ) arg2 fullShare x0 ∗ owns (c : Thread nD τ) arg3 fullShare (k0_pay2 x0 xo)) -∗ K ⟨⟩))
      ⊢ wp frame (wpE (defs₀ (F := F)) Variants.none c none) E (cc0__min_kernel i arg2 harg2 arg3 harg3) K := by
  simp only [cc0__min_kernel_eq_skeleton]; unfold cc0__min_kernel_skel
  unfold owns
  iintro ⟨⟨%f0, %hf0, H0⟩, ⟨%f1, %hf1, H1⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  iexists _; isplitr
  swap; · iexact H1
  ipureintro
  rw [read_store_whole0 _ _ offsets0, View.readAt_eq_ld, View.readAt_eq_ld, harg2.read_unread, harg3.read_unread,
    View.ld_unit_zero offsets0, View.ld_unit_zero offsets0]

-- The TensorCore buffers of core `c` as the region finds them.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running minimum -/

/-- What the output's staging buffer holds after the body at position `n`: at a cloud's first tile the tile's
    own minimum; at a later tile the minimum of what the tile before left and the tile's own. -/
def outsAt0 (c : Dev nD) : (n : ℕ) → n < cfg0.N → Vec F S1x1x3 .f32
  | 0, hn => k0_pay1 (iblk0 V c 0 ⟨0, hn⟩)
  | n + 1, hn =>
    if (n + 1) % 32 = 0 then k0_pay1 (iblk0 V c 0 ⟨n + 1, hn⟩)
    else k0_pay2 (iblk0 V c 0 ⟨n + 1, hn⟩) (outsAt0 c n (Nat.lt_of_succ_lt hn))

/-- At a cloud's first tile: the tile's minimum. -/
theorem outsAt0_first (c : Dev nD) (t : Fin cfg0.N) (h0 : t.val % 32 = 0) :
    outsAt0 V c t.val t.isLt = k0_pay1 (iblk0 V c 0 t) := by
  obtain ⟨n, hn⟩ := t
  cases n with
  | zero => rfl
  | succ n => exact (if_pos h0).trans rfl

/-- At a later tile: the minimum of the tile before's and the tile's own. -/
theorem outsAt0_next (c : Dev nD) (t : Fin cfg0.N) (h0 : ¬t.val % 32 = 0) :
    outsAt0 V c t.val t.isLt
      = k0_pay2 (iblk0 V c 0 t) (outsAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-- The body leaves the tile's buffer at the tile, the output's at the running minimum. -/
theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

/-- The tile's buffer holds the tile when the body runs: the window is an input, fetched at every point, never
    idle and never cut, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- At a later tile the output's buffer holds what the tile before left: the block is written back only after a
    cloud's last tile (the points ≡ 31 mod 32), so not at the point before one that is not ≡ 0; the window is
    never idle and never cut. -/
theorem before0_1_later (c : Dev nD) (t : Fin cfg0.N) (h0 : ¬t.val % 32 = 0) (d) :
    (dat0 V c).before 1 t d = outsAt0 V c (t.val - 1) (Nat.lt_of_le_of_lt (Nat.sub_le _ _) t.isLt) := by
  rw [Dat.before_out_kept _ 1 rfl t (by omega)
    (Bool.eq_false_iff.mpr fun h => by have := (flush0_1 _).mp h; dsimp only at this; omega)
    live0_1 (fun _ _ => rfl)]
  dsimp only [dat0]

/-! ## The body obligation -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 800000 in
/-- The body at any point. The tile's buffer holds the tile; the point is a cloud's first tile or a later one, and
    at a later one the output's buffer holds the running minimum up to the tile before; so the case's run applies.
    The invariant and what the core owes pass through unread; neither window is idle, so each buffer is handed back at
    what the body leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from by
      unfold Dat.leavesExact; rw [live0_1],
    after0_0, after0_1]
  by_cases h0 : t.val % 32 = 0
  · rw [outsAt0_first V c t h0]
    iintro ⟨HΦ, Ho, ⟨%d0, H0⟩, ⟨%d1, H1⟩⟩
    iapply (run0_first c Set.univ (grid0.coords t) _ _ _ _ ((first0_iff t).mpr h0) (fun h => (later0_iff t).mp h h0)
      (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [outsAt0_next V c t h0]
    simp only [before0_1_later V c t h0]
    iintro ⟨HΦ, Ho, ⟨%d0, H0⟩, ⟨%d1, H1⟩⟩
    iapply (run0_later c Set.univ (grid0.coords t) _ _ _ _ (fun h => h0 ((first0_iff t).mp h)) ((later0_iff t).mpr h0)
      (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Run1A.lean ====
/- The histogram kernel's body at the first row tile of a cloud: the whole output block is zeroed, then each of the
   eight chunks of 1024 voxel rows is read back and updated by that chunk's one-hot product. -/
import proofs.«157393_j34419867910943_1_alg».proof.Proof.Gen.KernelIdeal.Skeleton
import proofs.«157393_j34419867910943_1_alg».proof.Proof.Gen.KernelIdeal.Launch
import proofs.«157393_j34419867910943_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The reset condition -/

/-- The body's one branch: "the row-tile coordinate is 0", spelt as the body computes it from the grid point. -/
abbrev isFirstTile (i : grid1.Coords) : Prop :=
  (Scalar.cmpi .ne (Scalar.extui (Scalar.cmpi .eq (BitVec.ofNat 32 (i 1).val) 0#32)) 0#32) = 1#1

/-- A cloud has 128 row tiles, so the branch is taken exactly at the points that are multiples of 128. -/
theorem isFirstTile_iff : ∀ t : Fin cfg1.N, isFirstTile (grid1.coords t) ↔ t.val % 128 = 0 :=
  (by decide +kernel : ∀ t : Fin grid1.N, isFirstTile (grid1.coords t) ↔ t.val % 128 = 0)

/-! ## The body at a first tile -/

set_option maxHeartbeats 4000000 in
/-- At a first tile the output block may hold anything: the body overwrites it with zeros and then adds the eight
    chunk products, each chunk reading back what the stores before it left. The pieces the block ends with (last
    store first) come with the body's triple on whole staging buffers. -/
noncomputable def histRun_first (c : Dev nD) (i : grid1.Coords)
    (arg2 : Memref sig .tc .vmem S1x2048x3 .f32) (harg2 : arg2.IsWhole)
    (arg3 : Memref sig .tc .vmem S1x1x3 .f32) (harg3 : arg3.IsWhole)
    (arg4 : Memref sig .tc .vmem S1x8192x10 .f32) (harg4 : arg4.IsWhole) (hc0 : isFirstTile i)
    (x0 : Vec F S1x2048x3 .f32) (x1 : Vec F S1x1x3 .f32) :
    { L2 : List (View.Piece (Elt F) S1x8192x10 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Run1B.lean ====
/- The histogram kernel's body at a later row tile of a cloud: the output block holds what the tile before left, and
   each of the eight chunks of 1024 voxel rows is read and updated by that chunk's one-hot product. -/
import proofs.«157393_j34419867910943_1_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At a later tile nothing is reset: the block is read as the tile before left it (`xo`), chunk by chunk, and each
    chunk is stored back with its product added. The pieces the block ends with (last store first) come with the
    body's triple on whole staging buffers. -/
noncomputable def histRun_later (c : Dev nD) (i : grid1.Coords)
    (arg2 : Memref sig .tc .vmem S1x2048x3 .f32) (harg2 : arg2.IsWhole)
    (arg3 : Memref sig .tc .vmem S1x1x3 .f32) (harg3 : arg3.IsWhole)
    (arg4 : Memref sig .tc .vmem S1x8192x10 .f32) (harg4 : arg4.IsWhole) (hc0 : ¬isFirstTile i)
    (x0 : Vec F S1x2048x3 .f32) (x1 : Vec F S1x1x3 .f32) (xo : Vec F S1x8192x10 .f32) :
    { L2 : List (View.Piece (Elt F) S1x8192x10 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Frame1.lean ====
/- The histogram region (pallas_call 1): its proof data and body obligation. -/
import proofs.«157393_j34419867910943_1_alg».proof.Proof.Gen.KernelIdeal.Skeleton
import proofs.«157393_j34419867910943_1_alg».proof.Proof.Gen.KernelIdeal.Launch
import proofs.«157393_j34419867910943_1_alg».proof.Proof.Gen.KernelIdeal.Points
import proofs.«157393_j34419867910943_1_alg».proof.Proof.KI.Run1B
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The TensorCore buffers of core `c` as the region finds them.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The staging buffers the body is called with -/

/-- Each window's current staging buffer at point `t`, spelt as the pipeline passes it to the body, and its wholeness. -/
abbrev ms1_0 (t : Fin cfg1.N) : Memref sig .tc .vmem S1x2048x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x10 .f32 := win1_2.stage (cfg1.slots t 2)
abbrev hs1_2 (t : Fin cfg1.N) : (ms1_2 t).IsWhole := hstage1_2 ((cfg1.slots t 2).cast nbuf1_2)

/-- One staging buffer of the output window, through which its contents are stated (which one does not matter:
    the stores cover the block). -/
abbrev VO1_2 : View sig .tc .vmem S1x8192x10 .f32 := (Memref.whole cc1_stg2_0 : Memref sig .tc .vmem S1x8192x10 .f32).view

/-! ## What each case leaves in the output block -/

/-- At a first tile the eight chunk stores tile the block's 8192 rows in slabs of 1024 (the zeroing store before
    them covers it too), so the pieces cover it. -/
theorem cover1_A_2 (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : isFirstTile i) (x0 : Vec F S1x2048x3 .f32) (x1 : Vec F S1x1x3 .f32) (y : S1x8192x10.Idx) :
    ∃ pc ∈ (histRun_first c i arg2 harg2 arg3 harg3 arg4 harg4 hc0 x0 x1).1, y ∈ pc.1.set :=
  View.cover_of_tiledL (histRun_first c i arg2 harg2 arg3 harg3 arg4 harg4 hc0 x0 x1).1 S1x1024x10.size (by sl_kernel_rfl) y

/-- What a first tile leaves in the output block: its pieces read back over junk. -/
def out1_A_2 (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : isFirstTile i) (x0 : Vec F S1x2048x3 .f32) (x1 : Vec F S1x1x3 .f32) : Vec F S1x8192x10 .f32 :=
  VO1_2.read (Elt F) (VO1_2.writes (Elt F) VO1_2.junk (histRun_first c i arg2 harg2 arg3 harg3 arg4 harg4 hc0 x0 x1).1)

/-- At a later tile the eight chunk stores tile the block's 8192 rows in slabs of 1024, so they cover it. -/
theorem cover1_B_2 (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : ¬isFirstTile i) (x0 : Vec F S1x2048x3 .f32) (x1 : Vec F S1x1x3 .f32) (xo : Vec F S1x8192x10 .f32) (y : S1x8192x10.Idx) :
    ∃ pc ∈ (histRun_later c i arg2 harg2 arg3 harg3 arg4 harg4 hc0 x0 x1 xo).1, y ∈ pc.1.set :=
  View.cover_of_tiledL (histRun_later c i arg2 harg2 arg3 harg3 arg4 harg4 hc0 x0 x1 xo).1 S1x1024x10.size (by sl_kernel_rfl) y

/-- What a later tile leaves in the output block: its pieces read back over junk. -/
def out1_B_2 (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : ¬isFirstTile i) (x0 : Vec F S1x2048x3 .f32) (x1 : Vec F S1x1x3 .f32) (xo : Vec F S1x8192x10 .f32) : Vec F S1x8192x10 .f32 :=
  VO1_2.read (Elt F) (VO1_2.writes (Elt F) VO1_2.junk (histRun_later c i arg2 harg2 arg3 harg3 arg4 harg4 hc0 x0 x1 xo).1)

/-! ## The accumulation over a cloud's row tiles -/

/-- What the output's staging buffer holds after the body at position `n`: at the first tile of a cloud the reset
    block with the tile's sums added, at a later tile the block the tile before left with this tile's sums added. -/
def outsAt1 (c : Dev nD) : (n : ℕ) → n < cfg1.N → Vec F S1x8192x10 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((isFirstTile_iff ⟨0, hn⟩).mpr (Nat.zero_mod _)) (iblk1 V c 0 ⟨0, hn⟩) (iblk1 V c 1 ⟨0, hn⟩)
  | n + 1, hn =>
    if h0 : (n + 1) % 128 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((isFirstTile_iff ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((isFirstTile_iff ⟨n + 1, hn⟩).mp h)) (iblk1 V c 0 ⟨n + 1, hn⟩) (iblk1 V c 1 ⟨n + 1, hn⟩) (outsAt1 c n (Nat.lt_of_succ_lt hn))

/-- `outsAt1` at a first tile. -/
theorem outsAt1_A (c : Dev nD) (t : Fin cfg1.N) (h0 : t.val % 128 = 0) :
    outsAt1 V c t.val t.isLt = out1_A_2 c (grid1.coords t) (ms1_0 t) (hs1_0 t) (ms1_1 t) (hs1_1 t) (ms1_2 t) (hs1_2 t)
      ((isFirstTile_iff t).mpr h0) (iblk1 V c 0 t) (iblk1 V c 1 t) := by
  obtain ⟨n, hn⟩ := t
  cases n with
  | zero => exact rfl
  | succ n => exact (dif_pos h0).trans rfl

/-- `outsAt1` at a later tile: over what the tile before left. -/
theorem outsAt1_B (c : Dev nD) (t : Fin cfg1.N) (h0 : ¬t.val % 128 = 0) :
    outsAt1 V c t.val t.isLt = out1_B_2 c (grid1.coords t) (ms1_0 t) (hs1_0 t) (ms1_1 t) (hs1_1 t) (ms1_2 t) (hs1_2 t)
      (fun h => h0 ((isFirstTile_iff t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The region's proof data on core `c`: the arrays as the region finds them; after the body each input's buffer at
    its block and the output's at the running block `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- The points' block: fetched at every point, it is in the buffer when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The cloud's minimum corner: fetched at the cloud's first tile only; at the later tiles its block index has not
    moved and the body left the buffer as it was, so it is still there. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At a later tile the output's buffer holds what the body left at the tile before: the block is written back only
    after a cloud's last tile, so not between the two. -/
theorem before1_2_B (c : Dev nD) (t : Fin cfg1.N) (h0 : ¬t.val % 128 = 0) (d) :
    (dat1 V c).before 2 t d = outsAt1 V c (t.val - 1) (Nat.lt_of_le_of_lt (Nat.sub_le _ _) t.isLt) := by
  have hN : t.val < 1024 := lt_of_lt_of_eq t.isLt (show cfg1.N = 1024 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: both inputs' buffers hold their blocks; the point is a first tile or a later one; at a
    later one the output's buffer holds what the tile before left; so that case's run applies. The invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 1024 := lt_of_lt_of_eq t.isLt (show cfg1.N = 1024 from N_1)
  by_cases h0 : t.val % 128 = 0
  · rw [outsAt1_A V c t h0]
    unfold out1_A_2
    iintro ⟨HΦ, Ho, ⟨%d0, H0⟩, ⟨%d1, H1⟩, ⟨%d2, H2⟩⟩
    iapply ((histRun_first c (grid1.coords t) _ _ _ _ _ _ ((isFirstTile_iff t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((histRun_later c (grid1.coords t) _ _ _ _ _ _ (fun h => h0 ((isFirstTile_iff t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/- The launch of the idealized kernel program: @main is the minimum-corner region, the histogram region, then six
   stretches of host operations. Here: the buffer contents at every boundary between two of these items, as a fold
   from the launch memory; both regions as segments over the state "every unscoped buffer whole at the boundary's
   contents"; the six stretches as segments; the run of the whole list, ending with every unscoped buffer at the last
   boundary's contents; and the two argument arrays read back through the fold to the launch memory. -/
import proofs.«157393_j34419867910943_1_alg».proof.Proof.KI.Frame0
import proofs.«157393_j34419867910943_1_alg».proof.Proof.KI.Frame1
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- The same read at the TensorCore's references: the minimum-corner region's entry contents. -/
abbrev V0 : (c : Dev nD) → (b : Ref sig .tc) → Buf (Elt F) ((c : Thread nD τ).loc b) := fun c b => W0 m ρ c b

/-- After the minimum-corner region: its two arrays at what its write-backs leave (the point cloud as entered, the
    corner's array folded over the grid), every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: the histogram region's entry contents. -/
abbrev V1 : (c : Dev nD) → (b : Ref sig .tc) → Buf (Elt F) ((c : Thread nD τ).loc b) := fun c b => W1 m ρ c b
/-- At the first region's exit each of its arrays holds what the pipeline leaves, every other buffer what it held
    at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the histogram region: its three arrays at what its write-backs leave (the point cloud and the corner as
    entered, the per-voxel sums folded over the grid), every other buffer as before it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references: the histogram region's exit contents. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the per-voxel statistics' stretch (each voxel's mean and covariance as one table, the sampled indices as a column). -/
abbrev W3 : Dev nD → Valuation τ sig (Elt F) := fun c => StableHlo.after hostOps2 (W2 m ρ c)
/-- After the gather of the sampled points. -/
abbrev W4 : Dev nD → Valuation τ sig (Elt F) := fun c => StableHlo.after hostOps2_1 (W3 m ρ c)
/-- After the sampled points' cell coordinates. -/
abbrev W5 : Dev nD → Valuation τ sig (Elt F) := fun c => StableHlo.after hostOps2_2 (W4 m ρ c)
/-- After the clamp of the cell coordinates. -/
abbrev W6 : Dev nD → Valuation τ sig (Elt F) := fun c => StableHlo.after hostOps2_3 (W5 m ρ c)
/-- After the flat voxel index. -/
abbrev W7 : Dev nD → Valuation τ sig (Elt F) := fun c => StableHlo.after hostOps2_4 (W6 m ρ c)
/-- After the gather of the voxels' statistics. -/
abbrev W8 : Dev nD → Valuation τ sig (Elt F) := fun c => StableHlo.after hostOps2_5 (W7 m ρ c)

/-! ## No host stretch allocates a buffer, and none writes an argument -/

theorem hostOps2_fresh : (hostOps2 : List (HloOp τ sig (Elt F))).Forall fun op => op.fresh = ∅ := by
  simp only [List.Forall]; repeat' constructor
/-- The two argument arrays are no result of the per-voxel statistics' stretch (each voxel's mean and covariance as one table, the sampled indices as a column). -/
theorem hostOps2_arg (V : Valuation τ sig (Elt F)) (r : Ref sig .tc) (hr : r = main_arg0 ∨ r = main_arg1) :
    StableHlo.after hostOps2 V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))
theorem hostOps2_1_fresh : (hostOps2_1 : List (HloOp τ sig (Elt F))).Forall fun op => op.fresh = ∅ := by
  simp only [List.Forall]; repeat' constructor
/-- The two argument arrays are no result of the gather of the sampled points. -/
theorem hostOps2_1_arg (V : Valuation τ sig (Elt F)) (r : Ref sig .tc) (hr : r = main_arg0 ∨ r = main_arg1) :
    StableHlo.after hostOps2_1 V (Proc.devRef .tc r) = V (Proc.devRef .tc r) :=
  StableHlo.after_of_forall_not_mem (b := Proc.devRef .tc r) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))
theorem hostOps2_2_fresh : (hostOps2_2 : List (HloOp τ sig (Elt F))).Forall fun op => op.fresh = ∅ := by
  simp only [List.Forall]; repeat' constructor
/-- The two argument arrays are no result of the sampled points' cell coordinates. -/
theorem hostOps2_2_arg (V : Valuation τ sig (Elt F)) (r : Ref sig .tc) (hr : r = main_arg0 ∨ r = main_arg1) :
    StableHlo.after hostOps2_2 V (Proc.devRef .tc r) = V (Proc.devRef .tc r) :=
  StableHlo.after_of_forall_not_mem (b := Proc.devRef .tc r) _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))
theorem hostOps2_3_fresh : (hostOps2_3 : List (HloOp τ sig (Elt F))).Forall fun op => op.fresh = ∅ := by
  simp only [List.Forall]; repeat' constructor
/-- The two argument arrays are no result of the clamp of the cell coordinates. -/
theorem hostOps2_3_arg (V : Valuation τ sig (Elt F)) (r : Ref sig .tc) (hr : r = main_arg0 ∨ r = main_arg1) :
    StableHlo.after hostOps2_3 V (Proc.devRef .tc r) = V (Proc.devRef .tc r) :=
  StableHlo.after_of_forall_not_mem (b := Proc.devRef .tc r) _ _ (List.forall_iff_forall_mem.mp (by
    simp only [hostOps2_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))
theorem hostOps2_4_fresh : (hostOps2_4 : List (HloOp τ sig (Elt F))).Forall fun op => op.fresh = ∅ := by
  simp only [List.Forall]; repeat' constructor
/-- The two argument arrays are no result of the flat voxel index. -/
theorem hostOps2_4_arg (V : Valuation τ sig (Elt F)) (r : Ref sig .tc) (hr : r = main_arg0 ∨ r = main_arg1) :
    StableHlo.after hostOps2_4 V (Proc.devRef .tc r) = V (Proc.devRef .tc r) :=
  StableHlo.after_of_forall_not_mem (b := Proc.devRef .tc r) _ _ (List.forall_iff_forall_mem.mp (by
    simp only [hostOps2_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))
theorem hostOps2_5_fresh : (hostOps2_5 : List (HloOp τ sig (Elt F))).Forall fun op => op.fresh = ∅ := by
  simp only [List.Forall]; repeat' constructor
/-- The two argument arrays are no result of the gather of the voxels' statistics. -/
theorem hostOps2_5_arg (V : Valuation τ sig (Elt F)) (r : Ref sig .tc) (hr : r = main_arg0 ∨ r = main_arg1) :
    StableHlo.after hostOps2_5 V (Proc.devRef .tc r) = V (Proc.devRef .tc r) :=
  StableHlo.after_of_forall_not_mem (b := Proc.devRef .tc r) _ _ (List.forall_iff_forall_mem.mp (by
    simp only [hostOps2_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hr with rfl | rfl <;> decide)))

/-! ## The arguments end as launched

No host stretch writes an argument. The point cloud is an input window of both regions (an input's array is never
written back), the sampled indices are no window of either. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := hostOps2_5_arg _ _ (.inl rfl)
    _ = W6 m ρ c (Proc.devRef .tc main_arg0) := hostOps2_4_arg _ _ (.inl rfl)
    _ = W5 m ρ c (Proc.devRef .tc main_arg0) := hostOps2_3_arg _ _ (.inl rfl)
    _ = W4 m ρ c (Proc.devRef .tc main_arg0) := hostOps2_2_arg _ _ (.inl rfl)
    _ = W3 m ρ c (Proc.devRef .tc main_arg0) := hostOps2_1_arg _ _ (.inl rfl)
    _ = W2 m ρ c (Proc.devRef .tc main_arg0) := hostOps2_arg _ _ (.inl rfl)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := hostOps2_5_arg _ _ (.inr rfl)
    _ = W6 m ρ c (Proc.devRef .tc main_arg1) := hostOps2_4_arg _ _ (.inr rfl)
    _ = W5 m ρ c (Proc.devRef .tc main_arg1) := hostOps2_3_arg _ _ (.inr rfl)
    _ = W4 m ρ c (Proc.devRef .tc main_arg1) := hostOps2_2_arg _ _ (.inr rfl)
    _ = W3 m ρ c (Proc.devRef .tc main_arg1) := hostOps2_1_arg _ _ (.inr rfl)
    _ = W2 m ρ c (Proc.devRef .tc main_arg1) := hostOps2_arg _ _ (.inr rfl)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-- The last host segment's exit state is the last thread state beside the core owing nothing. -/
theorem last_state (c : Dev nD) :
    iprop(StableHlo.held (c : Thread nD τ) (Pipeline.ucRefs τ sig) (W8 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The minimum-corner region over the thread state: entered from every unscoped buffer at `W0`, left at `W1`.
    Its arrays are split out of the unscoped buffers at entry and put back at the exit contents; the generator
    register goes into the region's invariant and comes back; nothing is owed; the kernel has no semaphore of its
    own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The histogram region over the thread state: entered from every unscoped buffer at `W1`, left at `W2`.
    Its arrays are split out of the unscoped buffers at entry and put back at the exit contents; the generator
    register goes into the region's invariant and comes back; nothing is owed; the kernel has no semaphore of its
    own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: the two regions, then a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)),
    .host (hseg hostOps2_3 hostOps2_3_sub hostOps2_3_fresh (W5 m ρ)),
    .host (hseg hostOps2_4 hostOps2_4_sub hostOps2_4_fresh (W6 m ρ)),
    .host (hseg hostOps2_5 hostOps2_5_sub hostOps2_5_fresh (W7 m ρ)) ]

/-- @main is the run of the segments: its chain of items, against which the segments' run is checked by unfolding. -/
theorem main_run (c : Dev nD) : main (F := F) c = Pipeline.Seg.run (segs m ρ) := (main_chain c).trans (by chain_rfl)

set_option backward.isDefEq.respectTransparency.types false in
/-- The launch over the segments, for any claim that follows from the final memory holding every unscoped buffer
    at the last boundary's contents: from any memory with zero counters, every weakly fair execution of @main on
    the TensorCores terminates, nothing faulting, and every final state satisfies the claim. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => hQ s h)

/-- THE RUN: every final state holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  run_post m ρ fun s h => h

/-- THE FRAME: every execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_post m ρ fun s h c =>
    ⟨(h c _ (mem_uc main_arg0 (by decide))).trans (W8_main_arg0 m ρ c),
     (h c _ (mem_uc main_arg1 (by decide))).trans (W8_main_arg1 m ρ c)⟩

end Cert.KernelIdeal.Hand

end
-- ==== Proof.Spec.lean ====
/-
  The voxel statistics, as plain mathematics on the extended reals.

  A cloud is `x : [8, 262144, 3]`. Its minimum corner is the coordinate-wise minimum over the points. A point falls in the
  cell `clamp(⌊(p_j − c_j) / h⌋, 0, 19)` along axis `j`, `h` the spacing, and in the voxel `(cell₀ · 20 + cell₁) · 20 + cell₂`.
  Per cloud and voxel: the number of its points, the sum of each coordinate, the sum of each product of two coordinates;
  from these the mean `s1 / max(count, 1)` and the second central moment `s2 / max(count, 1) − mean_i · mean_j`.
  The result at `(b, m, ·)` is the twelve numbers `[mean, moment]` of the voxel a given point `sp (b, m, ·)` falls in.
-/
import Idealize.ShloMosaic.PureOps.Ideal
import Idealize.ShloMosaic.Lib.ValueIdx

noncomputable section

open scoped BigOperators

namespace Cert.Voxel

open Idealize.ShloMosaic Idealize.ShloMosaic.ValueIdx

/-- The clouds' shape, the sampled points' shape, the result's shape. -/
abbrev Sx : Shape := ⟨3, ![8, 262144, 3]⟩
abbrev Sp : Shape := ⟨3, ![8, 4096, 3]⟩
abbrev So : Shape := ⟨3, ![8, 4096, 12]⟩

/-- The spacing: the binary value of the literal `0.05`. -/
def h : EReal := Ideal.ofBits .f32 0x3D4CCCCD#32

/-- The minimum corner of cloud `b` along axis `j`. -/
def minc (x : Sx.Idx → EReal) (b : Fin 8) (j : Fin 3) : EReal :=
  Finset.univ.inf fun n : Fin 262144 => x (ix3 b n j)

/-- The cell of a displacement `d` along one axis: `⌊d / h⌋` as a signed word, clamped into `[0, 19]`. -/
def cell (d : EReal) : BitVec 32 :=
  IntOp.minsi 19#32 (IntOp.maxsi 0#32 (Ideal.fptosi 32 (Ideal.liftRound Int.floor (Ideal.div d h))))

/-- The voxel word of a point `p` against a corner `c`. -/
def flat (p c : Fin 3 → EReal) : BitVec 32 :=
  IntOp.addi (IntOp.muli (IntOp.addi (IntOp.muli (cell (p 0 - c 0)) 20#32) (cell (p 1 - c 1))) 20#32) (cell (p 2 - c 2))

/-- The voxel word of point `n` of cloud `b`. -/
def vox (x : Sx.Idx → EReal) (b : Fin 8) (n : Fin 262144) : BitVec 32 :=
  flat (fun j => x (ix3 b n j)) (minc x b)

/-- How many points of cloud `b` fall in voxel `v`. -/
def cnt (x : Sx.Idx → EReal) (b : Fin 8) (v : BitVec 32) : EReal :=
  ∑ n : Fin 262144, if vox x b n = v then (1 : EReal) else 0

/-- The sum of coordinate `i` over the points of cloud `b` in voxel `v`. -/
def s1 (x : Sx.Idx → EReal) (b : Fin 8) (v : BitVec 32) (i : Fin 3) : EReal :=
  ∑ n : Fin 262144, if vox x b n = v then x (ix3 b n i) else 0

/-- The sum of the product of coordinates `i` and `j` over the points of cloud `b` in voxel `v`. -/
def s2 (x : Sx.Idx → EReal) (b : Fin 8) (v : BitVec 32) (i j : Fin 3) : EReal :=
  ∑ n : Fin 262144, if vox x b n = v then x (ix3 b n i) * x (ix3 b n j) else 0

/-- The divisor: the count, or one for an empty voxel. -/
def cntc (x : Sx.Idx → EReal) (b : Fin 8) (v : BitVec 32) : EReal := max (cnt x b v) 1

/-- The mean of coordinate `i`. -/
def mean (x : Sx.Idx → EReal) (b : Fin 8) (v : BitVec 32) (i : Fin 3) : EReal :=
  Ideal.div (s1 x b v i) (cntc x b v)

/-- The second central moment of coordinates `i`, `j`. -/
def cov (x : Sx.Idx → EReal) (b : Fin 8) (v : BitVec 32) (i j : Fin 3) : EReal :=
  Ideal.div (s2 x b v i j) (cntc x b v) - mean x b v i * mean x b v j

/-- The twelve numbers of a voxel: the mean, then the moments row by row. -/
def dist (x : Sx.Idx → EReal) (b : Fin 8) (v : BitVec 32) (k : Fin 12) : EReal :=
  if hk : k.val < 3 then mean x b v ⟨k.val, hk⟩
  else cov x b v ⟨(k.val - 3) / 3, by omega⟩ ⟨(k.val - 3) % 3, Nat.mod_lt _ (by decide)⟩

/-- The result: at `(b, m, k)`, number `k` of the voxel the point `sp (b, m, ·)` falls in. -/
def G (x : Sx.Idx → EReal) (sp : Sp.Idx → EReal) : So.Idx → EReal := fun i =>
  dist x (i 0) (flat (fun j => sp (ix3 (i 0) (i 1) j)) (minc x (i 0))) (i 2)

/-- The ten accumulated features of a voxel, in the order the histogram keeps them: the count, the three sums, the six
    sums of products `(0,0) (0,1) (0,2) (1,1) (1,2) (2,2)`. -/
def hist (x : Sx.Idx → EReal) (b : Fin 8) (v : BitVec 32) (f : Fin 10) : EReal :=
  match f with
  | ⟨0, _⟩ => cnt x b v
  | ⟨1, _⟩ => s1 x b v 0
  | ⟨2, _⟩ => s1 x b v 1
  | ⟨3, _⟩ => s1 x b v 2
  | ⟨4, _⟩ => s2 x b v 0 0
  | ⟨5, _⟩ => s2 x b v 0 1
  | ⟨6, _⟩ => s2 x b v 0 2
  | ⟨7, _⟩ => s2 x b v 1 1
  | ⟨8, _⟩ => s2 x b v 1 2
  | ⟨9, _⟩ => s2 x b v 2 2
  | ⟨_ + 10, hf⟩ => absurd hf (by omega)

/-- Where the histogram keeps the sum of products of coordinates `i` and `j`, `i ≤ j`: features 4 … 9 in the order
    `(0,0) (0,1) (0,2) (1,1) (1,2) (2,2)`; a pair given in the other order is read at its transpose. -/
def pairIx (i j : Fin 3) : Fin 10 :=
  match min i j, max i j with
  | ⟨0, _⟩, ⟨0, _⟩ => 4
  | ⟨0, _⟩, ⟨1, _⟩ => 5
  | ⟨0, _⟩, ⟨2, _⟩ => 6
  | ⟨1, _⟩, ⟨1, _⟩ => 7
  | ⟨1, _⟩, ⟨2, _⟩ => 8
  | _, _ => 9

/-- The twelve numbers of a voxel from its ten accumulated features `a` (count, three sums, six sums of products): the
    means `a (1 + i) / max (a 0) 1`, then for each `(i, j)` the moment kept for the pair `(min i j, max i j)`. -/
def distOf (a : Fin 10 → EReal) (k : Fin 12) : EReal :=
  if hk : k.val < 3 then Ideal.div (a ⟨1 + k.val, by omega⟩) (max (a 0) 1)
  else
    Ideal.div (a (pairIx ⟨(k.val - 3) / 3, by omega⟩ ⟨(k.val - 3) % 3, Nat.mod_lt _ (by decide)⟩)) (max (a 0) 1)
      - Ideal.div (a ⟨1 + (min ((k.val - 3) / 3) ((k.val - 3) % 3)), by omega⟩) (max (a 0) 1)
        * Ideal.div (a ⟨1 + (max ((k.val - 3) / 3) ((k.val - 3) % 3)), by omega⟩) (max (a 0) 1)

end Cert.Voxel

end
-- ==== Proof.KI.ValMin.lean ====
/-
  The value of the minimum-corner region: after it, the output array `[8, 1, 3]` holds, at `(b, 0, j)`, the
  minimum over the points `n` of cloud `b` of the coordinate `x (b, n, j)`.

  The region's grid is 8 clouds by 32 tiles of 8192 rows, the tile index the fast one: point `t` is tile
  `t % 32` of cloud `t / 32`. At a cloud's first tile the body leaves the tile's coordinate-wise minimum over
  its rows; at a later tile the minimum of what the tile before left and the tile's own; the block is written
  back to row `t / 32` of the output after the cloud's last tile.

  1. Read at an index over the extended reals, the first payload is the infimum of the tile's rows
     (`pay1_apply`: a reduction by `min` from `+∞ = ⊤` over one axis is a `Finset.inf`), the second the minimum of
     the block it finds and that infimum (`pay2_apply`).
  2. A family that starts at the first payload at the multiples of 32 and steps by the second elsewhere has, as
     its lower bounds after tile `k` of cloud `q`, exactly the lower bounds of every row of the tiles `0 … k` of
     that cloud (`le_chain_iff`, by induction on `k`); so it is the infimum over those tiles and rows
     (`chain_eq_inf`). A minimum is carried throughout by this universal property.
  3. The input block at point `t` is rows `8192 · (t % 32) + r` of cloud `t / 32` (`iblk0_apply`); a point
     `n < 262144` of a cloud is row `n % 8192` of tile `n / 8192`, so after the last tile the chain holds the
     cloud's minimum corner (`outs_last`). The points that write back are the clouds' last tiles, each writes row
     `t / 32` of the one array `(b, 0, j) ↦ minc x b j` (`flushed_eq`), and these rows cover the array (`cover`):
     the array ends holding it (`arr0_eq`).
-/
import proofs.«157393_j34419867910943_1_alg».proof.Proof.KI.Frame0
import proofs.«157393_j34419867910943_1_alg».proof.Proof.Spec
import Idealize.ShloMosaic.Lib.Pipeline.Value
import Idealize.ShloMosaic.PureOps.Ideal.Laws
import Idealize.ShloMosaic.PureOps.Reduce
import Idealize.ShloMosaic.Lib.ValueIdx
import Mathlib.Order.Basic
import Mathlib.Order.MinMax
import Mathlib.Data.Finset.Fold
import Mathlib.Data.Finset.Lattice.Fold
import Mathlib.Data.EReal.Basic

set_option maxRecDepth 16384

noncomputable section

namespace Cert.KernelIdeal.HandV.Min

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-! ## The payloads at an index -/

/-- The fold of `min` from `⊤` over a finite set is the infimum. -/
theorem fold_min_top {ι : Type} (s : Finset ι) (f : ι → EReal) : s.fold min ⊤ f = s.inf f :=
  eq_of_forall_le_iff fun c => by rw [Finset.le_fold_min, Finset.le_inf_iff]; simp

/-- The reduction's initial value, the pattern of `+∞`, is `⊤`. -/
theorem top_f32 : Ideal.ofBits .f32 0x7F800000#32 = ⊤ := by rfl

/-- The tile's index over `(0, j)` with row `r` inserted is `(0, r, j)`. -/
theorem lift_row (j : Fin 3) (r : Fin 8192) : reduces_S1x8192x3_S1x3.lift (ix2 0 j) r = ix3 0 r j := by
  funext a
  apply Fin.ext
  match a with
  | ⟨0, _⟩ => rfl
  | ⟨1, _⟩ => rfl
  | ⟨2, _⟩ => rfl

/-- The first payload along axis `j`: the infimum of the tile's rows. -/
theorem pay1_apply (x0 : Vec Ideal S1x8192x3 .f32) (j : Fin 3) :
    k0_pay1 (F := Ideal) x0 (ix3 0 0 j) = Finset.univ.inf fun r : Fin 8192 => x0 (ix3 0 r j) := by
  delta k0_pay1
  dsimp only
  rw [shapeCast_apply _ _ (ix3 0 0 j) (ix2 0 j) (by
    rw [Shape.rowMajor_val_two, Shape.rowMajor_val_three]
    show 0 * 3 + j.val = (0 * 1 + 0) * 3 + j.val
    omega)]
  refine (multiReduction_minimumf_eq_fold (F := Ideal) (φ := .f32) (x0 : FVec Ideal S1x8192x3 .f32) _ reduces_S1x8192x3_S1x3 _ _ (ix2 0 j)).trans ?_
  rw [reduces_S1x8192x3_S1x3.fold_filter_drop_single]
  show Finset.fold min (Ideal.ofBits .f32 0x7F800000#32) _ _ = _
  rw [top_f32, fold_min_top]
  refine Finset.inf_congr rfl fun r _ => ?_
  exact congrArg x0 (lift_row j r)

/-- The second payload along axis `j`: the minimum of the block found and the infimum of the tile's rows. -/
theorem pay2_apply (x0 : Vec Ideal S1x8192x3 .f32) (o : Vec Ideal S1x1x3 .f32) (j : Fin 3) :
    k0_pay2 (F := Ideal) x0 o (ix3 0 0 j) = min (o (ix3 0 0 j)) (Finset.univ.inf fun r : Fin 8192 => x0 (ix3 0 r j)) := by
  delta k0_pay2
  rw [minimumf_apply, shapeCast_self, pay1_apply]

/-! ## The chain of minima across a cloud's tiles, as a statement about any family of blocks -/

section Fold

variable {N : ℕ} (o : (n : ℕ) → n < N → Vec Ideal S1x1x3 .f32) (blk : (n : ℕ) → n < N → Vec Ideal S1x8192x3 .f32)

/-- The family at equal positions. -/
theorem o_congr {n n' : ℕ} (h : n < N) (h' : n' < N) (e : n = n') : o n h = o n' h' := by
  subst e; rfl

/-- A lower bound of what the chain holds after tile `k` of cloud `q` is a lower bound of every row of the tiles `0 … k`. -/
theorem le_chain_iff
    (hfirst : ∀ (t : ℕ) (ht : t < N), t % 32 = 0 → o t ht = k0_pay1 (F := Ideal) (blk t ht))
    (hnext : ∀ (t : ℕ) (ht : t < N), ¬ t % 32 = 0 →
      o t ht = k0_pay2 (F := Ideal) (blk t ht) (o (t - 1) (Nat.lt_of_le_of_lt (Nat.sub_le _ _) ht)))
    (j : Fin 3) (c : EReal) (q : ℕ) : ∀ (k : ℕ) (hk : k < 32) (ht : 32 * q + k < N),
    c ≤ o (32 * q + k) ht (ix3 0 0 j)
      ↔ ∀ (k' : ℕ) (hk' : k' ≤ k) (r : Fin 8192), c ≤ blk (32 * q + k') (by omega) (ix3 0 r j)
  | 0, hk, ht => by
    rw [hfirst _ ht (by omega), pay1_apply, Finset.le_inf_iff]
    constructor
    · intro h k' hk' r
      obtain rfl : k' = 0 := by omega
      exact h r (Finset.mem_univ _)
    · intro h r _
      exact h 0 le_rfl r
  | k + 1, hk, ht => by
    have ih := le_chain_iff hfirst hnext j c q k (by omega) (by omega)
    rw [hnext _ ht (by omega), pay2_apply, le_min_iff, Finset.le_inf_iff,
      o_congr o (n' := 32 * q + k) _ (by omega) (by omega), ih]
    constructor
    · rintro ⟨h1, h2⟩ k' hk' r
      by_cases hk'' : k' ≤ k
      · exact h1 k' hk'' r
      · obtain rfl : k' = k + 1 := by omega
        exact h2 r (Finset.mem_univ _)
    · intro h
      exact ⟨fun k' hk' r => h k' (by omega) r, fun r _ => h (k + 1) le_rfl r⟩

/-- So after point `t` the chain holds, along axis `j`, the minimum over the tiles of `t`'s cloud up to `t`'s and their rows. -/
theorem chain_eq_inf
    (hfirst : ∀ (t : ℕ) (ht : t < N), t % 32 = 0 → o t ht = k0_pay1 (F := Ideal) (blk t ht))
    (hnext : ∀ (t : ℕ) (ht : t < N), ¬ t % 32 = 0 →
      o t ht = k0_pay2 (F := Ideal) (blk t ht) (o (t - 1) (Nat.lt_of_le_of_lt (Nat.sub_le _ _) ht)))
    (j : Fin 3) (t : ℕ) (ht : t < N) :
    o t ht (ix3 0 0 j) = (Finset.univ : Finset (Fin (t % 32 + 1))).inf fun k =>
      Finset.univ.inf fun r : Fin 8192 => blk (32 * (t / 32) + k.val) (by have := k.isLt; omega) (ix3 0 r j) := by
  refine eq_of_forall_le_iff fun c => ?_
  rw [o_congr o (n' := 32 * (t / 32) + t % 32) ht (by omega) (by omega),
    le_chain_iff o blk hfirst hnext j c (t / 32) (t % 32) (Nat.mod_lt _ (by decide)) (by omega), Finset.le_inf_iff]
  constructor
  · intro h k _
    rw [Finset.le_inf_iff]
    intro r _
    exact h k.val (by have := k.isLt; omega) r
  · intro h k' hk' r
    exact (Finset.le_inf_iff.mp (h ⟨k', by omega⟩ (Finset.mem_univ _))) r (Finset.mem_univ _)

end Fold

/-! ## The export: the output array after the region -/

section Export

variable (V : (c : Dev nD) → (b : Ref sig .tc) → Buf (Elt Ideal) ((c : Thread nD τ).loc b))

/-- Where the two windows' blocks sit at point `t`: cloud `t / 32`, tile `t % 32` of the input; row `t / 32` of the output. -/
theorem idx_facts : ∀ t : Fin cfg0.N,
    win0_0.index t 0 = t.val / 32 ∧ win0_0.index t 1 = t.val % 32 ∧ win0_0.index t 2 = 0
    ∧ win0_1.index t 0 = t.val / 32 ∧ win0_1.index t 1 = 0 ∧ win0_1.index t 2 = 0 :=
  (by decide +kernel : ∀ t : Fin grid0.N,
    win0_0.index t 0 = t.val / 32 ∧ win0_0.index t 1 = t.val % 32 ∧ win0_0.index t 2 = 0
    ∧ win0_1.index t 0 = t.val / 32 ∧ win0_1.index t 1 = 0 ∧ win0_1.index t 2 = 0)

/-- The input block at point `t` is rows `8192 · (t % 32) …` of cloud `t / 32`. -/
theorem iblk0_apply (c : Dev nD) (t : Fin cfg0.N) (y : S1x8192x3.Idx) (k : S8x262144x3.Idx)
    (hk0 : (k 0).val = t.val / 32) (hk1 : (k 1).val = 8192 * (t.val % 32) + (y 1).val) (hk2 : (k 2).val = (y 2).val) :
    (iblk0 V c 0 t : Vec Ideal S1x8192x3 .f32) y = (V c main_arg0 : S8x262144x3.Idx → EReal) k := by
  obtain ⟨h0, h1, h2, -, -, -⟩ := idx_facts t
  have hy0 : (y 0).val < 1 := (y 0).isLt
  unfold iblk0
  rw [View.read_apply]
  show V c main_arg0 _ = V c main_arg0 _
  congr 1
  funext a
  apply Fin.ext
  match a with
  | ⟨0, _⟩ => show win0_0.index t 0 * 1 + 1 * (y 0).val = (k 0).val; rw [h0, hk0]; omega
  | ⟨1, _⟩ => show win0_0.index t 1 * 8192 + 1 * (y 1).val = (k 1).val; rw [h1, hk1]; omega
  | ⟨2, _⟩ => show win0_0.index t 2 * 3 + 1 * (y 2).val = (k 2).val; rw [h2, hk2]; omega

/-- A lower bound of a cloud's minimum corner along an axis is a lower bound of every point's coordinate there. -/
theorem le_minc_iff (x : Cert.Voxel.Sx.Idx → EReal) (b : Fin 8) (j : Fin 3) (c' : EReal) :
    c' ≤ Cert.Voxel.minc x b j ↔ ∀ n : Fin 262144, c' ≤ x (ix3 b n j) := by
  show c' ≤ Finset.univ.inf _ ↔ _
  rw [Finset.le_inf_iff]
  exact ⟨fun h n => h n (Finset.mem_univ _), fun h n _ => h n⟩

/-- What the chain holds after the last tile of a cloud: along each axis, the cloud's minimum corner. -/
theorem outs_last (c : Dev nD) (t : Fin cfg0.N) (h31 : t.val % 32 = 31) (b : Fin 8) (hb : b.val = t.val / 32) (j : Fin 3) :
    (outsAt0 V c t.val t.isLt : Vec Ideal S1x1x3 .f32) (ix3 0 0 j) = Cert.Voxel.minc (V c main_arg0) b j := by
  have hN : cfg0.N = 256 := N_0
  have ht := t.isLt
  refine eq_of_forall_le_iff fun c' => ?_
  rw [le_minc_iff, o_congr (outsAt0 V c) (n' := 32 * b.val + 31) t.isLt (by omega) (by omega),
    le_chain_iff (outsAt0 V c) (fun n h => (iblk0 V c 0 ⟨n, h⟩ : Vec Ideal S1x8192x3 .f32))
      (fun t ht h => outsAt0_first V c ⟨t, ht⟩ h) (fun t ht h => outsAt0_next V c ⟨t, ht⟩ h) j c' b.val 31 (by omega) (by omega)]
  constructor
  · intro h n
    have hn := n.isLt
    have := h (n.val / 8192) (by omega) ⟨n.val % 8192, Nat.mod_lt _ (by decide)⟩
    rw [iblk0_apply V c ⟨32 * b.val + n.val / 8192, by omega⟩ _ (ix3 b n j)
      (by show b.val = (32 * b.val + n.val / 8192) / 32; omega)
      (by show n.val = 8192 * ((32 * b.val + n.val / 8192) % 32) + n.val % 8192; omega) rfl] at this
    exact this
  · intro h k' hk' r
    have hr := r.isLt
    rw [iblk0_apply V c ⟨32 * b.val + k', by omega⟩ _ (ix3 b ⟨8192 * k' + r.val, by omega⟩ j)
      (by show b.val = (32 * b.val + k') / 32; omega)
      (by show 8192 * k' + r.val = 8192 * ((32 * b.val + k') % 32) + r.val; omega) rfl]
    exact h _

/-- What a point that writes back writes, for any `g` the chain ends at: row `t / 32` of the array `(b, 0, j) ↦ g b j`. -/
theorem flushed_eq_of (c : Dev nD) (g : Fin 8 → Fin 3 → EReal)
    (hg : ∀ t : Fin cfg0.N, t.val % 32 = 31 → ∀ b : Fin 8, b.val = t.val / 32 → ∀ j : Fin 3,
      (outsAt0 V c t.val t.isLt : Vec Ideal S1x1x3 .f32) (ix3 0 0 j) = g b j)
    (t : Fin cfg0.N) (hf : (cfg0.win 1).flush t = true) :
    (dat0 V c).flushed 1 t = ((cfg0.win 1).blk t).view.read (Elt Ideal)
      ((fun i : S8x1x3.Idx => g ⟨(i 0).val, (i 0).isLt⟩ ⟨(i 2).val, (i 2).isLt⟩) : Buf (Elt Ideal) ((c : Thread nD τ).loc main_v0)) := by
  have hN : cfg0.N = 256 := N_0
  have ht := t.isLt
  have h31 : t.val % 32 = 31 := (flush0_1 t).mp hf
  obtain ⟨-, -, -, h0, h1, h2⟩ := idx_facts t
  show (cfg0.win 1).cut (grid0.coords t) ((dat0 V c).after 1 t) = _
  rw [after0_1]
  funext y
  rw [View.read_apply]
  have hy0 : (y 0).val < 1 := (y 0).isLt
  have hy1 : (y 1).val < 1 := (y 1).isLt
  have hy2 : (y 2).val < 3 := (y 2).isLt
  have e := hg t h31 ⟨t.val / 32, by omega⟩ rfl ⟨(y 2).val, hy2⟩
  refine Eq.trans ?_ (e.trans ?_)
  · show (outsAt0 V c t.val t.isLt : Vec Ideal S1x1x3 .f32) _ = (outsAt0 V c t.val t.isLt : Vec Ideal S1x1x3 .f32) _
    congr 1
    funext a
    apply Fin.ext
    match a with
    | ⟨0, _⟩ => show (y 0).val = 0; omega
    | ⟨1, _⟩ => show (y 1).val = 0; omega
    | ⟨2, _⟩ => rfl
  · show g _ _ = g _ _
    congr 1
    · apply Fin.ext
      show t.val / 32 = win0_1.index t 0 * 1 + 1 * (y 0).val
      rw [h0]; omega
    · apply Fin.ext
      show (y 2).val = win0_1.index t 2 * 3 + 1 * (y 2).val
      rw [h2]; omega

/-- The output array after the region, as a function of the input array: row `b` holds cloud `b`'s minimum corner. -/
def G0 (c : Dev nD) : Buf (Elt Ideal) ((c : Thread nD τ).loc main_v0) :=
  fun i : S8x1x3.Idx => Cert.Voxel.minc (V c main_arg0) ⟨(i 0).val, (i 0).isLt⟩ ⟨(i 2).val, (i 2).isLt⟩

/-- What a point that writes back writes: its row of that array. -/
theorem flushed_eq (c : Dev nD) (t : Fin cfg0.N) (hf : (cfg0.win 1).flush t = true) :
    (dat0 V c).flushed 1 t = ((cfg0.win 1).blk t).view.read (Elt Ideal) (G0 V c) :=
  flushed_eq_of V c (Cert.Voxel.minc (V c main_arg0)) (fun t h31 b hb j => outs_last V c t h31 b hb j) t hf

/-- Row `b` of the output array lies in the block the last tile of cloud `b` writes back. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 256 := N_0
  have hi0 : (i 0 : Nat) < 8 := (i 0).isLt
  have hi1 : (i 1 : Nat) < 1 := (i 1).isLt
  have hi2 : (i 2 : Nat) < 3 := (i 2).isLt
  obtain ⟨t, ht⟩ : ∃ t : Fin cfg0.N, t.val = 32 * (i 0 : Nat) + 31 := ⟨⟨32 * (i 0 : Nat) + 31, by omega⟩, rfl⟩
  refine ⟨t, (flush0_1 t).mpr (by omega), ?_⟩
  obtain ⟨-, -, -, h0, h1, h2⟩ := idx_facts t
  show i ∈ ((View.whole main_v0).slice (win0_1.rect t)).set
  rw [View.set_slice_whole, Rect.mem_set_unit]
  intro a
  match a with
  | ⟨0, _⟩ =>
    show win0_1.index t 0 * 1 ≤ (i 0 : Nat) ∧ (i 0 : Nat) < win0_1.index t 0 * 1 + 1
    rw [h0]; omega
  | ⟨1, _⟩ =>
    show win0_1.index t 1 * 1 ≤ (i 1 : Nat) ∧ (i 1 : Nat) < win0_1.index t 1 * 1 + 1
    rw [h1]; omega
  | ⟨2, _⟩ =>
    show win0_1.index t 2 * 3 ≤ (i 2 : Nat) ∧ (i 2 : Nat) < win0_1.index t 2 * 3 + 3
    rw [h2]; omega

/-- After the region the output array holds each cloud's minimum corner. -/
theorem arr0_eq (c : Dev nD) (i : S8x1x3.Idx) :
    (dat0 (F := Ideal) V c).arrAt 1 cfg0.N i
      = Cert.Voxel.minc (V c main_arg0) ⟨(i 0).val, (i 0).isLt⟩ ⟨(i 2).val, (i 2).isLt⟩ :=
  congrFun ((dat0 (F := Ideal) V c).arrAt_eq_of_cover 1 (G0 V c) (flushed_eq V c) (cover c)) i

end Export

end Cert.KernelIdeal.HandV.Min

end
-- ==== Proof.KI.ValHistA.lean ====
/-
  The histogram body's arithmetic for one row of a tile, at the ideal values.

  A tile is `[1, 2048, 3]`: 2048 points of one cloud; the corner is `[1, 1, 3]`. For row `r` the body computes
  a voxel word — per axis `clamp(⌊(p_j − c_j) · κ⌋, 0, 19)` with `κ` the named reciprocal of the spacing, combined as
  `(cell₀ · 20 + cell₁) · 20 + cell₂` — and ten features `1, p₀, p₁, p₂, p₀p₀, p₀p₁, p₀p₂, p₁p₁, p₁p₂, p₂p₂`.
  Here: `κ = 2^28 / 13421773` is exactly the reciprocal of the spacing `13421773 / 2^28`, so multiplying by it is the
  specification's division on every extended real; hence the word is the specification's `flat` of the point against the
  corner (`word_eq`), and the features are `feat` of the point (`feat_eq`). The layout operations between (a unit axis
  dropped or added, a column cut out of a matrix, a row or column broadcast, columns laid side by side) are read at an
  index one small lemma each.
-/
import proofs.«157393_j34419867910943_1_alg».proof.Proof.Gen.KernelIdeal.Skeleton
import proofs.«157393_j34419867910943_1_alg».proof.Proof.Spec
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.HandV

open Cert.KernelIdeal Cert.KernelIdeal.Gen
open Idealize.ShloMosaic Idealize.ShloMosaic.ValueIdx

/-! ## Layout operations at an index: the column forms -/

section Layout
variable {α : Type}

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` viewed as a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1, a]` block viewed as a vector `[a]` reads, at `i`, the block at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- A column `[a, 1]` broadcast along rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The constants -/

/-- The named reciprocal of the spacing is the rational `2^28 / 13421773`. -/
theorem inv_voxel_eq : Named.named (F := Ideal) Cert.KernelIdeal.κ "inv_voxel" (φ := .f32) 0x41A00000#32
    = ((268435456 / 13421773 : ℝ) : EReal) :=
  IdealRules.named_const.ideal_named_scalar _ _ _ _ rfl

/-- The spacing's word denotes `13421773 / 2^28`. -/
theorem h_eq : Cert.Voxel.h = ((13421773 / 268435456 : ℝ) : EReal) := by
  unfold Cert.Voxel.h
  simp [Ideal.ofBits, Ideal.ieee, -EReal.coe_mul]; norm_num

/-- Multiplying by the named reciprocal is dividing by the spacing, on every extended real. -/
theorem mul_inv_voxel (d : EReal) : d * ((268435456 / 13421773 : ℝ) : EReal) = Ideal.div d Cert.Voxel.h := by
  rw [h_eq, Ideal.div_coe (by norm_num : (13421773 / 268435456 : ℝ) ≠ 0)]
  norm_num

/-! ## The voxel word of a row -/

/-- One axis's cell as the body computes it: subtract, multiply by the named reciprocal, floor, convert, clamp. -/
theorem cell_eq (p c : EReal) :
    IntOp.minsi 19#32 (IntOp.maxsi 0#32 (FloatOps.fptosi (F := Ideal) 32 (FloatOps.floor (F := Ideal) (φ := .f32)
      (FloatOps.mulf (FloatOps.subf p c) (Named.named (F := Ideal) Cert.KernelIdeal.κ "inv_voxel" (φ := .f32) 0x41A00000#32)))))
      = Cert.Voxel.cell (p - c) := by
  rw [inv_voxel_eq]
  show IntOp.minsi 19#32 (IntOp.maxsi 0#32 (Ideal.fptosi 32 (Ideal.liftRound Int.floor ((p - c) * ((268435456 / 13421773 : ℝ) : EReal))))) = _
  rw [mul_inv_voxel]
  rfl

/-- The clamped cells of a tile of points against a tile of corners, entry by entry. -/
theorem cells_apply (P C : FVec Ideal S2048x3 .f32) (r : Fin 2048) (c : Fin 3) :
    minsi (broadcast S2048x3 19#32) (maxsi (broadcast S2048x3 0#32) (fptosi 32 (floor (mulf (subf P C)
      (broadcast S2048x3 (Named.named (F := Ideal) Cert.KernelIdeal.κ "inv_voxel" (φ := .f32) 0x41A00000#32)))))) (ix2 r c)
      = Cert.Voxel.cell (P (ix2 r c) - C (ix2 r c)) :=
  cell_eq _ _

/-- A column of a matrix taken by a unit-width slice and flattened reads the matrix in that column. -/
theorem col_apply {α : Type} {a b : ℕ} (o : ℕ) (X : (⟨2, ![a, b]⟩ : Shape).Idx → α)
    (h : (⟨2, ![a, b]⟩ : Shape).Slices ![0, o] ⟨2, ![a, 1]⟩) (h' : (⟨2, ![a, 1]⟩ : Shape).ShapeCasts ⟨1, ![a]⟩)
    (i : Fin a) (k : Fin b) (hk : k.val = o) :
    shapeCast ⟨1, ![a]⟩ (extractStridedSlice ⟨2, ![a, 1]⟩ ![0, o] X h) h' (ix1 i) = X (ix2 i k) :=
  (shapeCast_a1_a_apply _ h' i).trans (slice2_axis1_apply o X h i (0 : Fin 1) k (by rw [hk]; rfl))

/-- The tile of points with its unit axis dropped. -/
theorem tile_apply (v3 : Vec Ideal S1x2048x3 .f32) (r : Fin 2048) (c : Fin 3) :
    k1_pay4 (F := Ideal) v3 (ix2 r c) = v3 (ix3 (0 : Fin 1) r c) := by
  unfold k1_pay4
  exact shapeCast_1ab_ab_apply _ _ r c

/-- The corner, broadcast over the rows of the tile. -/
theorem corner_apply (v5 : Vec Ideal S1x1x3 .f32) (r : Fin 2048) (c : Fin 3) :
    broadcastTo S2048x3 (shapeCast S1x3 (shapeCast S3 v5 shapeCasts_S1x1x3_S3) shapeCasts_S3_S1x3) broadcasts_S1x3_S2048x3 (ix2 r c)
      = v5 (ix3 (0 : Fin 1) (0 : Fin 1) c) :=
  (broadcastTo_1b_ab_apply _ _ r c).trans ((shapeCast_a_1a_apply _ _ 0 c).trans (shapeCast_11a_a_apply _ _ c))

/-- The voxel word the body computes for row `r` of a tile is the specification's word of that point against the corner. -/
theorem word_eq (v3 : Vec Ideal S1x2048x3 .f32) (v5 : Vec Ideal S1x1x3 .f32) (r : Fin 2048) :
    k1_pay5 (F := Ideal) v3 v5 (ix2 r (0 : Fin 1))
      = Cert.Voxel.flat (fun j => v3 (ix3 (0 : Fin 1) r j)) (fun j => v5 (ix3 (0 : Fin 1) (0 : Fin 1) j)) := by
  have hc : ∀ c : Fin 3, minsi (broadcast S2048x3 19#32) (maxsi (broadcast S2048x3 0#32) (fptosi 32 (floor (mulf
      (subf (k1_pay4 (F := Ideal) v3) (broadcastTo S2048x3 (shapeCast S1x3 (shapeCast S3 v5 shapeCasts_S1x1x3_S3) shapeCasts_S3_S1x3) broadcasts_S1x3_S2048x3))
      (broadcast S2048x3 (Named.named (F := Ideal) Cert.KernelIdeal.κ "inv_voxel" (φ := .f32) 0x41A00000#32)))))) (ix2 r c)
      = Cert.Voxel.cell (v3 (ix3 (0 : Fin 1) r c) - v5 (ix3 (0 : Fin 1) (0 : Fin 1) c)) := fun c => by
    rw [cells_apply, tile_apply, corner_apply]
  unfold k1_pay5
  refine (shapeCast_a_a1_apply _ _ r 0).trans ?_
  unfold Cert.Voxel.flat
  refine congrArg₂ IntOp.addi (congrArg₂ IntOp.muli (congrArg₂ IntOp.addi (congrArg₂ IntOp.muli ?_ rfl) ?_) rfl) ?_
  · exact (col_apply 0 _ _ _ r 0 rfl).trans (hc 0)
  · exact (col_apply 1 _ _ _ r 1 rfl).trans (hc 1)
  · exact (col_apply 2 _ _ _ r 2 rfl).trans (hc 2)

/-! ## The ten features of a row -/

/-- The ten features of a point, in the order the histogram keeps them: one, the three coordinates, the six products. -/
def feat (p : Fin 3 → EReal) (f : Fin 10) : EReal :=
  match f with
  | ⟨0, _⟩ => 1
  | ⟨1, _⟩ => p 0
  | ⟨2, _⟩ => p 1
  | ⟨3, _⟩ => p 2
  | ⟨4, _⟩ => p 0 * p 0
  | ⟨5, _⟩ => p 0 * p 1
  | ⟨6, _⟩ => p 0 * p 2
  | ⟨7, _⟩ => p 1 * p 1
  | ⟨8, _⟩ => p 1 * p 2
  | ⟨9, _⟩ => p 2 * p 2
  | ⟨_ + 10, hf⟩ => absurd hf (by omega)

/-- The word `1.0` denotes `1`. -/
theorem ofBits_one : Ideal.ofBits .f32 0x3F800000#32 = 1 := by
  simp [Ideal.ofBits, Ideal.ieee, -EReal.coe_mul]; norm_num

/-- Pieces laid side by side along the columns of a matrix: column `f` of the whole is column `c` of piece `k`, where
    `f` is `c` past the widths `pre` of the pieces before. -/
theorem concat_cols_apply {α : Type} {n m : ℕ} (xs : List ((s : Shape) × (s.Idx → α)))
    (h : Shape.Concatenates (xs.map (·.1)) ⟨2, ![n, m]⟩ 1) (r : Fin n) (f : Fin m)
    (k : ℕ) (hk : k < xs.length) (w : ℕ) (x₁ : (⟨2, ![n, w]⟩ : Shape).Idx → α) (hxk : xs[k] = ⟨⟨2, ![n, w]⟩, x₁⟩) (pre : ℕ)
    (hpre : (((xs.take k).map (·.1)).map fun s => if h : s.rank = (⟨2, ![n, m]⟩ : Shape).rank then s.size ((1 : Fin 2).cast h.symm) else 0).sum = pre)
    (c : Fin w) (hc : pre + c.val = f.val) :
    concatenate ⟨2, ![n, m]⟩ 1 xs h (ix2 r f) = x₁ (ix2 r c) :=
  concatenate_apply_piece 1 xs h (ix2 r f) k hk _ x₁ hxk rfl pre hpre (ix2 r c)
    (fun b hb => by
      match b with
      | ⟨0, _⟩ => rfl
      | ⟨1, _⟩ => exact absurd rfl hb) hc

/-- The product of two columns of a matrix, as a column. -/
theorem colprod_apply {a b : ℕ} (X : FVec Ideal ⟨2, ![a, b]⟩ .f32) (o₁ o₂ : ℕ)
    (h₁ : (⟨2, ![a, b]⟩ : Shape).Slices ![0, o₁] ⟨2, ![a, 1]⟩) (h₂ : (⟨2, ![a, b]⟩ : Shape).Slices ![0, o₂] ⟨2, ![a, 1]⟩)
    (hc : (⟨2, ![a, 1]⟩ : Shape).ShapeCasts ⟨1, ![a]⟩) (r : Fin a) (k₁ k₂ : Fin b) (hk₁ : k₁.val = o₁) (hk₂ : k₂.val = o₂) :
    mulf (shapeCast ⟨1, ![a]⟩ (extractStridedSlice ⟨2, ![a, 1]⟩ ![0, o₁] X h₁) hc)
        (shapeCast ⟨1, ![a]⟩ (extractStridedSlice ⟨2, ![a, 1]⟩ ![0, o₂] X h₂) hc) (ix1 r)
      = X (ix2 r k₁) * X (ix2 r k₂) :=
  congrArg₂ (· * ·) (col_apply o₁ X h₁ hc r k₁ hk₁) (col_apply o₂ X h₂ hc r k₂ hk₂)

theorem feat_eq (v3 : Vec Ideal S1x2048x3 .f32) (r : Fin 2048) (f : Fin 10) :
    k1_pay9 (F := Ideal) (k1_pay4 v3) k1_pay6 (k1_pay7 v3) (k1_pay8 v3) (ix2 r f)
      = feat (fun j => v3 (ix3 (0 : Fin 1) r j)) f := by
  unfold k1_pay9
  refine Eq.trans (truncf_apply _ _ _) ?_
  match f with
  | ⟨0, _⟩ =>
    refine (concat_cols_apply _ _ r _ 0 (by simp) 1 _ rfl 0 rfl 0 rfl).trans ?_
    exact ofBits_one
  | ⟨1, _⟩ =>
    refine (concat_cols_apply _ _ r _ 1 (by simp) 3 _ rfl 1 rfl 0 rfl).trans ?_
    exact tile_apply v3 r 0
  | ⟨2, _⟩ =>
    refine (concat_cols_apply _ _ r _ 1 (by simp) 3 _ rfl 1 rfl 1 rfl).trans ?_
    exact tile_apply v3 r 1
  | ⟨3, _⟩ =>
    refine (concat_cols_apply _ _ r _ 1 (by simp) 3 _ rfl 1 rfl 2 rfl).trans ?_
    exact tile_apply v3 r 2
  | ⟨4, _⟩ =>
    refine (concat_cols_apply _ _ r _ 2 (by simp) 1 _ rfl 4 rfl 0 rfl).trans ?_
    unfold k1_pay7
    refine (shapeCast_a_a1_apply _ _ r 0).trans ?_
    refine (colprod_apply _ 0 0 _ _ _ r 0 0 rfl rfl).trans ?_
    rw [tile_apply]; rfl
  | ⟨5, _⟩ =>
    refine (concat_cols_apply _ _ r _ 3 (by simp) 1 _ rfl 5 rfl 0 rfl).trans ?_
    refine (shapeCast_a_a1_apply _ _ r 0).trans ?_
    unfold k1_pay8
    refine (colprod_apply _ 0 1 _ _ _ r 0 1 rfl rfl).trans ?_
    rw [tile_apply, tile_apply]; rfl
  | ⟨6, _⟩ =>
    refine (concat_cols_apply _ _ r _ 4 (by simp) 1 _ rfl 6 rfl 0 rfl).trans ?_
    refine (shapeCast_a_a1_apply _ _ r 0).trans ?_
    refine (colprod_apply _ 0 2 _ _ _ r 0 2 rfl rfl).trans ?_
    rw [tile_apply, tile_apply]; rfl
  | ⟨7, _⟩ =>
    refine (concat_cols_apply _ _ r _ 5 (by simp) 1 _ rfl 7 rfl 0 rfl).trans ?_
    refine (shapeCast_a_a1_apply _ _ r 0).trans ?_
    refine (colprod_apply _ 1 1 _ _ _ r 1 1 rfl rfl).trans ?_
    rw [tile_apply]; rfl
  | ⟨8, _⟩ =>
    refine (concat_cols_apply _ _ r _ 6 (by simp) 1 _ rfl 8 rfl 0 rfl).trans ?_
    refine (shapeCast_a_a1_apply _ _ r 0).trans ?_
    refine (colprod_apply _ 1 2 _ _ _ r 1 2 rfl rfl).trans ?_
    rw [tile_apply, tile_apply]; rfl
  | ⟨9, _⟩ =>
    refine (concat_cols_apply _ _ r _ 7 (by simp) 1 _ rfl 9 rfl 0 rfl).trans ?_
    refine (shapeCast_a_a1_apply _ _ r 0).trans ?_
    refine (colprod_apply _ 2 2 _ _ _ r 2 2 rfl rfl).trans ?_
    rw [tile_apply]; rfl
  | ⟨_ + 10, hf⟩ => exact absurd hf (by omega)

end Cert.KernelIdeal.HandV

end
-- ==== Proof.KI.StepDef.lean ====
/-
  What one grid point of the histogram region leaves in the output block, as a function of the tile of points, the
  corner and the block it found.

  The block is `[1, 8192, 10]`: 8192 voxels by ten features. The body updates it in eight slabs of 1024 voxels: for
  slab `c` it loads rows `[1024c, 1024c + 1024)`, adds the product of that slab's one-hot matrix with the tile's
  features, and stores the sum back to the same rows. `slab` is what such a load returns, `chunkPay` what slab `c`'s store
  writes (the body's own terms), and `hstep` the whole block after the eight stores: row `v` comes from slab `v / 1024`,
  at row `v % 1024` of what it stored.
-/
import proofs.«157393_j34419867910943_1_alg».proof.Proof.Gen.KernelIdeal.Skeleton
import Idealize.ShloMosaic.Lib.ValueIdx

noncomputable section

namespace Cert.KernelIdeal.HandV

open Cert.KernelIdeal Cert.KernelIdeal.Gen
open Idealize.ShloMosaic Idealize.ShloMosaic.ValueIdx

variable {F : FTy → Type} [FloatOps F] [Named F]

/-- Rows `[1024c, 1024c + 1024)` of a block: what a load of slab `c` returns. -/
def slab (acc : Vec F S1x8192x10 .f32) (c : Fin 8) : Vec F S1x1024x10 .f32 := fun y =>
  acc (ix3 (0 : Fin 1) (⟨1024 * c.val + (y 1).val, by have := c.isLt; have := (y 1).isLt; simp at this; omega⟩ : Fin 8192)
    (⟨(y 2).val, (y 2).isLt⟩ : Fin 10))

/-- What slab `c`'s store writes, from the tile `x`, the corner `mc` and the slab `ld` it loaded. -/
def chunkPay (x : Vec F S1x2048x3 .f32) (mc : Vec F S1x1x3 .f32) : Fin 8 → Vec F S1x1024x10 .f32 → FVec F S1x1024x10 .f32
  | ⟨0, _⟩, ld => k1_pay10 (k1_pay4 x) (k1_pay5 x mc) k1_pay6 (k1_pay7 x) (k1_pay8 x) ld
  | ⟨1, _⟩, ld => k1_pay12 (k1_pay9 (k1_pay4 x) k1_pay6 (k1_pay7 x) (k1_pay8 x)) (k1_pay11 (k1_pay5 x mc)) ld
  | ⟨2, _⟩, ld => k1_pay13 (k1_pay5 x mc) (k1_pay9 (k1_pay4 x) k1_pay6 (k1_pay7 x) (k1_pay8 x)) ld
  | ⟨3, _⟩, ld => k1_pay15 (k1_pay14 (k1_pay5 x mc) (k1_pay9 (k1_pay4 x) k1_pay6 (k1_pay7 x) (k1_pay8 x)) ld)
  | ⟨4, _⟩, ld => k1_pay16 (k1_pay5 x mc) (k1_pay9 (k1_pay4 x) k1_pay6 (k1_pay7 x) (k1_pay8 x)) ld
  | ⟨5, _⟩, ld => k1_pay17 (k1_pay5 x mc) (k1_pay9 (k1_pay4 x) k1_pay6 (k1_pay7 x) (k1_pay8 x)) ld
  | ⟨6, _⟩, ld => k1_pay1 (k1_pay9 (k1_pay4 x) k1_pay6 (k1_pay7 x) (k1_pay8 x)) (k1_pay18 (k1_pay5 x mc)) ld
  | ⟨7, _⟩, ld => k1_pay2 (k1_pay5 x mc) (k1_pay9 (k1_pay4 x) k1_pay6 (k1_pay7 x) (k1_pay8 x)) ld
  | ⟨_ + 8, h⟩, _ => absurd h (by omega)

/-- The block after one grid point: each row from its slab's store. -/
def hstep (x : Vec F S1x2048x3 .f32) (mc : Vec F S1x1x3 .f32) (acc : Vec F S1x8192x10 .f32) : Vec F S1x8192x10 .f32 := fun y =>
  chunkPay x mc ⟨(y 1).val / 1024, by have := (y 1).isLt; simp at this; omega⟩
    (slab acc ⟨(y 1).val / 1024, by have := (y 1).isLt; simp at this; omega⟩)
    (ix3 (0 : Fin 1) (⟨(y 1).val % 1024, Nat.mod_lt _ (by decide)⟩ : Fin 1024) (⟨(y 2).val, (y 2).isLt⟩ : Fin 10))

end Cert.KernelIdeal.HandV

end
-- ==== Proof.KI.ValHistB.lean ====
/-
  The histogram body's update of the output block at one entry, at the ideal values.

  For each of the eight slabs of 1024 voxels the body multiplies a one-hot matrix — entry `(r, v)` is one where row
  `r`'s voxel word is `v` past the slab's base, else zero — with the tile's features, contracting the ROW axis of both,
  into a zero accumulator: entry `(v, f)` of the product is the sum over the 2048 rows of one-hot times feature, that is
  the sum of feature `f` over the rows whose word is that voxel (`0 · a = 0` and `1 · a = a` on the extended reals). The
  slab's rows then hold what was loaded there plus that product. So after one grid point entry `(v, f)` of the block is
  what it was plus the sum, over the tile's rows whose voxel word is `v`, of feature `f` (`hstep_apply`).
-/
import proofs.«157393_j34419867910943_1_alg».proof.Proof.KI.ValHistA
import proofs.«157393_j34419867910943_1_alg».proof.Proof.KI.StepDef

noncomputable section

namespace Cert.KernelIdeal.HandV

open Cert.KernelIdeal Cert.KernelIdeal.Gen
open Idealize.ShloMosaic Idealize.ShloMosaic.ValueIdx
open scoped BigOperators

/-! ## A chunk's product at an entry: a sum over the tile's rows -/

/-- The left operand is read at (contracted row, output row) … -/
theorem lhs_hist_0 (i : S1024x10.Idx) (q : dot_S2048x1024_S2048x10_S1024x10_0_0_1_1_n_n.contr.Idx) :
    (dot_S2048x1024_S2048x10_S1024x10_0_0_1_1_n_n.lhsIdx i q 0).val = (q ⟨0, by decide⟩).val :=
  dot_S2048x1024_S2048x10_S1024x10_0_0_1_1_n_n.lhsIdx_val_of_single rfl i q
theorem lhs_hist_1 (i : S1024x10.Idx) (q : dot_S2048x1024_S2048x10_S1024x10_0_0_1_1_n_n.contr.Idx) :
    (dot_S2048x1024_S2048x10_S1024x10_0_0_1_1_n_n.lhsIdx i q 1).val = (i 0).val := by
  unfold DotDims.lhsIdx
  rw [dif_neg (show ¬(1 : Fin S2048x1024.rank) ∈ dot_S2048x1024_S2048x10_S1024x10_0_0_1_1_n_n.lhsBatch by decide),
    dif_pos (show (1 : Fin S2048x1024.rank) ∈ dot_S2048x1024_S2048x10_S1024x10_0_0_1_1_n_n.lhsNonContracting by decide)]
  rfl
/-- … and the right operand at (contracted row, output column). -/
theorem rhs_hist_0 (i : S1024x10.Idx) (q : dot_S2048x1024_S2048x10_S1024x10_0_0_1_1_n_n.contr.Idx) :
    (dot_S2048x1024_S2048x10_S1024x10_0_0_1_1_n_n.rhsIdx i q 0).val = (q ⟨0, by decide⟩).val :=
  dot_S2048x1024_S2048x10_S1024x10_0_0_1_1_n_n.rhsIdx_val_of_single rfl i q
theorem rhs_hist_1 (i : S1024x10.Idx) (q : dot_S2048x1024_S2048x10_S1024x10_0_0_1_1_n_n.contr.Idx) :
    (dot_S2048x1024_S2048x10_S1024x10_0_0_1_1_n_n.rhsIdx i q 1).val = (i 1).val := by
  unfold DotDims.rhsIdx
  rw [dif_neg (show ¬(1 : Fin S2048x10.rank) ∈ dot_S2048x1024_S2048x10_S1024x10_0_0_1_1_n_n.rhsBatch by decide),
    dif_pos (show (1 : Fin S2048x10.rank) ∈ dot_S2048x1024_S2048x10_S1024x10_0_0_1_1_n_n.rhsNonContracting by decide)]
  rfl

/-- The product contracting the row axis of both operands, into a zero accumulator, at entry `(v, f)`:
    `∑ r, lhs[r, v] · rhs[r, f]` over the 2048 rows. -/
theorem matmul_entry (OH : FVec Ideal S2048x1024 .bf16) (FE : FVec Ideal S2048x10 .bf16) (v : Fin 1024) (f : Fin 10) :
    matmul dot_S2048x1024_S2048x10_S1024x10_0_0_1_1_n_n none OH FE (constant (F := Ideal) S1024x10 .f32 0x00000000#32) (ix2 v f)
      = ∑ r : Fin 2048, OH (ix2 r v) * FE (ix2 r f) := by
  simp only [matmul]
  rw [Ideal.matmul_constant_zero_apply,
    ← Equiv.sum_comp (contrEquiv1 dot_S2048x1024_S2048x10_S1024x10_0_0_1_1_n_n 2048 rfl rfl).symm]
  refine Finset.sum_congr rfl fun k _ => ?_
  have hk := contrEquiv1_symm_val dot_S2048x1024_S2048x10_S1024x10_0_0_1_1_n_n 2048 rfl rfl k
  have el : dot_S2048x1024_S2048x10_S1024x10_0_0_1_1_n_n.lhsIdx (ix2 v f)
      ((contrEquiv1 dot_S2048x1024_S2048x10_S1024x10_0_0_1_1_n_n 2048 rfl rfl).symm k) = ix2 k v :=
    funext fun a => Fin.ext (by
      match a with
      | ⟨0, _⟩ => exact (lhs_hist_0 _ _).trans hk
      | ⟨1, _⟩ => exact lhs_hist_1 _ _)
  have er : dot_S2048x1024_S2048x10_S1024x10_0_0_1_1_n_n.rhsIdx (ix2 v f)
      ((contrEquiv1 dot_S2048x1024_S2048x10_S1024x10_0_0_1_1_n_n 2048 rfl rfl).symm k) = ix2 k f :=
    funext fun a => Fin.ext (by
      match a with
      | ⟨0, _⟩ => exact (rhs_hist_0 _ _).trans hk
      | ⟨1, _⟩ => exact rhs_hist_1 _ _)
  rw [el, er]

/-- A comparison for equality, widened and converted, is one where the words agree and zero where they do not. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · rw [if_pos h]; subst h; simp
  · rw [if_neg h]
    have hb : (a == b) = false := beq_eq_false_iff_ne.mpr h
    simp [hb]

/-- The one-hot matrix of a chunk at `(r, v)`: one where row `r`'s word is `v` past the chunk's base `K`. -/
theorem onehot_apply (w : IVec S2048x1 32) (K : BitVec 32) (r : Fin 2048) (v : Fin 1024) :
    (truncf .bf16 (sitofp .f32 (extui 32 (cmpi .eq (broadcastTo S2048x1024 w broadcasts_S2048x1_S2048x1024)
        (addi (iota .tc S2048x1024 32 [1] iota_S2048x1024_d1_w32) (broadcast S2048x1024 K))) natLt_1_32)) bitsLt_bf16_f32
        : FVec Ideal S2048x1024 .bf16) (ix2 r v)
      = if w (ix2 r (0 : Fin 1)) = BitVec.ofNat 32 v.val + K then (1 : EReal) else 0 := by
  refine Eq.trans (truncf_apply _ _ _) ?_
  refine Eq.trans (onehot_word _ _) ?_
  rw [broadcastTo_a1_ab_apply]
  refine congrArg (fun z => if w (ix2 r (0 : Fin 1)) = z then (1 : EReal) else 0) ?_
  exact congrArg (· + K) (iota_single_apply .tc S2048x1024 32 1 iota_S2048x1024_d1_w32 (ix2 r v))

/-- A chunk's product at entry `(v, f)`: the features of the rows whose word is `v` past the chunk's base, summed. -/
theorem chunk_sum (w : IVec S2048x1 32) (FE : FVec Ideal S2048x10 .bf16) (K : BitVec 32) (v : Fin 1024) (f : Fin 10) :
    matmul dot_S2048x1024_S2048x10_S1024x10_0_0_1_1_n_n none
        (truncf .bf16 (sitofp .f32 (extui 32 (cmpi .eq (broadcastTo S2048x1024 w broadcasts_S2048x1_S2048x1024)
          (addi (iota .tc S2048x1024 32 [1] iota_S2048x1024_d1_w32) (broadcast S2048x1024 K))) natLt_1_32)) bitsLt_bf16_f32
          : FVec Ideal S2048x1024 .bf16)
        FE (constant (F := Ideal) S1024x10 .f32 0x00000000#32) (ix2 v f)
      = ∑ r : Fin 2048, if w (ix2 r (0 : Fin 1)) = BitVec.ofNat 32 v.val + K then FE (ix2 r f) else 0 := by
  rw [matmul_entry]
  refine Finset.sum_congr rfl fun r _ => ?_
  rw [onehot_apply]
  split
  · exact one_mul _
  · exact zero_mul _

/-- What a chunk stores: the slab it loaded plus its product, entry by entry. -/
theorem stored_apply (ld : Vec Ideal S1x1024x10 .f32) (M : FVec Ideal S1024x10 .f32) (v : Fin 1024) (f : Fin 10) :
    shapeCast S1x1024x10 (addf (shapeCast S1024x10 ld shapeCasts_S1x1024x10_S1024x10) M) shapeCasts_S1024x10_S1x1024x10
        (ix3 (0 : Fin 1) v f)
      = ld (ix3 (0 : Fin 1) v f) + M (ix2 v f) :=
  (shapeCast_ab_1ab_apply _ _ 0 v f).trans (congrArg (· + M (ix2 v f)) (shapeCast_1ab_ab_apply _ _ v f))

/-! ## The eight chunk payloads at an entry -/

section Payloads
variable (W : IVec S2048x1 32) (FE : FVec Ideal S2048x10 .bf16) (ld : Vec Ideal S1x1024x10 .f32) (v : Fin 1024) (f : Fin 10)

/-- The sum a chunk with base `K` adds at entry `(v, f)`. -/
abbrev chunkAdd (K : BitVec 32) : EReal :=
  ∑ r : Fin 2048, if W (ix2 r (0 : Fin 1)) = BitVec.ofNat 32 v.val + K then FE (ix2 r f) else 0

theorem pay10_apply (v4 : FVec Ideal S2048x3 .f32) (v31 v37 : FVec Ideal S2048x1 .f32) (v42 : FVec Ideal S2048 .f32) :
    k1_pay10 (F := Ideal) v4 W v31 v37 v42 ld (ix3 (0 : Fin 1) v f)
      = ld (ix3 (0 : Fin 1) v f) + chunkAdd W (k1_pay9 v4 v31 v37 v42) v f 0#32 := by
  unfold k1_pay10
  exact (stored_apply ld _ v f).trans (congrArg (ld (ix3 (0 : Fin 1) v f) + ·) (chunk_sum W _ 0#32 v f))

theorem pay12_apply : k1_pay12 (F := Ideal) FE (k1_pay11 W) ld (ix3 (0 : Fin 1) v f)
      = ld (ix3 (0 : Fin 1) v f) + chunkAdd W FE v f 1024#32 := by
  unfold k1_pay12 k1_pay11
  exact (stored_apply ld _ v f).trans (congrArg (ld (ix3 (0 : Fin 1) v f) + ·) (chunk_sum W FE 1024#32 v f))

theorem pay13_apply : k1_pay13 (F := Ideal) W FE ld (ix3 (0 : Fin 1) v f)
      = ld (ix3 (0 : Fin 1) v f) + chunkAdd W FE v f 2048#32 := by
  unfold k1_pay13
  exact (stored_apply ld _ v f).trans (congrArg (ld (ix3 (0 : Fin 1) v f) + ·) (chunk_sum W FE 2048#32 v f))

theorem pay15_apply : k1_pay15 (F := Ideal) (k1_pay14 W FE ld) (ix3 (0 : Fin 1) v f)
      = ld (ix3 (0 : Fin 1) v f) + chunkAdd W FE v f 3072#32 := by
  unfold k1_pay15 k1_pay14
  exact (stored_apply ld _ v f).trans (congrArg (ld (ix3 (0 : Fin 1) v f) + ·) (chunk_sum W FE 3072#32 v f))

theorem pay16_apply : k1_pay16 (F := Ideal) W FE ld (ix3 (0 : Fin 1) v f)
      = ld (ix3 (0 : Fin 1) v f) + chunkAdd W FE v f 4096#32 := by
  unfold k1_pay16
  exact (stored_apply ld _ v f).trans (congrArg (ld (ix3 (0 : Fin 1) v f) + ·) (chunk_sum W FE 4096#32 v f))

theorem pay17_apply : k1_pay17 (F := Ideal) W FE ld (ix3 (0 : Fin 1) v f)
      = ld (ix3 (0 : Fin 1) v f) + chunkAdd W FE v f 5120#32 := by
  unfold k1_pay17
  exact (stored_apply ld _ v f).trans (congrArg (ld (ix3 (0 : Fin 1) v f) + ·) (chunk_sum W FE 5120#32 v f))

theorem pay1_apply : k1_pay1 (F := Ideal) FE (k1_pay18 W) ld (ix3 (0 : Fin 1) v f)
      = ld (ix3 (0 : Fin 1) v f) + chunkAdd W FE v f 6144#32 := by
  unfold k1_pay1 k1_pay18
  exact (stored_apply ld _ v f).trans (congrArg (ld (ix3 (0 : Fin 1) v f) + ·) (chunk_sum W FE 6144#32 v f))

theorem pay2_apply : k1_pay2 (F := Ideal) W FE ld (ix3 (0 : Fin 1) v f)
      = ld (ix3 (0 : Fin 1) v f) + chunkAdd W FE v f 7168#32 := by
  unfold k1_pay2
  exact (stored_apply ld _ v f).trans (congrArg (ld (ix3 (0 : Fin 1) v f) + ·) (chunk_sum W FE 7168#32 v f))

end Payloads

/-! ## The block after one grid point, at an entry -/

/-- What slab `c` stores at its entry `(v, f)`: the loaded entry plus the features of the tile's rows whose word is
    `v` past `1024 c`. -/
theorem chunkPay_apply (x : Vec Ideal S1x2048x3 .f32) (mc : Vec Ideal S1x1x3 .f32) (c : Fin 8)
    (ld : Vec Ideal S1x1024x10 .f32) (v : Fin 1024) (f : Fin 10) :
    chunkPay (F := Ideal) x mc c ld (ix3 (0 : Fin 1) v f)
      = ld (ix3 (0 : Fin 1) v f)
        + chunkAdd (k1_pay5 x mc) (k1_pay9 (k1_pay4 x) k1_pay6 (k1_pay7 x) (k1_pay8 x)) v f (BitVec.ofNat 32 (1024 * c.val)) := by
  match c with
  | ⟨0, _⟩ => exact pay10_apply _ ld v f _ _ _ _
  | ⟨1, _⟩ => exact pay12_apply _ _ ld v f
  | ⟨2, _⟩ => exact pay13_apply _ _ ld v f
  | ⟨3, _⟩ => exact pay15_apply _ _ ld v f
  | ⟨4, _⟩ => exact pay16_apply _ _ ld v f
  | ⟨5, _⟩ => exact pay17_apply _ _ ld v f
  | ⟨6, _⟩ => exact pay1_apply _ _ ld v f
  | ⟨7, _⟩ => exact pay2_apply _ _ ld v f
  | ⟨_ + 8, h⟩ => exact absurd h (by omega)

/-- **One grid point at an entry**: voxel `v`'s feature `f` grows by the feature `f` of every point of the tile whose
    voxel word, against the corner, is `v`. -/
theorem hstep_apply (x : Vec Ideal S1x2048x3 .f32) (mc : Vec Ideal S1x1x3 .f32) (acc : Vec Ideal S1x8192x10 .f32)
    (v : Fin 8192) (f : Fin 10) :
    hstep (F := Ideal) x mc acc (ix3 (0 : Fin 1) v f)
      = acc (ix3 (0 : Fin 1) v f)
        + ∑ r : Fin 2048, if Cert.Voxel.flat (fun j => x (ix3 (0 : Fin 1) r j)) (fun j => mc (ix3 (0 : Fin 1) (0 : Fin 1) j))
            = BitVec.ofNat 32 v.val then feat (fun j => x (ix3 (0 : Fin 1) r j)) f else 0 := by
  have hv : v.val < 8192 := v.isLt
  have hw : BitVec.ofNat 32 (v.val % 1024) + BitVec.ofNat 32 (1024 * (v.val / 1024)) = BitVec.ofNat 32 v.val := by
    rw [← BitVec.ofNat_add]; congr 1; omega
  unfold hstep
  refine (chunkPay_apply x mc _ _ _ _).trans ?_
  refine congrArg₂ (· + ·) ?_ (Finset.sum_congr rfl fun r _ => ?_)
  · unfold slab
    refine congrArg acc (funext fun a => ?_)
    match a with
    | ⟨0, _⟩ => rfl
    | ⟨1, _⟩ => exact Fin.ext (show 1024 * (v.val / 1024) + v.val % 1024 = v.val by omega)
    | ⟨2, _⟩ => rfl
  · rw [word_eq, feat_eq]
    show (if _ = BitVec.ofNat 32 (v.val % 1024) + BitVec.ofNat 32 (1024 * (v.val / 1024)) then _ else _) = _
    rw [hw]

end Cert.KernelIdeal.HandV

end
-- ==== Proof.KI.ValHistC.lean ====
/-
  The accumulation over a cloud's row tiles, as plain arithmetic of sums.

  The grid walks a cloud's 128 tiles in order; the output block restarts at the first (`t % 128 = 0`) and at every
  later tile holds what the tile before left plus this tile's contribution. Such a quantity is, at any point, the
  sum of the contributions since the last restart (`fold_tiles`, by induction on the offset inside the run, never on
  the grid's size). A tile's contribution is a sum over its 2048 rows, row `r` of tile `s` being point `2048 s + r` of
  the cloud, so the 128 tiles' sums regroup into one sum over the cloud's 262144 points (`sum_tiles_rows`:
  `Fin 128 × Fin 2048` against `Fin 262144`). And every one of the histogram's ten features is one such sum over the
  points: of `feat` of the point where its voxel is the one asked for, of zero elsewhere (`hist_eq_sum`).
-/
import proofs.«157393_j34419867910943_1_alg».proof.Proof.KI.ValHistA
import Mathlib.Algebra.BigOperators.Fin
import Mathlib.Logic.Equiv.Fin.Basic

noncomputable section

namespace Cert.KernelIdeal.HandV

open Idealize.ShloMosaic Idealize.ShloMosaic.ValueIdx
open scoped BigOperators

/-! ## A quantity that restarts every `J` points and otherwise grows by the point's addend -/

section Fold
variable {M : Type*} [AddCommMonoid M] {N : ℕ}

/-- Within one run: `j` steps after the restart at `J q` the quantity is the sum of the addends of `J q … J q + j`. -/
theorem fold_run (J : ℕ) (o : (n : ℕ) → n < N → M) (S : ℕ → M)
    (h0 : ∀ (n : ℕ) (h : n < N), n % J = 0 → o n h = S n)
    (hs : ∀ (n : ℕ) (h : n < N), ¬n % J = 0 → o n h = o (n - 1) (Nat.lt_of_le_of_lt (Nat.sub_le _ _) h) + S n)
    (q : ℕ) : ∀ (j : ℕ) (_ : j < J) (h : J * q + j < N), o (J * q + j) h = ∑ s ∈ Finset.range (j + 1), S (J * q + s)
  | 0, _, h => by
    rw [Finset.sum_range_one]
    exact h0 _ h (by rw [Nat.add_zero, Nat.mul_mod_right])
  | j + 1, hj, h => by
    have hne : ¬(J * q + (j + 1)) % J = 0 := by
      rw [Nat.mul_add_mod, Nat.mod_eq_of_lt hj]; exact Nat.succ_ne_zero j
    have same : ∀ (u u' : ℕ) (hu : u < N) (hu' : u' < N), u = u' → o u hu = o u' hu' := fun u u' hu hu' e => by
      subst e; rfl
    rw [hs _ h hne, same (J * q + (j + 1) - 1) (J * q + j) _ (Nat.lt_of_succ_lt h) rfl,
      fold_run J o S h0 hs q j (Nat.lt_of_succ_lt hj) (Nat.lt_of_succ_lt h), Finset.sum_range_succ _ (j + 1)]

/-- At any point `t`: the sum of the addends from the last restart `J (t / J)` up to `t`. -/
theorem fold_tiles (J : ℕ) (hJ : 0 < J) (o : (n : ℕ) → n < N → M) (S : ℕ → M)
    (h0 : ∀ (n : ℕ) (h : n < N), n % J = 0 → o n h = S n)
    (hs : ∀ (n : ℕ) (h : n < N), ¬n % J = 0 → o n h = o (n - 1) (Nat.lt_of_le_of_lt (Nat.sub_le _ _) h) + S n)
    (t : ℕ) (ht : t < N) : o t ht = ∑ s ∈ Finset.range (t % J + 1), S (J * (t / J) + s) := by
  have same : ∀ (u : ℕ) (hu : u < N), u = t → o u hu = o t ht := fun u hu e => by subst e; rfl
  have h' : J * (t / J) + t % J < N := by rw [Nat.div_add_mod]; exact ht
  rw [← same _ h' (Nat.div_add_mod t J)]
  exact fold_run J o S h0 hs (t / J) (t % J) (Nat.mod_lt t hJ) h'

/-- Tiles of `B` rows laid end to end: the sum over `A` tiles of the sum over a tile's rows is the sum over all
    `A · B` rows, row `r` of tile `s` being row `B s + r`. -/
theorem sum_tiles_rows (A B : ℕ) (g : ℕ → M) :
    ∑ s ∈ Finset.range A, ∑ r : Fin B, g (B * s + r.val) = ∑ n : Fin (A * B), g n.val := by
  rw [Finset.sum_range, ← Equiv.sum_comp finProdFinEquiv, Fintype.sum_prod_type]
  refine Finset.sum_congr rfl fun s _ => Finset.sum_congr rfl fun r _ => ?_
  refine congrArg g ?_
  show B * s.val + r.val = r.val + B * s.val
  exact Nat.add_comm _ _

end Fold

/-! ## The histogram's entry as one sum over a cloud's points -/

/-- Feature `f` of voxel `v` of cloud `b`: the sum, over the cloud's points that fall in `v`, of feature `f` of the point. -/
theorem hist_eq_sum (x : Cert.Voxel.Sx.Idx → EReal) (b : Fin 8) (v : BitVec 32) (f : Fin 10) :
    Cert.Voxel.hist x b v f
      = ∑ n : Fin 262144, if Cert.Voxel.vox x b n = v then feat (fun j => x (ix3 b n j)) f else 0 := by
  match f with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨_ + 10, hf⟩ => exact absurd hf (by omega)

/-- **The run of a cloud's 128 tiles**: a quantity that restarts at each cloud's first tile with that tile's sum and
    grows at every later tile by that tile's sum — the tile's sum being, over its 2048 rows `r`, the addend `g` of point
    `2048 s + r` — is, at the cloud's last tile, the sum of `g` over all the cloud's 262144 points. -/
theorem fold_cloud {N : ℕ} (o : (n : ℕ) → n < N → EReal) (g : ℕ → ℕ → EReal)
    (h0 : ∀ (n : ℕ) (h : n < N), n % 128 = 0 → o n h = ∑ r : Fin 2048, g (n / 128) (2048 * (n % 128) + r.val))
    (hs : ∀ (n : ℕ) (h : n < N), ¬n % 128 = 0 →
      o n h = o (n - 1) (Nat.lt_of_le_of_lt (Nat.sub_le _ _) h) + ∑ r : Fin 2048, g (n / 128) (2048 * (n % 128) + r.val))
    (t : ℕ) (ht : t < N) (hlast : t % 128 = 127) :
    o t ht = ∑ n : Fin 262144, g (t / 128) n.val := by
  rw [fold_tiles 128 (by decide) o (fun n => ∑ r : Fin 2048, g (n / 128) (2048 * (n % 128) + r.val)) h0 hs t ht, hlast,
    ← sum_tiles_rows 128 2048 (g (t / 128))]
  refine Finset.sum_congr rfl fun s hs' => ?_
  have hs128 : s < 128 := Finset.mem_range.mp hs'
  have e1 : (128 * (t / 128) + s) / 128 = t / 128 := by omega
  have e2 : (128 * (t / 128) + s) % 128 = s := by omega
  rw [e1, e2]

end Cert.KernelIdeal.HandV

end
-- ==== Proof.KI.Step1.lean ====
/- One row tile's update of a cloud's voxel sums, read off the histogram kernel's body: in both cases of the body the
   output block ends as eight row slabs, slab k holding the slab the body loaded plus the product of slab k's one-hot
   matrix with the tile's features. At a cloud's first tile every loaded slab is a slab of the zero block, at a later
   tile a slab of what the tile before left; so the running block is a fold of one update function over the tiles. -/
import proofs.«157393_j34419867910943_1_alg».proof.Proof.KI.Frame1
import proofs.«157393_j34419867910943_1_alg».proof.Proof.KI.StepDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

/-! ## Reading a block that was zeroed and then updated in row slabs -/

section Canon

variable {Val : EltTy → Type} {S : Shape} {e : EltTy}

/-- Where the first stores of a list already cover an index, the stores made before them do not matter. -/
theorem canon_append_of_cover [∀ e, Nonempty (Val e)] (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

variable {sig : RefSig} {κ : Kind} {sp : Space}

/-- A load of rows that lie after the rows of the newest store reads the older stores. -/
theorem readCov_cons_rows_before [∀ e, Nonempty (Val e)] (v : View sig κ sp S e) (a : Fin S.rank)
    {off sz off' sz' : Fin S.rank → Nat} {inb inb'} (x : (Rect.unit (s := S) off sz inb).shape.Idx → Val e) (L : List (View.Piece Val S e))
    (h : off a + sz a ≤ off' a) :
    v.readCov ((⟨Rect.unit off sz inb, x⟩ : View.Piece Val S e) :: L) (Rect.unit off' sz' inb').toLoadRect
      = v.readCov L (Rect.unit off' sz' inb').toLoadRect :=
  View.readCov_cons_of_disjoint v ⟨Rect.unit off sz inb, x⟩ L _ (Rect.unit_disjoint (inb := inb) (inb' := inb') a (Or.inl h))

/-- A load after ONE store of the whole block reads that store's payload through the load's rectangle. -/
theorem readCov_whole_rect [∀ e, Nonempty (Val e)] (v : View sig κ sp S e) {off : Fin S.rank → Nat} (hz : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero hz inb y⟩),
    View.canon_unit_zero hz]

end Canon

/-! ## The eight slab stores of one row tile -/

theorem zero3 : (![0, 0, 0] : Fin 3 → Nat) = fun _ => 0 := by funext a; fin_cases a <;> rfl

/-- Rows [1024·k, 1024·k + 1024) of the output block: the voxels of chunk k. -/
abbrev slab0 : Rect S1x8192x10 := Rect.unit (s := S1x8192x10) ![0, 0, 0] ![1, 1024, 10] inb_S1x8192x10_S1x1024x10_0_0_0
abbrev slab1 : Rect S1x8192x10 := Rect.unit (s := S1x8192x10) ![0, 1024, 0] ![1, 1024, 10] inb_S1x8192x10_S1x1024x10_0_1024_0
abbrev slab2 : Rect S1x8192x10 := Rect.unit (s := S1x8192x10) ![0, 2048, 0] ![1, 1024, 10] inb_S1x8192x10_S1x1024x10_0_2048_0
abbrev slab3 : Rect S1x8192x10 := Rect.unit (s := S1x8192x10) ![0, 3072, 0] ![1, 1024, 10] inb_S1x8192x10_S1x1024x10_0_3072_0
abbrev slab4 : Rect S1x8192x10 := Rect.unit (s := S1x8192x10) ![0, 4096, 0] ![1, 1024, 10] inb_S1x8192x10_S1x1024x10_0_4096_0
abbrev slab5 : Rect S1x8192x10 := Rect.unit (s := S1x8192x10) ![0, 5120, 0] ![1, 1024, 10] inb_S1x8192x10_S1x1024x10_0_5120_0
abbrev slab6 : Rect S1x8192x10 := Rect.unit (s := S1x8192x10) ![0, 6144, 0] ![1, 1024, 10] inb_S1x8192x10_S1x1024x10_0_6144_0
abbrev slab7 : Rect S1x8192x10 := Rect.unit (s := S1x8192x10) ![0, 7168, 0] ![1, 1024, 10] inb_S1x8192x10_S1x1024x10_0_7168_0

/-- Eight stores, one per slab, last first. -/
abbrev slabStores (q7 q6 q5 q4 q3 q2 q1 q0 : FVec F S1x1024x10 .f32) : List (View.Piece (Elt F) S1x8192x10 .f32) :=
  [⟨slab7, q7⟩, ⟨slab6, q6⟩, ⟨slab5, q5⟩, ⟨slab4, q4⟩, ⟨slab3, q3⟩, ⟨slab2, q2⟩, ⟨slab1, q1⟩, ⟨slab0, q0⟩]

/-- They tile the block, -/
theorem slabs_cover (q7 q6 q5 q4 q3 q2 q1 q0 : FVec F S1x1024x10 .f32) (y : S1x8192x10.Idx) :
    ∃ pc ∈ slabStores q7 q6 q5 q4 q3 q2 q1 q0, y ∈ pc.1.set :=
  View.cover_of_tiledL (slabStores q7 q6 q5 q4 q3 q2 q1 q0) S1x1024x10.size (by sl_kernel_rfl) y

/-- so a store of the whole block made before them is not seen. -/
theorem canon_slabs_over (q7 q6 q5 q4 q3 q2 q1 q0 : FVec F S1x1024x10 .f32) (z : Vec F S1x8192x10 .f32) :
    View.canon ([⟨slab7, q7⟩, ⟨slab6, q6⟩, ⟨slab5, q5⟩, ⟨slab4, q4⟩, ⟨slab3, q3⟩, ⟨slab2, q2⟩, ⟨slab1, q1⟩, ⟨slab0, q0⟩,
        ⟨Rect.unit (s := S1x8192x10) ![0, 0, 0] ![1, 8192, 10] inb_S1x8192x10_S1x8192x10_0_0_0, z⟩] : List (View.Piece (Elt F) S1x8192x10 .f32))
      = View.canon (slabStores q7 q6 q5 q4 q3 q2 q1 q0) :=
  funext fun y => canon_append_of_cover
    [(⟨Rect.unit (s := S1x8192x10) ![0, 0, 0] ![1, 8192, 10] inb_S1x8192x10_S1x8192x10_0_0_0, z⟩ : View.Piece (Elt F) S1x8192x10 .f32)]
    (slabStores q7 q6 q5 q4 q3 q2 q1 q0) y (slabs_cover q7 q6 q5 q4 q3 q2 q1 q0 y)

/-- The stores of one tile's update, last first: slab k of the running block `acc` plus the product of the slab's
    one-hot matrix with the tile's features. -/
def tileStores (x : Vec F S1x2048x3 .f32) (mc : Vec F S1x1x3 .f32) (acc : Vec F S1x8192x10 .f32) :
    List (View.Piece (Elt F) S1x8192x10 .f32) :=
  slabStores
    (k1_pay2 (k1_pay5 x mc) (k1_pay9 (k1_pay4 x) (k1_pay6 (F := F)) (k1_pay7 x) (k1_pay8 x)) (View.ld acc slab7))
    (k1_pay1 (k1_pay9 (k1_pay4 x) (k1_pay6 (F := F)) (k1_pay7 x) (k1_pay8 x)) (k1_pay18 (k1_pay5 x mc)) (View.ld acc slab6))
    (k1_pay17 (k1_pay5 x mc) (k1_pay9 (k1_pay4 x) (k1_pay6 (F := F)) (k1_pay7 x) (k1_pay8 x)) (View.ld acc slab5))
    (k1_pay16 (k1_pay5 x mc) (k1_pay9 (k1_pay4 x) (k1_pay6 (F := F)) (k1_pay7 x) (k1_pay8 x)) (View.ld acc slab4))
    (k1_pay15 (k1_pay14 (k1_pay5 x mc) (k1_pay9 (k1_pay4 x) (k1_pay6 (F := F)) (k1_pay7 x) (k1_pay8 x)) (View.ld acc slab3)))
    (k1_pay13 (k1_pay5 x mc) (k1_pay9 (k1_pay4 x) (k1_pay6 (F := F)) (k1_pay7 x) (k1_pay8 x)) (View.ld acc slab2))
    (k1_pay12 (k1_pay9 (k1_pay4 x) (k1_pay6 (F := F)) (k1_pay7 x) (k1_pay8 x)) (k1_pay11 (k1_pay5 x mc)) (View.ld acc slab1))
    (k1_pay10 (k1_pay4 x) (k1_pay5 x mc) (k1_pay6 (F := F)) (k1_pay7 x) (k1_pay8 x) (View.ld acc slab0))

/-! ## The update read index by index -/

/-- On the rows of slab k the updated block is what slab k's store wrote: the slab it loaded plus the slab's product. -/
theorem hstep_on_slab (x : Vec F S1x2048x3 .f32) (mc : Vec F S1x1x3 .f32) (acc : Vec F S1x8192x10 .f32) (k : Fin 8) (o : Nat)
    (ho : o = 1024 * k.val) (inb : ∀ a, (![0, o, 0] : Fin 3 → Nat) a + (![1, 1024, 10] : Fin 3 → Nat) a ≤ S1x8192x10.size a)
    (j : S1x1024x10.Idx) :
    HandV.hstep x mc acc ((Rect.unit (s := S1x8192x10) ![0, o, 0] ![1, 1024, 10] inb).emb j)
      = HandV.chunkPay x mc k (View.ld acc (Rect.unit (s := S1x8192x10) ![0, o, 0] ![1, 1024, 10] inb)) j := by
  subst ho
  have hj0 : (j 0).val < 1 := (j 0).isLt
  have hj1 : (j 1).val < 1024 := (j 1).isLt
  have hk8 : k.val < 8 := k.isLt
  generalize hy : (Rect.unit (s := S1x8192x10) ![0, 1024 * k.val, 0] ![1, 1024, 10] inb).emb j = y
  have h1 : (y 1).val = 1024 * k.val + (j 1).val := by
    rw [← hy]; show 1024 * k.val + 1 * (j 1).val = _; omega
  have h2 : (y 2).val = (j 2).val := by
    rw [← hy]; show 0 + 1 * (j 2).val = _; omega
  have hk : ∀ h, (⟨(y 1).val / 1024, h⟩ : Fin 8) = k := fun h => Fin.ext (by show (y 1).val / 1024 = k.val; omega)
  have hj : ∀ h1' h2', ix3 (0 : Fin 1) (⟨(y 1).val % 1024, h1'⟩ : Fin 1024) (⟨(y 2).val, h2'⟩ : Fin 10) = j := fun _ _ => by
    funext a
    match a with
    | ⟨0, _⟩ => exact Fin.ext (by show 0 = (j 0).val; omega)
    | ⟨1, _⟩ => exact Fin.ext (by show (y 1).val % 1024 = (j 1).val; omega)
    | ⟨2, _⟩ => exact Fin.ext (by show (y 2).val = (j 2).val; omega)
  have hs : HandV.slab acc k = View.ld acc (Rect.unit (s := S1x8192x10) ![0, 1024 * k.val, 0] ![1, 1024, 10] inb) := by
    funext z
    have hz0 : (z 0).val < 1 := (z 0).isLt
    unfold HandV.slab
    show acc _ = acc ((Rect.unit (s := S1x8192x10) ![0, 1024 * k.val, 0] ![1, 1024, 10] inb).emb z)
    congr 1
    funext a
    match a with
    | ⟨0, _⟩ => exact Fin.ext (by show 0 = 0 + 1 * (z 0).val; omega)
    | ⟨1, _⟩ => exact Fin.ext (by show 1024 * k.val + (z 1).val = 1024 * k.val + 1 * (z 1).val; omega)
    | ⟨2, _⟩ => exact Fin.ext (by show (z 2).val = 0 + 1 * (z 2).val; omega)
  unfold HandV.hstep
  rw [hk, hs]
  exact congrArg _ (hj _ _)

/-- The eight stores of a tile leave the update. -/
theorem canon_tileStores (x : Vec F S1x2048x3 .f32) (mc : Vec F S1x1x3 .f32) (acc : Vec F S1x8192x10 .f32) :
    View.canon (tileStores x mc acc) = HandV.hstep x mc acc := by
  funext y
  refine View.canon_apply_of_pieces (HandV.hstep x mc acc) (tileStores x mc acc) ?_ y (slabs_cover _ _ _ _ _ _ _ _ y)
  intro p hp j
  unfold tileStores slabStores at hp
  simp only [List.mem_cons, List.not_mem_nil, or_false] at hp
  rcases hp with rfl | rfl | rfl | rfl | rfl | rfl | rfl | rfl
  · exact (hstep_on_slab x mc acc ⟨7, by decide⟩ 7168 rfl inb_S1x8192x10_S1x1024x10_0_7168_0 j).symm
  · exact (hstep_on_slab x mc acc ⟨6, by decide⟩ 6144 rfl inb_S1x8192x10_S1x1024x10_0_6144_0 j).symm
  · exact (hstep_on_slab x mc acc ⟨5, by decide⟩ 5120 rfl inb_S1x8192x10_S1x1024x10_0_5120_0 j).symm
  · exact (hstep_on_slab x mc acc ⟨4, by decide⟩ 4096 rfl inb_S1x8192x10_S1x1024x10_0_4096_0 j).symm
  · exact (hstep_on_slab x mc acc ⟨3, by decide⟩ 3072 rfl inb_S1x8192x10_S1x1024x10_0_3072_0 j).symm
  · exact (hstep_on_slab x mc acc ⟨2, by decide⟩ 2048 rfl inb_S1x8192x10_S1x1024x10_0_2048_0 j).symm
  · exact (hstep_on_slab x mc acc ⟨1, by decide⟩ 1024 rfl inb_S1x8192x10_S1x1024x10_0_1024_0 j).symm
  · exact (hstep_on_slab x mc acc ⟨0, by decide⟩ 0 rfl inb_S1x8192x10_S1x1024x10_0_0_0 j).symm

/-! ## The two cases of the body are this update -/

set_option maxHeartbeats 1000000 in
/-- At a later tile the body loads each slab of what the tile before left and stores it back updated. -/
theorem out1_B_2_eq_hstep (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : ¬isFirstTile i) (x0 : Vec F S1x2048x3 .f32) (x1 : Vec F S1x1x3 .f32) (xo : Vec F S1x8192x10 .f32) :
    out1_B_2 c i arg2 harg2 arg3 harg3 arg4 harg4 hc0 x0 x1 xo = HandV.hstep x0 x1 xo := by
  unfold out1_B_2
  rw [View.read_writes_eq_canon _ _ _ (cover1_B_2 c i arg2 harg2 arg3 harg3 arg4 harg4 hc0 x0 x1 xo)]
  unfold histRun_later
  dsimp only
  sl_unfold_run_names
  simp only [View.readAt_eq_ld, harg2.read_unread, harg3.read_unread, harg4.read_unread,
    View.ld_unit_zero (S := S1x2048x3) zero3, View.ld_unit_zero (S := S1x1x3) zero3]
  exact canon_tileStores x0 x1 xo

set_option maxHeartbeats 1000000 in
/-- At a first tile the body zeroes the block first, and each slab it then loads is a slab of zeros: the rows stored
    since the reset lie before the slab's rows. -/
theorem out1_A_2_eq_hstep (c : Dev nD) (i : grid1.Coords) (arg2 : Memref sig .tc .vmem S1x2048x3 .f32) (harg2 : arg2.IsWhole)
    (arg3 : Memref sig .tc .vmem S1x1x3 .f32) (harg3 : arg3.IsWhole) (arg4 : Memref sig .tc .vmem S1x8192x10 .f32) (harg4 : arg4.IsWhole)
    (hc0 : isFirstTile i) (x0 : Vec F S1x2048x3 .f32) (x1 : Vec F S1x1x3 .f32) :
    out1_A_2 c i arg2 harg2 arg3 harg3 arg4 harg4 hc0 x0 x1 = HandV.hstep x0 x1 (k1_pay3 (F := F)) := by
  unfold out1_A_2
  rw [View.read_writes_eq_canon _ _ _ (cover1_A_2 c i arg2 harg2 arg3 harg3 arg4 harg4 hc0 x0 x1)]
  unfold histRun_first
  dsimp only
  sl_unfold_run_names
  simp (disch := decide) only [readCov_cons_rows_before (S := S1x8192x10) _ 1, readCov_whole_rect (S := S1x8192x10) _ zero3,
    View.readAt_eq_ld, harg2.read_unread, harg3.read_unread,
    View.ld_unit_zero (S := S1x2048x3) zero3, View.ld_unit_zero (S := S1x1x3) zero3]
  refine (canon_slabs_over _ _ _ _ _ _ _ _ (k1_pay3 (F := F))).trans ?_
  exact canon_tileStores x0 x1 (k1_pay3 (F := F))

/-! ## The running block, tile by tile -/

-- The TensorCore buffers of core `c` as the region finds them.
variable (V : (c : Dev nD) → (b : Ref sig .tc) → Buf (Elt F) ((c : Thread nD τ).loc b))

/-- After a cloud's first tile the block is that tile's update of the zero block. -/
theorem outsAt1_first (c : Dev nD) (t : Fin cfg1.N) (h0 : t.val % 128 = 0) :
    outsAt1 V c t.val t.isLt = Cert.KernelIdeal.HandV.hstep (iblk1 V c 0 t) (iblk1 V c 1 t) (k1_pay3 (F := F)) :=
  (outsAt1_A V c t h0).trans
    (out1_A_2_eq_hstep c (grid1.coords t) (ms1_0 t) (hs1_0 t) (ms1_1 t) (hs1_1 t) (ms1_2 t) (hs1_2 t)
      ((isFirstTile_iff t).mpr h0) (iblk1 V c 0 t) (iblk1 V c 1 t))

/-- After a later tile it is that tile's update of the block the tile before left. -/
theorem outsAt1_next (c : Dev nD) (t : Fin cfg1.N) (h0 : ¬ t.val % 128 = 0) :
    outsAt1 V c t.val t.isLt = Cert.KernelIdeal.HandV.hstep (iblk1 V c 0 t) (iblk1 V c 1 t)
      (outsAt1 V c (t.val - 1) (Nat.lt_of_le_of_lt (Nat.sub_le _ _) t.isLt)) :=
  (outsAt1_B V c t h0).trans
    (out1_B_2_eq_hstep c (grid1.coords t) (ms1_0 t) (hs1_0 t) (ms1_1 t) (hs1_1 t) (ms1_2 t) (hs1_2 t)
      (fun h => h0 ((isFirstTile_iff t).mp h)) (iblk1 V c 0 t) (iblk1 V c 1 t)
      (outsAt1 V c (t.val - 1) (Nat.lt_of_le_of_lt (Nat.sub_le _ _) t.isLt)))

end Cert.KernelIdeal.Hand

end
-- ==== Proof.KI.ValHist.lean ====
/-
  The value of the histogram region: after it, its output array `[8, 8192, 10]` holds at `(b, v, f)` feature `f` of
  voxel `v` of cloud `b`, summed over all 262144 points of the cloud.

  The grid is 8 clouds by 128 row tiles; point `t` works on cloud `t / 128`, tile `t % 128`. Its input blocks are rows
  `[2048 (t % 128), 2048 (t % 128) + 2048)` of that cloud and that cloud's minimum corner; its output block is the
  cloud's `[1, 8192, 10]` slab of the result, kept across the cloud's tiles and written back after the last. One step
  adds, at entry `(v, f)`, feature `f` of the tile's rows whose voxel word against the corner is `v`; the block restarts
  from zero at the cloud's first tile. Hence at the cloud's last tile entry `(v, f)` is the sum over the 128 tiles and
  their 2048 rows, that is over the cloud's points `n = 2048 s + r`, of feature `f` of the points whose voxel is `v`:
  the specification's `hist`. The eight last tiles' blocks tile the result array, so it ends holding the eight
  histograms.
-/
import proofs.«157393_j34419867910943_1_alg».proof.Proof.KI.ValHistB
import proofs.«157393_j34419867910943_1_alg».proof.Proof.KI.ValHistC
import proofs.«157393_j34419867910943_1_alg».proof.Proof.KI.Step1
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- The TensorCore buffers of core `c` as the region finds them.
variable (V : (c : Dev nD) → (b : Ref sig .tc) → Buf (Elt Ideal) ((c : Thread nD τ).loc b))

/-! ## The arrays and the blocks, by their literal types -/

/-- The clouds, `[8, 262144, 3]`. -/
abbrev xarr (c : Dev nD) : Vec Ideal S8x262144x3 .f32 := V c main_arg0
/-- The minimum corners, `[8, 1, 3]`. -/
abbrev marr (c : Dev nD) : Vec Ideal S8x1x3 .f32 := V c main_v0
/-- The tile of points the body is given at point `t`. -/
abbrev xblk (c : Dev nD) (t : Fin cfg1.N) : Vec Ideal S1x2048x3 .f32 := iblk1 V c 0 t
/-- The corner the body is given at point `t`. -/
abbrev mblk (c : Dev nD) (t : Fin cfg1.N) : Vec Ideal S1x1x3 .f32 := iblk1 V c 1 t

/-- Where the three windows' blocks sit at point `t`: cloud `t / 128`; the points' tile `t % 128`. -/
theorem idx_facts1 : ∀ t : Fin cfg1.N,
    (win1_0.index t 0 = t.val / 128 ∧ win1_0.index t 1 = t.val % 128 ∧ win1_0.index t 2 = 0) ∧
    (win1_1.index t 0 = t.val / 128 ∧ win1_1.index t 1 = 0 ∧ win1_1.index t 2 = 0) ∧
    (win1_2.index t 0 = t.val / 128 ∧ win1_2.index t 1 = 0 ∧ win1_2.index t 2 = 0) :=
  (by decide +kernel : ∀ t : Fin grid1.N,
    (win1_0.index t 0 = t.val / 128 ∧ win1_0.index t 1 = t.val % 128 ∧ win1_0.index t 2 = 0) ∧
    (win1_1.index t 0 = t.val / 128 ∧ win1_1.index t 1 = 0 ∧ win1_1.index t 2 = 0) ∧
    (win1_2.index t 0 = t.val / 128 ∧ win1_2.index t 1 = 0 ∧ win1_2.index t 2 = 0))

/-- The tile at point `t` is rows `[2048 (t % 128), 2048 (t % 128) + 2048)` of cloud `t / 128`. -/
theorem xblk_apply (c : Dev nD) (t : Fin cfg1.N) (r : Fin 2048) (j : Fin 3) (b : Fin 8) (n : Fin 262144)
    (hb : b.val = t.val / 128) (hn : n.val = 2048 * (t.val % 128) + r.val) :
    xblk V c t (ix3 (0 : Fin 1) r j) = xarr V c (ix3 b n j) := by
  obtain ⟨⟨h0, h1, h2⟩, -, -⟩ := idx_facts1 t
  unfold xblk iblk1
  rw [View.read_apply]
  show V c main_arg0 (((cfg1.win 0).blk t).view.emb (ix3 (0 : Fin 1) r j)) = V c main_arg0 (ix3 b n j)
  refine congrArg (V c main_arg0) (funext fun a => Fin.ext ?_)
  match a with
  | ⟨0, _⟩ => show win1_0.index t 0 * 1 + 1 * 0 = b.val; rw [h0, hb]; omega
  | ⟨1, _⟩ => show win1_0.index t 1 * 2048 + 1 * r.val = n.val; rw [h1, hn]; omega
  | ⟨2, _⟩ => show win1_0.index t 2 * 3 + 1 * j.val = j.val; rw [h2]; omega

/-- The corner at point `t` is row `t / 128` of the corners. -/
theorem mblk_apply (c : Dev nD) (t : Fin cfg1.N) (j : Fin 3) (b : Fin 8) (hb : b.val = t.val / 128) :
    mblk V c t (ix3 (0 : Fin 1) (0 : Fin 1) j) = marr V c (ix3 b (0 : Fin 1) j) := by
  obtain ⟨-, ⟨h0, h1, h2⟩, -⟩ := idx_facts1 t
  unfold mblk iblk1
  rw [View.read_apply]
  show V c main_v0 (((cfg1.win 1).blk t).view.emb (ix3 (0 : Fin 1) (0 : Fin 1) j)) = V c main_v0 (ix3 b (0 : Fin 1) j)
  refine congrArg (V c main_v0) (funext fun a => Fin.ext ?_)
  match a with
  | ⟨0, _⟩ => show win1_1.index t 0 * 1 + 1 * 0 = b.val; rw [h0, hb]; omega
  | ⟨1, _⟩ => show win1_1.index t 1 * 1 + 1 * 0 = 0; rw [h1]
  | ⟨2, _⟩ => show win1_1.index t 2 * 3 + 1 * j.val = j.val; rw [h2]; omega

/-! ## One tile's contribution, in the cloud's own coordinates -/

/-- What point `n` of cloud `b` adds to entry `(v, f)`: its feature `f` if its voxel is `v`, else nothing (and nothing
    outside the arrays, so that the sums below range over plain naturals). -/
def addend (c : Dev nD) (v : Fin 8192) (f : Fin 10) (b n : ℕ) : EReal :=
  if h : b < 8 ∧ n < 262144 then
    (if Cert.Voxel.vox (xarr V c) ⟨b, h.1⟩ ⟨n, h.2⟩ = BitVec.ofNat 32 v.val
      then feat (fun j => xarr V c (ix3 (⟨b, h.1⟩ : Fin 8) (⟨n, h.2⟩ : Fin 262144) j)) f else 0)
  else 0

/-- The corners the region finds are the clouds' minimum corners. -/
abbrev CornersAreMin (c : Dev nD) : Prop :=
  ∀ i : S8x1x3.Idx, V c main_v0 i = Cert.Voxel.minc (V c main_arg0) ⟨(i 0).val, (i 0).isLt⟩ ⟨(i 2).val, (i 2).isLt⟩

/-- The sum a tile's rows add to entry `(v, f)`, in the cloud's coordinates: row `r` of tile `t % 128` of cloud `t / 128`
    is point `2048 (t % 128) + r`, and the corner is the cloud's minimum corner. -/
theorem tile_sum (c : Dev nD) (hmc : CornersAreMin V c) (t : Fin cfg1.N) (v : Fin 8192) (f : Fin 10) :
    (∑ r : Fin 2048, if Cert.Voxel.flat (fun j => xblk V c t (ix3 (0 : Fin 1) r j)) (fun j => mblk V c t (ix3 (0 : Fin 1) (0 : Fin 1) j))
        = BitVec.ofNat 32 v.val then feat (fun j => xblk V c t (ix3 (0 : Fin 1) r j)) f else 0)
      = ∑ r : Fin 2048, addend V c v f (t.val / 128) (2048 * (t.val % 128) + r.val) := by
  have hN : t.val < 1024 := lt_of_lt_of_eq t.isLt (show cfg1.N = 1024 from N_1)
  refine Finset.sum_congr rfl fun r _ => ?_
  have hr : r.val < 2048 := r.isLt
  have hb : t.val / 128 < 8 := by omega
  have hn : 2048 * (t.val % 128) + r.val < 262144 := by omega
  have hx : (fun j => xblk V c t (ix3 (0 : Fin 1) r j))
      = fun j => xarr V c (ix3 (⟨t.val / 128, hb⟩ : Fin 8) (⟨2048 * (t.val % 128) + r.val, hn⟩ : Fin 262144) j) :=
    funext fun j => xblk_apply V c t r j _ _ rfl rfl
  have hm : (fun j => mblk V c t (ix3 (0 : Fin 1) (0 : Fin 1) j)) = Cert.Voxel.minc (xarr V c) ⟨t.val / 128, hb⟩ :=
    funext fun j => (mblk_apply V c t j ⟨t.val / 128, hb⟩ rfl).trans (hmc (ix3 (⟨t.val / 128, hb⟩ : Fin 8) (0 : Fin 1) j))
  rw [hx, hm]
  unfold addend
  rw [dif_pos ⟨hb, hn⟩]
  rfl

/-! ## The output block at a cloud's last tile -/

/-- The case equations of the running block: at a cloud's first tile one step from the zero block, at a later tile
    one step from what the tile before left. -/
abbrev StepFirst (c : Dev nD) : Prop :=
  ∀ (t : Fin cfg1.N) (h0 : t.val % 128 = 0),
    outsAt1 V c t.val t.isLt = hstep (iblk1 V c 0 t) (iblk1 V c 1 t) (k1_pay3 (F := Ideal))
abbrev StepNext (c : Dev nD) : Prop :=
  ∀ (t : Fin cfg1.N) (h0 : ¬t.val % 128 = 0),
    outsAt1 V c t.val t.isLt = hstep (iblk1 V c 0 t) (iblk1 V c 1 t)
      (outsAt1 V c (t.val - 1) (Nat.lt_of_le_of_lt (Nat.sub_le _ _) t.isLt))

/-- The zero block is zero. -/
theorem zero_block_apply (y : S1x8192x10.Idx) : k1_pay3 (F := Ideal) y = 0 :=
  Ideal.ofBits_zero_f32

/-- After a cloud's last tile the block holds the cloud's histogram: entry `(v, f)` is the sum over all the cloud's
    points in voxel `v` of feature `f`. -/
theorem outs_last (c : Dev nD) (hmc : CornersAreMin V c) (hA : StepFirst V c) (hB : StepNext V c)
    (t : Fin cfg1.N) (hlast : t.val % 128 = 127) (b : Fin 8) (hb : b.val = t.val / 128) (v : Fin 8192) (f : Fin 10) :
    outsAt1 V c t.val t.isLt (ix3 (0 : Fin 1) v f) = Cert.Voxel.hist (xarr V c) b (BitVec.ofNat 32 v.val) f := by
  have hN : cfg1.N = 1024 := N_1
  rw [hist_eq_sum]
  refine (fold_cloud (fun n hn => outsAt1 V c n hn (ix3 (0 : Fin 1) v f)) (addend V c v f) ?_ ?_ t.val t.isLt hlast).trans ?_
  · intro n hn h0
    show outsAt1 V c (⟨n, hn⟩ : Fin cfg1.N).val (⟨n, hn⟩ : Fin cfg1.N).isLt (ix3 (0 : Fin 1) v f) = _
    rw [hA ⟨n, hn⟩ h0]
    refine (hstep_apply (xblk V c ⟨n, hn⟩) (mblk V c ⟨n, hn⟩) _ v f).trans ?_
    rw [zero_block_apply, zero_add]
    exact tile_sum V c hmc ⟨n, hn⟩ v f
  · intro n hn h0
    show outsAt1 V c (⟨n, hn⟩ : Fin cfg1.N).val (⟨n, hn⟩ : Fin cfg1.N).isLt (ix3 (0 : Fin 1) v f) = _
    rw [hB ⟨n, hn⟩ h0]
    refine (hstep_apply (xblk V c ⟨n, hn⟩) (mblk V c ⟨n, hn⟩) _ v f).trans ?_
    exact congrArg (_ + ·) (tile_sum V c hmc ⟨n, hn⟩ v f)
  · refine Finset.sum_congr rfl fun n _ => ?_
    unfold addend
    have hb' : t.val / 128 < 8 := by rw [← hb]; exact b.isLt
    rw [dif_pos ⟨hb', n.isLt⟩]
    have e : (⟨t.val / 128, hb'⟩ : Fin 8) = b := Fin.ext hb.symm
    rw [e]

/-! ## The array after the run -/

/-- The histograms of the eight clouds, as contents of the result array `[8, 8192, 10]`. -/
abbrev histArr (c : Dev nD) : Vec Ideal S8x8192x10 .f32 := fun i =>
  Cert.Voxel.hist (xarr V c) ⟨(i 0).val, (i 0).isLt⟩ (BitVec.ofNat 32 (i 1).val) ⟨(i 2).val, (i 2).isLt⟩

/-- What a cloud's last tile writes back is that cloud's block of the histograms. -/
theorem flushed_eq1 (c : Dev nD) (hmc : CornersAreMin V c) (hA : StepFirst V c) (hB : StepNext V c)
    (t : Fin cfg1.N) (hf : (cfg1.win 2).flush t = true) :
    (dat1 V c).flushed 2 t = ((cfg1.win 2).blk t).view.read (Elt Ideal) (histArr V c) := by
  have hlast : t.val % 128 = 127 := (flush1_2 t).mp hf
  have hN : t.val < 1024 := lt_of_lt_of_eq t.isLt (show cfg1.N = 1024 from N_1)
  obtain ⟨-, -, ⟨h0, h1, h2⟩⟩ := idx_facts1 t
  funext y
  rw [View.read_apply]
  have hy0 : (y 0).val = 0 := by have : (y 0).val < 1 := (y 0).isLt; omega
  have hy1 : (y 1).val < 8192 := (y 1).isLt
  have hy2 : (y 2).val < 10 := (y 2).isLt
  have hb : t.val / 128 < 8 := by omega
  have e : (cfg1.win 2).xinj (grid1.coords t) y
      = ix3 (0 : Fin 1) (⟨(y 1).val, hy1⟩ : Fin 8192) (⟨(y 2).val, hy2⟩ : Fin 10) :=
    funext fun a => Fin.ext (by
      match a with
      | ⟨0, _⟩ => exact hy0
      | ⟨1, _⟩ => rfl
      | ⟨2, _⟩ => rfl)
  show (dat1 V c).after 2 t ((cfg1.win 2).xinj (grid1.coords t) y) = histArr V c (((cfg1.win 2).blk t).view.emb y)
  rw [e, after1_2, outs_last V c hmc hA hB t hlast ⟨t.val / 128, hb⟩ rfl]
  show histArr V c (ix3 (⟨t.val / 128, hb⟩ : Fin 8) (⟨(y 1).val, hy1⟩ : Fin 8192) (⟨(y 2).val, hy2⟩ : Fin 10)) = _
  refine congrArg (histArr V c) (funext fun a => Fin.ext ?_)
  match a with
  | ⟨0, _⟩ => show t.val / 128 = win1_2.index t 0 * 1 + 1 * (y 0).val; rw [h0, hy0]; omega
  | ⟨1, _⟩ => show (y 1).val = win1_2.index t 1 * 8192 + 1 * (y 1).val; rw [h1]; omega
  | ⟨2, _⟩ => show (y 2).val = win1_2.index t 2 * 10 + 1 * (y 2).val; rw [h2]; omega

/-- Every entry of the result array lies in the block its cloud's last tile writes back. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 1024 := N_1
  have hi0 : (i 0 : ℕ) < 8 := (i 0).isLt
  have hi1 : (i 1 : ℕ) < 8192 := (i 1).isLt
  have hi2 : (i 2 : ℕ) < 10 := (i 2).isLt
  have ht : 128 * (i 0 : ℕ) + 127 < cfg1.N := by rw [hN]; omega
  refine ⟨⟨128 * (i 0 : ℕ) + 127, ht⟩, (flush1_2 _).mpr (by show (128 * (i 0 : ℕ) + 127) % 128 = 127; omega), ?_⟩
  obtain ⟨-, -, ⟨h0, h1, h2⟩⟩ := idx_facts1 ⟨128 * (i 0 : ℕ) + 127, ht⟩
  show i ∈ ((View.whole main_v1).slice (win1_2.rect ⟨128 * (i 0 : ℕ) + 127, ht⟩)).set
  rw [View.set_slice_whole, Rect.mem_set_unit]
  intro a
  match a with
  | ⟨0, _⟩ =>
    show win1_2.index ⟨128 * (i 0 : ℕ) + 127, ht⟩ 0 * 1 ≤ (i 0 : ℕ) ∧ (i 0 : ℕ) < win1_2.index ⟨128 * (i 0 : ℕ) + 127, ht⟩ 0 * 1 + 1
    rw [h0]; show (128 * (i 0 : ℕ) + 127) / 128 * 1 ≤ (i 0 : ℕ) ∧ (i 0 : ℕ) < (128 * (i 0 : ℕ) + 127) / 128 * 1 + 1; omega
  | ⟨1, _⟩ =>
    show win1_2.index ⟨128 * (i 0 : ℕ) + 127, ht⟩ 1 * 8192 ≤ (i 1 : ℕ) ∧ (i 1 : ℕ) < win1_2.index ⟨128 * (i 0 : ℕ) + 127, ht⟩ 1 * 8192 + 8192
    rw [h1]; omega
  | ⟨2, _⟩ =>
    show win1_2.index ⟨128 * (i 0 : ℕ) + 127, ht⟩ 2 * 10 ≤ (i 2 : ℕ) ∧ (i 2 : ℕ) < win1_2.index ⟨128 * (i 0 : ℕ) + 127, ht⟩ 2 * 10 + 10
    rw [h2]; omega

/-- So the result array ends holding the eight histograms. -/
theorem final1 (c : Dev nD) (hmc : CornersAreMin V c) (hA : StepFirst V c) (hB : StepNext V c) :
    (dat1 V c).arrAt 2 cfg1.N = histArr V c :=
  (dat1 V c).arrAt_eq_of_cover 2 (histArr V c) (fun t hf => flushed_eq1 V c hmc hA hB t hf) (cover1 c)

/-- **The histogram region's value**: after the region, entry `(b, v, f)` of its output array is feature `f` of voxel
    `v` of cloud `b`, summed over all the cloud's points. -/
theorem arr1_eq (c : Dev nD)
    (hmc : ∀ i : S8x1x3.Idx, V c main_v0 i = Cert.Voxel.minc (V c main_arg0) ⟨(i 0).val, (i 0).isLt⟩ ⟨(i 2).val, (i 2).isLt⟩)
    (b : Fin 8) (v : Fin 8192) (f : Fin 10) :
    (dat1 (F := Ideal) V c).arrAt 2 cfg1.N (ix3 b v f) = Cert.Voxel.hist (V c main_arg0) b (BitVec.ofNat 32 v.val) f := by
  rw [final1 V c hmc (outsAt1_first V c) (outsAt1_next V c)]

end Cert.KernelIdeal.HandV

end
-- ==== Proof.LibNary.lean ====
/-
  A host operation that joins several arrays into one (a concatenate) is a function of the FAMILY of its operands.
  Reading its result off a valuation gives that function applied to `fun k => F ↑(xs k)`; when the family is a literal
  `![a, b, …]` the same value is the function applied to the operands' contents listed one by one, each at its own
  reference. The library states this for four operands; here it is for two, six and nine.
-/
import Idealize.ShloMosaic.Lib.StableHlo.Run

noncomputable section

namespace Idealize.ShloMosaic.StableHlo

open Idealize.ShloMosaic Idealize.SL.Sem

variable {τ : Topo} {sig : RefSig} {Val : EltTy → Type}
variable {y x0 x1 x2 x3 x4 x5 x6 x7 x8 : Ref sig .tc}

/-- `nary` over a literal family of 2 references: the result with each operand's contents at its own reference, so
    that the operands' own results can be rewritten next (under `fun k => F ↑(![x0, x1] k)` the reference is no literal). -/
theorem nary2_result
    (f : ((k : Fin 2) → ((![x0, x1] : Fin 2 → Ref sig .tc) k).ty.Contents Val) → y.ty.Contents Val) (hxs hy)
    (F : Valuation τ sig Val) :
    (nary (τ := τ) ![x0, x1] y f hxs hy).result F (Proc.devRef .tc y)
      = f (Fin.cons (F (Proc.devRef .tc x0)) (Fin.cons (F (Proc.devRef .tc x1)) (fun i => i.elim0))) := by
  rw [nary_result]; congr 1; funext k; fin_cases k <;> rfl
/-- The same with the result reference un-indexed, for use by `simp`. -/
theorem nary2_result'
    (f : ((k : Fin 2) → ((![x0, x1] : Fin 2 → Ref sig .tc) k).ty.Contents Val) → y.ty.Contents Val) (hxs hy)
    (F : Valuation τ sig Val) :
    (nary (τ := τ) ![x0, x1] y f hxs hy).result F (no_index (Proc.devRef .tc y))
      = f (Fin.cons (F (Proc.devRef .tc x0)) (Fin.cons (F (Proc.devRef .tc x1)) (fun i => i.elim0))) :=
  nary2_result f hxs hy F

/-- `nary` over a literal family of 6 references: the result with each operand's contents at its own reference, so
    that the operands' own results can be rewritten next (under `fun k => F ↑(![x0, x1, x2, x3, x4, x5] k)` the reference is no literal). -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same with the result reference un-indexed, for use by `simp`. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) :=
  nary6_result f hxs hy F

/-- `nary` over a literal family of 9 references: the result with each operand's contents at its own reference, so
    that the operands' own results can be rewritten next (under `fun k => F ↑(![x0, x1, x2, x3, x4, x5, x6, x7, x8] k)` the reference is no literal). -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same with the result reference un-indexed, for use by `simp`. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo

end
-- ==== Proof.KI.ValTab.lean ====
/-
  The kernel program's per-voxel table, read at an index.

  After its two kernels the program turns the histogram `A : [8, 8192, 10]` (per cloud and voxel: the count, the three
  coordinate sums, the six sums of products for the pairs (0,0) (0,1) (0,2) (1,1) (1,2) (2,2)) into the table
  `T : [8, 8192, 12]` by eighty array operations: with `n = max(A₀, 1)`, the means `μ_i = A_{1+i} / n`, the raw moments
  `A_{4+p} / n`, the six products `μ_i μ_j`, their difference, the nine entries of the symmetric 3×3 table picked out of
  the six, and the join `[μ, table]`. Read at `(b, v, k)` this is number `k` of the twelve the specification forms from
  the ten features of voxel `v` of cloud `b`:  `T (b, v, k) = distOf (A (b, v, ·)) k`.

  The eighty operations are taken in four stretches (up to the two divides; the six products and their join; the
  subtraction, the nine columns and their join; the last join). Each stretch's result is a composed term of what the
  stretch before left, and the composed term is then read at an index one layout operation at a time.
-/
import proofs.«157393_j34419867910943_1_alg».proof.Proof.Gen.KernelIdeal.Launch
import proofs.«157393_j34419867910943_1_alg».proof.Proof.LibNary
import proofs.«157393_j34419867910943_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HandV.Tab
open Cert.KernelIdeal Cert.KernelIdeal.Gen
open Idealize.ShloMosaic Idealize.ShloMosaic.TcCoe Idealize.SL.Sem Idealize.ShloMosaic.StableHlo Idealize.ShloMosaic.ValueIdx

section Terms
variable {F : FTy → Type} [FloatOps F]

/-- The divisor of a voxel, on a trailing unit axis: the larger of the count (feature 0) and one. -/
def den (H : (⟨S8x8192x10, .f32⟩ : BufTy).Contents (Elt F)) : (⟨S8x8192x1, .f32⟩ : BufTy).Contents (Elt F) :=
  broadcastInDim S8x8192x1 ![0, 1] bcast_S8x8192_S8x8192x1_0_1
    (maximumf (shapeCast _ (extractStridedSlice S8x8192x1 ![0, 0, 0] H slices_S8x8192x10_S8x8192x1_0_0_0) shapeCasts_S8x8192x1_S8x8192)
      (broadcastInDim S8x8192 ![] bcast_S_S8x8192 (constant S_ .f32 0x3F800000#32)))

/-- The means: the three sums (features 1 to 3) over the divisor. -/
def meanA (H : (⟨S8x8192x10, .f32⟩ : BufTy).Contents (Elt F)) : (⟨S8x8192x3, .f32⟩ : BufTy).Contents (Elt F) :=
  Host.divf (extractStridedSlice S8x8192x3 ![0, 0, 1] H slices_S8x8192x10_S8x8192x3_0_0_1)
    (broadcastInDim S8x8192x3 ![0, 1, 2] bcast_S8x8192x1_S8x8192x3_0_1_2 (den H))

/-- The raw second moments: the six sums of products (features 4 to 9) over the divisor. -/
def momA (H : (⟨S8x8192x10, .f32⟩ : BufTy).Contents (Elt F)) : (⟨S8x8192x6, .f32⟩ : BufTy).Contents (Elt F) :=
  Host.divf (extractStridedSlice S8x8192x6 ![0, 0, 4] H slices_S8x8192x10_S8x8192x6_0_0_4)
    (broadcastInDim S8x8192x6 ![0, 1, 2] bcast_S8x8192x1_S8x8192x6_0_1_2 (den H))

/-- Column `c` of the means as an array `[8, 8192]`. -/
def colM (M : (⟨S8x8192x3, .f32⟩ : BufTy).Contents (Elt F)) (c : ℕ) (h : S8x8192x3.Slices ![0, 0, c] S8x8192x1) :
    (⟨S8x8192, .f32⟩ : BufTy).Contents (Elt F) :=
  shapeCast _ (extractStridedSlice S8x8192x1 ![0, 0, c] M h) shapeCasts_S8x8192x1_S8x8192

/-- The product of two columns of the means, on a trailing unit axis. -/
def prodP (M : (⟨S8x8192x3, .f32⟩ : BufTy).Contents (Elt F)) (c d : ℕ) (hc : S8x8192x3.Slices ![0, 0, c] S8x8192x1)
    (hd : S8x8192x3.Slices ![0, 0, d] S8x8192x1) : (⟨S8x8192x1, .f32⟩ : BufTy).Contents (Elt F) :=
  broadcastInDim S8x8192x1 ![0, 1] bcast_S8x8192_S8x8192x1_0_1 (mulf (colM M c hc) (colM M d hd))

/-- The six products of means, for the pairs `(0,0) (0,1) (0,2) (1,1) (1,2) (2,2)`, joined along the last axis. -/
def prod6 (M : (⟨S8x8192x3, .f32⟩ : BufTy).Contents (Elt F)) : (⟨S8x8192x6, .f32⟩ : BufTy).Contents (Elt F) :=
  concatenate S8x8192x6 2
    [⟨S8x8192x1, prodP M 0 0 slices_S8x8192x3_S8x8192x1_0_0_0 slices_S8x8192x3_S8x8192x1_0_0_0⟩,
     ⟨S8x8192x1, prodP M 0 1 slices_S8x8192x3_S8x8192x1_0_0_0 slices_S8x8192x3_S8x8192x1_0_0_1⟩,
     ⟨S8x8192x1, prodP M 0 2 slices_S8x8192x3_S8x8192x1_0_0_0 slices_S8x8192x3_S8x8192x1_0_0_2⟩,
     ⟨S8x8192x1, prodP M 1 1 slices_S8x8192x3_S8x8192x1_0_0_1 slices_S8x8192x3_S8x8192x1_0_0_1⟩,
     ⟨S8x8192x1, prodP M 1 2 slices_S8x8192x3_S8x8192x1_0_0_1 slices_S8x8192x3_S8x8192x1_0_0_2⟩,
     ⟨S8x8192x1, prodP M 2 2 slices_S8x8192x3_S8x8192x1_0_0_2 slices_S8x8192x3_S8x8192x1_0_0_2⟩]
    concatenates_S8x8192x1_S8x8192x1_S8x8192x1_S8x8192x1_S8x8192x1_S8x8192x1_S8x8192x6_d2

/-- The six central second moments: raw moment less product of means. -/
def cenA (H : (⟨S8x8192x10, .f32⟩ : BufTy).Contents (Elt F)) : (⟨S8x8192x6, .f32⟩ : BufTy).Contents (Elt F) :=
  subf (momA H) (prod6 (meanA H))

/-- Column `c` of the six central moments, on a trailing unit axis. -/
def colD (D : (⟨S8x8192x6, .f32⟩ : BufTy).Contents (Elt F)) (c : ℕ) (h : S8x8192x6.Slices ![0, 0, c] S8x8192x1) :
    (⟨S8x8192x1, .f32⟩ : BufTy).Contents (Elt F) :=
  broadcastInDim S8x8192x1 ![0, 1] bcast_S8x8192_S8x8192x1_0_1
    (shapeCast _ (extractStridedSlice S8x8192x1 ![0, 0, c] D h) shapeCasts_S8x8192x1_S8x8192)

/-- The symmetric 3×3 table of central moments row by row: columns `0 1 2 1 3 4 2 4 5` of the six. -/
def cov9 (D : (⟨S8x8192x6, .f32⟩ : BufTy).Contents (Elt F)) : (⟨S8x8192x9, .f32⟩ : BufTy).Contents (Elt F) :=
  concatenate S8x8192x9 2
    [⟨S8x8192x1, colD D 0 slices_S8x8192x6_S8x8192x1_0_0_0⟩,
     ⟨S8x8192x1, colD D 1 slices_S8x8192x6_S8x8192x1_0_0_1⟩,
     ⟨S8x8192x1, colD D 2 slices_S8x8192x6_S8x8192x1_0_0_2⟩,
     ⟨S8x8192x1, colD D 1 slices_S8x8192x6_S8x8192x1_0_0_1⟩,
     ⟨S8x8192x1, colD D 3 slices_S8x8192x6_S8x8192x1_0_0_3⟩,
     ⟨S8x8192x1, colD D 4 slices_S8x8192x6_S8x8192x1_0_0_4⟩,
     ⟨S8x8192x1, colD D 2 slices_S8x8192x6_S8x8192x1_0_0_2⟩,
     ⟨S8x8192x1, colD D 4 slices_S8x8192x6_S8x8192x1_0_0_4⟩,
     ⟨S8x8192x1, colD D 5 slices_S8x8192x6_S8x8192x1_0_0_5⟩]
    concatenates_S8x8192x1_S8x8192x1_S8x8192x1_S8x8192x1_S8x8192x1_S8x8192x1_S8x8192x1_S8x8192x1_S8x8192x1_S8x8192x9_d2

/-- The per-voxel table: the three means, then the nine central moments. -/
def tabA (H : (⟨S8x8192x10, .f32⟩ : BufTy).Contents (Elt F)) : (⟨S8x8192x12, .f32⟩ : BufTy).Contents (Elt F) :=
  concatenate S8x8192x12 2 [⟨S8x8192x3, meanA H⟩, ⟨S8x8192x9, cov9 (cenA H)⟩] concatenates_S8x8192x3_S8x8192x9_S8x8192x12_d2

end Terms

section Run
variable {F : FTy → Type} [FloatOps F]

/-- The operations up to the two divides. -/
abbrev ops1 : List (HloOp τ sig (Elt F)) := (hostOps2 (F := F)).take 12
/-- The products of means and their join. -/
abbrev ops2 : List (HloOp τ sig (Elt F)) := ((hostOps2 (F := F)).drop 12).take 37
/-- The subtraction, the nine columns and their join. -/
abbrev ops3 : List (HloOp τ sig (Elt F)) := (((hostOps2 (F := F)).drop 12).drop 37).take 29
/-- The last join (and the widening of the sampled indices, which the table does not read). -/
abbrev ops4 : List (HloOp τ sig (Elt F)) := (((hostOps2 (F := F)).drop 12).drop 37).drop 29

/-- Running a list of operations is running its first `n`, then the rest. -/
theorem after_split (l : List (HloOp τ sig (Elt F))) (n : ℕ) (V : Valuation τ sig (Elt F)) :
    StableHlo.after l V = StableHlo.after (l.drop n) (StableHlo.after (l.take n) V) := by
  rw [← StableHlo.after_append, List.take_append_drop]

/-- The eighty operations as the four stretches one after the other. -/
theorem after_stages (W : Valuation τ sig (Elt F)) :
    StableHlo.after (hostOps2 (F := F)) W
      = StableHlo.after ops4 (StableHlo.after ops3 (StableHlo.after ops2 (StableHlo.after ops1 W))) := by
  rw [after_split (hostOps2 (F := F)) 12 W, after_split ((hostOps2 (F := F)).drop 12) 37, after_split (((hostOps2 (F := F)).drop 12).drop 37) 29]

theorem s1_v10 (V : Valuation τ sig (Elt F)) :
    StableHlo.after (ops1 (F := F)) V (Proc.devRef .tc main_v10) = meanA (V (Proc.devRef .tc main_v1)) := by
  simp (disch := decide) only [ops1, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
  rfl
theorem s1_v12 (V : Valuation τ sig (Elt F)) :
    StableHlo.after (ops1 (F := F)) V (Proc.devRef .tc main_v12) = momA (V (Proc.devRef .tc main_v1)) := by
  simp (disch := decide) only [ops1, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
  rfl

theorem s2_v49 (V : Valuation τ sig (Elt F)) :
    StableHlo.after (ops2 (F := F)) V (Proc.devRef .tc main_v49) = prod6 (V (Proc.devRef .tc main_v10)) := by
  simp (disch := decide) only [ops2, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
  rfl
theorem s2_v10 (V : Valuation τ sig (Elt F)) :
    StableHlo.after (ops2 (F := F)) V (Proc.devRef .tc main_v10) = V (Proc.devRef .tc main_v10) := by
  simp (disch := decide) only [ops2, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
theorem s2_v12 (V : Valuation τ sig (Elt F)) :
    StableHlo.after (ops2 (F := F)) V (Proc.devRef .tc main_v12) = V (Proc.devRef .tc main_v12) := by
  simp (disch := decide) only [ops2, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']

theorem s3_v78 (V : Valuation τ sig (Elt F)) :
    StableHlo.after (ops3 (F := F)) V (Proc.devRef .tc main_v78)
      = cov9 (subf (V (Proc.devRef .tc main_v12)) (V (Proc.devRef .tc main_v49))) := by
  simp (disch := decide) only [ops3, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
  rfl
theorem s3_v10 (V : Valuation τ sig (Elt F)) :
    StableHlo.after (ops3 (F := F)) V (Proc.devRef .tc main_v10) = V (Proc.devRef .tc main_v10) := by
  simp (disch := decide) only [ops3, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']

theorem s4_v79 (V : Valuation τ sig (Elt F)) :
    StableHlo.after (ops4 (F := F)) V (Proc.devRef .tc main_v79)
      = concatenate S8x8192x12 2 [⟨S8x8192x3, V (Proc.devRef .tc main_v10)⟩, ⟨S8x8192x9, V (Proc.devRef .tc main_v78)⟩]
          concatenates_S8x8192x3_S8x8192x9_S8x8192x12_d2 := by
  simp (disch := decide) only [ops4, hostOps2, List.take_succ_cons, List.take_zero, List.drop_succ_cons, List.drop_zero, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']

/-- After the eighty operations the table buffer holds the table of the histogram buffer. -/
theorem run_tab (W : Valuation τ sig (Elt F)) :
    StableHlo.after (hostOps2 (F := F)) W (Proc.devRef .tc main_v79) = tabA (W (Proc.devRef .tc main_v1)) := by
  rw [after_stages, s4_v79, s3_v10, s3_v78, s2_v10, s2_v12, s2_v49, s1_v10, s1_v12]
  rfl

/-- The eighty operations write none of the program's arguments nor the two kernels' results. -/
theorem after_hostOps2_keep (W : Valuation τ sig (Elt F)) (r : Ref sig .tc)
    (hr : r = main_arg0 ∨ r = main_arg1 ∨ r = main_v0 ∨ r = main_v1) :
    StableHlo.after (hostOps2 (F := F)) W (Proc.devRef .tc r) = W (Proc.devRef .tc r) := by
  rcases hr with rfl | rfl | rfl | rfl <;>
    simp (disch := decide) only [hostOps2, after_cons, after_nil,
        nullary_result', unary_result', binary_result', ternary_result', quaternary_result', reshape_result', nary4_result', nary2_result', nary6_result', nary9_result',
        unaryIndexed_result', binaryIndexed_result',
        nullary_result_ne', unary_result_ne', binary_result_ne', ternary_result_ne', quaternary_result_ne', reshape_result_ne',
        nary_result_ne', unaryIndexed_result_ne', binaryIndexed_result_ne']
end Run

section Layout
variable {α : Type}

/-- Column `c` of an array `[8, 8192, n]`, as an array `[8, 8192]`, read at `(b, v)`. -/
theorem col_apply {n : ℕ} (M : (⟨3, ![8, 8192, n]⟩ : Shape).Idx → α) (c : ℕ) (hc : c < n)
    (h : (⟨3, ![8, 8192, n]⟩ : Shape).Slices ![0, 0, c] S8x8192x1) (b : Fin 8) (v : Fin 8192) :
    shapeCast S8x8192 (extractStridedSlice S8x8192x1 ![0, 0, c] M h) shapeCasts_S8x8192x1_S8x8192 (ix2 b v)
      = M (ix3 b v ⟨c, hc⟩) := by
  refine (shapeCast_apply _ shapeCasts_S8x8192x1_S8x8192 (ix2 b v) (ix3 b v (0 : Fin 1)) ?_).trans ?_
  · rewrite [Shape.rowMajor_val_three, Shape.rowMajor_val_two]
    show (b.val * 8192 + v.val) * 1 + 0 = b.val * 8192 + v.val
    omega
  · exact extractStridedSlice_apply ![0, 0, c] M h (ix3 b v (0 : Fin 1)) (ix3 b v ⟨c, hc⟩) (fun a => match a with
      | ⟨0, _⟩ => by show b.val = 0 + b.val; omega
      | ⟨1, _⟩ => by show v.val = 0 + v.val; omega
      | ⟨2, _⟩ => by show c = c + 0; omega)

/-- The last-axis window `[o, o + n)` of an array `[8, 8192, 10]`, read at `(b, v, c)`. -/
theorem slab_apply {n : ℕ} (o : ℕ) (H : S8x8192x10.Idx → α) (h : S8x8192x10.Slices ![0, 0, o] (⟨3, ![8, 8192, n]⟩ : Shape))
    (b : Fin 8) (v : Fin 8192) (c : Fin n) (hoc : o + c.val < 10) :
    extractStridedSlice (⟨3, ![8, 8192, n]⟩ : Shape) ![0, 0, o] H h (ix3 b v c) = H (ix3 b v ⟨o + c.val, hoc⟩) :=
  extractStridedSlice_apply ![0, 0, o] H h (ix3 b v c) (ix3 b v ⟨o + c.val, hoc⟩) (fun a => match a with
    | ⟨0, _⟩ => by show b.val = 0 + b.val; omega
    | ⟨1, _⟩ => by show v.val = 0 + v.val; omega
    | ⟨2, _⟩ => rfl)

/-- An array `[8, 8192]` given a trailing unit axis, read at `(b, v, 0)`. -/
theorem unit_apply (y : S8x8192.Idx → α) (b : Fin 8) (v : Fin 8192) (z : Fin 1) :
    broadcastInDim S8x8192x1 ![0, 1] bcast_S8x8192_S8x8192x1_0_1 y (ix3 b v z) = y (ix2 b v) :=
  broadcastInDim_apply _ bcast_S8x8192_S8x8192x1_0_1 y (ix3 b v z) (ix2 b v) (fun a => match a with
    | ⟨0, _⟩ => by show b.val = if (8 : Nat) = 1 then 0 else b.val; rw [if_neg (by decide)]
    | ⟨1, _⟩ => by show v.val = if (8192 : Nat) = 1 then 0 else v.val; rw [if_neg (by decide)])

/-- An array `[8, 8192, 1]` repeated along its last axis, read at `(b, v, c)`. -/
theorem rep_apply {n : ℕ} (h : S8x8192x1.BroadcastsInDim (⟨3, ![8, 8192, n]⟩ : Shape) ![0, 1, 2])
    (y : S8x8192x1.Idx → α) (b : Fin 8) (v : Fin 8192) (c : Fin n) :
    broadcastInDim (⟨3, ![8, 8192, n]⟩ : Shape) ![0, 1, 2] h y (ix3 b v c) = y (ix3 b v 0) :=
  broadcastInDim_apply _ h y (ix3 b v c) (ix3 b v 0) (fun a => match a with
    | ⟨0, _⟩ => by show b.val = if (8 : Nat) = 1 then 0 else b.val; rw [if_neg (by decide)]
    | ⟨1, _⟩ => by show v.val = if (8192 : Nat) = 1 then 0 else v.val; rw [if_neg (by decide)]
    | ⟨2, _⟩ => by show 0 = if (1 : Nat) = 1 then 0 else c.val; rw [if_pos rfl])

/-- A join along the last axis of pieces `[8, 8192, 1]`, read at `(b, v, k)`: piece `k` at `(b, v, 0)`. -/
theorem join_unit_apply {N : ℕ} (xs : List ((s : Shape) × (s.Idx → α)))
    (h : Shape.Concatenates (xs.map (·.1)) (⟨3, ![8, 8192, N]⟩ : Shape) (2 : Fin 3))
    (k : ℕ) (hkN : k < N) (x₁ : S8x8192x1.Idx → α) (hxk : xs[k]? = some ⟨S8x8192x1, x₁⟩)
    (hpre : (((xs.take k).map (·.1)).map fun s : Shape =>
        if h : s.rank = (⟨3, ![8, 8192, N]⟩ : Shape).rank then s.size ((2 : Fin 3).cast h.symm) else 0).sum = k)
    (b : Fin 8) (v : Fin 8192) :
    concatenate (⟨3, ![8, 8192, N]⟩ : Shape) (2 : Fin 3) xs h (ix3 b v ⟨k, hkN⟩) = x₁ (ix3 b v 0) := by
  obtain ⟨hk, hxk'⟩ := List.getElem?_eq_some_iff.mp hxk
  exact concatenate_apply_piece (2 : Fin 3) xs h (ix3 b v ⟨k, hkN⟩) k hk S8x8192x1 x₁ hxk' rfl k hpre (ix3 b v 0)
    (fun a => match a with
      | ⟨0, _⟩ => fun _ => rfl
      | ⟨1, _⟩ => fun _ => rfl
      | ⟨2, _⟩ => fun hne => absurd rfl hne)
    (by show k + 0 = k; omega)

end Layout

section Read
open Cert.Voxel

/-- The literal `1.0`. -/
theorem ofBits_one : Ideal.ofBits .f32 0x3F800000#32 = (1 : EReal) := by
  simp [Ideal.ofBits, Ideal.ieee, -EReal.coe_mul]; norm_num

/-- The divisor at a voxel. -/
theorem den_apply (H : S8x8192x10.Idx → EReal) (b : Fin 8) (v : Fin 8192) (z : Fin 1) :
    den (F := Ideal) H (ix3 b v z) = max (H (ix3 b v 0)) 1 := by
  refine (unit_apply _ b v z).trans ?_
  show max (shapeCast S8x8192 (extractStridedSlice S8x8192x1 ![0, 0, 0] H slices_S8x8192x10_S8x8192x1_0_0_0)
      shapeCasts_S8x8192x1_S8x8192 (ix2 b v)) (Ideal.ofBits .f32 0x3F800000#32) = _
  rw [ofBits_one]
  exact congrArg (fun t => max t 1) (col_apply H 0 (by decide) slices_S8x8192x10_S8x8192x1_0_0_0 b v)

/-- A mean at a voxel. -/
theorem meanA_apply (H : S8x8192x10.Idx → EReal) (b : Fin 8) (v : Fin 8192) (c : Fin 3) :
    meanA (F := Ideal) H (ix3 b v c) = Ideal.div (H (ix3 b v ⟨1 + c.val, by omega⟩)) (max (H (ix3 b v 0)) 1) :=
  congrArg₂ Ideal.div (slab_apply 1 H slices_S8x8192x10_S8x8192x3_0_0_1 b v c (by omega))
    ((rep_apply bcast_S8x8192x1_S8x8192x3_0_1_2 (den (F := Ideal) H) b v c).trans (den_apply H b v 0))

/-- A raw second moment at a voxel. -/
theorem momA_apply (H : S8x8192x10.Idx → EReal) (b : Fin 8) (v : Fin 8192) (c : Fin 6) :
    momA (F := Ideal) H (ix3 b v c) = Ideal.div (H (ix3 b v ⟨4 + c.val, by omega⟩)) (max (H (ix3 b v 0)) 1) :=
  congrArg₂ Ideal.div (slab_apply 4 H slices_S8x8192x10_S8x8192x6_0_0_4 b v c (by omega))
    ((rep_apply bcast_S8x8192x1_S8x8192x6_0_1_2 (den (F := Ideal) H) b v c).trans (den_apply H b v 0))

/-- A product of two columns at a voxel. -/
theorem prodP_apply (M : S8x8192x3.Idx → EReal) (c d : ℕ) (hc' : c < 3) (hd' : d < 3)
    (hc : S8x8192x3.Slices ![0, 0, c] S8x8192x1) (hd : S8x8192x3.Slices ![0, 0, d] S8x8192x1)
    (b : Fin 8) (v : Fin 8192) (z : Fin 1) :
    prodP (F := Ideal) M c d hc hd (ix3 b v z) = M (ix3 b v ⟨c, hc'⟩) * M (ix3 b v ⟨d, hd'⟩) :=
  (unit_apply _ b v z).trans (congrArg₂ (fun s t : EReal => s * t) (col_apply M c hc' hc b v) (col_apply M d hd' hd b v))

/-- The two coordinates whose means the six products multiply. -/
def p1 : Fin 6 → Fin 3 := ![0, 0, 0, 1, 1, 2]
def p2 : Fin 6 → Fin 3 := ![0, 1, 2, 1, 2, 2]

/-- The join of the six products at a voxel. -/
theorem prod6_apply (M : S8x8192x3.Idx → EReal) (b : Fin 8) (v : Fin 8192) (c : Fin 6) :
    prod6 (F := Ideal) M (ix3 b v c) = M (ix3 b v (p1 c)) * M (ix3 b v (p2 c)) := by
  unfold prod6
  match c with
  | ⟨0, _⟩ => exact (join_unit_apply _ _ 0 (by decide) _ rfl rfl b v).trans (prodP_apply M 0 0 (by decide) (by decide) _ _ b v 0)
  | ⟨1, _⟩ => exact (join_unit_apply _ _ 1 (by decide) _ rfl rfl b v).trans (prodP_apply M 0 1 (by decide) (by decide) _ _ b v 0)
  | ⟨2, _⟩ => exact (join_unit_apply _ _ 2 (by decide) _ rfl rfl b v).trans (prodP_apply M 0 2 (by decide) (by decide) _ _ b v 0)
  | ⟨3, _⟩ => exact (join_unit_apply _ _ 3 (by decide) _ rfl rfl b v).trans (prodP_apply M 1 1 (by decide) (by decide) _ _ b v 0)
  | ⟨4, _⟩ => exact (join_unit_apply _ _ 4 (by decide) _ rfl rfl b v).trans (prodP_apply M 1 2 (by decide) (by decide) _ _ b v 0)
  | ⟨5, _⟩ => exact (join_unit_apply _ _ 5 (by decide) _ rfl rfl b v).trans (prodP_apply M 2 2 (by decide) (by decide) _ _ b v 0)
  | ⟨_ + 6, h⟩ => exact absurd h (Nat.not_lt.2 (Nat.le_add_left _ _))

/-- A central second moment at a voxel. -/
theorem cenA_apply (H : S8x8192x10.Idx → EReal) (b : Fin 8) (v : Fin 8192) (c : Fin 6) :
    cenA (F := Ideal) H (ix3 b v c)
      = Ideal.div (H (ix3 b v ⟨4 + c.val, by omega⟩)) (max (H (ix3 b v 0)) 1)
        - Ideal.div (H (ix3 b v ⟨1 + (p1 c).val, by omega⟩)) (max (H (ix3 b v 0)) 1)
          * Ideal.div (H (ix3 b v ⟨1 + (p2 c).val, by omega⟩)) (max (H (ix3 b v 0)) 1) := by
  show momA (F := Ideal) H (ix3 b v c) - prod6 (F := Ideal) (meanA (F := Ideal) H) (ix3 b v c) = _
  rw [momA_apply, prod6_apply, meanA_apply, meanA_apply]

/-- A column of the six, on its unit axis, at a voxel. -/
theorem colD_apply (D : S8x8192x6.Idx → EReal) (c : ℕ) (hc' : c < 6) (hc : S8x8192x6.Slices ![0, 0, c] S8x8192x1)
    (b : Fin 8) (v : Fin 8192) (z : Fin 1) :
    colD (F := Ideal) D c hc (ix3 b v z) = D (ix3 b v ⟨c, hc'⟩) :=
  (unit_apply _ b v z).trans (col_apply D c hc' hc b v)

/-- Which of the six central moments each entry of the 3×3 table is. -/
def q : Fin 9 → Fin 6 := ![0, 1, 2, 1, 3, 4, 2, 4, 5]

/-- The 3×3 table at a voxel. -/
theorem cov9_apply (D : S8x8192x6.Idx → EReal) (b : Fin 8) (v : Fin 8192) (c : Fin 9) :
    cov9 (F := Ideal) D (ix3 b v c) = D (ix3 b v (q c)) := by
  unfold cov9
  match c with
  | ⟨0, _⟩ => exact (join_unit_apply _ _ 0 (by decide) _ rfl rfl b v).trans (colD_apply D 0 (by decide) _ b v 0)
  | ⟨1, _⟩ => exact (join_unit_apply _ _ 1 (by decide) _ rfl rfl b v).trans (colD_apply D 1 (by decide) _ b v 0)
  | ⟨2, _⟩ => exact (join_unit_apply _ _ 2 (by decide) _ rfl rfl b v).trans (colD_apply D 2 (by decide) _ b v 0)
  | ⟨3, _⟩ => exact (join_unit_apply _ _ 3 (by decide) _ rfl rfl b v).trans (colD_apply D 1 (by decide) _ b v 0)
  | ⟨4, _⟩ => exact (join_unit_apply _ _ 4 (by decide) _ rfl rfl b v).trans (colD_apply D 3 (by decide) _ b v 0)
  | ⟨5, _⟩ => exact (join_unit_apply _ _ 5 (by decide) _ rfl rfl b v).trans (colD_apply D 4 (by decide) _ b v 0)
  | ⟨6, _⟩ => exact (join_unit_apply _ _ 6 (by decide) _ rfl rfl b v).trans (colD_apply D 2 (by decide) _ b v 0)
  | ⟨7, _⟩ => exact (join_unit_apply _ _ 7 (by decide) _ rfl rfl b v).trans (colD_apply D 4 (by decide) _ b v 0)
  | ⟨8, _⟩ => exact (join_unit_apply _ _ 8 (by decide) _ rfl rfl b v).trans (colD_apply D 5 (by decide) _ b v 0)
  | ⟨_ + 9, h⟩ => exact absurd h (Nat.not_lt.2 (Nat.le_add_left _ _))

/-- Entry `c` of the 3×3 table is the pair `(c / 3, c % 3)`: its raw moment is feature `4 + q c`, and the two means its
    product multiplies are those of the smaller and the larger coordinate. -/
theorem idx_facts : ∀ c : Fin 9,
    (pairIx ⟨c.val / 3, by omega⟩ ⟨c.val % 3, Nat.mod_lt _ (by decide)⟩).val = 4 + (q c).val
      ∧ min (c.val / 3) (c.val % 3) = (p1 (q c)).val ∧ max (c.val / 3) (c.val % 3) = (p2 (q c)).val := by
  decide

/-- The table's first three entries are the means. -/
theorem tabA_left (H : S8x8192x10.Idx → EReal) (b : Fin 8) (v : Fin 8192) (k : Fin 12) (hk : k.val < 3) :
    tabA (F := Ideal) H (ix3 b v k) = meanA (F := Ideal) H (ix3 b v ⟨k.val, hk⟩) :=
  concatenate_pair_apply_left (2 : Fin 3) (meanA (F := Ideal) H) (cov9 (F := Ideal) (cenA (F := Ideal) H))
    concatenates_S8x8192x3_S8x8192x9_S8x8192x12_d2 (ix3 b v k) rfl (ix3 b v ⟨k.val, hk⟩)
    (fun a => match a with
      | ⟨0, _⟩ => rfl
      | ⟨1, _⟩ => rfl
      | ⟨2, _⟩ => rfl)

/-- The table's last nine entries are the 3×3 table. -/
theorem tabA_right (H : S8x8192x10.Idx → EReal) (b : Fin 8) (v : Fin 8192) (k : Fin 12) (hk : ¬ k.val < 3) :
    tabA (F := Ideal) H (ix3 b v k) = cov9 (F := Ideal) (cenA (F := Ideal) H) (ix3 b v ⟨k.val - 3, by omega⟩) :=
  concatenate_pair_apply_right (2 : Fin 3) (meanA (F := Ideal) H) (cov9 (F := Ideal) (cenA (F := Ideal) H))
    concatenates_S8x8192x3_S8x8192x9_S8x8192x12_d2 (ix3 b v k) rfl rfl (ix3 b v ⟨k.val - 3, by omega⟩)
    (fun a => match a with
      | ⟨0, _⟩ => fun _ => rfl
      | ⟨1, _⟩ => fun _ => rfl
      | ⟨2, _⟩ => fun hne => absurd rfl hne)
    (by show k.val - 3 + 3 = k.val; omega)

/-- The table at a voxel is the twelve numbers of the voxel's ten features. -/
theorem tabA_apply (H : S8x8192x10.Idx → EReal) (b : Fin 8) (v : Fin 8192) (k : Fin 12) :
    tabA (F := Ideal) H (ix3 b v k) = distOf (fun f => H (ix3 b v f)) k := by
  by_cases hk : k.val < 3
  · rw [tabA_left H b v k hk, meanA_apply, distOf, dif_pos hk]
  · rw [tabA_right H b v k hk, cov9_apply, cenA_apply, distOf, dif_neg hk]
    have h := idx_facts ⟨k.val - 3, by omega⟩
    have e1 : (⟨4 + (q ⟨k.val - 3, by omega⟩).val, by omega⟩ : Fin 10)
        = pairIx ⟨(k.val - 3) / 3, by omega⟩ ⟨(k.val - 3) % 3, Nat.mod_lt _ (by decide)⟩ := Fin.ext h.1.symm
    have e2 : (⟨1 + (p1 (q ⟨k.val - 3, by omega⟩)).val, by omega⟩ : Fin 10)
        = ⟨1 + min ((k.val - 3) / 3) ((k.val - 3) % 3), by omega⟩ := Fin.ext (congrArg (1 + ·) h.2.1.symm)
    have e3 : (⟨1 + (p2 (q ⟨k.val - 3, by omega⟩)).val, by omega⟩ : Fin 10)
        = ⟨1 + max ((k.val - 3) / 3) ((k.val - 3) % 3), by omega⟩ := Fin.ext (congrArg (1 + ·) h.2.2.symm)
    rw [e1, e2, e3]

end Read

/-- **The kernel program's per-voxel table, read at an index**: after the eighty host operations, entry `k` of voxel
    `v` of cloud `b` is number `k` of the twelve the specification forms from the voxel's ten accumulated features. -/
theorem ktab_apply (W : Valuation τ sig (Elt Ideal)) (b : Fin 8) (v : Fin 8192) (k : Fin 12) :
    StableHlo.after (hostOps2 (F := Ideal)) W (Proc.devRef .tc main_v79) (ix3 b v k)
      = Cert.Voxel.distOf (fun f => W (Proc.devRef .tc main_v1) (ix3 b v f)) k := by
  rw [run_tab]
  exact tabA_apply (W (Proc.devRef .tc main_v1)) b v k

/-- The eighty host operations leave the program's arguments and the two kernels' results as they were. -/
theorem after_hostOps2_of (W : Valuation τ sig (Elt Ideal)) (r : Ref sig .tc)
    (hr : r = main_arg0 ∨ r = main_arg1 ∨ r = main_v0 ∨ r = main_v1) :
    StableHlo.after (hostOps2 (F := Ideal)) W (Proc.devRef .tc r) = W (Proc.devRef .tc r) :=
  after_hostOps2_keep W r hr

end Cert.KernelIdeal.HandV.Tab
end
-- ==== Proof.SpecFacts.lean ====
/-
  Small facts about the voxel specification: a cell is a word in [0, 19]; a voxel word is the ordinary number
  (cell₀ · 20 + cell₁) · 20 + cell₂ < 8000, the same read signed or unsigned; the twelve numbers rebuilt from the ten
  accumulated features are the specification's; multiplying by the reciprocal of the spacing is dividing by it.
-/
import proofs.«157393_j34419867910943_1_alg».proof.Proof.Spec
import Idealize.ShloMosaic.Lib.WordArith
import Mathlib.Tactic.IntervalCases

noncomputable section

open scoped BigOperators

namespace Cert.Voxel

open Idealize.ShloMosaic Idealize.ShloMosaic.ValueIdx

/-! ## Cells and voxel words -/

/-- A signed clamp into `[0, 19]` is, as a natural number, at most 19, whatever the word. -/
theorem clamp_toNat_le (w : BitVec 32) : (IntOp.minsi 19#32 (IntOp.maxsi 0#32 w)).toNat ≤ 19 := by
  have hm : (IntOp.maxsi 0#32 w).toNat < 2 ^ 31 := by
    rw [WordArith.toNat_maxsi_zero]
    have := BitVec.toInt_lt (x := w)
    omega
  rw [WordArith.toNat_minsi_of_lt _ _ (by decide) hm]
  exact min_le_left _ _

/-- A cell is at most 19. -/
theorem cell_toNat_le (d : EReal) : (cell d).toNat ≤ 19 := clamp_toNat_le _

/-- The voxel word's arithmetic does not wrap: it is the ordinary number `(cell₀ · 20 + cell₁) · 20 + cell₂`. -/
theorem flat_toNat (p c : Fin 3 → EReal) :
    (flat p c).toNat
      = ((cell (p 0 - c 0)).toNat * 20 + (cell (p 1 - c 1)).toNat) * 20 + (cell (p 2 - c 2)).toNat := by
  have h0 := cell_toNat_le (p 0 - c 0)
  have h1 := cell_toNat_le (p 1 - c 1)
  have h2 := cell_toNat_le (p 2 - c 2)
  simp only [flat, IntOp.addi, IntOp.muli, BitVec.toNat_add, BitVec.toNat_mul, BitVec.toNat_ofNat]
  omega

/-- A voxel word is below `20³`. -/
theorem flat_toNat_lt (p c : Fin 3 → EReal) : (flat p c).toNat < 8000 := by
  have h0 := cell_toNat_le (p 0 - c 0)
  have h1 := cell_toNat_le (p 1 - c 1)
  have h2 := cell_toNat_le (p 2 - c 2)
  rw [flat_toNat]
  omega

/-- A voxel word reads the same signed and unsigned. -/
theorem flat_toInt (p c : Fin 3 → EReal) : (flat p c).toInt = ((flat p c).toNat : ℤ) := by
  have hlt := flat_toNat_lt p c
  have e := BitVec.toInt_eq_toNat_cond (flat p c)
  split at e <;> omega

/-- A voxel word is the word of its natural value. -/
theorem ofNat_flat_toNat (p c : Fin 3 → EReal) : BitVec.ofNat 32 (flat p c).toNat = flat p c := by
  apply BitVec.eq_of_toNat_eq
  rw [BitVec.toNat_ofNat]
  exact Nat.mod_eq_of_lt (flat p c).isLt

/-! ## The twelve numbers from the ten features -/

/-- The sum of products does not depend on the order of the two coordinates. -/
theorem s2_comm (x : Sx.Idx → EReal) (b : Fin 8) (v : BitVec 32) (i j : Fin 3) : s2 x b v i j = s2 x b v j i := by
  unfold s2
  refine Finset.sum_congr rfl (fun n _ => ?_)
  rw [mul_comm]

/-- A moment below the diagonal, read from the features kept for its transpose, is the specification's: the sum of
    products and the product of the two means are both symmetric. -/
theorem cov_transpose (x : Sx.Idx → EReal) (b : Fin 8) (v : BitVec 32) (i j : Fin 3) :
    Ideal.div (s2 x b v j i) (max (cnt x b v) 1)
        - Ideal.div (s1 x b v j) (max (cnt x b v) 1) * Ideal.div (s1 x b v i) (max (cnt x b v) 1)
      = cov x b v i j := by
  unfold cov mean cntc
  rw [s2_comm x b v j i, mul_comm]

/-- The twelve numbers rebuilt from a voxel's ten accumulated features are the specification's: the three means and
    the moments on and above the diagonal term for term, the three below the diagonal by symmetry. -/
theorem distOf_hist (x : Sx.Idx → EReal) (b : Fin 8) (v : BitVec 32) (k : Fin 12) :
    distOf (hist x b v) k = dist x b v k := by
  rcases k with ⟨k, hk⟩
  unfold distOf dist
  simp only [Fin.val_mk]
  by_cases h3 : k < 3
  · rw [dif_pos h3, dif_pos h3]
    interval_cases k <;> rfl
  · rw [dif_neg h3, dif_neg h3]
    have h3' : 3 ≤ k := by omega
    interval_cases k
    · rfl
    · rfl
    · rfl
    · exact cov_transpose x b v 1 0
    · rfl
    · rfl
    · exact cov_transpose x b v 2 0
    · exact cov_transpose x b v 2 1
    · rfl

/-! ## The spacing and its reciprocal -/

/-- The spacing is the real `13421773 / 2 ^ 28`. -/
theorem h_eq : h = ((13421773 / 268435456 : ℝ) : EReal) := by
  simp [h, Ideal.ofBits, Ideal.ieee, -EReal.coe_mul]; norm_num

/-- Multiplying by the reciprocal of the spacing is dividing by the spacing, at the infinities too. -/
theorem mul_inv_h (d : EReal) : d * ((268435456 / 13421773 : ℝ) : EReal) = Ideal.div d h := by
  rw [h_eq, Ideal.div_coe (by norm_num)]
  norm_num

end Cert.Voxel

end
-- ==== Proof.KI.ValTail.lean ====
/- The end of the kernel program's @main, read at an index. After the operations that build the per-voxel table come
   five stretches: the sampled points are taken from the clouds (an index normalised, tested against the range, the rows
   gathered, a fill where out of range); the corner is subtracted, the difference divided by the spacing, rounded down
   and converted to words; the words are clamped into the grid; the three cells are combined into the voxel word in
   base twenty and repeated along the twelve numbers; and the table's rows are taken at those words by the same
   normalise / test / gather / fill. Each stretch is stated as a composed term of what it reads, and the last is read at
   `(b, m, k)`: the voxel word lies in `[0, 8000)`, inside the table's `[0, 8192)`, so it is not shifted, the range test
   passes, the gather's clamp does nothing, and the result is the table's row at the word, in column `k`. -/
import proofs.«157393_j34419867910943_1_alg».proof.Proof.Gen.KernelIdeal.Launch
import proofs.«157393_j34419867910943_1_alg».proof.Proof.Spec
import proofs.«157393_j34419867910943_1_alg».proof.Proof.SpecFacts
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal
import Idealize.ShloMosaic.PureOps.Reduce

set_option maxRecDepth 16384

noncomputable section

namespace Cert.KernelIdeal.HandV.Tail

open Cert.KernelIdeal Cert.KernelIdeal.Gen
open Idealize.ShloMosaic Idealize.ShloMosaic.TcCoe Idealize.SL.Sem Idealize.ShloMosaic.StableHlo
open Idealize.ShloMosaic.ValueIdx

/-! ## The five stretches' results as composed terms -/

/-- The sampled rows: the index normalised (a negative index counts from the end), the rows gathered, and a fill
    where the normalised index is out of range. -/
def takeK (x : (⟨S8x262144x3, .f32⟩ : BufTy).Contents (Elt Ideal)) (i80 : (⟨S8x4096x1, .i32⟩ : BufTy).Contents (Elt Ideal)) :
    (⟨S8x4096x3, .f32⟩ : BufTy).Contents (Elt Ideal) :=
  let v4 : (⟨S8x4096x1, .i32⟩ : BufTy).Contents (Elt Ideal) :=
    select (cmpi .slt i80 (broadcastInDim S8x4096x1 ![] bcast_S_S8x4096x1 (constantI S_ 32 0#32)))
      (addi i80 (broadcastInDim S8x4096x1 ![] bcast_S_S8x4096x1 (constantI S_ 32 262144#32))) i80
  select
    (broadcastInDim S8x4096x3 ![0, 1] bcast_S8x4096_S8x4096x3_0_1
      (Host.reduce IntOp.andi
        (andi (cmpi .sge v4 (broadcastInDim S8x4096x1 ![] bcast_S_S8x4096x1 (constantI S_ 32 0#32)))
          (cmpi .sle v4 (broadcastInDim S8x4096x1 ![0, 1, 2] bcast_S1x1x1_S8x4096x1_0_1_2
            (broadcastInDim S1x1x1 ![2] bcast_S1_S1x1x1_2 (constantI S1 32 262143#32)))))
        (constantI S_ 1 1#1) reducesTo_S8x4096x1_S8x4096_d2 h_S_))
    (Host.gather gather_S8x262144x3_S8x4096x1_S8x4096x3_2_1_0_0_1_2_113 x v4)
    (broadcastInDim S8x4096x3 ![] bcast_S_S8x4096x3 (constant (F := Ideal) S_ .f32 0x7FC00000#32))

/-- The sampled points of the clouds `x` at the indices `idx`. -/
def spK (x : (⟨S8x262144x3, .f32⟩ : BufTy).Contents (Elt Ideal)) (idx : (⟨S8x4096, .i32⟩ : BufTy).Contents (Elt Ideal)) :
    (⟨S8x4096x3, .f32⟩ : BufTy).Contents (Elt Ideal) :=
  takeK x (broadcastInDim S8x4096x1 ![0, 1] bcast_S8x4096_S8x4096x1_0_1 idx)

/-- The sampled points' displacements from the corner over the spacing, rounded down, as words. -/
def quotK (p : (⟨S8x4096x3, .f32⟩ : BufTy).Contents (Elt Ideal)) (c : (⟨S8x1x3, .f32⟩ : BufTy).Contents (Elt Ideal)) :
    (⟨S8x4096x3, .i32⟩ : BufTy).Contents (Elt Ideal) :=
  fptosi 32 (Host.floor (Host.divf (subf p (broadcastInDim S8x4096x3 ![0, 1, 2] bcast_S8x1x3_S8x4096x3_0_1_2 c))
    (broadcastInDim S8x4096x3 ![] bcast_S_S8x4096x3 (constant (F := Ideal) S_ .f32 0x3D4CCCCD#32))))

/-- The clamp into the grid. -/
def clipK (lo hi : (⟨S_, .i32⟩ : BufTy).Contents (Elt Ideal)) (q : (⟨S8x4096x3, .i32⟩ : BufTy).Contents (Elt Ideal)) :
    (⟨S8x4096x3, .i32⟩ : BufTy).Contents (Elt Ideal) :=
  minsi (broadcastInDim S8x4096x3 ![] bcast_S_S8x4096x3 (id hi)) (maxsi (broadcastInDim S8x4096x3 ![] bcast_S_S8x4096x3 (id lo)) q)

/-- The voxel word of the three cells. -/
def wordK (q : (⟨S8x4096x3, .i32⟩ : BufTy).Contents (Elt Ideal)) : (⟨S8x4096, .i32⟩ : BufTy).Contents (Elt Ideal) :=
  addi (muli (addi (muli (shapeCast S8x4096 (extractStridedSlice S8x4096x1 ![0, 0, 0] q slices_S8x4096x3_S8x4096x1_0_0_0) shapeCasts_S8x4096x1_S8x4096)
      (broadcastInDim S8x4096 ![] bcast_S_S8x4096 (constantI S_ 32 20#32)))
      (shapeCast S8x4096 (extractStridedSlice S8x4096x1 ![0, 0, 1] q slices_S8x4096x3_S8x4096x1_0_0_1) shapeCasts_S8x4096x1_S8x4096))
      (broadcastInDim S8x4096 ![] bcast_S_S8x4096 (constantI S_ 32 20#32)))
    (shapeCast S8x4096 (extractStridedSlice S8x4096x1 ![0, 0, 2] q slices_S8x4096x3_S8x4096x1_0_0_2) shapeCasts_S8x4096x1_S8x4096)

/-- The word repeated along the twelve numbers. -/
def rowK (w : (⟨S8x4096, .i32⟩ : BufTy).Contents (Elt Ideal)) : (⟨S8x4096x12, .i32⟩ : BufTy).Contents (Elt Ideal) :=
  broadcastInDim S8x4096x12 ![0, 1, 2] bcast_S8x4096x1_S8x4096x12_0_1_2 (broadcastInDim S8x4096x1 ![0, 1] bcast_S8x4096_S8x4096x1_0_1 w)

/-- A row word normalised: a negative word counts from the end of the table's axis. -/
def norm12 (r : (⟨S8x4096x12, .i32⟩ : BufTy).Contents (Elt Ideal)) : (⟨S8x4096x12, .i32⟩ : BufTy).Contents (Elt Ideal) :=
  select (cmpi .slt r (broadcastInDim S8x4096x12 ![] bcast_S_S8x4096x12 (constantI S_ 32 0#32)))
    (addi r (broadcastInDim S8x4096x12 ![] bcast_S_S8x4096x12 (constantI S_ 32 8192#32))) r

/-- The normalised words as start indices (a trailing unit axis). -/
def idx12 (r : (⟨S8x4096x12, .i32⟩ : BufTy).Contents (Elt Ideal)) : (⟨S8x4096x12x1, .i32⟩ : BufTy).Contents (Elt Ideal) :=
  shapeCast S8x4096x12x1 (norm12 r) shapeCasts_S8x4096x12_S8x4096x12x1

/-- Where the start index lies in the table's range `[0, 8191]`. -/
def mask12 (i5 : (⟨S8x4096x12x1, .i32⟩ : BufTy).Contents (Elt Ideal)) : (⟨S8x4096x12, .i1⟩ : BufTy).Contents (Elt Ideal) :=
  Host.reduce IntOp.andi
    (andi (cmpi .sge i5 (broadcastInDim S8x4096x12x1 ![] bcast_S_S8x4096x12x1 (constantI S_ 32 0#32)))
      (cmpi .sle i5 (broadcastInDim S8x4096x12x1 ![0, 1, 2, 3] bcast_S1x1x1x1_S8x4096x12x1_0_1_2_3
        (broadcastInDim S1x1x1x1 ![3] bcast_S1_S1x1x1x1_3 (constantI S1 32 8191#32)))))
    (constantI S_ 1 1#1) reducesTo_S8x4096x12x1_S8x4096x12_d3 h_S_

/-- The table's rows at the words: normalised, gathered along the table's axis 1, and a fill where out of range. -/
def lookK (T : (⟨S8x8192x12, .f32⟩ : BufTy).Contents (Elt Ideal)) (r : (⟨S8x4096x12, .i32⟩ : BufTy).Contents (Elt Ideal)) :
    (⟨S8x4096x12, .f32⟩ : BufTy).Contents (Elt Ideal) :=
  select (mask12 (idx12 r))
    (Host.gather gather_S8x8192x12_S8x4096x12x1_S8x4096x12_n_1_02_02_1_3_111 T (idx12 r))
    (broadcastInDim S8x4096x12 ![] bcast_S_S8x4096x12 (constant (F := Ideal) S_ .f32 0x7FC00000#32))

/-! ## Each stretch from any contents -/

section Stretches
variable (V : Valuation τ sig (Elt Ideal))

set_option maxHeartbeats 4000000 in
theorem s1_v81 : StableHlo.after (hostOps2_1 (F := Ideal)) V (Proc.devRef .tc main_v81)
      = takeK (V (Proc.devRef .tc main_arg0)) (V (Proc.devRef .tc main_v80)) := by
  after_results_simp <;> (try simp only [TRef.ofBuf, TRef.toBuf, cast_eq]) <;> rfl
set_option maxHeartbeats 4000000 in
theorem s1_v0 : StableHlo.after (hostOps2_1 (F := Ideal)) V (Proc.devRef .tc main_v0) = V (Proc.devRef .tc main_v0) := by
  after_results_simp
set_option maxHeartbeats 4000000 in
theorem s1_v79 : StableHlo.after (hostOps2_1 (F := Ideal)) V (Proc.devRef .tc main_v79) = V (Proc.devRef .tc main_v79) := by
  after_results_simp

set_option maxHeartbeats 4000000 in
theorem s2_v87 : StableHlo.after (hostOps2_2 (F := Ideal)) V (Proc.devRef .tc main_v87)
      = quotK (V (Proc.devRef .tc main_v81)) (V (Proc.devRef .tc main_v0)) := by
  after_results_simp <;> rfl
set_option maxHeartbeats 4000000 in
theorem s2_c : StableHlo.after (hostOps2_2 (F := Ideal)) V (Proc.devRef .tc main_c) = constantI S_ 32 0#32 := by
  after_results_simp
set_option maxHeartbeats 4000000 in
theorem s2_c_1 : StableHlo.after (hostOps2_2 (F := Ideal)) V (Proc.devRef .tc main_c_1) = constantI S_ 32 19#32 := by
  after_results_simp
set_option maxHeartbeats 4000000 in
theorem s2_v79 : StableHlo.after (hostOps2_2 (F := Ideal)) V (Proc.devRef .tc main_v79) = V (Proc.devRef .tc main_v79) := by
  after_results_simp

set_option maxHeartbeats 4000000 in
theorem s3_v88 : StableHlo.after (hostOps2_3 (F := Ideal)) V (Proc.devRef .tc main_v88)
      = clipK (V (Proc.devRef .tc main_c)) (V (Proc.devRef .tc main_c_1)) (V (Proc.devRef .tc main_v87)) := by
  after_results_simp <;> (try simp only [TRef.ofBuf, TRef.toBuf, cast_eq]) <;> rfl
set_option maxHeartbeats 4000000 in
theorem s3_v79 : StableHlo.after (hostOps2_3 (F := Ideal)) V (Proc.devRef .tc main_v79) = V (Proc.devRef .tc main_v79) := by
  after_results_simp

set_option maxHeartbeats 4000000 in
theorem s4_v102 : StableHlo.after (hostOps2_4 (F := Ideal)) V (Proc.devRef .tc main_v102)
      = rowK (wordK (V (Proc.devRef .tc main_v88))) := by
  after_results_simp <;> rfl
set_option maxHeartbeats 4000000 in
theorem s4_v79 : StableHlo.after (hostOps2_4 (F := Ideal)) V (Proc.devRef .tc main_v79) = V (Proc.devRef .tc main_v79) := by
  after_results_simp

set_option maxHeartbeats 4000000 in
theorem s5_v103 : StableHlo.after (hostOps2_5 (F := Ideal)) V (Proc.devRef .tc main_v103)
      = lookK (V (Proc.devRef .tc main_v79)) (V (Proc.devRef .tc main_v102)) := by
  after_results_simp <;> (try simp only [TRef.ofBuf, TRef.toBuf, cast_eq]) <;> rfl

end Stretches

/-! ## The stretches read at an index -/

/-- A scalar broadcast reads the scalar. -/
theorem bcast0_apply {α : Type} {t : Shape} (h : S_.BroadcastsInDim t ![]) (v : S_.Idx → α) (j : t.Idx) :
    broadcastInDim t ![] h v j = v ix0 :=
  broadcastInDim_apply _ h v j ix0 (fun a => a.elim0)

/-- The corner repeated along the points. -/
theorem corner_apply (c : (⟨S8x1x3, .f32⟩ : BufTy).Contents (Elt Ideal)) (b : Fin 8) (m : Fin 4096) (j : Fin 3) :
    broadcastInDim S8x4096x3 ![0, 1, 2] bcast_S8x1x3_S8x4096x3_0_1_2 c (ix3 b m j) = c (ix3 b 0 j) :=
  broadcastInDim_apply _ bcast_S8x1x3_S8x4096x3_0_1_2 c (ix3 b m j) (ix3 b 0 j) (fun a => match a with
    | ⟨0, _⟩ => by show b.val = if (8 : Nat) = 1 then 0 else b.val; rw [if_neg (by decide)]
    | ⟨1, _⟩ => by show 0 = if (1 : Nat) = 1 then 0 else m.val; rw [if_pos rfl]
    | ⟨2, _⟩ => by show j.val = if (3 : Nat) = 1 then 0 else j.val; rw [if_neg (by decide)])

/-- The clamped quotient at a point and an axis is the cell of the displacement. -/
theorem cell_apply (p : (⟨S8x4096x3, .f32⟩ : BufTy).Contents (Elt Ideal)) (c : (⟨S8x1x3, .f32⟩ : BufTy).Contents (Elt Ideal))
    (b : Fin 8) (m : Fin 4096) (j : Fin 3) :
    clipK (constantI S_ 32 0#32) (constantI S_ 32 19#32) (quotK p c) (ix3 b m j)
      = Cert.Voxel.cell (p (ix3 b m j) - c (ix3 b 0 j)) := by
  show IntOp.minsi (broadcastInDim S8x4096x3 ![] bcast_S_S8x4096x3 (id (constantI S_ 32 19#32)) (ix3 b m j))
      (IntOp.maxsi (broadcastInDim S8x4096x3 ![] bcast_S_S8x4096x3 (id (constantI S_ 32 0#32)) (ix3 b m j))
        (Ideal.fptosi 32 (Ideal.liftRound Int.floor (Ideal.div
          (p (ix3 b m j) - broadcastInDim S8x4096x3 ![0, 1, 2] bcast_S8x1x3_S8x4096x3_0_1_2 c (ix3 b m j))
          (broadcastInDim S8x4096x3 ![] bcast_S_S8x4096x3 (constant (F := Ideal) S_ .f32 0x3D4CCCCD#32) (ix3 b m j)))))) = _
  rw [bcast0_apply, bcast0_apply, bcast0_apply, corner_apply]
  rfl

/-- One coordinate plane of the cells, with the unit axis dropped. -/
theorem plane_apply (q : (⟨S8x4096x3, .i32⟩ : BufTy).Contents (Elt Ideal)) (o : Nat) (ho : o < 3)
    (hs : S8x4096x3.Slices ![0, 0, o] S8x4096x1) (b : Fin 8) (m : Fin 4096) :
    shapeCast S8x4096 (extractStridedSlice S8x4096x1 ![0, 0, o] q hs) shapeCasts_S8x4096x1_S8x4096 (ix2 b m)
      = q (ix3 b m ⟨o, ho⟩) := by
  refine (shapeCast_apply _ shapeCasts_S8x4096x1_S8x4096 (ix2 b m) (ix3 b m 0) ?_).trans ?_
  · rw [Shape.rowMajor_val_three, Shape.rowMajor_val_two]
    show (b.val * 4096 + m.val) * 1 + 0 = b.val * 4096 + m.val
    omega
  · exact extractStridedSlice_apply _ q hs (ix3 b m 0) (ix3 b m ⟨o, ho⟩) (fun a => match a with
      | ⟨0, _⟩ => by show b.val = 0 + b.val; omega
      | ⟨1, _⟩ => by show m.val = 0 + m.val; omega
      | ⟨2, _⟩ => by show o = o + 0; omega)

/-- The voxel word at a point: the three cells in base twenty. -/
theorem wordK_apply (q : (⟨S8x4096x3, .i32⟩ : BufTy).Contents (Elt Ideal)) (b : Fin 8) (m : Fin 4096) :
    wordK q (ix2 b m)
      = IntOp.addi (IntOp.muli (IntOp.addi (IntOp.muli (q (ix3 b m 0)) 20#32) (q (ix3 b m 1))) 20#32) (q (ix3 b m 2)) := by
  show IntOp.addi (IntOp.muli (IntOp.addi (IntOp.muli
        (shapeCast S8x4096 (extractStridedSlice S8x4096x1 ![0, 0, 0] q slices_S8x4096x3_S8x4096x1_0_0_0) shapeCasts_S8x4096x1_S8x4096 (ix2 b m))
        (broadcastInDim S8x4096 ![] bcast_S_S8x4096 (constantI S_ 32 20#32) (ix2 b m)))
        (shapeCast S8x4096 (extractStridedSlice S8x4096x1 ![0, 0, 1] q slices_S8x4096x3_S8x4096x1_0_0_1) shapeCasts_S8x4096x1_S8x4096 (ix2 b m)))
        (broadcastInDim S8x4096 ![] bcast_S_S8x4096 (constantI S_ 32 20#32) (ix2 b m)))
      (shapeCast S8x4096 (extractStridedSlice S8x4096x1 ![0, 0, 2] q slices_S8x4096x3_S8x4096x1_0_0_2) shapeCasts_S8x4096x1_S8x4096 (ix2 b m)) = _
  rw [bcast0_apply, plane_apply q 0 (by decide) slices_S8x4096x3_S8x4096x1_0_0_0, plane_apply q 1 (by decide) slices_S8x4096x3_S8x4096x1_0_0_1,
    plane_apply q 2 (by decide) slices_S8x4096x3_S8x4096x1_0_0_2]
  rfl

/-- The word repeated along the twelve numbers reads the word. -/
theorem rowK_apply (w : (⟨S8x4096, .i32⟩ : BufTy).Contents (Elt Ideal)) (b : Fin 8) (m : Fin 4096) (k : Fin 12) :
    rowK w (ix3 b m k) = w (ix2 b m) := by
  unfold rowK
  refine (broadcastInDim_apply _ bcast_S8x4096x1_S8x4096x12_0_1_2 _ (ix3 b m k) (ix3 b m 0) (fun a => match a with
    | ⟨0, _⟩ => by show b.val = if (8 : Nat) = 1 then 0 else b.val; rw [if_neg (by decide)]
    | ⟨1, _⟩ => by show m.val = if (4096 : Nat) = 1 then 0 else m.val; rw [if_neg (by decide)]
    | ⟨2, _⟩ => by show 0 = if (1 : Nat) = 1 then 0 else k.val; rw [if_pos rfl])).trans ?_
  exact broadcastInDim_apply _ bcast_S8x4096_S8x4096x1_0_1 w (ix3 b m 0) (ix2 b m) (fun a => match a with
    | ⟨0, _⟩ => by show b.val = if (8 : Nat) = 1 then 0 else b.val; rw [if_neg (by decide)]
    | ⟨1, _⟩ => by show m.val = if (4096 : Nat) = 1 then 0 else m.val; rw [if_neg (by decide)])

/-- The word the final gather reads at `(b, m, ·)` is the voxel word of the sampled point. -/
theorem row_word (p : (⟨S8x4096x3, .f32⟩ : BufTy).Contents (Elt Ideal)) (c : (⟨S8x1x3, .f32⟩ : BufTy).Contents (Elt Ideal))
    (b : Fin 8) (m : Fin 4096) (k : Fin 12) :
    rowK (wordK (clipK (constantI S_ 32 0#32) (constantI S_ 32 19#32) (quotK p c))) (ix3 b m k)
      = Cert.Voxel.flat (fun j => p (ix3 b m j)) (fun j => c (ix3 b 0 j)) := by
  rw [rowK_apply, wordK_apply, cell_apply, cell_apply, cell_apply]
  rfl

/-- An and-reduction from `1` over bits that are all `1` is `1`. -/
theorem reduce_andi_one {s t u : Shape} {axes : List (Fin s.rank)} (x : IVec s 1) (init : IVec u 1)
    (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl, hinit]
  have e : IntOp.andi (1#1) (1#1) = 1#1 := by decide
  have key : ∀ l : List s.Idx, (∀ i ∈ l, x i = 1#1) → l.foldl (fun r i => IntOp.andi r (x i)) 1#1 = 1#1 := by
    intro l
    induction l with
    | nil => intro _; rfl
    | cons a l ih =>
      intro hl
      rw [List.foldl_cons, hl a List.mem_cons_self, e]
      exact ih (fun i hi => hl i (List.mem_cons_of_mem _ hi))
  exact key _ (fun i hi => hx i (by simpa using (List.mem_filter.mp hi).2))

/-- A word below `8192` is not negative, lies in the table's range, and is its own clamp. -/
theorem word_facts (w : BitVec 32) (hw : w.toNat < 8192) :
    IntOp.cmpi .slt w 0#32 = 0#1 ∧ IntOp.cmpi .sge w 0#32 = 1#1 ∧ IntOp.cmpi .sle w 8191#32 = 1#1
      ∧ min w.toInt.toNat (8192 - 1) = w.toNat := by
  have h31 : w.toNat < 2 ^ 31 := by omega
  refine ⟨eq_zero_of_ne_one fun h => ?_, (Predicate.sge_iff_toNat h31 (by decide)).mpr (Nat.zero_le _),
    (Predicate.sle_iff_toNat h31 (by decide)).mpr (by show w.toNat ≤ 8191; omega), ?_⟩
  · exact absurd ((Predicate.slt_iff_toNat h31 (by decide)).mp h) (Nat.not_lt_zero _)
  · rw [Predicate.toInt_eq_toNat_of_lt h31, Int.toNat_natCast]; omega

/-- The start index at `(b, m, k, 0)` is the row word when that is in the table's range. -/
theorem idx12_apply (r : (⟨S8x4096x12, .i32⟩ : BufTy).Contents (Elt Ideal)) (b : Fin 8) (m : Fin 4096) (k : Fin 12)
    (w : BitVec 32) (hrw : r (ix3 b m k) = w) (hw : w.toNat < 8192) : idx12 r (ix4 b m k 0) = w := by
  obtain ⟨hlt, -, -, -⟩ := word_facts w hw
  refine (shapeCast_apply _ shapeCasts_S8x4096x12_S8x4096x12x1 (ix4 b m k 0) (ix3 b m k) ?_).trans ?_
  · rw [Shape.rowMajor_val_three, Shape.rowMajor_val_four]
    show (b.val * 4096 + m.val) * 12 + k.val = ((b.val * 4096 + m.val) * 12 + k.val) * 1 + 0
    omega
  · show Scalar.select (IntOp.cmpi .slt (r (ix3 b m k)) 0#32) (IntOp.addi (r (ix3 b m k)) 8192#32) (r (ix3 b m k)) = w
    rw [hrw, hlt, select_zero]

/-- The range test passes at a start index in the table's range. -/
theorem mask12_apply (i5 : (⟨S8x4096x12x1, .i32⟩ : BufTy).Contents (Elt Ideal)) (b : Fin 8) (m : Fin 4096) (k : Fin 12)
    (w : BitVec 32) (h5 : i5 (ix4 b m k 0) = w) (hw : w.toNat < 8192) : mask12 i5 (ix3 b m k) = 1#1 := by
  obtain ⟨-, hge, hle, -⟩ := word_facts w hw
  refine reduce_andi_one _ _ _ _ _ rfl (fun i hi => ?_)
  have hi' : i = ix4 b m k 0 := by
    funext a
    match a with
    | ⟨0, _⟩ => exact Fin.ext ((Shape.ReducesTo.drop_apply_val_of_eq reducesTo_S8x4096x12x1_S8x4096x12_d3 i 0 0).symm.trans
        (congrArg (fun j : S8x4096x12.Idx => (j 0).val) hi))
    | ⟨1, _⟩ => exact Fin.ext ((Shape.ReducesTo.drop_apply_val_of_eq reducesTo_S8x4096x12x1_S8x4096x12_d3 i 1 1).symm.trans
        (congrArg (fun j : S8x4096x12.Idx => (j 1).val) hi))
    | ⟨2, _⟩ => exact Fin.ext ((Shape.ReducesTo.drop_apply_val_of_eq reducesTo_S8x4096x12x1_S8x4096x12_d3 i 2 2).symm.trans
        (congrArg (fun j : S8x4096x12.Idx => (j 2).val) hi))
    | ⟨3, _⟩ => exact Fin.ext (by have h3 : (i 3).val < 1 := (i 3).isLt; show (i 3).val = 0; omega)
  subst hi'
  show IntOp.andi (IntOp.cmpi .sge (i5 (ix4 b m k 0)) 0#32) (IntOp.cmpi .sle (i5 (ix4 b m k 0)) 8191#32) = 1#1
  rw [h5, hge, hle]
  decide

/-- The final gather at `(b, m, k)` reads the table's row at the start index, clamped into the table, in column `k` of
    cloud `b`. -/
theorem gatherT_apply (T : (⟨S8x8192x12, .f32⟩ : BufTy).Contents (Elt Ideal)) (i5 : (⟨S8x4096x12x1, .i32⟩ : BufTy).Contents (Elt Ideal))
    (b : Fin 8) (m : Fin 4096) (k : Fin 12) :
    Host.gather gather_S8x8192x12_S8x4096x12x1_S8x4096x12_n_1_02_02_1_3_111 T i5 (ix3 b m k)
      = T (ix3 b ⟨min (i5 (ix4 b m k 0)).toInt.toNat (8192 - 1), by omega⟩ k) := by
  unfold Host.gather
  congr 1
  funext a
  refine Fin.ext ?_
  match a with
  | ⟨0, _⟩ =>
    show GatherDims.start _ (ix3 b m k) i5 0 + GatherDims.batchCoord _ (ix3 b m k) 0 + GatherDims.offCoord _ (ix3 b m k) 0 = b.val
    rw [GatherDims.start_batching _ _ _ _ (by decide), GatherDims.offCoord_eq_zero _ _ _ (by decide)]
    unfold GatherDims.batchCoord
    rw [dif_pos (by decide)]
    simp only [Nat.zero_add, Nat.add_zero]
    unfold GatherDims.siCoord
    exact congrArg (fun a => ((ix3 b m k) a : ℕ)) (by decide : _ = (0 : Fin 3))
  | ⟨1, _⟩ =>
    show GatherDims.start _ (ix3 b m k) i5 1 + GatherDims.batchCoord _ (ix3 b m k) 1 + GatherDims.offCoord _ (ix3 b m k) 1 = _
    rw [GatherDims.batchCoord_eq_zero _ _ _ (by decide), GatherDims.offCoord_eq_zero _ _ _ (by decide)]
    unfold GatherDims.start
    rw [dif_pos (by decide)]
    have hsi : GatherDims.siIdx gather_S8x8192x12_S8x4096x12x1_S8x4096x12_n_1_02_02_1_3_111 (ix3 b m k)
        ⟨List.idxOf (1 : Fin 3) gather_S8x8192x12_S8x4096x12x1_S8x4096x12_n_1_02_02_1_3_111.startIndexMap, by decide⟩ = ix4 b m k 0 := by
      funext b'; refine Fin.ext ?_
      match b' with
      | ⟨0, _⟩ => rfl
      | ⟨1, _⟩ => rfl
      | ⟨2, _⟩ => rfl
      | ⟨3, _⟩ => rfl
    rw [hsi]
    rfl
  | ⟨2, _⟩ =>
    show GatherDims.start _ (ix3 b m k) i5 2 + GatherDims.batchCoord _ (ix3 b m k) 2 + GatherDims.offCoord _ (ix3 b m k) 2 = k.val
    rw [GatherDims.start_batching _ _ _ _ (by decide), GatherDims.offCoord_eq_zero _ _ _ (by decide)]
    unfold GatherDims.batchCoord
    rw [dif_pos (by decide)]
    simp only [Nat.zero_add, Nat.add_zero]
    unfold GatherDims.siCoord
    exact congrArg (fun a => ((ix3 b m k) a : ℕ)) (by decide : _ = (2 : Fin 3))

/-- The final gather at `(b, m, k)`, at a row word `w` inside the table: the table's row `w`, column `k`, of cloud `b`. -/
theorem lookK_apply (T : (⟨S8x8192x12, .f32⟩ : BufTy).Contents (Elt Ideal)) (r : (⟨S8x4096x12, .i32⟩ : BufTy).Contents (Elt Ideal))
    (b : Fin 8) (m : Fin 4096) (k : Fin 12) (w : BitVec 32) (hrw : r (ix3 b m k) = w) (hw : w.toNat < 8192) :
    lookK T r (ix3 b m k) = T (ix3 b ⟨w.toNat, hw⟩ k) := by
  have h5 := idx12_apply r b m k w hrw hw
  have e : min (idx12 r (ix4 b m k 0)).toInt.toNat (8192 - 1) = w.toNat := by rw [h5]; exact (word_facts w hw).2.2.2
  unfold lookK
  rw [select_apply, mask12_apply _ b m k w h5 hw, select_one, gatherT_apply]
  simp only [e]

/-! ## The end of @main -/

/-- The buffers after the table's operations and the five stretches. -/
def tailK (W : Valuation τ sig (Elt Ideal)) : Valuation τ sig (Elt Ideal) :=
  StableHlo.after (hostOps2_5 (F := Ideal)) (StableHlo.after (hostOps2_4 (F := Ideal)) (StableHlo.after (hostOps2_3 (F := Ideal))
    (StableHlo.after (hostOps2_2 (F := Ideal)) (StableHlo.after (hostOps2_1 (F := Ideal)) (StableHlo.after (hostOps2 (F := Ideal)) W)))))

section Table
variable (W : Valuation τ sig (Elt Ideal))

-- The table's operations write neither argument nor the corner, and end by giving the indices a trailing unit axis.
set_option maxHeartbeats 8000000 in
private theorem keep2_arg0 : StableHlo.after (hostOps2 (F := Ideal)) W (Proc.devRef .tc main_arg0) = W (Proc.devRef .tc main_arg0) := by
  after_results_simp
set_option maxHeartbeats 8000000 in
private theorem keep2_v0 : StableHlo.after (hostOps2 (F := Ideal)) W (Proc.devRef .tc main_v0) = W (Proc.devRef .tc main_v0) := by
  after_results_simp
set_option maxHeartbeats 8000000 in
private theorem last2_v80 : StableHlo.after (hostOps2 (F := Ideal)) W (Proc.devRef .tc main_v80)
      = broadcastInDim S8x4096x1 ![0, 1] bcast_S8x4096_S8x4096x1_0_1 (W (Proc.devRef .tc main_arg1)) := by
  after_results_simp

/-- The sampled points after the first stretch. -/
theorem spK_eq : StableHlo.after (hostOps2_1 (F := Ideal)) (StableHlo.after (hostOps2 (F := Ideal)) W) (Proc.devRef .tc main_v81)
      = spK (W (Proc.devRef .tc main_arg0)) (W (Proc.devRef .tc main_arg1)) := by
  rw [s1_v81, keep2_arg0, last2_v80]
  rfl

/-- The result as a composed term: the table's rows at the sampled points' voxel words. -/
theorem tail_v103 : tailK W (Proc.devRef .tc main_v103)
      = lookK (StableHlo.after (hostOps2 (F := Ideal)) W (Proc.devRef .tc main_v79))
          (rowK (wordK (clipK (constantI S_ 32 0#32) (constantI S_ 32 19#32)
            (quotK (spK (W (Proc.devRef .tc main_arg0)) (W (Proc.devRef .tc main_arg1))) (W (Proc.devRef .tc main_v0)))))) := by
  unfold tailK
  rw [s5_v103, s4_v79, s3_v79, s2_v79, s1_v79, s4_v102, s3_v88, s2_c, s2_c_1, s2_v87, s1_v0, keep2_v0, spK_eq]

/-- THE RESULT AT `(b, m, k)`: number `k` of the table's row at the voxel word of the sampled point `(b, m, ·)`. -/
theorem ktail_apply (b : Fin 8) (m : Fin 4096) (k : Fin 12) :
    tailK W (Proc.devRef .tc main_v103) (ix3 b m k)
      = StableHlo.after (hostOps2 (F := Ideal)) W (Proc.devRef .tc main_v79)
          (ix3 b ⟨(Cert.Voxel.flat (fun j => spK (W (Proc.devRef .tc main_arg0)) (W (Proc.devRef .tc main_arg1)) (ix3 b m j))
            (fun j => W (Proc.devRef .tc main_v0) (ix3 b 0 j))).toNat, Nat.lt_trans (Cert.Voxel.flat_toNat_lt _ _) (by decide)⟩ k) := by
  rw [tail_v103]
  exact lookK_apply _ _ b m k _ (row_word _ _ b m k) _

end Table

end Cert.KernelIdeal.HandV.Tail

end
-- ==== Proof.KI.Value.lean ====
/-
  What the idealized kernel program leaves in its result buffer, as the specification's function of the arguments.

  After the two regions the buffers hold: the point cloud and the sampled indices as launched; the minimum-corner array
  at the clouds' coordinate-wise minima; the histogram array, at (b, v, f), at feature f of voxel v of cloud b summed
  over all the points. The host operations after the regions turn the histogram into the per-voxel table of
  [mean, second central moments] and read, for each sampled point, the table row of the voxel it falls in: the
  specification's `G`.
-/
import proofs.«157393_j34419867910943_1_alg».proof.Proof.KI.Launch
import proofs.«157393_j34419867910943_1_alg».proof.Proof.KI.ValMin
import proofs.«157393_j34419867910943_1_alg».proof.Proof.KI.ValHist
import proofs.«157393_j34419867910943_1_alg».proof.Proof.KI.ValTab
import proofs.«157393_j34419867910943_1_alg».proof.Proof.KI.ValTail
import proofs.«157393_j34419867910943_1_alg».proof.Proof.SpecFacts

noncomputable section

namespace Cert.KernelIdeal.HandV

open Cert.KernelIdeal Cert.KernelIdeal.Gen Cert.KernelIdeal.Hand Cert.KernelIdeal.HandV.Min Cert.KernelIdeal.HandV.Tail Cert.KernelIdeal.HandV.Tab
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The buffers after the two regions -/

/-- The point cloud after region 0: an input window's array is never written back. -/
theorem W1_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The minimum-corner array after region 0: the coordinate-wise minimum of each cloud. -/
theorem W1_corner (c : Dev nD) (i : S8x1x3.Idx) :
    W1 m ρ c (Proc.devRef .tc main_v0) i
      = Cert.Voxel.minc (m ((c : Thread nD τ).loc main_arg0)) ⟨(i 0).val, (i 0).isLt⟩ ⟨(i 2).val, (i 2).isLt⟩ := by
  have h := arr0_eq (V0 m ρ) c i
  rw [show V0 m ρ c main_arg0 = m ((c : Thread nD τ).loc main_arg0) from rfl] at h
  exact (congrFun (W1_arr m ρ c 1) i).trans h

/-- The point cloud after region 1. -/
theorem W2_x (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_x m ρ c)

/-- The sampled indices after region 1: no window of either region. -/
theorem W2_idx (c : Dev nD) : W2 m ρ c (Proc.devRef .tc main_arg1) = m ((c : Thread nD τ).loc main_arg1) :=
  (W2_of_ne m ρ c main_arg1 (by decide)).trans (W1_of_ne m ρ c main_arg1 (by decide))

/-- The minimum-corner array after region 1: an input window of it. -/
theorem W2_corner (c : Dev nD) (i : S8x1x3.Idx) :
    W2 m ρ c (Proc.devRef .tc main_v0) i
      = Cert.Voxel.minc (m ((c : Thread nD τ).loc main_arg0)) ⟨(i 0).val, (i 0).isLt⟩ ⟨(i 2).val, (i 2).isLt⟩ :=
  (congrFun ((W2_arr m ρ c 1).trans (((dat1 (V1 m ρ) c).arrAt_in 1 rfl _).trans (A_eq1 (V1 m ρ) c 1))) i).trans (W1_corner m ρ c i)

/-- The histogram array after region 1: every feature of every voxel summed over all the points of its cloud. -/
theorem W2_hist (c : Dev nD) (b : Fin 8) (v : Fin 8192) (f : Fin 10) :
    W2 m ρ c (Proc.devRef .tc main_v1) (ix3 b v f)
      = Cert.Voxel.hist (m ((c : Thread nD τ).loc main_arg0)) b (BitVec.ofNat 32 v.val) f := by
  have hx : V1 m ρ c main_arg0 = m ((c : Thread nD τ).loc main_arg0) := W1_x m ρ c
  have h := arr1_eq (V1 m ρ) c (fun i => by rw [hx]; exact W1_corner m ρ c i) b v f
  rw [hx] at h
  exact (congrFun (W2_arr m ρ c 2) (ix3 b v f)).trans h

/-! ## The result -/

/-- The result buffer after @main: at (b, m, k), number k of the voxel the sampled point (b, m) falls in. -/
theorem result_eq (c : Dev nD) :
    W8 m ρ c (Proc.devRef .tc main_v103)
      = Cert.Voxel.G (m ((c : Thread nD τ).loc main_arg0))
          (spK (m ((c : Thread nD τ).loc main_arg0)) (m ((c : Thread nD τ).loc main_arg1))) := by
  funext i
  obtain ⟨b, s, k, rfl⟩ : ∃ (b : Fin 8) (s : Fin 4096) (k : Fin 12), i = ix3 b s k := ⟨i 0, i 1, i 2, eq_ix3 i⟩
  show tailK (W2 m ρ c) (Proc.devRef .tc main_v103) (ix3 b s k) = _
  rw [ktail_apply, ktab_apply, W2_x, W2_idx]
  have hcorner : (fun j : Fin 3 => W2 m ρ c (Proc.devRef .tc main_v0) (ix3 b 0 j))
      = Cert.Voxel.minc (m ((c : Thread nD τ).loc main_arg0)) b := by
    funext j; exact W2_corner m ρ c (ix3 b 0 j)
  rw [hcorner]
  have hrow : (fun f : Fin 10 => W2 m ρ c (Proc.devRef .tc main_v1)
        (ix3 b ⟨(Cert.Voxel.flat (fun j => spK (m ((c : Thread nD τ).loc main_arg0)) (m ((c : Thread nD τ).loc main_arg1)) (ix3 b s j))
          (Cert.Voxel.minc (m ((c : Thread nD τ).loc main_arg0)) b)).toNat, by have := Cert.Voxel.flat_toNat_lt (fun j => spK (m ((c : Thread nD τ).loc main_arg0)) (m ((c : Thread nD τ).loc main_arg1)) (ix3 b s j)) (Cert.Voxel.minc (m ((c : Thread nD τ).loc main_arg0)) b); omega⟩ f))
      = Cert.Voxel.hist (m ((c : Thread nD τ).loc main_arg0)) b
          (Cert.Voxel.flat (fun j => spK (m ((c : Thread nD τ).loc main_arg0)) (m ((c : Thread nD τ).loc main_arg1)) (ix3 b s j))
            (Cert.Voxel.minc (m ((c : Thread nD τ).loc main_arg0)) b)) := by
    funext f
    rw [W2_hist]
    dsimp only
    rw [Cert.Voxel.ofNat_flat_toNat]
  rw [hrow, Cert.Voxel.distOf_hist]
  rfl

end Cert.KernelIdeal.HandV

end
-- ==== Proof.Ref.Run.lean ====
/-
  The reference program's run, over stages. The reference's @main is a straight line of 159 host operations; its
  read-at-an-index module names the value each operation writes (`val_<buffer>`, a stage: the operation's function
  applied to the stages of its operands). Here: once the operations have run in order from any valuation, the result
  buffer holds the LAST stage, as a function of what the two argument buffers held, and the argument buffers are as
  they were; hence every weakly fair execution of @main terminates so. The line is cut into nine stretches; a stretch
  is run from any valuation that holds the few values it reads, and the valuations between stretches stay opaque.
-/
import proofs.«157393_j34419867910943_1_alg».proof.Proof.RefRun
import proofs.«157393_j34419867910943_1_alg».proof.Proof.RefRead
import Idealize.ShloMosaic.Lib.Pipeline.Frame

noncomputable section

namespace Cert.ReferenceIdeal.HandV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

namespace Line

/-! ## The operations, cut into nine stretches

The same 159 operations as `ValueP.ops`, in the same order, cut before each of the two joins (the join of the mean
with the covariance, and the join of the four voxel coordinates) and at the places where one value is all a later
stretch reads of the earlier ones. -/

/-- Operations 1–18: the per-batch minimum of the cloud and every point's clipped cell coordinates. -/
abbrev c1 : List (HloOp τ sig (Elt F)) :=
  [ nullary main_cst (constant S_ .f32 0x7F800000#32),
    binary main_arg0 main_cst main_v0 ((fun x v => Host.reduce FloatOps.minimumf x v reducesTo_S8x262144x3_S8x3_d1 h_S_) : (⟨S8x262144x3, .f32⟩ : BufTy).Contents (Elt F) → (⟨S_, .f32⟩ : BufTy).Contents (Elt F) → (⟨S8x3, .f32⟩ : BufTy).Contents (Elt F)),
    unary main_v0 main_v1 (broadcastInDim S8x1x3 ![0, 2] bcast_S8x3_S8x1x3_0_2 : (⟨S8x3, .f32⟩ : BufTy).Contents (Elt F) → (⟨S8x1x3, .f32⟩ : BufTy).Contents (Elt F)),
    unary main_v1 main_v2 (broadcastInDim S8x262144x3 ![0, 1, 2] bcast_S8x1x3_S8x262144x3_0_1_2 : (⟨S8x1x3, .f32⟩ : BufTy).Contents (Elt F) → (⟨S8x262144x3, .f32⟩ : BufTy).Contents (Elt F)),
    binary main_arg0 main_v2 main_v3 (subf : (⟨S8x262144x3, .f32⟩ : BufTy).Contents (Elt F) → (⟨S8x262144x3, .f32⟩ : BufTy).Contents (Elt F) → (⟨S8x262144x3, .f32⟩ : BufTy).Contents (Elt F)),
    nullary main_cst_0 (constant S_ .f32 0x3D4CCCCD#32),
    unary main_cst_0 main_v4 (broadcastInDim S8x262144x3 ![] bcast_S_S8x262144x3 : (⟨S_, .f32⟩ : BufTy).Contents (Elt F) → (⟨S8x262144x3, .f32⟩ : BufTy).Contents (Elt F)),
    binary main_v3 main_v4 main_v5 (Host.divf : (⟨S8x262144x3, .f32⟩ : BufTy).Contents (Elt F) → (⟨S8x262144x3, .f32⟩ : BufTy).Contents (Elt F) → (⟨S8x262144x3, .f32⟩ : BufTy).Contents (Elt F)),
    unary main_v5 main_v6 (Host.floor : (⟨S8x262144x3, .f32⟩ : BufTy).Contents (Elt F) → (⟨S8x262144x3, .f32⟩ : BufTy).Contents (Elt F)),
    unary main_v6 main_v7 (fptosi 32 : (⟨S8x262144x3, .f32⟩ : BufTy).Contents (Elt F) → (⟨S8x262144x3, .i32⟩ : BufTy).Contents (Elt F)),
    nullary main_c (constantI S_ 32 0#32),
    nullary main_c_1 (constantI S_ 32 19#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8x262144x3, .i32⟩) main_call0_v1) (broadcastInDim S8x262144x3 ![] bcast_S_S8x262144x3),
    TRef.binary (TRef.of (T := ⟨S8x262144x3, .i32⟩) main_call0_v1) (TRef.of (T := ⟨S8x262144x3, .i32⟩) main_v7) (TRef.of (T := ⟨S8x262144x3, .i32⟩) main_call0_v2) maxsi,
    TRef.unary (TRef.of (T := ⟨S_, .i32⟩) main_c_1) (TRef.of (T := ⟨S_, .i32⟩) main_call0_v3) id,
    TRef.unary (TRef.of (T := ⟨S_, .i32⟩) main_call0_v3) (TRef.of (T := ⟨S8x262144x3, .i32⟩) main_call0_v4) (broadcastInDim S8x262144x3 ![] bcast_S_S8x262144x3),
    TRef.binary (TRef.of (T := ⟨S8x262144x3, .i32⟩) main_call0_v4) (TRef.of (T := ⟨S8x262144x3, .i32⟩) main_call0_v2) (TRef.of (T := ⟨S8x262144x3, .i32⟩) main_v8) minsi ]

/-- Operations 19–40: every point's flat voxel number, offset by its batch. -/
abbrev c2 : List (HloOp τ sig (Elt F)) :=
  [ unary main_v8 main_v9 ((extractStridedSlice S8x262144x1 ![0, 0, 0] · slices_S8x262144x3_S8x262144x1_0_0_0) : (⟨S8x262144x3, .i32⟩ : BufTy).Contents (Elt F) → (⟨S8x262144x1, .i32⟩ : BufTy).Contents (Elt F)),
    reshape main_v9 main_v10 rfl shapeCasts_S8x262144x1_S8x262144,
    nullary main_c_2 (constantI S_ 32 20#32),
    unary main_c_2 main_v11 (broadcastInDim S8x262144 ![] bcast_S_S8x262144 : (⟨S_, .i32⟩ : BufTy).Contents (Elt F) → (⟨S8x262144, .i32⟩ : BufTy).Contents (Elt F)),
    binary main_v10 main_v11 main_v12 (muli : (⟨S8x262144, .i32⟩ : BufTy).Contents (Elt F) → (⟨S8x262144, .i32⟩ : BufTy).Contents (Elt F) → (⟨S8x262144, .i32⟩ : BufTy).Contents (Elt F)),
    unary main_v8 main_v13 ((extractStridedSlice S8x262144x1 ![0, 0, 1] · slices_S8x262144x3_S8x262144x1_0_0_1) : (⟨S8x262144x3, .i32⟩ : BufTy).Contents (Elt F) → (⟨S8x262144x1, .i32⟩ : BufTy).Contents (Elt F)),
    reshape main_v13 main_v14 rfl shapeCasts_S8x262144x1_S8x262144,
    binary main_v12 main_v14 main_v15 (addi : (⟨S8x262144, .i32⟩ : BufTy).Contents (Elt F) → (⟨S8x262144, .i32⟩ : BufTy).Contents (Elt F) → (⟨S8x262144, .i32⟩ : BufTy).Contents (Elt F)),
    nullary main_c_3 (constantI S_ 32 20#32),
    unary main_c_3 main_v16 (broadcastInDim S8x262144 ![] bcast_S_S8x262144 : (⟨S_, .i32⟩ : BufTy).Contents (Elt F) → (⟨S8x262144, .i32⟩ : BufTy).Contents (Elt F)),
    binary main_v15 main_v16 main_v17 (muli : (⟨S8x262144, .i32⟩ : BufTy).Contents (Elt F) → (⟨S8x262144, .i32⟩ : BufTy).Contents (Elt F) → (⟨S8x262144, .i32⟩ : BufTy).Contents (Elt F)),
    unary main_v8 main_v18 ((extractStridedSlice S8x262144x1 ![0, 0, 2] · slices_S8x262144x3_S8x262144x1_0_0_2) : (⟨S8x262144x3, .i32⟩ : BufTy).Contents (Elt F) → (⟨S8x262144x1, .i32⟩ : BufTy).Contents (Elt F)),
    reshape main_v18 main_v19 rfl shapeCasts_S8x262144x1_S8x262144,
    binary main_v17 main_v19 main_v20 (addi : (⟨S8x262144, .i32⟩ : BufTy).Contents (Elt F) → (⟨S8x262144, .i32⟩ : BufTy).Contents (Elt F) → (⟨S8x262144, .i32⟩ : BufTy).Contents (Elt F)),
    nullary main_v21 (iotaInDim S8 32 0),
    unary main_v21 main_v22 (broadcastInDim S8x1 ![0] bcast_S8_S8x1_0 : (⟨S8, .i32⟩ : BufTy).Contents (Elt F) → (⟨S8x1, .i32⟩ : BufTy).Contents (Elt F)),
    nullary main_c_4 (constantI S_ 32 8000#32),
    unary main_c_4 main_v23 (broadcastInDim S8x1 ![] bcast_S_S8x1 : (⟨S_, .i32⟩ : BufTy).Contents (Elt F) → (⟨S8x1, .i32⟩ : BufTy).Contents (Elt F)),
    binary main_v22 main_v23 main_v24 (muli : (⟨S8x1, .i32⟩ : BufTy).Contents (Elt F) → (⟨S8x1, .i32⟩ : BufTy).Contents (Elt F) → (⟨S8x1, .i32⟩ : BufTy).Contents (Elt F)),
    unary main_v24 main_v25 (broadcastInDim S8x262144 ![0, 1] bcast_S8x1_S8x262144_0_1 : (⟨S8x1, .i32⟩ : BufTy).Contents (Elt F) → (⟨S8x262144, .i32⟩ : BufTy).Contents (Elt F)),
    binary main_v20 main_v25 main_v26 (addi : (⟨S8x262144, .i32⟩ : BufTy).Contents (Elt F) → (⟨S8x262144, .i32⟩ : BufTy).Contents (Elt F) → (⟨S8x262144, .i32⟩ : BufTy).Contents (Elt F)),
    reshape main_v26 main_v27 rfl shapeCasts_S8x262144_S2097152 ]

/-- Operations 41–61: the three segment sums (the count, the sum of the points, the sum of their products). -/
abbrev c3 : List (HloOp τ sig (Elt F)) :=
  [ reshape main_arg0 main_v28 rfl shapeCasts_S8x262144x3_S2097152x3,
    nullary main_cst_5 (constant S_ .f32 0x3F800000#32),
    unary main_cst_5 main_v29 (broadcastInDim S2097152 ![] bcast_S_S2097152 : (⟨S_, .f32⟩ : BufTy).Contents (Elt F) → (⟨S2097152, .f32⟩ : BufTy).Contents (Elt F)),
    nullary main_cst_6 (constant S_ .f32 0x00000000#32),
    unary main_cst_6 main_v30 (broadcastInDim S64000 ![] bcast_S_S64000 : (⟨S_, .f32⟩ : BufTy).Contents (Elt F) → (⟨S64000, .f32⟩ : BufTy).Contents (Elt F)),
    unary main_v27 main_v31 (broadcastInDim S2097152x1 ![0] bcast_S2097152_S2097152x1_0 : (⟨S2097152, .i32⟩ : BufTy).Contents (Elt F) → (⟨S2097152x1, .i32⟩ : BufTy).Contents (Elt F)),
    ternary main_v30 main_v31 main_v29 main_v32 ((fun x i u => Host.scatterAdd scatter_S64000_S2097152x1_S2097152_n_0_0_1 x i u) : (⟨S64000, .f32⟩ : BufTy).Contents (Elt F) → (⟨S2097152x1, .i32⟩ : BufTy).Contents (Elt F) → (⟨S2097152, .f32⟩ : BufTy).Contents (Elt F) → (⟨S64000, .f32⟩ : BufTy).Contents (Elt F)),
    nullary main_cst_7 (constant S_ .f32 0x00000000#32),
    unary main_cst_7 main_v33 (broadcastInDim S64000x3 ![] bcast_S_S64000x3 : (⟨S_, .f32⟩ : BufTy).Contents (Elt F) → (⟨S64000x3, .f32⟩ : BufTy).Contents (Elt F)),
    unary main_v27 main_v34 (broadcastInDim S2097152x1 ![0] bcast_S2097152_S2097152x1_0 : (⟨S2097152, .i32⟩ : BufTy).Contents (Elt F) → (⟨S2097152x1, .i32⟩ : BufTy).Contents (Elt F)),
    ternary main_v33 main_v34 main_v28 main_v35 ((fun x i u => Host.scatterAdd scatter_S64000x3_S2097152x1_S2097152x3_1_0_0_1 x i u) : (⟨S64000x3, .f32⟩ : BufTy).Contents (Elt F) → (⟨S2097152x1, .i32⟩ : BufTy).Contents (Elt F) → (⟨S2097152x3, .f32⟩ : BufTy).Contents (Elt F) → (⟨S64000x3, .f32⟩ : BufTy).Contents (Elt F)),
    unary main_v28 main_v36 (broadcastInDim S2097152x3x1 ![0, 1] bcast_S2097152x3_S2097152x3x1_0_1 : (⟨S2097152x3, .f32⟩ : BufTy).Contents (Elt F) → (⟨S2097152x3x1, .f32⟩ : BufTy).Contents (Elt F)),
    unary main_v28 main_v37 (broadcastInDim S2097152x1x3 ![0, 2] bcast_S2097152x3_S2097152x1x3_0_2 : (⟨S2097152x3, .f32⟩ : BufTy).Contents (Elt F) → (⟨S2097152x1x3, .f32⟩ : BufTy).Contents (Elt F)),
    unary main_v36 main_v38 (broadcastInDim S2097152x3x3 ![0, 1, 2] bcast_S2097152x3x1_S2097152x3x3_0_1_2 : (⟨S2097152x3x1, .f32⟩ : BufTy).Contents (Elt F) → (⟨S2097152x3x3, .f32⟩ : BufTy).Contents (Elt F)),
    unary main_v37 main_v39 (broadcastInDim S2097152x3x3 ![0, 1, 2] bcast_S2097152x1x3_S2097152x3x3_0_1_2 : (⟨S2097152x1x3, .f32⟩ : BufTy).Contents (Elt F) → (⟨S2097152x3x3, .f32⟩ : BufTy).Contents (Elt F)),
    binary main_v38 main_v39 main_v40 (mulf : (⟨S2097152x3x3, .f32⟩ : BufTy).Contents (Elt F) → (⟨S2097152x3x3, .f32⟩ : BufTy).Contents (Elt F) → (⟨S2097152x3x3, .f32⟩ : BufTy).Contents (Elt F)),
    reshape main_v40 main_v41 rfl shapeCasts_S2097152x3x3_S2097152x9,
    nullary main_cst_8 (constant S_ .f32 0x00000000#32),
    unary main_cst_8 main_v42 (broadcastInDim S64000x9 ![] bcast_S_S64000x9 : (⟨S_, .f32⟩ : BufTy).Contents (Elt F) → (⟨S64000x9, .f32⟩ : BufTy).Contents (Elt F)),
    unary main_v27 main_v43 (broadcastInDim S2097152x1 ![0] bcast_S2097152_S2097152x1_0 : (⟨S2097152, .i32⟩ : BufTy).Contents (Elt F) → (⟨S2097152x1, .i32⟩ : BufTy).Contents (Elt F)),
    ternary main_v42 main_v43 main_v41 main_v44 ((fun x i u => Host.scatterAdd scatter_S64000x9_S2097152x1_S2097152x9_1_0_0_1 x i u) : (⟨S64000x9, .f32⟩ : BufTy).Contents (Elt F) → (⟨S2097152x1, .i32⟩ : BufTy).Contents (Elt F) → (⟨S2097152x9, .f32⟩ : BufTy).Contents (Elt F) → (⟨S64000x9, .f32⟩ : BufTy).Contents (Elt F)) ]

/-- Operations 62–76: the mean and the covariance of every voxel. -/
abbrev c4 : List (HloOp τ sig (Elt F)) :=
  [ nullary main_cst_9 (constant S_ .f32 0x3F800000#32),
    unary main_cst_9 main_v45 (broadcastInDim S64000 ![] bcast_S_S64000 : (⟨S_, .f32⟩ : BufTy).Contents (Elt F) → (⟨S64000, .f32⟩ : BufTy).Contents (Elt F)),
    binary main_v32 main_v45 main_v46 (maximumf : (⟨S64000, .f32⟩ : BufTy).Contents (Elt F) → (⟨S64000, .f32⟩ : BufTy).Contents (Elt F) → (⟨S64000, .f32⟩ : BufTy).Contents (Elt F)),
    unary main_v46 main_v47 (broadcastInDim S64000x1 ![0] bcast_S64000_S64000x1_0 : (⟨S64000, .f32⟩ : BufTy).Contents (Elt F) → (⟨S64000x1, .f32⟩ : BufTy).Contents (Elt F)),
    unary main_v47 main_v48 (broadcastInDim S64000x3 ![0, 1] bcast_S64000x1_S64000x3_0_1 : (⟨S64000x1, .f32⟩ : BufTy).Contents (Elt F) → (⟨S64000x3, .f32⟩ : BufTy).Contents (Elt F)),
    binary main_v35 main_v48 main_v49 (Host.divf : (⟨S64000x3, .f32⟩ : BufTy).Contents (Elt F) → (⟨S64000x3, .f32⟩ : BufTy).Contents (Elt F) → (⟨S64000x3, .f32⟩ : BufTy).Contents (Elt F)),
    unary main_v47 main_v50 (broadcastInDim S64000x9 ![0, 1] bcast_S64000x1_S64000x9_0_1 : (⟨S64000x1, .f32⟩ : BufTy).Contents (Elt F) → (⟨S64000x9, .f32⟩ : BufTy).Contents (Elt F)),
    binary main_v44 main_v50 main_v51 (Host.divf : (⟨S64000x9, .f32⟩ : BufTy).Contents (Elt F) → (⟨S64000x9, .f32⟩ : BufTy).Contents (Elt F) → (⟨S64000x9, .f32⟩ : BufTy).Contents (Elt F)),
    unary main_v49 main_v52 (broadcastInDim S64000x3x1 ![0, 1] bcast_S64000x3_S64000x3x1_0_1 : (⟨S64000x3, .f32⟩ : BufTy).Contents (Elt F) → (⟨S64000x3x1, .f32⟩ : BufTy).Contents (Elt F)),
    unary main_v49 main_v53 (broadcastInDim S64000x1x3 ![0, 2] bcast_S64000x3_S64000x1x3_0_2 : (⟨S64000x3, .f32⟩ : BufTy).Contents (Elt F) → (⟨S64000x1x3, .f32⟩ : BufTy).Contents (Elt F)),
    unary main_v52 main_v54 (broadcastInDim S64000x3x3 ![0, 1, 2] bcast_S64000x3x1_S64000x3x3_0_1_2 : (⟨S64000x3x1, .f32⟩ : BufTy).Contents (Elt F) → (⟨S64000x3x3, .f32⟩ : BufTy).Contents (Elt F)),
    unary main_v53 main_v55 (broadcastInDim S64000x3x3 ![0, 1, 2] bcast_S64000x1x3_S64000x3x3_0_1_2 : (⟨S64000x1x3, .f32⟩ : BufTy).Contents (Elt F) → (⟨S64000x3x3, .f32⟩ : BufTy).Contents (Elt F)),
    binary main_v54 main_v55 main_v56 (mulf : (⟨S64000x3x3, .f32⟩ : BufTy).Contents (Elt F) → (⟨S64000x3x3, .f32⟩ : BufTy).Contents (Elt F) → (⟨S64000x3x3, .f32⟩ : BufTy).Contents (Elt F)),
    reshape main_v56 main_v57 rfl shapeCasts_S64000x3x3_S64000x9,
    binary main_v51 main_v57 main_v58 (subf : (⟨S64000x9, .f32⟩ : BufTy).Contents (Elt F) → (⟨S64000x9, .f32⟩ : BufTy).Contents (Elt F) → (⟨S64000x9, .f32⟩ : BufTy).Contents (Elt F)) ]

/-- Operations 77–78: the mean and the covariance joined, as a table over batch and cell. -/
abbrev c5 : List (HloOp τ sig (Elt F)) :=
  [ binary main_v49 main_v58 main_v59 ((fun a b => concatenate S64000x12 1 [⟨S64000x3, a⟩, ⟨S64000x9, b⟩] concatenates_S64000x3_S64000x9_S64000x12_d1) : (⟨S64000x3, .f32⟩ : BufTy).Contents (Elt F) → (⟨S64000x9, .f32⟩ : BufTy).Contents (Elt F) → (⟨S64000x12, .f32⟩ : BufTy).Contents (Elt F)),
    reshape main_v59 main_v60 rfl shapeCasts_S64000x12_S8x20x20x20x12 ]

/-- Operations 79–101: the sampled points, read from the cloud at the sampled indices. -/
abbrev c6 : List (HloOp τ sig (Elt F)) :=
  [ unary main_arg1 main_v61 (broadcastInDim S8x4096x1 ![0, 1] bcast_S8x4096_S8x4096x1_0_1 : (⟨S8x4096, .i32⟩ : BufTy).Contents (Elt F) → (⟨S8x4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x4096x1, .i32⟩) main_call1_v0) (broadcastInDim S8x4096x1 ![] bcast_S_S8x4096x1),
    TRef.binary (TRef.of (T := ⟨S8x4096x1, .i32⟩) main_v61) (TRef.of (T := ⟨S8x4096x1, .i32⟩) main_call1_v0) (TRef.of (T := ⟨S8x4096x1, .i1⟩) main_call1_v1) (cmpi .slt),
    TRef.nullary (TRef.of (T := ⟨S_, .i32⟩) main_call1_c_0) (constantI S_ 32 262144#32),
    TRef.unary (TRef.of (T := ⟨S_, .i32⟩) main_call1_c_0) (TRef.of (T := ⟨S8x4096x1, .i32⟩) main_call1_v2) (broadcastInDim S8x4096x1 ![] bcast_S_S8x4096x1),
    TRef.binary (TRef.of (T := ⟨S8x4096x1, .i32⟩) main_v61) (TRef.of (T := ⟨S8x4096x1, .i32⟩) main_call1_v2) (TRef.of (T := ⟨S8x4096x1, .i32⟩) main_call1_v3) addi,
    TRef.ternary (TRef.of (T := ⟨S8x4096x1, .i1⟩) main_call1_v1) (TRef.of (T := ⟨S8x4096x1, .i32⟩) main_call1_v3) (TRef.of (T := ⟨S8x4096x1, .i32⟩) main_v61) (TRef.of (T := ⟨S8x4096x1, .i32⟩) main_call1_v4) select,
    TRef.nullary (TRef.of (T := ⟨S1, .i32⟩) main_call1_c_1) (constantI S1 32 262143#32),
    TRef.nullary (TRef.of (T := ⟨S_, .i32⟩) main_call1_c_2) (constantI S_ 32 0#32),
    TRef.unary (TRef.of (T := ⟨S_, .i32⟩) main_call1_c_2) (TRef.of (T := ⟨S8x4096x1, .i32⟩) main_call1_v5) (broadcastInDim S8x4096x1 ![] bcast_S_S8x4096x1),
    TRef.binary (TRef.of (T := ⟨S8x4096x1, .i32⟩) main_call1_v4) (TRef.of (T := ⟨S8x4096x1, .i32⟩) main_call1_v5) (TRef.of (T := ⟨S8x4096x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S8x4096x1, .i32⟩) main_call1_v8) (broadcastInDim S8x4096x1 ![0, 1, 2] bcast_S1x1x1_S8x4096x1_0_1_2),
    TRef.binary (TRef.of (T := ⟨S8x4096x1, .i32⟩) main_call1_v4) (TRef.of (T := ⟨S8x4096x1, .i32⟩) main_call1_v8) (TRef.of (T := ⟨S8x4096x1, .i1⟩) main_call1_v9) (cmpi .sle),
    TRef.binary (TRef.of (T := ⟨S8x4096x1, .i1⟩) main_call1_v6) (TRef.of (T := ⟨S8x4096x1, .i1⟩) main_call1_v9) (TRef.of (T := ⟨S8x4096x1, .i1⟩) main_call1_v10) andi,
    TRef.nullary (TRef.of (T := ⟨S_, .i1⟩) main_call1_c_3) (constantI S_ 1 1#1),
    TRef.binary (TRef.of (T := ⟨S8x4096x1, .i1⟩) main_call1_v10) (TRef.of (T := ⟨S_, .i1⟩) main_call1_c_3) (TRef.of (T := ⟨S8x4096, .i1⟩) main_call1_v11) (fun x v => Host.reduce IntOp.andi x v reducesTo_S8x4096x1_S8x4096_d2 h_S_),
    TRef.binary (TRef.of (T := ⟨S8x262144x3, .f32⟩) main_arg0) (TRef.of (T := ⟨S8x4096x1, .i32⟩) main_call1_v4) (TRef.of (T := ⟨S8x4096x3, .f32⟩) main_call1_v12) (fun x i => Host.gather gather_S8x262144x3_S8x4096x1_S8x4096x3_2_1_0_0_1_2_113 x i),
    TRef.unary (TRef.of (T := ⟨S8x4096, .i1⟩) main_call1_v11) (TRef.of (T := ⟨S8x4096x3, .i1⟩) main_call1_v13) (broadcastInDim S8x4096x3 ![0, 1] bcast_S8x4096_S8x4096x3_0_1),
    TRef.nullary (TRef.of (T := ⟨S_, .f32⟩) main_call1_cst) (constant S_ .f32 0x7FC00000#32),
    TRef.unary (TRef.of (T := ⟨S_, .f32⟩) main_call1_cst) (TRef.of (T := ⟨S8x4096x3, .f32⟩) main_call1_v14) (broadcastInDim S8x4096x3 ![] bcast_S_S8x4096x3),
    TRef.ternary (TRef.of (T := ⟨S8x4096x3, .i1⟩) main_call1_v13) (TRef.of (T := ⟨S8x4096x3, .f32⟩) main_call1_v12) (TRef.of (T := ⟨S8x4096x3, .f32⟩) main_call1_v14) (TRef.of (T := ⟨S8x4096x3, .f32⟩) main_v62) select ]

/-- Operations 102–116: the sampled points' clipped cell coordinates. -/
abbrev c7 : List (HloOp τ sig (Elt F)) :=
  [ unary main_v1 main_v63 (broadcastInDim S8x4096x3 ![0, 1, 2] bcast_S8x1x3_S8x4096x3_0_1_2 : (⟨S8x1x3, .f32⟩ : BufTy).Contents (Elt F) → (⟨S8x4096x3, .f32⟩ : BufTy).Contents (Elt F)),
    binary main_v62 main_v63 main_v64 (subf : (⟨S8x4096x3, .f32⟩ : BufTy).Contents (Elt F) → (⟨S8x4096x3, .f32⟩ : BufTy).Contents (Elt F) → (⟨S8x4096x3, .f32⟩ : BufTy).Contents (Elt F)),
    nullary main_cst_10 (constant S_ .f32 0x3D4CCCCD#32),
    unary main_cst_10 main_v65 (broadcastInDim S8x4096x3 ![] bcast_S_S8x4096x3 : (⟨S_, .f32⟩ : BufTy).Contents (Elt F) → (⟨S8x4096x3, .f32⟩ : BufTy).Contents (Elt F)),
    binary main_v64 main_v65 main_v66 (Host.divf : (⟨S8x4096x3, .f32⟩ : BufTy).Contents (Elt F) → (⟨S8x4096x3, .f32⟩ : BufTy).Contents (Elt F) → (⟨S8x4096x3, .f32⟩ : BufTy).Contents (Elt F)),
    unary main_v66 main_v67 (Host.floor : (⟨S8x4096x3, .f32⟩ : BufTy).Contents (Elt F) → (⟨S8x4096x3, .f32⟩ : BufTy).Contents (Elt F)),
    unary main_v67 main_v68 (fptosi 32 : (⟨S8x4096x3, .f32⟩ : BufTy).Contents (Elt F) → (⟨S8x4096x3, .i32⟩ : BufTy).Contents (Elt F)),
    nullary main_c_11 (constantI S_ 32 0#32),
    nullary main_c_12 (constantI S_ 32 19#32),
    TRef.unary (TRef.of (T := ⟨S_, .i32⟩) main_c_11) (TRef.of (T := ⟨S_, .i32⟩) main_call2_v0) id,
    TRef.unary (TRef.of (T := ⟨S_, .i32⟩) main_call2_v0) (TRef.of (T := ⟨S8x4096x3, .i32⟩) main_call2_v1) (broadcastInDim S8x4096x3 ![] bcast_S_S8x4096x3),
    TRef.binary (TRef.of (T := ⟨S8x4096x3, .i32⟩) main_call2_v1) (TRef.of (T := ⟨S8x4096x3, .i32⟩) main_v68) (TRef.of (T := ⟨S8x4096x3, .i32⟩) main_call2_v2) maxsi,
    TRef.unary (TRef.of (T := ⟨S_, .i32⟩) main_c_12) (TRef.of (T := ⟨S_, .i32⟩) main_call2_v3) id,
    TRef.unary (TRef.of (T := ⟨S_, .i32⟩) main_call2_v3) (TRef.of (T := ⟨S8x4096x3, .i32⟩) main_call2_v4) (broadcastInDim S8x4096x3 ![] bcast_S_S8x4096x3),
    TRef.binary (TRef.of (T := ⟨S8x4096x3, .i32⟩) main_call2_v4) (TRef.of (T := ⟨S8x4096x3, .i32⟩) main_call2_v2) (TRef.of (T := ⟨S8x4096x3, .i32⟩) main_v69) minsi ]

/-- Operations 117–157: the four coordinates (batch, three cells) of every sampled point's voxel. -/
abbrev c8 : List (HloOp τ sig (Elt F)) :=
  [ nullary main_v70 (iotaInDim S8 32 0),
    unary main_v70 main_v71 (broadcastInDim S8x1 ![0] bcast_S8_S8x1_0 : (⟨S8, .i32⟩ : BufTy).Contents (Elt F) → (⟨S8x1, .i32⟩ : BufTy).Contents (Elt F)),
    unary main_v69 main_v72 ((extractStridedSlice S8x4096x1 ![0, 0, 0] · slices_S8x4096x3_S8x4096x1_0_0_0) : (⟨S8x4096x3, .i32⟩ : BufTy).Contents (Elt F) → (⟨S8x4096x1, .i32⟩ : BufTy).Contents (Elt F)),
    reshape main_v72 main_v73 rfl shapeCasts_S8x4096x1_S8x4096,
    unary main_v69 main_v74 ((extractStridedSlice S8x4096x1 ![0, 0, 1] · slices_S8x4096x3_S8x4096x1_0_0_1) : (⟨S8x4096x3, .i32⟩ : BufTy).Contents (Elt F) → (⟨S8x4096x1, .i32⟩ : BufTy).Contents (Elt F)),
    reshape main_v74 main_v75 rfl shapeCasts_S8x4096x1_S8x4096,
    unary main_v69 main_v76 ((extractStridedSlice S8x4096x1 ![0, 0, 2] · slices_S8x4096x3_S8x4096x1_0_0_2) : (⟨S8x4096x3, .i32⟩ : BufTy).Contents (Elt F) → (⟨S8x4096x1, .i32⟩ : BufTy).Contents (Elt F)),
    reshape main_v76 main_v77 rfl shapeCasts_S8x4096x1_S8x4096,
    nullary main_c_13 (constantI S_ 32 0#32),
    unary main_c_13 main_v78 (broadcastInDim S8x1 ![] bcast_S_S8x1 : (⟨S_, .i32⟩ : BufTy).Contents (Elt F) → (⟨S8x1, .i32⟩ : BufTy).Contents (Elt F)),
    binary main_v71 main_v78 main_v79 (cmpi .slt : (⟨S8x1, .i32⟩ : BufTy).Contents (Elt F) → (⟨S8x1, .i32⟩ : BufTy).Contents (Elt F) → (⟨S8x1, .i1⟩ : BufTy).Contents (Elt F)),
    nullary main_c_14 (constantI S_ 32 8#32),
    unary main_c_14 main_v80 (broadcastInDim S8x1 ![] bcast_S_S8x1 : (⟨S_, .i32⟩ : BufTy).Contents (Elt F) → (⟨S8x1, .i32⟩ : BufTy).Contents (Elt F)),
    binary main_v71 main_v80 main_v81 (addi : (⟨S8x1, .i32⟩ : BufTy).Contents (Elt F) → (⟨S8x1, .i32⟩ : BufTy).Contents (Elt F) → (⟨S8x1, .i32⟩ : BufTy).Contents (Elt F)),
    ternary main_v79 main_v81 main_v71 main_v82 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_15 (constantI S_ 32 0#32),
    unary main_c_15 main_v83 (broadcastInDim S8x4096 ![] bcast_S_S8x4096 : (⟨S_, .i32⟩ : BufTy).Contents (Elt F) → (⟨S8x4096, .i32⟩ : BufTy).Contents (Elt F)),
    binary main_v73 main_v83 main_v84 (cmpi .slt : (⟨S8x4096, .i32⟩ : BufTy).Contents (Elt F) → (⟨S8x4096, .i32⟩ : BufTy).Contents (Elt F) → (⟨S8x4096, .i1⟩ : BufTy).Contents (Elt F)),
    nullary main_c_16 (constantI S_ 32 20#32),
    unary main_c_16 main_v85 (broadcastInDim S8x4096 ![] bcast_S_S8x4096 : (⟨S_, .i32⟩ : BufTy).Contents (Elt F) → (⟨S8x4096, .i32⟩ : BufTy).Contents (Elt F)),
    binary main_v73 main_v85 main_v86 (addi : (⟨S8x4096, .i32⟩ : BufTy).Contents (Elt F) → (⟨S8x4096, .i32⟩ : BufTy).Contents (Elt F) → (⟨S8x4096, .i32⟩ : BufTy).Contents (Elt F)),
    ternary main_v84 main_v86 main_v73 main_v87 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    nullary main_c_17 (constantI S_ 32 0#32),
    unary main_c_17 main_v88 (broadcastInDim S8x4096 ![] bcast_S_S8x4096 : (⟨S_, .i32⟩ : BufTy).Contents (Elt F) → (⟨S8x4096, .i32⟩ : BufTy).Contents (Elt F)),
    binary main_v75 main_v88 main_v89 (cmpi .slt : (⟨S8x4096, .i32⟩ : BufTy).Contents (Elt F) → (⟨S8x4096, .i32⟩ : BufTy).Contents (Elt F) → (⟨S8x4096, .i1⟩ : BufTy).Contents (Elt F)),
    nullary main_c_18 (constantI S_ 32 20#32),
    unary main_c_18 main_v90 (broadcastInDim S8x4096 ![] bcast_S_S8x4096 : (⟨S_, .i32⟩ : BufTy).Contents (Elt F) → (⟨S8x4096, .i32⟩ : BufTy).Contents (Elt F)),
    binary main_v75 main_v90 main_v91 (addi : (⟨S8x4096, .i32⟩ : BufTy).Contents (Elt F) → (⟨S8x4096, .i32⟩ : BufTy).Contents (Elt F) → (⟨S8x4096, .i32⟩ : BufTy).Contents (Elt F)),
    ternary main_v89 main_v91 main_v75 main_v92 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    nullary main_c_19 (constantI S_ 32 0#32),
    unary main_c_19 main_v93 (broadcastInDim S8x4096 ![] bcast_S_S8x4096 : (⟨S_, .i32⟩ : BufTy).Contents (Elt F) → (⟨S8x4096, .i32⟩ : BufTy).Contents (Elt F)),
    binary main_v77 main_v93 main_v94 (cmpi .slt : (⟨S8x4096, .i32⟩ : BufTy).Contents (Elt F) → (⟨S8x4096, .i32⟩ : BufTy).Contents (Elt F) → (⟨S8x4096, .i1⟩ : BufTy).Contents (Elt F)),
    nullary main_c_20 (constantI S_ 32 20#32),
    unary main_c_20 main_v95 (broadcastInDim S8x4096 ![] bcast_S_S8x4096 : (⟨S_, .i32⟩ : BufTy).Contents (Elt F) → (⟨S8x4096, .i32⟩ : BufTy).Contents (Elt F)),
    binary main_v77 main_v95 main_v96 (addi : (⟨S8x4096, .i32⟩ : BufTy).Contents (Elt F) → (⟨S8x4096, .i32⟩ : BufTy).Contents (Elt F) → (⟨S8x4096, .i32⟩ : BufTy).Contents (Elt F)),
    ternary main_v94 main_v96 main_v77 main_v97 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    unary main_v82 main_v98 (broadcastInDim S8x4096 ![0, 1] bcast_S8x1_S8x4096_0_1 : (⟨S8x1, .i32⟩ : BufTy).Contents (Elt F) → (⟨S8x4096, .i32⟩ : BufTy).Contents (Elt F)),
    unary main_v98 main_v99 (broadcastInDim S8x4096x1 ![0, 1] bcast_S8x4096_S8x4096x1_0_1 : (⟨S8x4096, .i32⟩ : BufTy).Contents (Elt F) → (⟨S8x4096x1, .i32⟩ : BufTy).Contents (Elt F)),
    unary main_v87 main_v100 (broadcastInDim S8x4096x1 ![0, 1] bcast_S8x4096_S8x4096x1_0_1 : (⟨S8x4096, .i32⟩ : BufTy).Contents (Elt F) → (⟨S8x4096x1, .i32⟩ : BufTy).Contents (Elt F)),
    unary main_v92 main_v101 (broadcastInDim S8x4096x1 ![0, 1] bcast_S8x4096_S8x4096x1_0_1 : (⟨S8x4096, .i32⟩ : BufTy).Contents (Elt F) → (⟨S8x4096x1, .i32⟩ : BufTy).Contents (Elt F)),
    unary main_v97 main_v102 (broadcastInDim S8x4096x1 ![0, 1] bcast_S8x4096_S8x4096x1_0_1 : (⟨S8x4096, .i32⟩ : BufTy).Contents (Elt F) → (⟨S8x4096x1, .i32⟩ : BufTy).Contents (Elt F)) ]

/-- Operations 158–159: the four coordinates joined, and the table read at them. -/
abbrev c9 : List (HloOp τ sig (Elt F)) :=
  [ nary ![main_v99, main_v100, main_v101, main_v102] main_v103 (fun u => concatenate S8x4096x4 2 [⟨S8x4096x1, u 0⟩, ⟨S8x4096x1, u 1⟩, ⟨S8x4096x1, u 2⟩, ⟨S8x4096x1, u 3⟩] concatenates_S8x4096x1_S8x4096x1_S8x4096x1_S8x4096x1_S8x4096x4_d2),
    binary main_v60 main_v103 main_v104 ((fun x i => Host.gather gather_S8x20x20x20x12_S8x4096x4_S8x4096x12_2_0123_n_n_0123_2_111112 x i) : (⟨S8x20x20x20x12, .f32⟩ : BufTy).Contents (Elt F) → (⟨S8x4096x4, .i32⟩ : BufTy).Contents (Elt F) → (⟨S8x4096x12, .f32⟩ : BufTy).Contents (Elt F)) ]

set_option maxRecDepth 8192 in
/-- The nine stretches, one after the other, are the program's operation list. -/
theorem ops_cut : (ValueP.ops : List (HloOp τ sig (Elt F))) = c1 ++ (c2 ++ (c3 ++ (c4 ++ (c5 ++ (c6 ++ (c7 ++ (c8 ++ c9))))))) := rfl

/-! ## One stretch at a time

Each stretch is run from an arbitrary valuation `W` that holds the values it reads — the arguments, or stages of
earlier stretches — at their references, and is shown to leave this stretch's stages at theirs: each operation's
result at its own reference is its function of its operands' contents, at any other reference what was there; the
value so composed is the stage by unfolding the stages' definitions. -/

section Stretches

variable (W : Valuation τ sig (Elt F)) (x0 : (⟨S8x262144x3, .f32⟩ : BufTy).Contents (Elt F)) (x1 : (⟨S8x4096, .i32⟩ : BufTy).Contents (Elt F))

/-- Stretch 1 leaves the broadcast minimum at `main_v1`. -/
theorem s1_v1 (h0 : W main_arg0 = x0) : after c1 W main_v1 = val_main_v1 (F := F) x0 := by
  after_results; rw [h0]; rfl
/-- Stretch 1 leaves the clipped cell coordinates at `main_v8`. -/
theorem s1_v8 (h0 : W main_arg0 = x0) : after c1 W main_v8 = val_main_v8 (F := F) x0 := by
  after_results; rw [h0]; rfl

/-- Stretch 2 leaves the flat voxel numbers at `main_v27`. -/
theorem s2_v27 (h8 : W main_v8 = val_main_v8 (F := F) x0) : after c2 W main_v27 = val_main_v27 (F := F) x0 := by
  after_results; rw [h8]; rfl

/-- Stretch 3 leaves the counts at `main_v32`. -/
theorem s3_v32 (h27 : W main_v27 = val_main_v27 (F := F) x0) : after c3 W main_v32 = val_main_v32 (F := F) x0 := by
  after_results; rw [h27]; rfl
/-- Stretch 3 leaves the sums of the points at `main_v35`. -/
theorem s3_v35 (h0 : W main_arg0 = x0) (h27 : W main_v27 = val_main_v27 (F := F) x0) :
    after c3 W main_v35 = val_main_v35 (F := F) x0 := by
  after_results; rw [h0, h27]; rfl
/-- Stretch 3 leaves the sums of the products at `main_v44`. -/
theorem s3_v44 (h0 : W main_arg0 = x0) (h27 : W main_v27 = val_main_v27 (F := F) x0) :
    after c3 W main_v44 = val_main_v44 (F := F) x0 := by
  after_results; rw [h0, h27]; rfl

/-- Stretch 4 leaves the means at `main_v49`. -/
theorem s4_v49 (h32 : W main_v32 = val_main_v32 (F := F) x0) (h35 : W main_v35 = val_main_v35 (F := F) x0) :
    after c4 W main_v49 = val_main_v49 (F := F) x0 := by
  after_results; rw [h32, h35]; rfl
/-- Stretch 4 leaves the covariances at `main_v58`. -/
theorem s4_v58 (h32 : W main_v32 = val_main_v32 (F := F) x0) (h35 : W main_v35 = val_main_v35 (F := F) x0)
    (h44 : W main_v44 = val_main_v44 (F := F) x0) : after c4 W main_v58 = val_main_v58 (F := F) x0 := by
  after_results; rw [h32, h35, h44]; rfl

/-- Stretch 5 leaves the joined table at `main_v60`. -/
theorem s5_v60 (h49 : W main_v49 = val_main_v49 (F := F) x0) (h58 : W main_v58 = val_main_v58 (F := F) x0) :
    after c5 W main_v60 = val_main_v60 (F := F) x0 := by
  after_results; rw [h49, h58]; rfl

/-- Stretch 6 leaves the sampled points at `main_v62`. -/
theorem s6_v62 (h0 : W main_arg0 = x0) (h1 : W main_arg1 = x1) : after c6 W main_v62 = val_main_v62 (F := F) x0 x1 := by
  after_results_simp; rw [h0, h1]
  -- the called function's operations read and write through typed references: the casts between a typed
  -- reference's contents and its buffer's are identities
  simp only [TRef.ofBuf, TRef.toBuf, cast_eq]; rfl

/-- Stretch 7 leaves the sampled points' clipped cell coordinates at `main_v69`. -/
theorem s7_v69 (h62 : W main_v62 = val_main_v62 (F := F) x0 x1) (hv1 : W main_v1 = val_main_v1 (F := F) x0) :
    after c7 W main_v69 = val_main_v69 (F := F) x0 x1 := by
  after_results; rw [h62, hv1]; rfl

/-- Stretch 8 leaves the batch coordinate at `main_v99`. -/
theorem s8_v99 : after c8 W main_v99 = val_main_v99 (F := F) := by
  after_results; rfl
/-- Stretch 8 leaves the first cell coordinate at `main_v100`. -/
theorem s8_v100 (h69 : W main_v69 = val_main_v69 (F := F) x0 x1) : after c8 W main_v100 = val_main_v100 (F := F) x0 x1 := by
  after_results; rw [h69]; rfl
/-- Stretch 8 leaves the second cell coordinate at `main_v101`. -/
theorem s8_v101 (h69 : W main_v69 = val_main_v69 (F := F) x0 x1) : after c8 W main_v101 = val_main_v101 (F := F) x0 x1 := by
  after_results; rw [h69]; rfl
/-- Stretch 8 leaves the third cell coordinate at `main_v102`. -/
theorem s8_v102 (h69 : W main_v69 = val_main_v69 (F := F) x0 x1) : after c8 W main_v102 = val_main_v102 (F := F) x0 x1 := by
  after_results; rw [h69]; rfl

/-- Stretch 9 leaves the result at `main_v104`. -/
theorem s9_v104 (h60 : W main_v60 = val_main_v60 (F := F) x0) (h99 : W main_v99 = val_main_v99 (F := F))
    (h100 : W main_v100 = val_main_v100 (F := F) x0 x1) (h101 : W main_v101 = val_main_v101 (F := F) x0 x1)
    (h102 : W main_v102 = val_main_v102 (F := F) x0 x1) : after c9 W main_v104 = val_main_v104 (F := F) x0 x1 := by
  after_results
  -- the join's operands, read off the literal family one by one
  change Host.gather _ (W main_v60) (concatenate S8x4096x4 2 [⟨S8x4096x1, W main_v99⟩, ⟨S8x4096x1, W main_v100⟩,
    ⟨S8x4096x1, W main_v101⟩, ⟨S8x4096x1, W main_v102⟩] _) = _
  rw [h60, h99, h100, h101, h102]; rfl

/-! What a stretch does not write it keeps: the arguments throughout, the broadcast minimum until the sampled points'
cells are computed from it, the joined table until it is read. -/

theorem keep1_arg0 : after c1 W main_arg0 = W main_arg0 := by after_results
theorem keep2_arg0 : after c2 W main_arg0 = W main_arg0 := by after_results
theorem keep3_arg0 : after c3 W main_arg0 = W main_arg0 := by after_results
theorem keep4_arg0 : after c4 W main_arg0 = W main_arg0 := by after_results
theorem keep5_arg0 : after c5 W main_arg0 = W main_arg0 := by after_results
theorem keep6_arg0 : after c6 W main_arg0 = W main_arg0 := by after_results
theorem keep7_arg0 : after c7 W main_arg0 = W main_arg0 := by after_results
theorem keep8_arg0 : after c8 W main_arg0 = W main_arg0 := by after_results
theorem keep9_arg0 : after c9 W main_arg0 = W main_arg0 := by after_results
theorem keep1_arg1 : after c1 W main_arg1 = W main_arg1 := by after_results
theorem keep2_arg1 : after c2 W main_arg1 = W main_arg1 := by after_results
theorem keep3_arg1 : after c3 W main_arg1 = W main_arg1 := by after_results
theorem keep4_arg1 : after c4 W main_arg1 = W main_arg1 := by after_results
theorem keep5_arg1 : after c5 W main_arg1 = W main_arg1 := by after_results
theorem keep6_arg1 : after c6 W main_arg1 = W main_arg1 := by after_results
theorem keep7_arg1 : after c7 W main_arg1 = W main_arg1 := by after_results
theorem keep8_arg1 : after c8 W main_arg1 = W main_arg1 := by after_results
theorem keep9_arg1 : after c9 W main_arg1 = W main_arg1 := by after_results
theorem keep2_v1 : after c2 W main_v1 = W main_v1 := by after_results
theorem keep3_v1 : after c3 W main_v1 = W main_v1 := by after_results
theorem keep4_v1 : after c4 W main_v1 = W main_v1 := by after_results
theorem keep5_v1 : after c5 W main_v1 = W main_v1 := by after_results
theorem keep6_v1 : after c6 W main_v1 = W main_v1 := by after_results
theorem keep6_v60 : after c6 W main_v60 = W main_v60 := by after_results
theorem keep7_v60 : after c7 W main_v60 = W main_v60 := by after_results
theorem keep8_v60 : after c8 W main_v60 = W main_v60 := by after_results

end Stretches

/-! ## The whole line

The stretches in order: each is run from the valuation the one before left, which holds what it reads by the facts
above; the valuations in between are never unfolded. -/

/-- After the 159 operations, from any valuation: the result buffer holds the last stage of the arguments, and the
    arguments are as they were. -/
theorem after_ops (V : Valuation τ sig (Elt F)) :
    after ValueP.ops V main_v104 = val_main_v104 (F := F) (V main_arg0) (V main_arg1)
      ∧ after ValueP.ops V main_arg0 = V main_arg0 ∧ after ValueP.ops V main_arg1 = V main_arg1 := by
  rw [ops_cut]
  repeat rw [StableHlo.after_append]
  -- stretch 1
  have a0 := keep1_arg0 V
  have a1 := keep1_arg1 V
  have hv1 := s1_v1 V _ rfl
  have h8 := s1_v8 V _ rfl
  generalize after c1 V = W1 at *
  -- stretch 2
  have h27 := s2_v27 W1 _ h8
  replace a0 := (keep2_arg0 W1).trans a0
  replace a1 := (keep2_arg1 W1).trans a1
  replace hv1 := (keep2_v1 W1).trans hv1
  clear h8
  generalize after c2 W1 = W2 at *
  -- stretch 3
  have h32 := s3_v32 W2 _ h27
  have h35 := s3_v35 W2 _ a0 h27
  have h44 := s3_v44 W2 _ a0 h27
  replace a0 := (keep3_arg0 W2).trans a0
  replace a1 := (keep3_arg1 W2).trans a1
  replace hv1 := (keep3_v1 W2).trans hv1
  clear h27
  generalize after c3 W2 = W3 at *
  -- stretch 4
  have h49 := s4_v49 W3 _ h32 h35
  have h58 := s4_v58 W3 _ h32 h35 h44
  replace a0 := (keep4_arg0 W3).trans a0
  replace a1 := (keep4_arg1 W3).trans a1
  replace hv1 := (keep4_v1 W3).trans hv1
  clear h32 h35 h44
  generalize after c4 W3 = W4 at *
  -- stretch 5
  have h60 := s5_v60 W4 _ h49 h58
  replace a0 := (keep5_arg0 W4).trans a0
  replace a1 := (keep5_arg1 W4).trans a1
  replace hv1 := (keep5_v1 W4).trans hv1
  clear h49 h58
  generalize after c5 W4 = W5 at *
  -- stretch 6
  have h62 := s6_v62 W5 _ _ a0 a1
  replace a0 := (keep6_arg0 W5).trans a0
  replace a1 := (keep6_arg1 W5).trans a1
  replace hv1 := (keep6_v1 W5).trans hv1
  replace h60 := (keep6_v60 W5).trans h60
  generalize after c6 W5 = W6 at *
  -- stretch 7
  have h69 := s7_v69 W6 _ _ h62 hv1
  replace a0 := (keep7_arg0 W6).trans a0
  replace a1 := (keep7_arg1 W6).trans a1
  replace h60 := (keep7_v60 W6).trans h60
  clear h62 hv1
  generalize after c7 W6 = W7 at *
  -- stretch 8
  have h99 := s8_v99 W7
  have h100 := s8_v100 W7 _ _ h69
  have h101 := s8_v101 W7 _ _ h69
  have h102 := s8_v102 W7 _ _ h69
  replace a0 := (keep8_arg0 W7).trans a0
  replace a1 := (keep8_arg1 W7).trans a1
  replace h60 := (keep8_v60 W7).trans h60
  clear h69
  generalize after c8 W7 = W8 at *
  -- stretch 9
  exact ⟨s9_v104 W8 _ _ h60 h99 h100 h101 h102, (keep9_arg0 W8).trans a0, (keep9_arg1 W8).trans a1⟩

end Line

/-- On every device, for any float values, from any memory with zero counters: every weakly fair execution of the
    reference's @main terminates with the result buffer at the last stage of the arguments, and the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = val_main_v104 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v104).trans (Line.after_ops (launchContents m c)).1,
      (h c main_arg0).trans (Line.after_ops (launchContents m c)).2.1,
      (h c main_arg1).trans (Line.after_ops (launchContents m c)).2.2⟩)
    (run_seq ValueP.scopedRefs_eq ValueP.scopedSems_eq defs main (fun _ => ValueP.ops) ValueP.main_eq (fun _ => ValueP.ops_sub) m ρ)

end Cert.ReferenceIdeal.HandV

end
-- ==== Proof.Ref.Seg.lean ====
/-
  The reference's minimum corner and its segment word, read at an index.

  The corner of cloud `b` along axis `j` is the reduce of the cloud over its points with a minimum body from `+∞`:
  the infimum of the coordinates. The segment word of point `n` of cloud `b` is built from the three cells
  `clamp(⌊(p_j − c_j) / h⌋, 0, 19)` as `(cell₀ · 20 + cell₁) · 20 + cell₂`, to which `8000 · b` is added, and the
  `[8, 262144]` array of these words is laid out row-major as one vector of `2097152` words: at position
  `262144 · b + n` stands the word `8000 · b + voxel(b, n)`, every quantity far below `2^31`.
-/
import proofs.«157393_j34419867910943_1_alg».proof.Proof.RefRead
import proofs.«157393_j34419867910943_1_alg».proof.Proof.SpecFacts
import Idealize.ShloMosaic.PureOps.Reduce
import Idealize.ShloMosaic.PureOps.Ideal.Laws
import Idealize.ShloMosaic.Lib.ValueIdx

noncomputable section

namespace Cert.ReferenceIdeal.HandV

open Cert.ReferenceIdeal Cert.ReferenceIdeal.Gen Cert.ReferenceIdeal.ReadP Idealize.ShloMosaic Idealize.ShloMosaic.TcCoe Idealize.ShloMosaic.ValueIdx

/-! ## A minimum folded from the top element is an infimum -/

/-- Folding `min` from `⊤` over a finite family gives the family's infimum. -/
theorem fold_min_top {ι : Type} (s : Finset ι) (f : ι → EReal) : s.fold min ⊤ f = s.inf f := by
  induction s using Finset.cons_induction with
  | empty => simp
  | cons a s ha ih => rw [Finset.fold_cons, Finset.inf_cons, ih]

/-- The binary32 pattern `0x7F800000` denotes `+∞`. -/
theorem ofBits_posInf : Ideal.ofBits .f32 0x7F800000#32 = (⊤ : EReal) := by
  simp [Ideal.ofBits, Ideal.ieee]

/-- A reduced index `(b, j)` with the point coordinate `k` put back on the middle axis is `(b, k, j)`. -/
theorem lift_mid (h : S8x262144x3.Reduces [1] S8x3) (b : Fin 8) (j : Fin 3) (k : Fin (S8x262144x3.size 1)) :
    h.lift (ix2 b j) k = ix3 b (⟨k.val, k.isLt⟩ : Fin 262144) j := by
  funext c; apply Fin.ext
  fin_cases c <;> rfl

/-- The reference's minimum corner: the reduce with a minimum body from `+∞` over the points is the infimum. -/
theorem rmin_apply (x : (⟨S8x262144x3, .f32⟩ : BufTy).Contents (Elt Ideal)) (b : Fin 8) (j : Fin 3) :
    val_main_v0 (F := Ideal) x (ix2 b j) = Cert.Voxel.minc x b j := by
  have h : S8x262144x3.Reduces [1] S8x3 := by decide
  have e := Host.reduce_eq_fold_single (FloatOps.minimumf (F := Ideal) (φ := .f32)) (x : S8x262144x3.Idx → Ideal .f32)
    (val_main_cst (F := Ideal)) reducesTo_S8x262144x3_S8x3_d1 h h_S_ (ix2 b j)
  refine e.trans ?_
  have hf : (x ∘ h.lift (ix2 b j)) = fun k : Fin 262144 => x (ix3 b k j) :=
    funext fun k => congrArg x (lift_mid h b j k)
  have key : Finset.fold min (Ideal.ofBits .f32 0x7F800000#32) (fun k : Fin 262144 => (x (ix3 b k j) : EReal)) Finset.univ
      = Cert.Voxel.minc x b j := by
    rw [ofBits_posInf]; exact fold_min_top _ _
  refine Eq.trans ?_ key
  exact congrArg (fun g : Fin 262144 → EReal => Finset.fold min (Ideal.ofBits .f32 0x7F800000#32) g Finset.univ) hf

/-! ## The cell of a point along one axis -/

/-- The corner, broadcast back over the points, read at `(b, n, c)` is the corner at `(b, c)`. -/
theorem rbcast_apply (x : (⟨S8x262144x3, .f32⟩ : BufTy).Contents (Elt Ideal)) (b : Fin 8) (n : Fin 262144) (c : Fin 3) :
    val_main_v2 (F := Ideal) x (ix3 b n c) = Cert.Voxel.minc x b c := by
  rw [val_main_v2_apply, val_main_v1_apply]
  have hi : idx_main_v1 (idx_main_v2 (ix3 b n c)) = ix2 b c := by
    funext a; apply Fin.ext
    match a with
    | ⟨0, _⟩ => rfl
    | ⟨1, _⟩ => rfl
  rw [hi, rmin_apply]

/-- The clamped cell of point `n` of cloud `b` along axis `c`: the displacement from the corner, divided by the spacing,
    floored, converted to a signed word and clamped into `[0, 19]`. -/
theorem rcell_apply (x : (⟨S8x262144x3, .f32⟩ : BufTy).Contents (Elt Ideal)) (b : Fin 8) (n : Fin 262144) (c : Fin 3) :
    val_main_v8 (F := Ideal) x (ix3 b n c) = Cert.Voxel.cell (x (ix3 b n c) - Cert.Voxel.minc x b c) := by
  rw [val_main_v8_apply, val_main_call0_v2_apply, val_main_v7_apply, val_main_v6_apply, val_main_v5_apply,
    val_main_v3_apply, rbcast_apply, val_main_v4_apply, val_main_cst_0_apply, val_main_call0_v4_apply,
    val_main_call0_v3_apply, val_main_c_1_apply, val_main_call0_v1_apply, val_main_call0_v0_apply, val_main_c_apply]
  rfl

/-! ## The three slices: column `c` of the cells, as an `[8, 262144]` array -/

theorem idx_slice0 (b : Fin 8) (n : Fin 262144) : idx_main_v9 (idx_main_v10 (ix2 b n)) = ix3 b n (0 : Fin 3) := by
  have hb := b.isLt; have hn := n.isLt
  funext a; apply Fin.ext
  match a with
  | ⟨0, _⟩ => show (b.val * 262144 + n.val) / 262144 = b.val; omega
  | ⟨1, _⟩ => show (b.val * 262144 + n.val) / 1 % 262144 = n.val; omega
  | ⟨2, _⟩ => rfl

theorem idx_slice1 (b : Fin 8) (n : Fin 262144) : idx_main_v13 (idx_main_v14 (ix2 b n)) = ix3 b n (1 : Fin 3) := by
  have hb := b.isLt; have hn := n.isLt
  funext a; apply Fin.ext
  match a with
  | ⟨0, _⟩ => show (b.val * 262144 + n.val) / 262144 = b.val; omega
  | ⟨1, _⟩ => show (b.val * 262144 + n.val) / 1 % 262144 = n.val; omega
  | ⟨2, _⟩ => rfl

theorem idx_slice2 (b : Fin 8) (n : Fin 262144) : idx_main_v18 (idx_main_v19 (ix2 b n)) = ix3 b n (2 : Fin 3) := by
  have hb := b.isLt; have hn := n.isLt
  funext a; apply Fin.ext
  match a with
  | ⟨0, _⟩ => show (b.val * 262144 + n.val) / 262144 = b.val; omega
  | ⟨1, _⟩ => show (b.val * 262144 + n.val) / 1 % 262144 = n.val; omega
  | ⟨2, _⟩ => rfl

/-! ## The voxel word and the segment word -/

/-- `(cell₀ · 20 + cell₁) · 20 + cell₂` at `(b, n)` is the specification's voxel word of point `n` of cloud `b`. -/
theorem rflat_apply (x : (⟨S8x262144x3, .f32⟩ : BufTy).Contents (Elt Ideal)) (b : Fin 8) (n : Fin 262144) :
    val_main_v20 (F := Ideal) x (ix2 b n) = Cert.Voxel.vox x b n := by
  rw [val_main_v20_apply, val_main_v17_apply, val_main_v15_apply, val_main_v12_apply,
    val_main_v10_apply, val_main_v9_apply, idx_slice0, rcell_apply, val_main_v11_apply, val_main_c_2_apply,
    val_main_v14_apply, val_main_v13_apply, idx_slice1, rcell_apply, val_main_v16_apply, val_main_c_3_apply,
    val_main_v19_apply, val_main_v18_apply, idx_slice2, rcell_apply]
  rfl

/-- The cloud's offset `iota(8) · 8000`, broadcast over the points, at `(b, n)`. -/
theorem rbase_apply (b : Fin 8) (n : Fin 262144) :
    val_main_v25 (F := Ideal) (ix2 b n) = IntOp.muli (BitVec.ofNat 32 b.val) 8000#32 := by
  rw [val_main_v25_apply, val_main_v24_apply, val_main_v22_apply, val_main_v21_apply, val_main_v23_apply,
    val_main_c_4_apply]

/-- A word below `8000` plus `b · 8000`, `b < 8`, is the word of the number `8000 · b + v`: nothing wraps. -/
theorem addi_base (v : BitVec 32) (b : Nat) :
    IntOp.addi v (IntOp.muli (BitVec.ofNat 32 b) 8000#32) = BitVec.ofNat 32 (8000 * b + v.toNat) := by
  apply BitVec.eq_of_toNat_eq
  simp only [IntOp.addi, IntOp.muli, BitVec.toNat_add, BitVec.toNat_mul, BitVec.toNat_ofNat]
  omega

/-- Position `262144 · b + n` of the flattened array is `(b, n)` of the `[8, 262144]` one. -/
theorem idx_flatten (b : Fin 8) (n : Fin 262144) :
    idx_main_v27 (ix1 (⟨262144 * b.val + n.val, by omega⟩ : Fin 2097152)) = ix2 b n := by
  have hb := b.isLt; have hn := n.isLt
  funext a; apply Fin.ext
  match a with
  | ⟨0, _⟩ => show (262144 * b.val + n.val) / 262144 = b.val; omega
  | ⟨1, _⟩ => show (262144 * b.val + n.val) % 262144 = n.val; omega

/-- The reference's segment word of point `n` of cloud `b`, at its row-major position. -/
theorem rseg_apply (x : (⟨S8x262144x3, .f32⟩ : BufTy).Contents (Elt Ideal)) (b : Fin 8) (n : Fin 262144) :
    val_main_v27 (F := Ideal) x (ix1 ⟨262144 * b.val + n.val, by omega⟩)
      = BitVec.ofNat 32 (8000 * b.val + (Cert.Voxel.vox x b n).toNat) := by
  rw [val_main_v27_apply, idx_flatten, val_main_v26_apply, rflat_apply, rbase_apply, addi_base]

end Cert.ReferenceIdeal.HandV

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibVecScatter.lean ====
/-
  A rank-1 scatter-add read in coordinates: `x.at[idx].add(u)` for a table `[N]`, scatter indices `[R, 1]` and
  updates `[R]`. Update `r` is added to entry `idx r` of the table when that entry exists (the start index taken
  signed, not clamped) and nowhere otherwise, so entry `a` of the result is the table's entry plus the sum of the
  updates `r` with `idx r = a`.
-/
import Idealize.ShloMosaic.PureOps.Ideal
import Idealize.ShloMosaic.Lib.ValueIdx
import Idealize.ShloMosaic.Lib.ValueIdxRank1

noncomputable section

open scoped BigOperators

namespace Idealize.ShloMosaic.VecScatter

open Idealize.ShloMosaic Idealize.ShloMosaic.ValueIdx

/-- The dimension numbers of `x.at[idx].add(u)` for a table `[N]`, scatter indices `[R, 1]` and updates `[R]`:
    no window axis, the table's one axis inserted and named by the one start-index component. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `r` reads its one start-index component at `(r, 0)` of the scatter indices. -/
theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's one axis the window starts at the scatter index of the update, read signed. -/
theorem vecScatter_start {N R w : Nat} (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The table's one axis is an inserted axis: its window coordinate is `0`. -/
theorem vecScatter_window {N R : Nat} (wf : ScatterDims.WF ⟨1, ![N]⟩ ⟨2, ![R, 1]⟩ ⟨1, ![R]⟩ [] [0] [0] 1) (r : Fin R) :
    (vecScatter N R wf).window (ix1 r) 0 = 0 := rfl

/-- Update `r` lands on table entry `a` exactly when its start index, read signed, is `a`. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs := vecScatter_start wf idx r
  have hw := vecScatter_window wf r
  unfold ScatterDims.resultIdx?
  constructor
  · -- landed at a: the window is inside the table and its coordinate is a
    intro h
    split at h
    · rename_i hin
      have hf := Option.some.inj h
      have e0 := congrArg (fun f => (f 0).val) hf
      simp only [hs, hw] at e0
      have h0 := hin 0
      rw [hs, hw] at h0
      have ea : ((ix1 a : (⟨1, ![N]⟩ : Shape).Idx) 0).val = a.val := rfl
      rw [ea] at e0
      omega
    · exact absurd h (by simp)
  · -- the start index is an entry of the table: the window is inside, at a
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs, hw, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs, hw, hv]; omega

/-- The accumulated table at `a`: the table's entry plus the updates whose start index is `a`. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  -- the sum over the updates that land on a, re-indexed by the update's one coordinate
  rw [Finset.sum_filter, ← Equiv.sum_comp (idxEquiv1 (n := R)).symm]
  refine Finset.sum_congr rfl fun r _ => ?_
  show (if (vecScatter N R wf).resultIdx? (ix1 r) idx = some (ix1 a) then upd (ix1 r) else 0) = _
  simp only [vecScatter_resultIdx?_eq_some_iff]

end Idealize.ShloMosaic.VecScatter

end
-- ==== Proof.Ref.Sums.lean ====
/-
  The reference's three segment sums, read at an index.

  The reference flattens the `8 · 262144` points to `p = 262144 · b + n`, gives each the segment word
  `8000 · b + voxel(b, n)`, and scatter-adds into zero tables: a one per point (the counts), the point's three coordinates
  (the sums), the nine products of two coordinates (the sums of products, column `3 i + j`). A scatter-add at the ideal
  values is the exact sum of the updates whose segment word is the table's row. A voxel word is below `8000`, so the
  segment word of a point of cloud `b'` is `8000 · b + v` exactly when `b' = b` and the point's voxel is `v`: the
  other clouds contribute nothing, and what remains is the specification's sum over the points of cloud `b` in voxel `v`.
-/
import proofs.«157393_j34419867910943_1_alg».proof.Proof.RefRead
import proofs.«157393_j34419867910943_1_alg».proof.Proof.SpecFacts
import proofs.«157393_j34419867910943_1_alg».proof.Proof.Ref.Seg
import proofs.«157393_j34419867910943_1_alg».proof.Proof.LibRowDims
import proofs.«157393_j34419867910943_1_alg».proof.Proof.LibVecScatter
import Idealize.ShloMosaic.Lib.WordArith
import Idealize.ShloMosaic.Lib.IdealHost
import Mathlib.Logic.Equiv.Fin.Basic
import Mathlib.Data.Fintype.BigOperators

noncomputable section

open scoped BigOperators

namespace Cert.ReferenceIdeal.HandV

open Cert.ReferenceIdeal Cert.ReferenceIdeal.Gen Cert.ReferenceIdeal.ReadP Idealize.ShloMosaic Idealize.ShloMosaic.TcCoe
  Idealize.ShloMosaic.ValueIdx

/-! ## Sums over the flattened points -/

/-- A sum over the `8 · 262144` flattened points is the double sum over the cloud and the point in it. -/
theorem sum_points {M : Type} [AddCommMonoid M] (f : Fin 2097152 → M) :
    ∑ r, f r = ∑ b : Fin 8, ∑ n : Fin 262144, f ⟨262144 * b.val + n.val, by omega⟩ := by
  rw [← Equiv.sum_comp (finProdFinEquiv (m := 8) (n := 262144)) f, Fintype.sum_prod_type]
  refine Finset.sum_congr rfl fun b _ => Finset.sum_congr rfl fun n _ => congrArg f (Fin.ext ?_)
  show n.val + 262144 * b.val = 262144 * b.val + n.val
  omega

/-- The segment word `8000 · b' + w` of a point with voxel `w < 8000`, read signed, is row `8000 · b + v` of a table
    exactly when the cloud is `b` and the voxel is `v`. -/
theorem segWord_eq_iff (b' b : Fin 8) (w : BitVec 32) (hw : w.toNat < 8000) (v : Fin 8000) :
    (BitVec.ofNat 32 (8000 * b'.val + w.toNat)).toInt = ((8000 * b.val + v.val : Nat) : Int)
      ↔ b' = b ∧ w = BitVec.ofNat 32 v.val := by
  have hb' := b'.isLt
  have hb := b.isLt
  have hv := v.isLt
  rw [WordArith.toInt_ofNat_small _ (by omega)]
  constructor
  · intro h
    have h' : 8000 * b'.val + w.toNat = 8000 * b.val + v.val := by exact_mod_cast h
    refine ⟨Fin.ext (by omega), BitVec.eq_of_toNat_eq ?_⟩
    rw [WordArith.toNat_ofNat_of_lt _ (by omega)]
    omega
  · rintro ⟨rfl, rfl⟩
    rw [WordArith.toNat_ofNat_of_lt _ (by omega)]

/-- The sum of the updates `u` over the flattened points whose segment word is row `8000 · b + v`, the segment words
    being `8000 · b' + voxel(b', n)` at the point `262144 · b' + n`: the sum over the points of cloud `b` in voxel `v`. -/
theorem seg_sum (x : Cert.Voxel.Sx.Idx → EReal) (idx : IVec ⟨2, ![2097152, 1]⟩ 32)
    (hidx : ∀ (b : Fin 8) (n : Fin 262144), idx (ix2 ⟨262144 * b.val + n.val, by omega⟩ 0)
      = BitVec.ofNat 32 (8000 * b.val + (Cert.Voxel.vox x b n).toNat))
    (u : Fin 2097152 → EReal) (b : Fin 8) (v : Fin 8000) :
    (∑ r : Fin 2097152, if (idx (ix2 r 0)).toInt = ((8000 * b.val + v.val : Nat) : Int) then u r else 0)
      = ∑ n : Fin 262144, if Cert.Voxel.vox x b n = BitVec.ofNat 32 v.val then u ⟨262144 * b.val + n.val, by omega⟩ else 0 := by
  have hw : ∀ (b' : Fin 8) (n : Fin 262144),
      ((BitVec.ofNat 32 (8000 * b'.val + (Cert.Voxel.vox x b' n).toNat)).toInt = ((8000 * b.val + v.val : Nat) : Int))
        ↔ (b' = b ∧ Cert.Voxel.vox x b' n = BitVec.ofNat 32 v.val) :=
    fun b' n => segWord_eq_iff b' b _ (Cert.Voxel.flat_toNat_lt _ _) v
  rw [sum_points]
  simp only [hidx, hw]
  -- the clouds other than b contribute nothing
  rw [Finset.sum_eq_single b]
  · simp only [eq_self_iff_true, true_and]
  · intro b' _ hb'
    simp only [hb', false_and, if_false]
    exact Finset.sum_const_zero
  · intro h; exact absurd (Finset.mem_univ b) h

/-! ## The scatters' operands at an index -/

section Operands

variable (x : (⟨S8x262144x3, .f32⟩ : BufTy).Contents (Elt Ideal))

/-- The counts' start index at row `r` is the segment word of point `r`. -/
theorem start_v31 (r : Fin 2097152) : val_main_v31 (F := Ideal) x (ix2 r 0) = val_main_v27 (F := Ideal) x (ix1 r) := by
  rw [val_main_v31_apply]
  congr 1
  funext a; match a with | ⟨0, _⟩ => rfl

/-- The sums' start index at row `r` is the segment word of point `r`. -/
theorem start_v34 (r : Fin 2097152) : val_main_v34 (F := Ideal) x (ix2 r 0) = val_main_v27 (F := Ideal) x (ix1 r) := by
  rw [val_main_v34_apply]
  congr 1
  funext a; match a with | ⟨0, _⟩ => rfl

/-- The sums of products' start index at row `r` is the segment word of point `r`. -/
theorem start_v43 (r : Fin 2097152) : val_main_v43 (F := Ideal) x (ix2 r 0) = val_main_v27 (F := Ideal) x (ix1 r) := by
  rw [val_main_v43_apply]
  congr 1
  funext a; match a with | ⟨0, _⟩ => rfl

/-- The counts' table starts at zero. -/
theorem zero_v30 (i : S64000.Idx) : val_main_v30 (F := Ideal) i = 0 := by
  rw [val_main_v30_apply, val_main_cst_6_apply, Ideal.ofBits_def, Ideal.ofBits_zero_f32]

/-- The sums' table starts at zero. -/
theorem zero_v33 (i : S64000x3.Idx) : val_main_v33 (F := Ideal) i = 0 := by
  rw [val_main_v33_apply, val_main_cst_7_apply, Ideal.ofBits_def, Ideal.ofBits_zero_f32]

/-- The sums of products' table starts at zero. -/
theorem zero_v42 (i : S64000x9.Idx) : val_main_v42 (F := Ideal) i = 0 := by
  rw [val_main_v42_apply, val_main_cst_8_apply, Ideal.ofBits_def, Ideal.ofBits_zero_f32]

/-- Each point's update to the counts is one. -/
theorem one_v29 (i : S2097152.Idx) : val_main_v29 (F := Ideal) i = 1 := by
  rw [val_main_v29_apply, val_main_cst_5_apply, Ideal.ofBits_def, Ideal.ofBits_one_f32]

/-- Row `262144 · b + n` of the flattened clouds is point `n` of cloud `b`. -/
theorem row_v28 (b : Fin 8) (n : Fin 262144) (i : Fin 3) :
    val_main_v28 (F := Ideal) x (ix2 ⟨262144 * b.val + n.val, by omega⟩ i) = x (ix3 b n i) := by
  rw [val_main_v28_apply]
  congr 1
  funext a
  match a with
  | ⟨0, _⟩ => exact Fin.ext (by show ((262144 * b.val + n.val) * 3 + i.val) / 786432 = b.val; omega)
  | ⟨1, _⟩ => exact Fin.ext (by show ((262144 * b.val + n.val) * 3 + i.val) / 3 % 262144 = n.val; omega)
  | ⟨2, _⟩ => exact Fin.ext (by show ((262144 * b.val + n.val) * 3 + i.val) % 3 = i.val; omega)

/-- Column `3 i + j` of a point's nine products is the product of its coordinates `i` and `j`. -/
theorem prod_v41 (r : Fin 2097152) (i j : Fin 3) :
    val_main_v41 (F := Ideal) x (ix2 r ⟨3 * i.val + j.val, by omega⟩)
      = val_main_v28 (F := Ideal) x (ix2 r i) * val_main_v28 (F := Ideal) x (ix2 r j) := by
  rw [val_main_v41_apply, val_main_v40_apply, val_main_v38_apply, val_main_v39_apply, val_main_v36_apply,
    val_main_v37_apply]
  -- the left factor is read at (r, i): the row and the middle coordinate of (r, i, j)
  have h1 : idx_main_v36 (idx_main_v38 (idx_main_v41 (ix2 r (⟨3 * i.val + j.val, by omega⟩ : Fin 9)))) = ix2 r i := by
    funext a
    match a with
    | ⟨0, _⟩ => exact Fin.ext (by show (r.val * 9 + (3 * i.val + j.val)) / 9 = r.val; omega)
    | ⟨1, _⟩ => exact Fin.ext (by show (r.val * 9 + (3 * i.val + j.val)) / 3 % 3 = i.val; omega)
  -- the right factor is read at (r, j): the row and the last coordinate of (r, i, j)
  have h2 : idx_main_v37 (idx_main_v39 (idx_main_v41 (ix2 r (⟨3 * i.val + j.val, by omega⟩ : Fin 9)))) = ix2 r j := by
    funext a
    match a with
    | ⟨0, _⟩ => exact Fin.ext (by show (r.val * 9 + (3 * i.val + j.val)) / 9 = r.val; omega)
    | ⟨1, _⟩ => exact Fin.ext (by show (r.val * 9 + (3 * i.val + j.val)) % 3 = j.val; omega)
  rw [h1, h2]
  exact Ideal.mulf_def _ _

end Operands

/-! ## The three segment sums -/

section Sums

variable (x : (⟨S8x262144x3, .f32⟩ : BufTy).Contents (Elt Ideal))

/-- The counts are the rank-1 scatter-add of the ones into the zero table at the segment words. -/
theorem scatter_v32 : val_main_v32 (F := Ideal) x
    = Ideal.hostScatterAdd (VecScatter.vecScatter 64000 2097152 Facts₀.scatter_S64000_S2097152x1_S2097152_n_0_0_1_wf)
        (w := 32) (val_main_v30 (F := Ideal)) (val_main_v31 (F := Ideal) x) (val_main_v29 (F := Ideal)) := rfl

/-- The sums are the row scatter-add of the flattened clouds into the zero table at the segment words. -/
theorem scatter_v35 : val_main_v35 (F := Ideal) x
    = Ideal.hostScatterAdd (RowDims.rowScatter 64000 3 2097152 Facts₀.scatter_S64000x3_S2097152x1_S2097152x3_1_0_0_1_wf)
        (w := 32) (val_main_v33 (F := Ideal)) (val_main_v34 (F := Ideal) x) (val_main_v28 (F := Ideal) x) := rfl

/-- The sums of products are the row scatter-add of the points' nine products into the zero table at the segment words. -/
theorem scatter_v44 : val_main_v44 (F := Ideal) x
    = Ideal.hostScatterAdd (RowDims.rowScatter 64000 9 2097152 Facts₀.scatter_S64000x9_S2097152x1_S2097152x9_1_0_0_1_wf)
        (w := 32) (val_main_v42 (F := Ideal)) (val_main_v43 (F := Ideal) x) (val_main_v41 (F := Ideal) x) := rfl

/-- Row `8000 · b + v` of the counts: the ones of the points whose segment word is that row. -/
theorem rcnt_rows (b : Fin 8) (v : Fin 8000) :
    val_main_v32 (F := Ideal) x (ix1 ⟨8000 * b.val + v.val, by omega⟩)
      = ∑ r : Fin 2097152, if (val_main_v31 (F := Ideal) x (ix2 r 0)).toInt = ((8000 * b.val + v.val : Nat) : Int)
          then val_main_v29 (F := Ideal) (ix1 r) else 0 := by
  rw [scatter_v32, VecScatter.vecScatterAdd_apply, zero_v30, zero_add]

/-- Row `8000 · b + v`, column `i` of the sums: coordinate `i` of the points whose segment word is that row. -/
theorem rs1_rows (b : Fin 8) (v : Fin 8000) (i : Fin 3) :
    val_main_v35 (F := Ideal) x (ix2 ⟨8000 * b.val + v.val, by omega⟩ i)
      = ∑ r : Fin 2097152, if (val_main_v34 (F := Ideal) x (ix2 r 0)).toInt = ((8000 * b.val + v.val : Nat) : Int)
          then val_main_v28 (F := Ideal) x (ix2 r i) else 0 := by
  rw [scatter_v35, RowDims.rowScatterAdd_apply, zero_v33, zero_add]

/-- Row `8000 · b + v`, column `c` of the sums of products: product `c` of the points whose segment word is that row. -/
theorem rs2_rows (b : Fin 8) (v : Fin 8000) (c : Fin 9) :
    val_main_v44 (F := Ideal) x (ix2 ⟨8000 * b.val + v.val, by omega⟩ c)
      = ∑ r : Fin 2097152, if (val_main_v43 (F := Ideal) x (ix2 r 0)).toInt = ((8000 * b.val + v.val : Nat) : Int)
          then val_main_v41 (F := Ideal) x (ix2 r c) else 0 := by
  rw [scatter_v44, RowDims.rowScatterAdd_apply, zero_v42, zero_add]

/-- The counts at row `8000 · b + v`: how many points of cloud `b` fall in voxel `v`. -/
theorem rcnt_apply (b : Fin 8) (v : Fin 8000) :
    val_main_v32 (F := Ideal) x (ix1 ⟨8000 * b.val + v.val, by omega⟩) = Cert.Voxel.cnt x b (BitVec.ofNat 32 v.val) := by
  refine (rcnt_rows x b v).trans ((seg_sum x (val_main_v31 (F := Ideal) x)
    (fun b' n => (start_v31 x _).trans (rseg_apply x b' n)) (fun r => val_main_v29 (F := Ideal) (ix1 r)) b v).trans ?_)
  refine Finset.sum_congr rfl fun n _ => ?_
  rw [one_v29]

/-- The sums at row `8000 · b + v`, column `i`: coordinate `i` summed over the points of cloud `b` in voxel `v`. -/
theorem rs1_apply (b : Fin 8) (v : Fin 8000) (i : Fin 3) :
    val_main_v35 (F := Ideal) x (ix2 ⟨8000 * b.val + v.val, by omega⟩ i) = Cert.Voxel.s1 x b (BitVec.ofNat 32 v.val) i := by
  refine (rs1_rows x b v i).trans ((seg_sum x (val_main_v34 (F := Ideal) x)
    (fun b' n => (start_v34 x _).trans (rseg_apply x b' n)) (fun r => val_main_v28 (F := Ideal) x (ix2 r i)) b v).trans ?_)
  refine Finset.sum_congr rfl fun n _ => ?_
  rw [row_v28]

/-- The sums of products at row `8000 · b + v`, column `3 i + j`: the product of coordinates `i` and `j` summed over
    the points of cloud `b` in voxel `v`. -/
theorem rs2_apply (b : Fin 8) (v : Fin 8000) (i j : Fin 3) :
    val_main_v44 (F := Ideal) x (ix2 ⟨8000 * b.val + v.val, by omega⟩ ⟨3 * i.val + j.val, by omega⟩)
      = Cert.Voxel.s2 x b (BitVec.ofNat 32 v.val) i j := by
  refine (rs2_rows x b v ⟨3 * i.val + j.val, by omega⟩).trans ((seg_sum x (val_main_v43 (F := Ideal) x)
    (fun b' n => (start_v43 x _).trans (rseg_apply x b' n))
    (fun r => val_main_v41 (F := Ideal) x (ix2 r ⟨3 * i.val + j.val, by omega⟩)) b v).trans ?_)
  refine Finset.sum_congr rfl fun n _ => ?_
  rw [prod_v41, row_v28, row_v28]

end Sums

end Cert.ReferenceIdeal.HandV

end
-- ==== Proof.Ref.Tab.lean ====
/-
  The reference's per-segment table read at an index.

  From the three arrays of segment sums — the count [64000], the sums of the coordinates [64000, 3], the sums of the
  products of two coordinates [64000, 9] — the reference forms the divisor max(count, 1), the means (sums over the
  divisor), the second central moments (sums of products over the divisor, less the product of the two means, the
  [64000, 3, 3] array of products flattened row by row to [64000, 9]) and joins means and moments along the columns
  into a [64000, 12] table. Row 8000 b + v of that table is the specification's twelve numbers of voxel v of cloud b,
  once the three arrays hold the specification's count, sums and sums of products there.
-/
import proofs.«157393_j34419867910943_1_alg».proof.Proof.RefRead
import proofs.«157393_j34419867910943_1_alg».proof.Proof.Spec
import Idealize.ShloMosaic.Lib.Pipeline.Value
import Idealize.ShloMosaic.Lib.ValueIdx
import Idealize.ShloMosaic.Lib.IdealHost

noncomputable section

namespace Cert.ReferenceIdeal.HandV

open Cert.ReferenceIdeal Cert.ReferenceIdeal.Gen Cert.ReferenceIdeal.ReadP Idealize.ShloMosaic Idealize.ShloMosaic.TcCoe Idealize.ShloMosaic.ValueIdx

/-! ### Two arrays joined along the columns, read at a row and a column

A [64000, 3] array followed along axis 1 by a [64000, 9] array: column k of the join is column k of the first for
k < 3 and column k − 3 of the second from 3 on; the row is kept. -/

section Join
variable {α : Type}

theorem join_fst (p : S64000x3.Idx → α) (q : S64000x9.Idx → α)
    (h : Shape.Concatenates [S64000x3, S64000x9] S64000x12 1) (s : Fin 64000) (k : Fin 12) (hk : k.val < 3) :
    concatenate S64000x12 1 [⟨S64000x3, p⟩, ⟨S64000x9, q⟩] h (ix2 s k) = p (ix2 s ⟨k.val, hk⟩) := by
  refine concatenate_pair_apply_left 1 p q h (ix2 s k) rfl (ix2 s ⟨k.val, hk⟩) ?_
  intro c
  match c with
  | ⟨0, _⟩ => rfl
  | ⟨1, _⟩ => rfl

theorem join_snd (p : S64000x3.Idx → α) (q : S64000x9.Idx → α)
    (h : Shape.Concatenates [S64000x3, S64000x9] S64000x12 1) (s : Fin 64000) (k : Fin 12) (hk : 3 ≤ k.val) :
    concatenate S64000x12 1 [⟨S64000x3, p⟩, ⟨S64000x9, q⟩] h (ix2 s k)
      = q (ix2 s ⟨k.val - 3, by have := k.isLt; omega⟩) := by
  refine concatenate_pair_apply_right 1 p q h (ix2 s k) rfl rfl (ix2 s ⟨k.val - 3, by have := k.isLt; omega⟩) ?_ ?_
  · intro c hc
    match c with
    | ⟨0, _⟩ => rfl
    | ⟨1, _⟩ => exact absurd rfl hc
  · show k.val - 3 + 3 = k.val
    omega

end Join

/-! ### Where the broadcasts and the reshape read

Row s of the [64000] divisor is what every column of row s of its [64000, 3] and [64000, 9] broadcasts reads; entry
(s, 3 i + j) of the reshaped [64000, 3, 3] product is entry (s, i, j), whose two factors are columns i and j of row s
of the mean. -/

theorem idx_div3 (s : Fin 64000) (i : Fin 3) : idx_main_v47 (idx_main_v48 (ix2 s i)) = ix1 s := by
  funext a
  match a with
  | ⟨0, _⟩ => rfl

theorem idx_div9 (s : Fin 64000) (c : Fin 9) : idx_main_v47 (idx_main_v50 (ix2 s c)) = ix1 s := by
  funext a
  match a with
  | ⟨0, _⟩ => rfl

theorem idx_row_factor (s : Fin 64000) (i j : Fin 3) (h : 3 * i.val + j.val < 9) :
    idx_main_v52 (idx_main_v54 (idx_main_v57 (ix2 s ⟨3 * i.val + j.val, h⟩))) = ix2 s i := by
  have hs := s.isLt
  have hi := i.isLt
  have hj := j.isLt
  funext a
  match a with
  | ⟨0, _⟩ => exact Fin.ext (show (s.val * 9 + (3 * i.val + j.val)) / 9 = s.val by omega)
  | ⟨1, _⟩ => exact Fin.ext (show (s.val * 9 + (3 * i.val + j.val)) / 3 % 3 = i.val by omega)

theorem idx_col_factor (s : Fin 64000) (i j : Fin 3) (h : 3 * i.val + j.val < 9) :
    idx_main_v53 (idx_main_v55 (idx_main_v57 (ix2 s ⟨3 * i.val + j.val, h⟩))) = ix2 s j := by
  have hs := s.isLt
  have hi := i.isLt
  have hj := j.isLt
  funext a
  match a with
  | ⟨0, _⟩ => exact Fin.ext (show (s.val * 9 + (3 * i.val + j.val)) / 9 = s.val by omega)
  | ⟨1, _⟩ => exact Fin.ext (show (s.val * 9 + (3 * i.val + j.val)) % 3 = j.val by omega)

/-! ### The table's rows from the three arrays of sums -/

variable (x : (⟨S8x262144x3, .f32⟩ : BufTy).Contents (Elt Ideal))

/-- The divisor of row s: the count, or one where the count is smaller. -/
theorem div_row (s : Fin 64000) :
    val_main_v46 (F := Ideal) x (ix1 s) = max (val_main_v32 (F := Ideal) x (ix1 s) : EReal) 1 := by
  rw [val_main_v46_apply, val_main_v45_apply, val_main_cst_9_apply, Ideal.ofBits_def, Ideal.ofBits_one_f32]
  rfl

/-- The mean of coordinate i in row s: the sum over the divisor. -/
theorem mean_row (s : Fin 64000) (i : Fin 3) :
    val_main_v49 (F := Ideal) x (ix2 s i)
      = Ideal.div (val_main_v35 (F := Ideal) x (ix2 s i)) (max (val_main_v32 (F := Ideal) x (ix1 s) : EReal) 1) := by
  rw [val_main_v49_apply, val_main_v48_apply, val_main_v47_apply, idx_div3, div_row]
  rfl

/-- The second central moment of coordinates i, j in row s: the sum of products over the divisor, less the product of
    the two means. -/
theorem mom_row (s : Fin 64000) (i j : Fin 3) (h : 3 * i.val + j.val < 9) :
    val_main_v58 (F := Ideal) x (ix2 s ⟨3 * i.val + j.val, h⟩)
      = Ideal.div (val_main_v44 (F := Ideal) x (ix2 s ⟨3 * i.val + j.val, h⟩))
            (max (val_main_v32 (F := Ideal) x (ix1 s) : EReal) 1)
          - (val_main_v49 (F := Ideal) x (ix2 s i) : EReal) * val_main_v49 (F := Ideal) x (ix2 s j) := by
  rw [val_main_v58_apply, val_main_v51_apply, val_main_v50_apply, val_main_v47_apply, idx_div9, div_row,
    val_main_v57_apply, val_main_v56_apply, val_main_v54_apply, val_main_v52_apply, idx_row_factor,
    val_main_v55_apply, val_main_v53_apply, idx_col_factor]
  rfl

/-- Row s of the joined table: the three means, then the nine moments row by row. -/
theorem tab_fst (s : Fin 64000) (k : Fin 12) (hk : k.val < 3) :
    val_main_v59 (F := Ideal) x (ix2 s k) = val_main_v49 (F := Ideal) x (ix2 s ⟨k.val, hk⟩) := by
  unfold val_main_v59
  exact join_fst _ _ _ s k hk

theorem tab_snd (s : Fin 64000) (k : Fin 12) (hk : 3 ≤ k.val) :
    val_main_v59 (F := Ideal) x (ix2 s k)
      = val_main_v58 (F := Ideal) x (ix2 s ⟨k.val - 3, by have := k.isLt; omega⟩) := by
  unfold val_main_v59
  exact join_snd _ _ _ s k hk

/-- The table at the row of cloud b and voxel v is the specification's twelve numbers of that voxel, given that the
    three arrays of sums hold there the specification's count, sums and sums of products. -/
theorem rtab_apply_of (b : Fin 8) (v : Fin 8000) (k : Fin 12) (hs : 8000 * b.val + v.val < 64000)
    (hcnt : val_main_v32 (F := Ideal) x (ix1 ⟨8000 * b.val + v.val, hs⟩) = Cert.Voxel.cnt x b (BitVec.ofNat 32 v.val))
    (hs1 : ∀ i : Fin 3, val_main_v35 (F := Ideal) x (ix2 ⟨8000 * b.val + v.val, hs⟩ i)
        = Cert.Voxel.s1 x b (BitVec.ofNat 32 v.val) i)
    (hs2 : ∀ (i j : Fin 3) (h : 3 * i.val + j.val < 9),
        val_main_v44 (F := Ideal) x (ix2 ⟨8000 * b.val + v.val, hs⟩ ⟨3 * i.val + j.val, h⟩)
          = Cert.Voxel.s2 x b (BitVec.ofNat 32 v.val) i j) :
    val_main_v59 (F := Ideal) x (ix2 ⟨8000 * b.val + v.val, hs⟩ k) = Cert.Voxel.dist x b (BitVec.ofNat 32 v.val) k := by
  have hmean : ∀ i : Fin 3, val_main_v49 (F := Ideal) x (ix2 ⟨8000 * b.val + v.val, hs⟩ i)
      = Cert.Voxel.mean x b (BitVec.ofNat 32 v.val) i := by
    intro i
    rw [mean_row, hcnt, hs1]
    rfl
  unfold Cert.Voxel.dist
  by_cases hk : k.val < 3
  · rw [dif_pos hk, tab_fst x _ k hk, hmean]
  · rw [dif_neg hk]
    have hk3 : 3 ≤ k.val := Nat.le_of_not_lt hk
    have hkl := k.isLt
    have hq : (k.val - 3) / 3 < 3 := by omega
    have hr : (k.val - 3) % 3 < 3 := Nat.mod_lt _ (by decide)
    have he : k.val - 3 = 3 * (⟨(k.val - 3) / 3, hq⟩ : Fin 3).val + (⟨(k.val - 3) % 3, hr⟩ : Fin 3).val := by
      show k.val - 3 = 3 * ((k.val - 3) / 3) + (k.val - 3) % 3
      omega
    have hcol : (⟨k.val - 3, by omega⟩ : Fin 9)
        = ⟨3 * (⟨(k.val - 3) / 3, hq⟩ : Fin 3).val + (⟨(k.val - 3) % 3, hr⟩ : Fin 3).val, by
            show 3 * ((k.val - 3) / 3) + (k.val - 3) % 3 < 9; omega⟩ := Fin.ext he
    rw [tab_snd x _ k hk3, hcol, mom_row, hcnt, hs2, hmean, hmean]
    rfl

end Cert.ReferenceIdeal.HandV

end
-- ==== Proof.Ref.Tail.lean ====
/-
  The end of the reference at an index. The sampled points' cells are the specification's cells of the points against
  the cloud's minimum corner; the four index words of the final gather are the cloud's number and the three cells, none
  of them negative and each inside its axis, so neither the shift of negative indices nor the gather's clamp moves them;
  the gather of the table reshaped to [8, 20, 20, 20, 12] at (cloud, c₀, c₁, c₂, ·) reads row
  8000 · cloud + (c₀ · 20 + c₁) · 20 + c₂ of the table [64000, 12], which holds the twelve numbers of that voxel.
-/
import proofs.«157393_j34419867910943_1_alg».proof.Proof.RefRead
import proofs.«157393_j34419867910943_1_alg».proof.Proof.SpecFacts
import proofs.«157393_j34419867910943_1_alg».proof.Proof.LibRowDims
import proofs.«157393_j34419867910943_1_alg».proof.Proof.Ref.Seg
import Idealize.ShloMosaic.PureOps.Ideal
import Idealize.ShloMosaic.Lib.ValueIdx
import Idealize.ShloMosaic.Lib.Pipeline.Value

noncomputable section

namespace Cert.ReferenceIdeal.HandV

open Cert.ReferenceIdeal Cert.ReferenceIdeal.Gen Cert.ReferenceIdeal.ReadP Idealize.ShloMosaic Idealize.ShloMosaic.TcCoe
  Idealize.ShloMosaic.ValueIdx Idealize.ShloMosaic.RowDims

/-! ## A gather of whole rows of a rank-5 table at four start coordinates -/

/-- The dimension numbers of `T[i₀, i₁, i₂, i₃, :]` for a table `[N₀, N₁, N₂, N₃, C]`, start indices `[R₀, R₁, 4]` and a
    result `[R₀, R₁, C]`. -/
abbrev cellGather (N0 N1 N2 N3 C R0 R1 : Nat)
    (wf : GatherDims.WF ⟨5, ![N0, N1, N2, N3, C]⟩ ⟨3, ![R0, R1, 4]⟩ ⟨3, ![R0, R1, C]⟩ [2] [0, 1, 2, 3] [] [0, 1, 2, 3] [] 2
      ![1, 1, 1, 1, C]) :
    GatherDims ⟨5, ![N0, N1, N2, N3, C]⟩ ⟨3, ![R0, R1, 4]⟩ ⟨3, ![R0, R1, C]⟩ where
  offsetDims := [2]
  collapsedSliceDims := [0, 1, 2, 3]
  operandBatchingDims := []
  startIndicesBatchingDims := []
  startIndexMap := [0, 1, 2, 3]
  indexVectorDim := 2
  sliceSizes := ![1, 1, 1, 1, C]
  wf := wf

section
variable {N0 N1 N2 N3 C R0 R1 : Nat}
  (wf : GatherDims.WF ⟨5, ![N0, N1, N2, N3, C]⟩ ⟨3, ![R0, R1, 4]⟩ ⟨3, ![R0, R1, C]⟩ [2] [0, 1, 2, 3] [] [0, 1, 2, 3] [] 2
      ![1, 1, 1, 1, C])

/-- The result entry `(b, m, k)` reads component `c` of its start index at `(b, m, c)` of the start indices. -/
theorem cellGather_siIdx (b : Fin R0) (m : Fin R1) (k : Fin C) (c : Fin 4) :
    (cellGather N0 N1 N2 N3 C R0 R1 wf).siIdx (ix3 b m k) c = ix3 b m c := by
  funext a; refine Fin.ext ?_
  match a with
  | ⟨0, _⟩ => rfl
  | ⟨1, _⟩ => rfl
  | ⟨2, _⟩ => rfl

/-- On table axis 0 (collapsed, named by the start index map) the operand index is the clamped start alone. -/
theorem cellGather_operandIdx_0 {w : Nat} (h0 : 0 < N0) (idx : IVec ⟨3, ![R0, R1, 4]⟩ w) (b : Fin R0) (m : Fin R1) (k : Fin C) :
    ((cellGather N0 N1 N2 N3 C R0 R1 wf).operandIdx (ix3 b m k) idx 0).val = (clampRow N0 h0 (idx (ix3 b m 0))).val := by
  show (cellGather N0 N1 N2 N3 C R0 R1 wf).start (ix3 b m k) idx 0 + (cellGather N0 N1 N2 N3 C R0 R1 wf).batchCoord (ix3 b m k) 0
    + (cellGather N0 N1 N2 N3 C R0 R1 wf).offCoord (ix3 b m k) 0 = _
  rw [GatherDims.batchCoord_eq_zero _ _ _ List.not_mem_nil,
    GatherDims.offCoord_eq_zero _ _ _ (fun h => ((GatherDims.mem_sKept _ _).mp h).1 (show (0 : Fin 5) ∈ ([0, 1, 2, 3] : List (Fin 5)) by decide))]
  simp only [Nat.add_zero]
  unfold GatherDims.start
  rw [dif_pos (show (0 : Fin 5) ∈ ([0, 1, 2, 3] : List (Fin 5)) by decide)]
  rw [cellGather_siIdx wf b m k]
  rfl

/-- On table axis 1 (collapsed, named by the start index map) the operand index is the clamped start alone. -/
theorem cellGather_operandIdx_1 {w : Nat} (h1 : 0 < N1) (idx : IVec ⟨3, ![R0, R1, 4]⟩ w) (b : Fin R0) (m : Fin R1) (k : Fin C) :
    ((cellGather N0 N1 N2 N3 C R0 R1 wf).operandIdx (ix3 b m k) idx 1).val = (clampRow N1 h1 (idx (ix3 b m 1))).val := by
  show (cellGather N0 N1 N2 N3 C R0 R1 wf).start (ix3 b m k) idx 1 + (cellGather N0 N1 N2 N3 C R0 R1 wf).batchCoord (ix3 b m k) 1
    + (cellGather N0 N1 N2 N3 C R0 R1 wf).offCoord (ix3 b m k) 1 = _
  rw [GatherDims.batchCoord_eq_zero _ _ _ List.not_mem_nil,
    GatherDims.offCoord_eq_zero _ _ _ (fun h => ((GatherDims.mem_sKept _ _).mp h).1 (show (1 : Fin 5) ∈ ([0, 1, 2, 3] : List (Fin 5)) by decide))]
  simp only [Nat.add_zero]
  unfold GatherDims.start
  rw [dif_pos (show (1 : Fin 5) ∈ ([0, 1, 2, 3] : List (Fin 5)) by decide)]
  rw [cellGather_siIdx wf b m k]
  rfl

/-- On table axis 2 (collapsed, named by the start index map) the operand index is the clamped start alone. -/
theorem cellGather_operandIdx_2 {w : Nat} (h2 : 0 < N2) (idx : IVec ⟨3, ![R0, R1, 4]⟩ w) (b : Fin R0) (m : Fin R1) (k : Fin C) :
    ((cellGather N0 N1 N2 N3 C R0 R1 wf).operandIdx (ix3 b m k) idx 2).val = (clampRow N2 h2 (idx (ix3 b m 2))).val := by
  show (cellGather N0 N1 N2 N3 C R0 R1 wf).start (ix3 b m k) idx 2 + (cellGather N0 N1 N2 N3 C R0 R1 wf).batchCoord (ix3 b m k) 2
    + (cellGather N0 N1 N2 N3 C R0 R1 wf).offCoord (ix3 b m k) 2 = _
  rw [GatherDims.batchCoord_eq_zero _ _ _ List.not_mem_nil,
    GatherDims.offCoord_eq_zero _ _ _ (fun h => ((GatherDims.mem_sKept _ _).mp h).1 (show (2 : Fin 5) ∈ ([0, 1, 2, 3] : List (Fin 5)) by decide))]
  simp only [Nat.add_zero]
  unfold GatherDims.start
  rw [dif_pos (show (2 : Fin 5) ∈ ([0, 1, 2, 3] : List (Fin 5)) by decide)]
  rw [cellGather_siIdx wf b m k]
  rfl

/-- On table axis 3 (collapsed, named by the start index map) the operand index is the clamped start alone. -/
theorem cellGather_operandIdx_3 {w : Nat} (h3 : 0 < N3) (idx : IVec ⟨3, ![R0, R1, 4]⟩ w) (b : Fin R0) (m : Fin R1) (k : Fin C) :
    ((cellGather N0 N1 N2 N3 C R0 R1 wf).operandIdx (ix3 b m k) idx 3).val = (clampRow N3 h3 (idx (ix3 b m 3))).val := by
  show (cellGather N0 N1 N2 N3 C R0 R1 wf).start (ix3 b m k) idx 3 + (cellGather N0 N1 N2 N3 C R0 R1 wf).batchCoord (ix3 b m k) 3
    + (cellGather N0 N1 N2 N3 C R0 R1 wf).offCoord (ix3 b m k) 3 = _
  rw [GatherDims.batchCoord_eq_zero _ _ _ List.not_mem_nil,
    GatherDims.offCoord_eq_zero _ _ _ (fun h => ((GatherDims.mem_sKept _ _).mp h).1 (show (3 : Fin 5) ∈ ([0, 1, 2, 3] : List (Fin 5)) by decide))]
  simp only [Nat.add_zero]
  unfold GatherDims.start
  rw [dif_pos (show (3 : Fin 5) ∈ ([0, 1, 2, 3] : List (Fin 5)) by decide)]
  rw [cellGather_siIdx wf b m k]
  rfl

/-- On the table's last axis (the offset axis, not named by the start index map) the operand index is the result's last
    coordinate. -/
theorem cellGather_operandIdx_4 {w : Nat} (idx : IVec ⟨3, ![R0, R1, 4]⟩ w) (b : Fin R0) (m : Fin R1) (k : Fin C) :
    ((cellGather N0 N1 N2 N3 C R0 R1 wf).operandIdx (ix3 b m k) idx 4).val = k.val := by
  show (cellGather N0 N1 N2 N3 C R0 R1 wf).start (ix3 b m k) idx 4 + (cellGather N0 N1 N2 N3 C R0 R1 wf).batchCoord (ix3 b m k) 4
    + (cellGather N0 N1 N2 N3 C R0 R1 wf).offCoord (ix3 b m k) 4 = _
  rw [GatherDims.batchCoord_eq_zero _ _ _ List.not_mem_nil]
  unfold GatherDims.start
  rw [dif_neg (show ¬ (4 : Fin 5) ∈ ([0, 1, 2, 3] : List (Fin 5)) by decide)]
  simp only [Nat.add_zero, Nat.zero_add]
  rfl

/-- The gather read at `(b, m, k)`: the table at the four start coordinates `idx (b, m, ·)`, each read signed and clamped
    into its axis, and at `k` on the last axis. -/
theorem cellGather_apply {α : Type} {w : Nat} (h0 : 0 < N0) (h1 : 0 < N1) (h2 : 0 < N2) (h3 : 0 < N3)
    (x : (⟨5, ![N0, N1, N2, N3, C]⟩ : Shape).Idx → α) (idx : IVec ⟨3, ![R0, R1, 4]⟩ w) (b : Fin R0) (m : Fin R1) (k : Fin C) :
    Host.gather (cellGather N0 N1 N2 N3 C R0 R1 wf) x idx (ix3 b m k)
      = x (ix5 (clampRow N0 h0 (idx (ix3 b m 0))) (clampRow N1 h1 (idx (ix3 b m 1))) (clampRow N2 h2 (idx (ix3 b m 2)))
          (clampRow N3 h3 (idx (ix3 b m 3))) k) := by
  unfold Host.gather
  congr 1
  funext a
  refine Fin.ext ?_
  match a with
  | ⟨0, _⟩ => exact cellGather_operandIdx_0 wf h0 idx b m k
  | ⟨1, _⟩ => exact cellGather_operandIdx_1 wf h1 idx b m k
  | ⟨2, _⟩ => exact cellGather_operandIdx_2 wf h2 idx b m k
  | ⟨3, _⟩ => exact cellGather_operandIdx_3 wf h3 idx b m k
  | ⟨4, _⟩ => exact cellGather_operandIdx_4 wf idx b m k

end

/-! ## A join of four unit-extent pieces along the last axis, read at an index -/

/-- Four pieces `[R₀, R₁, 1]`, in order. -/
abbrev four {α : Type} {R0 R1 : Nat} (y0 y1 y2 y3 : (⟨3, ![R0, R1, 1]⟩ : Shape).Idx → α) : List ((s : Shape) × (s.Idx → α)) :=
  [⟨⟨3, ![R0, R1, 1]⟩, y0⟩, ⟨⟨3, ![R0, R1, 1]⟩, y1⟩, ⟨⟨3, ![R0, R1, 1]⟩, y2⟩, ⟨⟨3, ![R0, R1, 1]⟩, y3⟩]

section
variable {α : Type} {R0 R1 : Nat} (y0 y1 y2 y3 : (⟨3, ![R0, R1, 1]⟩ : Shape).Idx → α)
  (h : Shape.Concatenates ((four y0 y1 y2 y3).map (·.1)) ⟨3, ![R0, R1, 4]⟩ 2)

/-- Coordinate 0 of the joined axis reads the first piece. -/
theorem join4_apply_0 (b : Fin R0) (m : Fin R1) :
    concatenate ⟨3, ![R0, R1, 4]⟩ 2 (four y0 y1 y2 y3) h (ix3 b m 0) = y0 (ix3 b m 0) := by
  refine concatenate_apply_piece (t := ⟨3, ![R0, R1, 4]⟩) (2 : Fin 3) (four y0 y1 y2 y3) h (ix3 b m 0) 0
    (by show (0 : Nat) < 4; omega) ⟨3, ![R0, R1, 1]⟩ y0 rfl rfl 0 rfl (ix3 b m 0) ?_ rfl
  intro a ha
  match a with
  | ⟨0, _⟩ => rfl
  | ⟨1, _⟩ => rfl
  | ⟨2, _⟩ => exact absurd (Fin.ext rfl) ha

/-- Coordinate 1 of the joined axis reads the second piece. -/
theorem join4_apply_1 (b : Fin R0) (m : Fin R1) :
    concatenate ⟨3, ![R0, R1, 4]⟩ 2 (four y0 y1 y2 y3) h (ix3 b m 1) = y1 (ix3 b m 0) := by
  refine concatenate_apply_piece (t := ⟨3, ![R0, R1, 4]⟩) (2 : Fin 3) (four y0 y1 y2 y3) h (ix3 b m 1) 1
    (by show (1 : Nat) < 4; omega) ⟨3, ![R0, R1, 1]⟩ y1 rfl rfl 1 rfl (ix3 b m 0) ?_ rfl
  intro a ha
  match a with
  | ⟨0, _⟩ => rfl
  | ⟨1, _⟩ => rfl
  | ⟨2, _⟩ => exact absurd (Fin.ext rfl) ha

/-- Coordinate 2 of the joined axis reads the third piece. -/
theorem join4_apply_2 (b : Fin R0) (m : Fin R1) :
    concatenate ⟨3, ![R0, R1, 4]⟩ 2 (four y0 y1 y2 y3) h (ix3 b m 2) = y2 (ix3 b m 0) := by
  refine concatenate_apply_piece (t := ⟨3, ![R0, R1, 4]⟩) (2 : Fin 3) (four y0 y1 y2 y3) h (ix3 b m 2) 2
    (by show (2 : Nat) < 4; omega) ⟨3, ![R0, R1, 1]⟩ y2 rfl rfl 2 rfl (ix3 b m 0) ?_ rfl
  intro a ha
  match a with
  | ⟨0, _⟩ => rfl
  | ⟨1, _⟩ => rfl
  | ⟨2, _⟩ => exact absurd (Fin.ext rfl) ha

/-- Coordinate 3 of the joined axis reads the fourth piece. -/
theorem join4_apply_3 (b : Fin R0) (m : Fin R1) :
    concatenate ⟨3, ![R0, R1, 4]⟩ 2 (four y0 y1 y2 y3) h (ix3 b m 3) = y3 (ix3 b m 0) := by
  refine concatenate_apply_piece (t := ⟨3, ![R0, R1, 4]⟩) (2 : Fin 3) (four y0 y1 y2 y3) h (ix3 b m 3) 3
    (by show (3 : Nat) < 4; omega) ⟨3, ![R0, R1, 1]⟩ y3 rfl rfl 3 rfl (ix3 b m 0) ?_ rfl
  intro a ha
  match a with
  | ⟨0, _⟩ => rfl
  | ⟨1, _⟩ => rfl
  | ⟨2, _⟩ => exact absurd (Fin.ext rfl) ha

end

/-! ## Words: an index that is not negative is not shifted, and one inside its axis is not clamped -/

/-- A word below 2³¹ is its own value read signed. -/
private theorem toInt_of_small (w : BitVec 32) (hw : w.toNat < 2 ^ 31) : w.toInt = (w.toNat : ℤ) := by
  have e := BitVec.toInt_eq_toNat_cond w
  split at e <;> omega

/-- "If the index is negative add the extent": an index below 2³¹ is not negative and is kept. -/
private theorem norm_small (w n : BitVec 32) (hw : w.toNat < 2 ^ 31) :
    Scalar.select (IntOp.cmpi .slt w 0#32) (IntOp.addi w n) w = w := by
  have hs : w.slt 0#32 = false := by
    rw [Bool.eq_false_iff]
    intro h
    rw [BitVec.slt_iff_toInt_lt, toInt_of_small w hw] at h
    have h0 : (0#32 : BitVec 32).toInt = 0 := by decide
    rw [h0] at h
    omega
  show Scalar.select (BitVec.ofBool (w.slt 0#32)) (IntOp.addi w n) w = w
  rw [hs]
  exact select_zero _ _

/-- A start index inside its axis is its own clamp. -/
theorem clampRow_small (N : Nat) (hN : 0 < N) (w : BitVec 32) (hw : w.toNat < N) (h31 : N ≤ 2 ^ 31) :
    (clampRow N hN w).val = w.toNat := by
  show min w.toInt.toNat (N - 1) = w.toNat
  rw [toInt_of_small w (by omega), Int.toNat_natCast]
  omega

/-! ## The cells of the sampled points -/

section
variable (x : (⟨S8x262144x3, .f32⟩ : BufTy).Contents (Elt Ideal)) (idx : (⟨S8x4096, .i32⟩ : BufTy).Contents (Elt Ideal))

/-- The corner broadcast over the sampled points is the cloud's minimum corner. -/
theorem v63_at (hmin : ∀ (b : Fin 8) (j : Fin 3), val_main_v0 (F := Ideal) x (ix2 b j) = Cert.Voxel.minc x b j)
    (b : Fin 8) (m : Fin 4096) (j : Fin 3) :
    val_main_v63 (F := Ideal) x (ix3 b m j) = Cert.Voxel.minc x b j := by
  rw [val_main_v63_apply, val_main_v1_apply]
  have e : idx_main_v1 (idx_main_v63 (ix3 b m j)) = ix2 b j := by
    funext a
    match a with
    | ⟨0, _⟩ => rfl
    | ⟨1, _⟩ => rfl
  rw [e, hmin]

/-- The cell word of a sampled point along an axis is the specification's cell of its displacement from the corner. -/
theorem v69_at (hmin : ∀ (b : Fin 8) (j : Fin 3), val_main_v0 (F := Ideal) x (ix2 b j) = Cert.Voxel.minc x b j)
    (b : Fin 8) (m : Fin 4096) (j : Fin 3) :
    val_main_v69 (F := Ideal) x idx (ix3 b m j)
      = Cert.Voxel.cell (val_main_v62 (F := Ideal) x idx (ix3 b m j) - Cert.Voxel.minc x b j) := by
  rw [val_main_v69_apply, val_main_call2_v4_apply, val_main_call2_v3_apply, val_main_c_12_apply,
    val_main_call2_v2_apply, val_main_call2_v1_apply, val_main_call2_v0_apply, val_main_c_11_apply,
    val_main_v68_apply, val_main_v67_apply, val_main_v66_apply, val_main_v64_apply, val_main_v65_apply,
    val_main_cst_10_apply, v63_at x hmin]
  rfl

end

/-! ## The index words of the final gather -/

section
variable (x : (⟨S8x262144x3, .f32⟩ : BufTy).Contents (Elt Ideal)) (idx : (⟨S8x4096, .i32⟩ : BufTy).Contents (Elt Ideal))

/-- The first cell word as an array over the sampled points: the cell along axis 0. -/
theorem v73_at (b : Fin 8) (m : Fin 4096) :
    val_main_v73 (F := Ideal) x idx (ix2 b m) = val_main_v69 (F := Ideal) x idx (ix3 b m 0) := by
  rw [val_main_v73_apply, val_main_v72_apply]
  congr 1
  funext a
  refine Fin.ext ?_
  have hb := b.isLt
  have hm := m.isLt
  match a with
  | ⟨0, _⟩ => show (b.val * 4096 + m.val) / 4096 = b.val; omega
  | ⟨1, _⟩ => show (b.val * 4096 + m.val) / 1 % 4096 = m.val; omega
  | ⟨2, _⟩ => rfl

/-- The second cell word: the cell along axis 1. -/
theorem v75_at (b : Fin 8) (m : Fin 4096) :
    val_main_v75 (F := Ideal) x idx (ix2 b m) = val_main_v69 (F := Ideal) x idx (ix3 b m 1) := by
  rw [val_main_v75_apply, val_main_v74_apply]
  congr 1
  funext a
  refine Fin.ext ?_
  have hb := b.isLt
  have hm := m.isLt
  match a with
  | ⟨0, _⟩ => show (b.val * 4096 + m.val) / 4096 = b.val; omega
  | ⟨1, _⟩ => show (b.val * 4096 + m.val) / 1 % 4096 = m.val; omega
  | ⟨2, _⟩ => rfl

/-- The third cell word: the cell along axis 2. -/
theorem v77_at (b : Fin 8) (m : Fin 4096) :
    val_main_v77 (F := Ideal) x idx (ix2 b m) = val_main_v69 (F := Ideal) x idx (ix3 b m 2) := by
  rw [val_main_v77_apply, val_main_v76_apply]
  congr 1
  funext a
  refine Fin.ext ?_
  have hb := b.isLt
  have hm := m.isLt
  match a with
  | ⟨0, _⟩ => show (b.val * 4096 + m.val) / 4096 = b.val; omega
  | ⟨1, _⟩ => show (b.val * 4096 + m.val) / 1 % 4096 = m.val; omega
  | ⟨2, _⟩ => rfl

/-- The cloud word: the cloud's number, not negative, so not shifted. -/
theorem v99_at (b : Fin 8) (m : Fin 4096) :
    val_main_v99 (F := Ideal) (ix3 b m 0) = BitVec.ofNat 32 b.val := by
  rw [val_main_v99_apply, val_main_v98_apply, val_main_v82_apply, val_main_v79_apply, val_main_v81_apply,
    val_main_v78_apply, val_main_c_13_apply, val_main_v71_apply, val_main_v70_apply]
  have hb := b.isLt
  have e : ((idx_main_v71 (idx_main_v98 (idx_main_v99 (ix3 b m (0 : Fin 1))))) 0).val = b.val := rfl
  rw [e]
  refine norm_small _ _ ?_
  rw [BitVec.toNat_ofNat]
  omega

end

/-! ## The reference's result at an index -/

section
variable (x : (⟨S8x262144x3, .f32⟩ : BufTy).Contents (Elt Ideal)) (idx : (⟨S8x4096, .i32⟩ : BufTy).Contents (Elt Ideal))

/-- The table reshaped to `[8, 20, 20, 20, 12]` at `(b, c₀, c₁, c₂, k)` is row `8000 b + (c₀ · 20 + c₁) · 20 + c₂` of the
    table `[64000, 12]`, column `k`. -/
theorem v60_at (b : Fin 8) (c0 c1 c2 : Fin 20) (k : Fin 12)
    (hs : 8000 * b.val + ((c0.val * 20 + c1.val) * 20 + c2.val) < 64000) :
    val_main_v60 (F := Ideal) x (ix5 b c0 c1 c2 k)
      = val_main_v59 (F := Ideal) x (ix2 ⟨8000 * b.val + ((c0.val * 20 + c1.val) * 20 + c2.val), hs⟩ k) := by
  rw [val_main_v60_apply]
  congr 1
  funext a
  refine Fin.ext ?_
  have hb := b.isLt
  have h0 := c0.isLt
  have h1 := c1.isLt
  have h2 := c2.isLt
  have hk := k.isLt
  match a with
  | ⟨0, _⟩ =>
    show ((((b.val * 20 + c0.val) * 20 + c1.val) * 20 + c2.val) * 12 + k.val) / 12
      = 8000 * b.val + ((c0.val * 20 + c1.val) * 20 + c2.val)
    omega
  | ⟨1, _⟩ =>
    show ((((b.val * 20 + c0.val) * 20 + c1.val) * 20 + c2.val) * 12 + k.val) % 12 = k.val
    omega

/-- A cell word normalised as an index ("if negative add 20") is the cell word. -/
theorem cell_norm (hmin : ∀ (b : Fin 8) (j : Fin 3), val_main_v0 (F := Ideal) x (ix2 b j) = Cert.Voxel.minc x b j)
    (b : Fin 8) (m : Fin 4096) (j : Fin 3) (n : BitVec 32) :
    Scalar.select (IntOp.cmpi .slt (val_main_v69 (F := Ideal) x idx (ix3 b m j)) 0#32)
        (IntOp.addi (val_main_v69 (F := Ideal) x idx (ix3 b m j)) n) (val_main_v69 (F := Ideal) x idx (ix3 b m j))
      = Cert.Voxel.cell (val_main_v62 (F := Ideal) x idx (ix3 b m j) - Cert.Voxel.minc x b j) := by
  rw [v69_at x idx hmin]
  refine norm_small _ _ ?_
  have := Cert.Voxel.cell_toNat_le (val_main_v62 (F := Ideal) x idx (ix3 b m j) - Cert.Voxel.minc x b j)
  omega

/-- The start-indices index `(b, m)` under each of the three broadcasts to `[8, 4096, 1]`. -/
theorem idx100_at (b : Fin 8) (m : Fin 4096) : idx_main_v100 (ix3 b m (0 : Fin 1)) = ix2 b m := by
  funext a
  match a with
  | ⟨0, _⟩ => rfl
  | ⟨1, _⟩ => rfl

theorem idx101_at (b : Fin 8) (m : Fin 4096) : idx_main_v101 (ix3 b m (0 : Fin 1)) = ix2 b m := by
  funext a
  match a with
  | ⟨0, _⟩ => rfl
  | ⟨1, _⟩ => rfl

theorem idx102_at (b : Fin 8) (m : Fin 4096) : idx_main_v102 (ix3 b m (0 : Fin 1)) = ix2 b m := by
  funext a
  match a with
  | ⟨0, _⟩ => rfl
  | ⟨1, _⟩ => rfl

/-- The four index words of the gather at `(b, m)`: the cloud's number and the three cells of the sampled point. -/
theorem v103_at_0 (b : Fin 8) (m : Fin 4096) :
    val_main_v103 (F := Ideal) x idx (ix3 b m 0) = BitVec.ofNat 32 b.val := by
  unfold val_main_v103
  exact (join4_apply_0 _ _ _ _ _ b m).trans (v99_at b m)

theorem v103_at_1 (hmin : ∀ (b : Fin 8) (j : Fin 3), val_main_v0 (F := Ideal) x (ix2 b j) = Cert.Voxel.minc x b j)
    (b : Fin 8) (m : Fin 4096) :
    val_main_v103 (F := Ideal) x idx (ix3 b m 1)
      = Cert.Voxel.cell (val_main_v62 (F := Ideal) x idx (ix3 b m 0) - Cert.Voxel.minc x b 0) := by
  unfold val_main_v103
  refine (join4_apply_1 _ _ _ _ _ b m).trans ?_
  rw [val_main_v100_apply, val_main_v87_apply, val_main_v84_apply, val_main_v86_apply, val_main_v83_apply,
    val_main_c_15_apply, idx100_at, v73_at]
  exact cell_norm x idx hmin b m 0 _

theorem v103_at_2 (hmin : ∀ (b : Fin 8) (j : Fin 3), val_main_v0 (F := Ideal) x (ix2 b j) = Cert.Voxel.minc x b j)
    (b : Fin 8) (m : Fin 4096) :
    val_main_v103 (F := Ideal) x idx (ix3 b m 2)
      = Cert.Voxel.cell (val_main_v62 (F := Ideal) x idx (ix3 b m 1) - Cert.Voxel.minc x b 1) := by
  unfold val_main_v103
  refine (join4_apply_2 _ _ _ _ _ b m).trans ?_
  rw [val_main_v101_apply, val_main_v92_apply, val_main_v89_apply, val_main_v91_apply, val_main_v88_apply,
    val_main_c_17_apply, idx101_at, v75_at]
  exact cell_norm x idx hmin b m 1 _

theorem v103_at_3 (hmin : ∀ (b : Fin 8) (j : Fin 3), val_main_v0 (F := Ideal) x (ix2 b j) = Cert.Voxel.minc x b j)
    (b : Fin 8) (m : Fin 4096) :
    val_main_v103 (F := Ideal) x idx (ix3 b m 3)
      = Cert.Voxel.cell (val_main_v62 (F := Ideal) x idx (ix3 b m 2) - Cert.Voxel.minc x b 2) := by
  unfold val_main_v103
  refine (join4_apply_3 _ _ _ _ _ b m).trans ?_
  rw [val_main_v102_apply, val_main_v97_apply, val_main_v94_apply, val_main_v96_apply, val_main_v93_apply,
    val_main_c_19_apply, idx102_at, v77_at]
  exact cell_norm x idx hmin b m 2 _

/-- A cell as a coordinate of the voxel grid. -/
def cellFin (d : EReal) : Fin 20 := ⟨(Cert.Voxel.cell d).toNat, by have := Cert.Voxel.cell_toNat_le d; omega⟩

/-- A cell word as a start index is inside its axis: its clamp is the cell. -/
theorem clampRow_cell (d : EReal) : clampRow 20 (by decide) (Cert.Voxel.cell d) = cellFin d :=
  Fin.ext (clampRow_small 20 _ _ (by have := Cert.Voxel.cell_toNat_le d; omega) (by decide))

/-- The cloud word as a start index is inside its axis: its clamp is the cloud's number. -/
theorem clampRow_cloud (b : Fin 8) : clampRow 8 (by decide) (BitVec.ofNat 32 b.val) = b := by
  have hb := b.isLt
  have e : (BitVec.ofNat 32 b.val).toNat = b.val := by rw [BitVec.toNat_ofNat]; omega
  exact Fin.ext ((clampRow_small 8 _ _ (by omega) (by decide)).trans e)

/-- THE REFERENCE AT AN INDEX, from the minimum corner and the table of the voxels' twelve numbers. -/
theorem ref_apply_of
    (hmin : ∀ (b : Fin 8) (j : Fin 3), val_main_v0 (F := Ideal) x (ix2 b j) = Cert.Voxel.minc x b j)
    (htab : ∀ (b : Fin 8) (v : Fin 8000) (k : Fin 12) (hs : 8000 * b.val + v.val < 64000),
      val_main_v59 (F := Ideal) x (ix2 ⟨8000 * b.val + v.val, hs⟩ k) = Cert.Voxel.dist x b (BitVec.ofNat 32 v.val) k)
    (b : Fin 8) (m : Fin 4096) (k : Fin 12) :
    val_main_v104 (F := Ideal) x idx (ix3 b m k) = Cert.Voxel.G x (val_main_v62 (F := Ideal) x idx) (ix3 b m k) := by
  -- the gather reads the reshaped table at the four clamped index words, which are the cloud and the three cells
  have wf0 : GatherDims.WF ⟨5, ![8, 20, 20, 20, 12]⟩ ⟨3, ![8, 4096, 4]⟩ ⟨3, ![8, 4096, 12]⟩ [2] [0, 1, 2, 3] [] [0, 1, 2, 3] [] 2
      ![1, 1, 1, 1, 12] := gather_S8x20x20x20x12_S8x4096x4_S8x4096x12_2_0123_n_n_0123_2_111112.wf
  have hg : gather_S8x20x20x20x12_S8x4096x4_S8x4096x12_2_0123_n_n_0123_2_111112 = cellGather 8 20 20 20 12 8 4096 wf0 := rfl
  unfold val_main_v104
  rw [hg, cellGather_apply _ (by decide) (by decide) (by decide) (by decide), v103_at_0, v103_at_1 x idx hmin,
    v103_at_2 x idx hmin, v103_at_3 x idx hmin, clampRow_cloud, clampRow_cell, clampRow_cell, clampRow_cell]
  -- the reshape: that entry is a row of the table, and the row is the voxel's
  have c0 := Cert.Voxel.cell_toNat_le (val_main_v62 (F := Ideal) x idx (ix3 b m 0) - Cert.Voxel.minc x b 0)
  have c1 := Cert.Voxel.cell_toNat_le (val_main_v62 (F := Ideal) x idx (ix3 b m 1) - Cert.Voxel.minc x b 1)
  have c2 := Cert.Voxel.cell_toNat_le (val_main_v62 (F := Ideal) x idx (ix3 b m 2) - Cert.Voxel.minc x b 2)
  have hb := b.isLt
  rw [v60_at x b _ _ _ k (by show 8000 * b.val + (((Cert.Voxel.cell _).toNat * 20 + (Cert.Voxel.cell _).toNat) * 20 + (Cert.Voxel.cell _).toNat) < 64000; omega)]
  refine (htab b ⟨((Cert.Voxel.cell (val_main_v62 (F := Ideal) x idx (ix3 b m 0) - Cert.Voxel.minc x b 0)).toNat * 20
      + (Cert.Voxel.cell (val_main_v62 (F := Ideal) x idx (ix3 b m 1) - Cert.Voxel.minc x b 1)).toNat) * 20
      + (Cert.Voxel.cell (val_main_v62 (F := Ideal) x idx (ix3 b m 2) - Cert.Voxel.minc x b 2)).toNat, by omega⟩ k _).trans ?_
  -- the voxel word of the sampled point, as a number and back
  have e : BitVec.ofNat 32
      (((Cert.Voxel.cell (val_main_v62 (F := Ideal) x idx (ix3 b m 0) - Cert.Voxel.minc x b 0)).toNat * 20
      + (Cert.Voxel.cell (val_main_v62 (F := Ideal) x idx (ix3 b m 1) - Cert.Voxel.minc x b 1)).toNat) * 20
      + (Cert.Voxel.cell (val_main_v62 (F := Ideal) x idx (ix3 b m 2) - Cert.Voxel.minc x b 2)).toNat)
      = Cert.Voxel.flat (fun j => val_main_v62 (F := Ideal) x idx (ix3 b m j)) (Cert.Voxel.minc x b) :=
    (congrArg (BitVec.ofNat 32) (Cert.Voxel.flat_toNat (fun j => val_main_v62 (F := Ideal) x idx (ix3 b m j)) (Cert.Voxel.minc x b)).symm).trans
      (Cert.Voxel.ofNat_flat_toNat _ _)
  show Cert.Voxel.dist x b (BitVec.ofNat 32 _) k = _
  rw [e]
  rfl

end

section
variable (x : (⟨S8x262144x3, .f32⟩ : BufTy).Contents (Elt Ideal)) (idx : (⟨S8x4096, .i32⟩ : BufTy).Contents (Elt Ideal))

/-- The reference at an index, from the table of the voxels' twelve numbers alone: the minimum corner is the reduce's. -/
theorem ref_apply_of_tab
    (htab : ∀ (b : Fin 8) (v : Fin 8000) (k : Fin 12) (hs : 8000 * b.val + v.val < 64000),
      val_main_v59 (F := Ideal) x (ix2 ⟨8000 * b.val + v.val, hs⟩ k) = Cert.Voxel.dist x b (BitVec.ofNat 32 v.val) k)
    (b : Fin 8) (m : Fin 4096) (k : Fin 12) :
    val_main_v104 (F := Ideal) x idx (ix3 b m k) = Cert.Voxel.G x (val_main_v62 (F := Ideal) x idx) (ix3 b m k) :=
  ref_apply_of x idx (rmin_apply x) htab b m k

end

end Cert.ReferenceIdeal.HandV

end
-- ==== Proof.Ref.Close.lean ====
/-
  The reference's result at an index, free of hypotheses: the three segment sums give the per-segment table, the table
  gives the row the final gather reads.
-/
import proofs.«157393_j34419867910943_1_alg».proof.Proof.Ref.Sums
import proofs.«157393_j34419867910943_1_alg».proof.Proof.Ref.Tab
import proofs.«157393_j34419867910943_1_alg».proof.Proof.Ref.Tail

noncomputable section

namespace Cert.ReferenceIdeal.HandV

open Cert.ReferenceIdeal Cert.ReferenceIdeal.Gen Cert.ReferenceIdeal.ReadP Idealize.ShloMosaic Idealize.ShloMosaic.TcCoe Idealize.ShloMosaic.ValueIdx

/-- The table's row of segment `8000 · b + v`: the twelve numbers of voxel `v` of cloud `b`. -/
theorem rtab_apply (x : (⟨S8x262144x3, .f32⟩ : BufTy).Contents (Elt Ideal)) (b : Fin 8) (v : Fin 8000) (k : Fin 12) :
    val_main_v59 (F := Ideal) x (ix2 ⟨8000 * b.val + v.val, by omega⟩ k) = Cert.Voxel.dist x b (BitVec.ofNat 32 v.val) k :=
  rtab_apply_of x b v k _ (rcnt_apply x b v) (fun i => rs1_apply x b v i) (fun i j _ => rs2_apply x b v i j)

/-- The reference's result at `(b, m, k)`: number `k` of the voxel its sampled point `(b, m)` falls in. -/
theorem ref_apply (x : (⟨S8x262144x3, .f32⟩ : BufTy).Contents (Elt Ideal)) (idx : (⟨S8x4096, .i32⟩ : BufTy).Contents (Elt Ideal))
    (b : Fin 8) (m : Fin 4096) (k : Fin 12) :
    val_main_v104 (F := Ideal) x idx (ix3 b m k) = Cert.Voxel.G x (val_main_v62 (F := Ideal) x idx) (ix3 b m k) :=
  ref_apply_of_tab x idx (fun b v k _ => rtab_apply x b v k) b m k

end Cert.ReferenceIdeal.HandV

end
-- ==== Proof.lean ====
/-
  A voxelizer: for each of 8 point clouds of 262144 points, the coordinate-wise minimum corner; each point's voxel in a
  20 × 20 × 20 grid of spacing h from that corner; per voxel the count, the coordinate sums and the sums of coordinate
  products, hence the mean and the second central moments; and, for 4096 sampled points per cloud, the twelve numbers
  [mean, moments] of the voxel the sampled point falls in.

  The kernel program computes the minimum in one pallas_call (a running minimum over 32 row tiles per cloud) and the
  per-voxel sums in a second (per row tile a one-hot matrix of the rows' voxel words times the rows' ten features,
  accumulated over 128 tiles per cloud); the reference computes the sums by three scatter-adds over the segment word
  8000 · cloud + voxel. Over the extended reals a one-hot product sum IS the sum over the rows whose word is the
  column's, and the accumulation over tiles is the sum over all rows, so the two tables agree entry by entry. The kernel
  finds a point's cell by multiplying the displacement by a constant named "inv_voxel", which denotes 1/h exactly,
  where the reference divides by h: the same number. The kernel keeps six of the nine products and reads the other
  three at their transposes: multiplication commutes.

  The frames: each program runs to the end, faults nowhere and leaves its arguments as launched — the kernel programs'
  by the pipeline's launch theorem over the two regions' proof data and body obligations, the reference's by its run.
-/
import proofs.«157393_j34419867910943_1_alg».proof.Defs
import proofs.«157393_j34419867910943_1_alg».proof.Proof.Gen.Kernel
import proofs.«157393_j34419867910943_1_alg».proof.Proof.Gen.KernelIdeal
import proofs.«157393_j34419867910943_1_alg».proof.Proof.Gen.ReferenceIdeal
import proofs.«157393_j34419867910943_1_alg».proof.Proof.Gen.Pre_finite_inputs
import proofs.«157393_j34419867910943_1_alg».proof.Proof.K.Launch
import proofs.«157393_j34419867910943_1_alg».proof.Proof.KI.Value
import proofs.«157393_j34419867910943_1_alg».proof.Proof.Ref.Run
import proofs.«157393_j34419867910943_1_alg».proof.Proof.Ref.Close
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.ValueIdx Idealize.SL.Sem

/-- The sampled points are the same function of the cloud and the indices in both programs: the same operations
    (index shifted when negative, an in-range mask, a row gather, a select against the fill). -/
theorem sampled_eq (x : (⟨Cert.KernelIdeal.S8x262144x3, .f32⟩ : BufTy).Contents (Elt Ideal))
    (idx : (⟨Cert.KernelIdeal.S8x4096, .i32⟩ : BufTy).Contents (Elt Ideal)) :
    Cert.KernelIdeal.HandV.Tail.spK x idx = Cert.ReferenceIdeal.ReadP.val_main_v62 (F := Ideal) x idx := rfl

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandV.ref_run (F := Ideal) m ρ)

/-- The one rewrite of the ideal pass: the constant 20.0 of the histogram kernel is named "inv_voxel", and the table
    gives that name the value 268435456 / 13421773 = 1 / h. -/
theorem preserves : Cert.preserves_Kernel_KernelIdeal :=
  IdealRules.named_const.statement Cert.KernelIdeal.κ "inv_voxel" .f32 0x41A00000#32 ((268435456 / 13421773 : ℝ) : EReal) rfl

/-- Both programs end with the specification's function of the (agreeing) arguments in their result buffers. -/
theorem algebraic : Cert.algebraic_KernelIdeal_ReferenceIdeal := by
  intro m ρ m' ρ' _ hagree
  refine ⟨fun c => Cert.Voxel.G (m ((c.tc : Thread Cert.KernelIdeal.nD Cert.KernelIdeal.τ).loc Cert.KernelIdeal.main_arg0))
      (Cert.KernelIdeal.HandV.Tail.spK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v103 (by decide))).trans (Cert.KernelIdeal.HandV.result_eq m ρ c)
    · exact (h c _ (Cert.KernelIdeal.Hand.mem_uc Cert.KernelIdeal.main_arg0 (by decide))).trans (Cert.KernelIdeal.Hand.W8_main_arg0 m ρ c)
    · exact (h c _ (Cert.KernelIdeal.Hand.mem_uc Cert.KernelIdeal.main_arg1 (by decide))).trans (Cert.KernelIdeal.Hand.W8_main_arg1 m ρ c)
  · refine (θ_run Cert.ReferenceIdeal.defs _ _).mono (fun r h c => ⟨(h c).1.trans ?_, (h c).2⟩)
      (Cert.ReferenceIdeal.HandV.ref_run (F := Ideal) m' ρ')
    rw [(hagree c).1, (hagree c).2]
    funext i
    obtain ⟨b, s, k, rfl⟩ : ∃ (b : Fin 8) (s : Fin 4096) (k : Fin 12), i = ix3 b s k := ⟨i 0, i 1, i 2, eq_ix3 i⟩
    rw [Cert.ReferenceIdeal.HandV.ref_apply]
    show _ = Cert.Voxel.G _ (Cert.KernelIdeal.HandV.Tail.spK _ _) _
    rw [sampled_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
